-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x300 : Shape := ⟨2, ![4096, 300]⟩
abbrev S300x300 : Shape := ⟨2, ![300, 300]⟩
abbrev S300x1 : Shape := ⟨2, ![300, 1]⟩
abbrev S600x1 : Shape := ⟨2, ![600, 1]⟩
abbrev S600x300 : Shape := ⟨2, ![600, 300]⟩
abbrev S4096x4096 : Shape := ⟨2, ![4096, 4096]⟩
abbrev S64 : Shape := ⟨1, ![64]⟩
abbrev S_ : Shape := ⟨0, ![]⟩

class Facts : Prop where
  bcast_S_S4096x300 : S_.BroadcastsInDim S4096x300 (![] : Fin 0 → Fin S4096x300.rank)
  reducesTo_S4096x300_S_d0_1 : S4096x300.ReducesTo [0, 1] S_
  h_S_ : 0 < S_.numel
  bcast_S_S300x300 : S_.BroadcastsInDim S300x300 (![] : Fin 0 → Fin S300x300.rank)
  reducesTo_S300x300_S_d0_1 : S300x300.ReducesTo [0, 1] S_
  bcast_S_S300x1 : S_.BroadcastsInDim S300x1 (![] : Fin 0 → Fin S300x1.rank)
  reducesTo_S300x1_S_d0_1 : S300x1.ReducesTo [0, 1] S_
  bcast_S_S600x1 : S_.BroadcastsInDim S600x1 (![] : Fin 0 → Fin S600x1.rank)
  reducesTo_S600x1_S_d0_1 : S600x1.ReducesTo [0, 1] S_
  bcast_S_S600x300 : S_.BroadcastsInDim S600x300 (![] : Fin 0 → Fin S600x300.rank)
  reducesTo_S600x300_S_d0_1 : S600x300.ReducesTo [0, 1] S_

variable [Facts]

def fn_part2 {F : FTy → Type} [FloatOps F] (main_arg7 : FVec F S300x300 .f32) (main_arg8 : FVec F S600x1 .f32) (main_arg9 : FVec F S600x300 .f32) (main_v33 : IVec S_ 1) : IVec S_ 1 :=
  let main_v34 : FVec F S300x300 .f32 := Host.absf main_arg7
  let main_cst_12 : FVec F S_ .f32 := constant S_ .f32 0x7F800000#32
  let main_v35 : FVec F S300x300 .f32 := broadcastInDim S300x300 ![] bcast_S_S300x300 main_cst_12
  let main_v36 : IVec S300x300 1 := cmpf .olt main_v34 main_v35
  let main_c_13 : IVec S_ 1 := constantI S_ 1 1#1
  let main_v37 : IVec S_ 1 := (fun x v => Host.reduce IntOp.andi x v reducesTo_S300x300_S_d0_1 h_S_) main_v36 main_c_13
  let main_v38 : IVec S_ 1 := andi main_v33 main_v37
  let main_v39 : FVec F S600x1 .f32 := Host.absf main_arg8
  let main_cst_14 : FVec F S_ .f32 := constant S_ .f32 0x7F800000#32
  let main_v40 : FVec F S600x1 .f32 := broadcastInDim S600x1 ![] bcast_S_S600x1 main_cst_14
  let main_v41 : IVec S600x1 1 := cmpf .olt main_v39 main_v40
  let main_c_15 : IVec S_ 1 := constantI S_ 1 1#1
  let main_v42 : IVec S_ 1 := (fun x v => Host.reduce IntOp.andi x v reducesTo_S600x1_S_d0_1 h_S_) main_v41 main_c_15
  let main_v43 : IVec S_ 1 := andi main_v38 main_v42
  let main_v44 : FVec F S600x300 .f32 := Host.absf main_arg9
  let main_cst_16 : FVec F S_ .f32 := constant S_ .f32 0x7F800000#32
  let main_v45 : FVec F S600x300 .f32 := broadcastInDim S600x300 ![] bcast_S_S600x300 main_cst_16
  let main_v46 : IVec S600x300 1 := cmpf .olt main_v44 main_v45
  let main_c_17 : IVec S_ 1 := constantI S_ 1 1#1
  let main_v47 : IVec S_ 1 := (fun x v => Host.reduce IntOp.andi x v reducesTo_S600x300_S_d0_1 h_S_) main_v46 main_c_17
  let main_v48 : IVec S_ 1 := andi main_v43 main_v47
  main_v48

def fn_part1 {F : FTy → Type} [FloatOps F] (main_arg4 : FVec F S300x300 .f32) (main_arg5 : FVec F S600x1 .f32) (main_arg6 : FVec F S600x300 .f32) (main_arg7 : FVec F S300x300 .f32) (main_arg8 : FVec F S600x1 .f32) (main_arg9 : FVec F S600x300 .f32) (main_v13 : IVec S_ 1) (main_v16 : IVec S300x1 1) : IVec S_ 1 :=
  let main_c_5 : IVec S_ 1 := constantI S_ 1 1#1
  let main_v17 : IVec S_ 1 := (fun x v => Host.reduce IntOp.andi x v reducesTo_S300x1_S_d0_1 h_S_) main_v16 main_c_5
  let main_v18 : IVec S_ 1 := andi main_v13 main_v17
  let main_v19 : FVec F S300x300 .f32 := Host.absf main_arg4
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S600x1 .f32 := Host.absf main_arg5
  let main_cst_8 : FVec F S_ .f32 := constant S_ .f32 0x7F800000#32
  let main_v25 : FVec F S600x1 .f32 := broadcastInDim S600x1 ![] bcast_S_S600x1 main_cst_8
  let main_v26 : IVec S600x1 1 := cmpf .olt main_v24 main_v25
  let main_c_9 : IVec S_ 1 := constantI S_ 1 1#1
  let main_v27 : IVec S_ 1 := (fun x v => Host.reduce IntOp.andi x v reducesTo_S600x1_S_d0_1 h_S_) main_v26 main_c_9
  let main_v28 : IVec S_ 1 := andi main_v23 main_v27
  let main_v29 : FVec F S600x300 .f32 := Host.absf main_arg6
  let main_cst_10 : FVec F S_ .f32 := constant S_ .f32 0x7F800000#32
  let main_v30 : FVec F S600x300 .f32 := broadcastInDim S600x300 ![] bcast_S_S600x300 main_cst_10
  let main_v31 : IVec S600x300 1 := cmpf .olt main_v29 main_v30
  let main_c_11 : IVec S_ 1 := constantI S_ 1 1#1
  let main_v32 : IVec S_ 1 := (fun x v => Host.reduce IntOp.andi x v reducesTo_S600x300_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x300 .f32) (main_arg1 : FVec F S300x300 .f32) (main_arg2 : FVec F S300x1 .f32) (main_arg3 : FVec F S300x1 .f32) (main_arg4 : FVec F S300x300 .f32) (main_arg5 : FVec F S600x1 .f32) (main_arg6 : FVec F S600x300 .f32) (main_arg7 : FVec F S300x300 .f32) (main_arg8 : FVec F S600x1 .f32) (main_arg9 : FVec F S600x300 .f32) (main_arg10 : IVec S4096x4096 32) (main_arg11 : IVec S64 32) : IVec S_ 1 :=
  let main_v0 : FVec F S4096x300 .f32 := Host.absf main_arg0
  let main_cst : FVec F S_ .f32 := constant S_ .f32 0x7F800000#32
  let main_v1 : FVec F S4096x300 .f32 := broadcastInDim S4096x300 ![] bcast_S_S4096x300 main_cst
  let main_v2 : IVec S4096x300 1 := cmpf .olt main_v0 main_v1
  let main_c : IVec S_ 1 := constantI S_ 1 1#1
  let main_v3 : IVec S_ 1 := (fun x v => Host.reduce IntOp.andi x v reducesTo_S4096x300_S_d0_1 h_S_) main_v2 main_c
  let main_v4 : FVec F S300x300 .f32 := Host.absf main_arg1
  let main_cst_0 : FVec F S_ .f32 := constant S_ .f32 0x7F800000#32
  let main_v5 : FVec F S300x300 .f32 := broadcastInDim S300x300 ![] bcast_S_S300x300 main_cst_0
  let main_v6 : IVec S300x300 1 := cmpf .olt main_v4 main_v5
  let main_c_1 : IVec S_ 1 := constantI S_ 1 1#1
  let main_v7 : IVec S_ 1 := (fun x v => Host.reduce IntOp.andi x v reducesTo_S300x300_S_d0_1 h_S_) main_v6 main_c_1
  let main_v8 : IVec S_ 1 := andi main_v3 main_v7
  let main_v9 : FVec F S300x1 .f32 := Host.absf main_arg2
  let main_cst_2 : FVec F S_ .f32 := constant S_ .f32 0x7F800000#32
  let main_v10 : FVec F S300x1 .f32 := broadcastInDim S300x1 ![] bcast_S_S300x1 main_cst_2
  let main_v11 : IVec S300x1 1 := cmpf .olt main_v9 main_v10
  let main_c_3 : IVec S_ 1 := constantI S_ 1 1#1
  let main_v12 : IVec S_ 1 := (fun x v => Host.reduce IntOp.andi x v reducesTo_S300x1_S_d0_1 h_S_) main_v11 main_c_3
  let main_v13 : IVec S_ 1 := andi main_v8 main_v12
  let main_v14 : FVec F S300x1 .f32 := Host.absf main_arg3
  let main_cst_4 : FVec F S_ .f32 := constant S_ .f32 0x7F800000#32
  let main_v15 : FVec F S300x1 .f32 := broadcastInDim S300x1 ![] bcast_S_S300x1 main_cst_4
  let main_v16 : IVec S300x1 1 := cmpf .olt main_v14 main_v15
  fn_part1 (F := F) main_arg4 main_arg5 main_arg6 main_arg7 main_arg8 main_arg9 main_v13 main_v16
-- ==== Kernel.lean ====
abbrev S4096x300 : Shape := ⟨2, ![4096, 300]⟩
abbrev S300x300 : Shape := ⟨2, ![300, 300]⟩
abbrev S300x1 : Shape := ⟨2, ![300, 1]⟩
abbrev S600x1 : Shape := ⟨2, ![600, 1]⟩
abbrev S600x300 : Shape := ⟨2, ![600, 300]⟩
abbrev S4096x4096 : Shape := ⟨2, ![4096, 4096]⟩
abbrev S64 : Shape := ⟨1, ![64]⟩
abbrev S4096x1 : Shape := ⟨2, ![4096, 1]⟩
abbrev S4096x2 : Shape := ⟨2, ![4096, 2]⟩
abbrev S300x2 : Shape := ⟨2, ![300, 2]⟩
abbrev S1x4096 : Shape := ⟨2, ![1, 4096]⟩
abbrev S128x1 : Shape := ⟨2, ![128, 1]⟩
abbrev S128x4096 : Shape := ⟨2, ![128, 4096]⟩
abbrev S128x300 : Shape := ⟨2, ![128, 300]⟩
abbrev S128 : Shape := ⟨1, ![128]⟩
abbrev S_ : Shape := ⟨0, ![]⟩
abbrev S64x1 : Shape := ⟨2, ![64, 1]⟩
abbrev S64x2 : Shape := ⟨2, ![64, 2]⟩
abbrev S64x4096 : Shape := ⟨2, ![64, 4096]⟩
abbrev S64x300 : Shape := ⟨2, ![64, 300]⟩

abbrev nBuf : Space → Nat
  | .hbm => 75
  | .vmem => 22
  | .smem => 0
  | _ => 0

abbrev bufTy : (tb : Table) → Fin (tcTables nBuf tb) → BufTy
  | .hbm, ⟨0, _⟩ => ⟨S4096x300, .f32⟩
  | .hbm, ⟨1, _⟩ => ⟨S300x300, .f32⟩
  | .hbm, ⟨2, _⟩ => ⟨S300x1, .f32⟩
  | .hbm, ⟨3, _⟩ => ⟨S300x1, .f32⟩
  | .hbm, ⟨4, _⟩ => ⟨S300x300, .f32⟩
  | .hbm, ⟨5, _⟩ => ⟨S600x1, .f32⟩
  | .hbm, ⟨6, _⟩ => ⟨S600x300, .f32⟩
  | .hbm, ⟨7, _⟩ => ⟨S300x300, .f32⟩
  | .hbm, ⟨8, _⟩ => ⟨S600x1, .f32⟩
  | .hbm, ⟨9, _⟩ => ⟨S600x300, .f32⟩
  | .hbm, ⟨10, _⟩ => ⟨S4096x4096, .i32⟩
  | .hbm, ⟨11, _⟩ => ⟨S64, .i32⟩
  | .hbm, ⟨12, _⟩ => ⟨S4096x300, .f32⟩
  | .hbm, ⟨13, _⟩ => ⟨S4096x1, .f32⟩
  | .hbm, ⟨14, _⟩ => ⟨S4096x1, .f32⟩
  | .hbm, ⟨15, _⟩ => ⟨S4096x2, .f32⟩
  | .hbm, ⟨16, _⟩ => ⟨S300x1, .f32⟩
  | .hbm, ⟨17, _⟩ => ⟨S300x1, .f32⟩
  | .hbm, ⟨18, _⟩ => ⟨S300x1, .f32⟩
  | .hbm, ⟨19, _⟩ => ⟨S300x1, .f32⟩
  | .hbm, ⟨20, _⟩ => ⟨S300x2, .f32⟩
  | .hbm, ⟨21, _⟩ => ⟨S300x1, .f32⟩
  | .hbm, ⟨22, _⟩ => ⟨S300x1, .f32⟩
  | .hbm, ⟨23, _⟩ => ⟨S300x1, .f32⟩
  | .hbm, ⟨24, _⟩ => ⟨S300x1, .f32⟩
  | .hbm, ⟨25, _⟩ => ⟨S300x2, .f32⟩
  | .hbm, ⟨26, _⟩ => ⟨S4096x1, .f32⟩
  | .hbm, ⟨27, _⟩ => ⟨S4096x1, .f32⟩
  | .hbm, ⟨28, _⟩ => ⟨S1x4096, .f32⟩
  | .hbm, ⟨29, _⟩ => ⟨S4096x2, .f32⟩
  | .hbm, ⟨30, _⟩ => ⟨S4096x1, .f32⟩
  | .hbm, ⟨31, _⟩ => ⟨S4096x1, .f32⟩
  | .hbm, ⟨32, _⟩ => ⟨S1x4096, .f32⟩
  | .hbm, ⟨33, _⟩ => ⟨S300x300, .f32⟩
  | .hbm, ⟨34, _⟩ => ⟨S300x300, .f32⟩
  | .hbm, ⟨35, _⟩ => ⟨S4096x300, .f32⟩
  | .hbm, ⟨36, _⟩ => ⟨S4096x2, .f32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S_, .i32⟩
  | .hbm, ⟨46, _⟩ => ⟨S64x1, .i32⟩
  | .hbm, ⟨47, _⟩ => ⟨S64x2, .i32⟩
  | .hbm, ⟨48, _⟩ => ⟨S64x1, .f32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S64x4096, .i32⟩
  | .hbm, ⟨58, _⟩ => ⟨S_, .i32⟩
  | .hbm, ⟨59, _⟩ => ⟨S64, .i32⟩
  | .hbm, ⟨60, _⟩ => ⟨S64, .i1⟩
  | .hbm, ⟨61, _⟩ => ⟨S_, .i32⟩
  | .hbm, ⟨62, _⟩ => ⟨S64, .i32⟩
  | .hbm, ⟨63, _⟩ => ⟨S64, .i32⟩
  | .hbm, ⟨64, _⟩ => ⟨S64, .i32⟩
  | .hbm, ⟨65, _⟩ => ⟨S64x1, .i32⟩
  | .hbm, ⟨66, _⟩ => ⟨S_, .i32⟩
  | .hbm, ⟨67, _⟩ => ⟨S64x1, .i32⟩
  | .hbm, ⟨68, _⟩ => ⟨S64x2, .i32⟩
  | .hbm, ⟨69, _⟩ => ⟨S64x1, .f32⟩
  | .hbm, ⟨70, _⟩ => ⟨S4096x1, .f32⟩
  | .hbm, ⟨71, _⟩ => ⟨S1x4096, .f32⟩
  | .hbm, ⟨72, _⟩ => ⟨S300x300, .f32⟩
  | .hbm, ⟨73, _⟩ => ⟨S300x300, .f32⟩
  | .hbm, ⟨74, _⟩ => ⟨S64x300, .f32⟩
  | .local _ .vmem, ⟨0, _⟩ => ⟨S128x1, .f32⟩
  | .local _ .vmem, ⟨1, _⟩ => ⟨S128x1, .f32⟩
  | .local _ .vmem, ⟨2, _⟩ => ⟨S1x4096, .f32⟩
  | .local _ .vmem, ⟨3, _⟩ => ⟨S128x1, .f32⟩
  | .local _ .vmem, ⟨4, _⟩ => ⟨S128x1, .f32⟩
  | .local _ .vmem, ⟨5, _⟩ => ⟨S1x4096, .f32⟩
  | .local _ .vmem, ⟨6, _⟩ => ⟨S128x4096, .i32⟩
  | .local _ .vmem, ⟨7, _⟩ => ⟨S128x4096, .i32⟩
  | .local _ .vmem, ⟨8, _⟩ => ⟨S4096x300, .f32⟩
  | .local _ .vmem, ⟨9, _⟩ => ⟨S300x300, .f32⟩
  | .local _ .vmem, ⟨10, _⟩ => ⟨S300x300, .f32⟩
  | .local _ .vmem, ⟨11, _⟩ => ⟨S128x300, .f32⟩
  | .local _ .vmem, ⟨12, _⟩ => ⟨S128x300, .f32⟩
  | .local _ .vmem, ⟨13, _⟩ => ⟨S64x1, .f32⟩
  | .local _ .vmem, ⟨14, _⟩ => ⟨S1x4096, .f32⟩
  | .local _ .vmem, ⟨15, _⟩ => ⟨S64x1, .f32⟩
  | .local _ .vmem, ⟨16, _⟩ => ⟨S1x4096, .f32⟩
  | .local _ .vmem, ⟨17, _⟩ => ⟨S64x4096, .i32⟩
  | .local _ .vmem, ⟨18, _⟩ => ⟨S4096x300, .f32⟩
  | .local _ .vmem, ⟨19, _⟩ => ⟨S300x300, .f32⟩
  | .local _ .vmem, ⟨20, _⟩ => ⟨S300x300, .f32⟩
  | .local _ .vmem, ⟨21, _⟩ => ⟨S64x300, .f32⟩
  | _, _ => ⟨S4096x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_2 : Ref sig .tc := ⟨.hbm, 49, rfl⟩
abbrev main_v34 : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x300 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x4096 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S4096x300 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S300x300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S300x300 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x300 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

class Facts₀ : Prop where
  concatenates_S4096x1_S4096x1_S4096x2_d1 : Shape.Concatenates [S4096x1, S4096x1] S4096x2 1
  slices_S600x1_S300x1_0_0 : S600x1.Slices ![0, 0] S300x1
  slices_S600x1_S300x1_300_0 : S600x1.Slices ![300, 0] S300x1
  concatenates_S300x1_S300x1_S300x2_d1 : Shape.Concatenates [S300x1, S300x1] S300x2 1
  slices_S4096x2_S4096x1_0_0 : S4096x2.Slices ![0, 0] S4096x1
  slices_S4096x2_S4096x1_0_1 : S4096x2.Slices ![0, 1] S4096x1
  transposes_S4096x1_S1x4096_1_0 : S4096x1.Transposes [1, 0] S1x4096
  slices_S600x300_S300x300_0_0 : S600x300.Slices ![0, 0] S300x300
  slices_S600x300_S300x300_300_0 : S600x300.Slices ![300, 0] S300x300
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  reduces_S128x4096_S128 : S128x4096.Reduces [1] S128
  shapeCasts_S128_S128x1 : S128.ShapeCasts S128x1
  inb_S128x4096_S128x4096_0_0 : ∀ a, (![0, 0] : Fin 2 → Nat) a + S128x4096.size a ≤ S128x4096.size a
  h_S128x4096 : 0 < S128x4096.numel
  inb_S4096x300_S4096x300_0_0 : ∀ a, (![0, 0] : Fin 2 → Nat) a + S4096x300.size a ≤ S4096x300.size a
  h_S4096x300 : 0 < S4096x300.numel
  bitsLt_bf16_f32 : FTy.bits .bf16 < FTy.bits .f32
  broadcasts_S128x1_S128x300 : S128x1.Broadcasts S128x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S128x300_S128x300_0_0 : ∀ a, (![0, 0] : Fin 2 → Nat) a + S128x300.size a ≤ S128x300.size a
  h_S128x300 : 0 < S128x300.numel
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  concatenates_S64x1_S64x1_S64x2_d1 : Shape.Concatenates [S64x1, S64x1] S64x2 1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  broadcasts_S1x4096_S64x4096 : S1x4096.Broadcasts S64x4096
  reduces_S64x4096_S64 : S64x4096.Reduces [1] S64
  shapeCasts_S64_S64x1 : S64.ShapeCasts S64x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  shapeCasts_S4096x300_S4096x300 : S4096x300.ShapeCasts S4096x300
  broadcasts_S64x1_S64x300 : S64x1.Broadcasts S64x300
  inb_S64x300_S64x300_0_0 : ∀ a, (![0, 0] : Fin 2 → Nat) a + S64x300.size a ≤ S64x300.size a
  h_S64x300 : 0 < S64x300.numel
  dot_S4096x300_S300x300_S4096x300_1_0_0_1_n_n_wf : DotDims.WF S4096x300 S300x300 S4096x300 [1] [0] [0] [1] [] []
  dot_S4096x300_S300x1_S4096x1_1_0_0_1_n_n_wf : DotDims.WF S4096x300 S300x1 S4096x1 [1] [0] [0] [1] [] []
  dot_S300x300_S300x1_S300x1_1_0_0_1_n_n_wf : DotDims.WF S300x300 S300x1 S300x1 [1] [0] [0] [1] [] []
  dot_S4096x300_S300x2_S4096x2_1_0_0_1_n_n_wf : DotDims.WF S4096x300 S300x2 S4096x2 [1] [0] [0] [1] [] []
  dot_S128x4096_S4096x300_S128x300_1_0_0_1_n_n_wf : DotDims.WF S128x4096 S4096x300 S128x300 [1] [0] [0] [1] [] []
  dot_S128x300_S300x300_S128x300_1_0_0_1_n_n_wf : DotDims.WF S128x300 S300x300 S128x300 [1] [0] [0] [1] [] []
  gather_S4096x2_S64x2_S64x1_1_0_n_n_01_1_11_wf : GatherDims.WF S4096x2 S64x2 S64x1 [1] [0] [] [0, 1] [] 1 ![1, 1]
  gather_S4096x4096_S64x1_S64x4096_1_0_n_n_0_1_14096_wf : GatherDims.WF S4096x4096 S64x1 S64x4096 [1] [0] [] [0] [] 1 ![1, 4096]
  dot_S64x4096_S4096x300_S64x300_1_0_0_1_n_n_wf : DotDims.WF S64x4096 S4096x300 S64x300 [1] [0] [0] [1] [] []
  dot_S64x300_S300x300_S64x300_1_0_0_1_n_n_wf : DotDims.WF S64x300 S300x300 S64x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S4096x1.size a
  hwx0_0 : ∀ i : grid0.Coords, EltTy.bits .f32 = 32 ∨ (Rect.block (s := S4096x1) S128x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .i32 = 32 ∨ (Rect.block (s := S4096x4096) S128x4096.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x300.size a ≤ S4096x300.size a
  hwx0_5 : ∀ i : grid0.Coords, EltTy.bits .f32 = 32 ∨ (Rect.block (s := S4096x300) S4096x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300x300.size a ≤ S300x300.size a
  hwx0_6 : ∀ i : grid0.Coords, EltTy.bits .f32 = 32 ∨ (Rect.block (s := S300x300) S300x300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x300.size a ≤ S300x300.size a
  hwx0_7 : ∀ i : grid0.Coords, EltTy.bits .f32 = 32 ∨ (Rect.block (s := S300x300) S300x300.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x300.size a ≤ S4096x300.size a
  hwx0_8 : ∀ i : grid0.Coords, EltTy.bits .f32 = 32 ∨ (Rect.block (s := S4096x300) S128x300.size (cc0_transform_8 i) (hinb0_8 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S64x1.size a ≤ S64x1.size a
  hwx1_0 : ∀ i : grid1.Coords, EltTy.bits .f32 = 32 ∨ (Rect.block (s := S64x1) S64x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S64x4096.size a ≤ S64x4096.size a
  hwx1_4 : ∀ i : grid1.Coords, EltTy.bits .i32 = 32 ∨ (Rect.block (s := S64x4096) S64x4096.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x300.size a ≤ S4096x300.size a
  hwx1_5 : ∀ i : grid1.Coords, EltTy.bits .f32 = 32 ∨ (Rect.block (s := S4096x300) S4096x300.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S300x300.size a ≤ S300x300.size a
  hwx1_6 : ∀ i : grid1.Coords, EltTy.bits .f32 = 32 ∨ (Rect.block (s := S300x300) S300x300.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S300x300.size a ≤ S300x300.size a
  hwx1_7 : ∀ i : grid1.Coords, EltTy.bits .f32 = 32 ∨ (Rect.block (s := S300x300) S300x300.size (cc1_transform_7 i) (hinb1_7 i)).WholeWords (EltTy.packing .f32)
  hstage1_8 : ∀ j, (stage1_8 j).IsWhole
  nbuf1_8 : grid1.bufCount reads1_8 false = 1
  hreads1_8 : ∀ i i' : grid1.Coords, (∀ a, reads1_8 a = true → i a = i' a) → cc1_transform_8 i = cc1_transform_8 i'
  hinb1_8 : ∀ (i : grid1.Coords) a, (cc1_transform_8 i a + 1) * S64x300.size a ≤ S64x300.size a
  hwx1_8 : ∀ i : grid1.Coords, EltTy.bits .f32 = 32 ∨ (Rect.block (s := S64x300) S64x300.size (cc1_transform_8 i) (hinb1_8 i)).WholeWords (EltTy.packing .f32)

variable [Facts₀]

def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def dot_S4096x300_S300x1_S4096x1_1_0_0_1_n_n : DotDims S4096x300 S300x1 S4096x1 where
  lhsContracting := [1]
  rhsContracting := [0]
  lhsNonContracting := [0]
  rhsNonContracting := [1]
  lhsBatch := []
  rhsBatch := []
  wf := dot_S4096x300_S300x1_S4096x1_1_0_0_1_n_n_wf
def dot_S300x300_S300x1_S300x1_1_0_0_1_n_n : DotDims S300x300 S300x1 S300x1 where
  lhsContracting := [1]
  rhsContracting := [0]
  lhsNonContracting := [0]
  rhsNonContracting := [1]
  lhsBatch := []
  rhsBatch := []
  wf := dot_S300x300_S300x1_S300x1_1_0_0_1_n_n_wf
def dot_S4096x300_S300x2_S4096x2_1_0_0_1_n_n : DotDims S4096x300 S300x2 S4096x2 where
  lhsContracting := [1]
  rhsContracting := [0]
  lhsNonContracting := [0]
  rhsNonContracting := [1]
  lhsBatch := []
  rhsBatch := []
  wf := dot_S4096x300_S300x2_S4096x2_1_0_0_1_n_n_wf
def dot_S128x4096_S4096x300_S128x300_1_0_0_1_n_n : DotDims S128x4096 S4096x300 S128x300 where
  lhsContracting := [1]
  rhsContracting := [0]
  lhsNonContracting := [0]
  rhsNonContracting := [1]
  lhsBatch := []
  rhsBatch := []
  wf := dot_S128x4096_S4096x300_S128x300_1_0_0_1_n_n_wf
def dot_S128x300_S300x300_S128x300_1_0_0_1_n_n : DotDims S128x300 S300x300 S128x300 where
  lhsContracting := [1]
  rhsContracting := [0]
  lhsNonContracting := [0]
  rhsNonContracting := [1]
  lhsBatch := []
  rhsBatch := []
  wf := dot_S128x300_S300x300_S128x300_1_0_0_1_n_n_wf
def gather_S4096x2_S64x2_S64x1_1_0_n_n_01_1_11 : GatherDims S4096x2 S64x2 S64x1 where
  offsetDims := [1]
  collapsedSliceDims := [0]
  operandBatchingDims := []
  startIndicesBatchingDims := []
  startIndexMap := [0, 1]
  indexVectorDim := 1
  sliceSizes := ![1, 1]
  wf := gather_S4096x2_S64x2_S64x1_1_0_n_n_01_1_11_wf
def gather_S4096x4096_S64x1_S64x4096_1_0_n_n_0_1_14096 : GatherDims S4096x4096 S64x1 S64x4096 where
  offsetDims := [1]
  collapsedSliceDims := [0]
  operandBatchingDims := []
  startIndicesBatchingDims := []
  startIndexMap := [0]
  indexVectorDim := 1
  sliceSizes := ![1, 4096]
  wf := gather_S4096x4096_S64x1_S64x4096_1_0_n_n_0_1_14096_wf
def dot_S64x4096_S4096x300_S64x300_1_0_0_1_n_n : DotDims S64x4096 S4096x300 S64x300 where
  lhsContracting := [1]
  rhsContracting := [0]
  lhsNonContracting := [0]
  rhsNonContracting := [1]
  lhsBatch := []
  rhsBatch := []
  wf := dot_S64x4096_S4096x300_S64x300_1_0_0_1_n_n_wf
def dot_S64x300_S300x300_S64x300_1_0_0_1_n_n : DotDims S64x300 S300x300 S64x300 where
  lhsContracting := [1]
  rhsContracting := [0]
  lhsNonContracting := [0]
  rhsNonContracting := [1]
  lhsBatch := []
  rhsBatch := []
  wf := dot_S64x300_S300x300_S64x300_1_0_0_1_n_n_wf

abbrev win0_0 : Pipeline.Window sig grid0 :=
  Pipeline.Window.ofSpec (Memref.whole main_v14) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S4096x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S300x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S300x300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S128x300.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S64x1.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64x1.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x4096.size cc1_transform_4 reads1_4 false false 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S4096x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S300x300.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S300x300.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S64x300.size cc1_transform_8 reads1_8 true false 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x300 : Shape := ⟨2, ![4096, 300]⟩
abbrev S300x300 : Shape := ⟨2, ![300, 300]⟩
abbrev S300x1 : Shape := ⟨2, ![300, 1]⟩
abbrev S600x1 : Shape := ⟨2, ![600, 1]⟩
abbrev S600x300 : Shape := ⟨2, ![600, 300]⟩
abbrev S4096x4096 : Shape := ⟨2, ![4096, 4096]⟩
abbrev S64 : Shape := ⟨1, ![64]⟩
abbrev S4096x1 : Shape := ⟨2, ![4096, 1]⟩
abbrev S1x4096 : Shape := ⟨2, ![1, 4096]⟩
abbrev S_ : Shape := ⟨0, ![]⟩
abbrev S4096 : Shape := ⟨1, ![4096]⟩
abbrev S4096x600 : Shape := ⟨2, ![4096, 600]⟩
abbrev S64x1 : Shape := ⟨2, ![64, 1]⟩
abbrev S64x300 : Shape := ⟨2, ![64, 300]⟩

abbrev nBuf : Space → Nat
  | .hbm => 198
  | .vmem => 0
  | .smem => 0
  | _ => 0

abbrev hbmTy0_0 (i : Nat) : BufTy := match i % 128 with
  | 0 => ⟨S4096x300, .f32⟩
  | 1 => ⟨S300x300, .f32⟩
  | 2 => ⟨S300x1, .f32⟩
  | 3 => ⟨S300x1, .f32⟩
  | 4 => ⟨S300x300, .f32⟩
  | 5 => ⟨S600x1, .f32⟩
  | 6 => ⟨S600x300, .f32⟩
  | 7 => ⟨S300x300, .f32⟩
  | 8 => ⟨S600x1, .f32⟩
  | 9 => ⟨S600x300, .f32⟩
  | 10 => ⟨S4096x4096, .i32⟩
  | 11 => ⟨S64, .i32⟩
  | 12 => ⟨S4096x300, .f32⟩
  | 13 => ⟨S4096x1, .f32⟩
  | 14 => ⟨S4096x1, .f32⟩
  | 15 => ⟨S1x4096, .f32⟩
  | 16 => ⟨S4096x4096, .f32⟩
  | 17 => ⟨S4096x4096, .f32⟩
  | 18 => ⟨S4096x4096, .f32⟩
  | 19 => ⟨S_, .f32⟩
  | 20 => ⟨S_, .f32⟩
  | 21 => ⟨S4096x4096, .f32⟩
  | 22 => ⟨S4096x4096, .i1⟩
  | 23 => ⟨S_, .f32⟩
  | 24 => ⟨S4096x4096, .f32⟩
  | 25 => ⟨S4096x4096, .f32⟩
  | 26 => ⟨S4096x4096, .f32⟩
  | 27 => ⟨S_, .f32⟩
  | 28 => ⟨S4096, .f32⟩
  | 29 => ⟨S_, .f32⟩
  | 30 => ⟨S4096, .f32⟩
  | 31 => ⟨S4096, .f32⟩
  | 32 => ⟨S4096x1, .f32⟩
  | 33 => ⟨S4096x4096, .f32⟩
  | 34 => ⟨S4096x4096, .f32⟩
  | 35 => ⟨S4096x4096, .f32⟩
  | 36 => ⟨S_, .f32⟩
  | 37 => ⟨S4096, .f32⟩
  | 38 => ⟨S4096x1, .f32⟩
  | 39 => ⟨S4096x4096, .f32⟩
  | 40 => ⟨S4096x4096, .f32⟩
  | 41 => ⟨S_, .f32⟩
  | 42 => ⟨S4096x4096, .f32⟩
  | 43 => ⟨S4096x4096, .i1⟩
  | 44 => ⟨S_, .i32⟩
  | 45 => ⟨S4096x4096, .i32⟩
  | 46 => ⟨S4096x4096, .i1⟩
  | 47 => ⟨S4096x4096, .i1⟩
  | 48 => ⟨S4096x300, .f32⟩
  | 49 => ⟨S300x1, .f32⟩
  | 50 => ⟨S4096x1, .f32⟩
  | 51 => ⟨S300x1, .f32⟩
  | 52 => ⟨S4096x1, .f32⟩
  | 53 => ⟨S1x4096, .f32⟩
  | 54 => ⟨S4096x4096, .f32⟩
  | 55 => ⟨S4096x4096, .f32⟩
  | 56 => ⟨S4096x4096, .f32⟩
  | 57 => ⟨S_, .f32⟩
  | 58 => ⟨S_, .f32⟩
  | 59 => ⟨S4096x4096, .f32⟩
  | 60 => ⟨S4096x4096, .i1⟩
  | 61 => ⟨S_, .f32⟩
  | 62 => ⟨S4096x4096, .f32⟩
  | 63 => ⟨S4096x4096, .f32⟩
  | 64 => ⟨S4096x4096, .f32⟩
  | 65 => ⟨S_, .f32⟩
  | 66 => ⟨S_, .f32⟩
  | 67 => ⟨S4096x4096, .f32⟩
  | 68 => ⟨S4096x4096, .f32⟩
  | 69 => ⟨S_, .f32⟩
  | 70 => ⟨S4096, .f32⟩
  | 71 => ⟨S_, .f32⟩
  | 72 => ⟨S4096, .f32⟩
  | 73 => ⟨S4096, .f32⟩
  | 74 => ⟨S4096x1, .f32⟩
  | 75 => ⟨S4096x4096, .f32⟩
  | 76 => ⟨S4096x4096, .f32⟩
  | 77 => ⟨S4096x4096, .f32⟩
  | 78 => ⟨S_, .f32⟩
  | 79 => ⟨S4096, .f32⟩
  | 80 => ⟨S4096x1, .f32⟩
  | 81 => ⟨S4096x4096, .f32⟩
  | 82 => ⟨S4096x4096, .f32⟩
  | 83 => ⟨S4096x4096, .f32⟩
  | 84 => ⟨S_, .f32⟩
  | 85 => ⟨S_, .f32⟩
  | 86 => ⟨S4096x4096, .f32⟩
  | 87 => ⟨S4096x4096, .f32⟩
  | 88 => ⟨S_, .f32⟩
  | 89 => ⟨S4096, .f32⟩
  | 90 => ⟨S_, .f32⟩
  | 91 => ⟨S4096, .f32⟩
  | 92 => ⟨S4096, .f32⟩
  | 93 => ⟨S4096x1, .f32⟩
  | 94 => ⟨S4096x4096, .f32⟩
  | 95 => ⟨S4096x4096, .f32⟩
  | 96 => ⟨S4096x4096, .f32⟩
  | 97 => ⟨S_, .f32⟩
  | 98 => ⟨S4096, .f32⟩
  | 99 => ⟨S4096x1, .f32⟩
  | 100 => ⟨S4096x4096, .f32⟩
  | 101 => ⟨S4096x4096, .f32⟩
  | 102 => ⟨S4096x4096, .f32⟩
  | 103 => ⟨S4096x300, .f32⟩
  | 104 => ⟨S4096x300, .f32⟩
  | 105 => ⟨S4096x600, .f32⟩
  | 106 => ⟨S4096x300, .f32⟩
  | 107 => ⟨S_, .f32⟩
  | 108 => ⟨S4096x300, .f32⟩
  | 109 => ⟨S4096x300, .i1⟩
  | 110 => ⟨S_, .f32⟩
  | 111 => ⟨S4096x300, .f32⟩
  | 112 => ⟨S4096x300, .i1⟩
  | 113 => ⟨S_, .f32⟩
  | 114 => ⟨S_, .f32⟩
  | 115 => ⟨S4096x300, .f32⟩
  | 116 => ⟨S4096x300, .f32⟩
  | 117 => ⟨S4096x300, .f32⟩
  | 118 => ⟨S_, .f32⟩
  | 119 => ⟨S4096x300, .f32⟩
  | 120 => ⟨S4096x300, .f32⟩
  | 121 => ⟨S4096x300, .f32⟩
  | 122 => ⟨S4096x300, .f32⟩
  | 123 => ⟨S300x1, .f32⟩
  | 124 => ⟨S4096x1, .f32⟩
  | 125 => ⟨S300x1, .f32⟩
  | 126 => ⟨S4096x1, .f32⟩
  | 127 => ⟨S1x4096, .f32⟩
  | _ => ⟨S4096x300, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .f32⟩
  | 4 => ⟨S_, .f32⟩
  | 5 => ⟨S4096x4096, .f32⟩
  | 6 => ⟨S4096x4096, .i1⟩
  | 7 => ⟨S_, .f32⟩
  | 8 => ⟨S4096x4096, .f32⟩
  | 9 => ⟨S4096x4096, .f32⟩
  | 10 => ⟨S4096x4096, .f32⟩
  | 11 => ⟨S_, .f32⟩
  | 12 => ⟨S_, .f32⟩
  | 13 => ⟨S4096x4096, .f32⟩
  | 14 => ⟨S4096x4096, .f32⟩
  | 15 => ⟨S_, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x4096, .f32⟩
  | 22 => ⟨S4096x4096, .f32⟩
  | 23 => ⟨S4096x4096, .f32⟩
  | 24 => ⟨S_, .f32⟩
  | 25 => ⟨S4096, .f32⟩
  | 26 => ⟨S4096x1, .f32⟩
  | 27 => ⟨S4096x4096, .f32⟩
  | 28 => ⟨S4096x4096, .f32⟩
  | 29 => ⟨S4096x4096, .f32⟩
  | 30 => ⟨S_, .f32⟩
  | 31 => ⟨S_, .f32⟩
  | 32 => ⟨S4096x4096, .f32⟩
  | 33 => ⟨S4096x4096, .f32⟩
  | 34 => ⟨S_, .f32⟩
  | 35 => ⟨S4096, .f32⟩
  | 36 => ⟨S_, .f32⟩
  | 37 => ⟨S4096, .f32⟩
  | 38 => ⟨S4096, .f32⟩
  | 39 => ⟨S4096x1, .f32⟩
  | 40 => ⟨S4096x4096, .f32⟩
  | 41 => ⟨S4096x4096, .f32⟩
  | 42 => ⟨S4096x4096, .f32⟩
  | 43 => ⟨S_, .f32⟩
  | 44 => ⟨S4096, .f32⟩
  | 45 => ⟨S4096x1, .f32⟩
  | 46 => ⟨S4096x4096, .f32⟩
  | 47 => ⟨S4096x4096, .f32⟩
  | 48 => ⟨S4096x4096, .f32⟩
  | 49 => ⟨S4096x300, .f32⟩
  | 50 => ⟨S4096x300, .f32⟩
  | 51 => ⟨S4096x600, .f32⟩
  | 52 => ⟨S4096x300, .f32⟩
  | 53 => ⟨S4096x300, .f32⟩
  | 54 => ⟨S4096x300, .f32⟩
  | 55 => ⟨S_, .f32⟩
  | 56 => ⟨S4096x300, .f32⟩
  | 57 => ⟨S4096x300, .f32⟩
  | 58 => ⟨S_, .f32⟩
  | 59 => ⟨S4096x300, .f32⟩
  | 60 => ⟨S4096x300, .f32⟩
  | 61 => ⟨S_, .i32⟩
  | 62 => ⟨S64, .i32⟩
  | 63 => ⟨S64, .i1⟩
  | 64 => ⟨S_, .i32⟩
  | 65 => ⟨S64, .i32⟩
  | 66 => ⟨S64, .i32⟩
  | 67 => ⟨S64, .i32⟩
  | 68 => ⟨S64x1, .i32⟩
  | 69 => ⟨S64x300, .f32⟩
  | _ => ⟨S4096x300, .f32⟩

abbrev hbmTy (i : Nat) : BufTy := match i / 128 with
  | 0 => hbmTy0_0 i
  | 1 => hbmTy0_1 i
  | _ => ⟨S4096x300, .f32⟩

abbrev bufTy : (tb : Table) → Fin (tcTables nBuf tb) → BufTy
  | .hbm, ⟨i, _⟩ => hbmTy i
  | _, _ => ⟨S4096x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v33 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_8 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_call3_v0 : Ref sig .tc := ⟨.hbm, 85, rfl⟩
abbrev main_call3_v1 : Ref sig .tc := ⟨.hbm, 86, rfl⟩
abbrev main_v47 : Ref sig .tc := ⟨.hbm, 87, rfl⟩
abbrev main_cst_10 : Ref sig .tc := ⟨.hbm, 88, rfl⟩
abbrev main_v48 : Ref sig .tc := ⟨.hbm, 89, rfl⟩
abbrev main_cst_11 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_12 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_call4_cst : Ref sig .tc := ⟨.hbm, 107, rfl⟩
abbrev main_call4_v0 : Ref sig .tc := ⟨.hbm, 108, rfl⟩
abbrev main_call4_v1 : Ref sig .tc := ⟨.hbm, 109, rfl⟩
abbrev main_call4_cst_0 : Ref sig .tc := ⟨.hbm, 110, rfl⟩
abbrev main_call4_v2 : Ref sig .tc := ⟨.hbm, 111, rfl⟩
abbrev main_call4_v3 : Ref sig .tc := ⟨.hbm, 112, rfl⟩
abbrev main_call4_cst_1 : Ref sig .tc := ⟨.hbm, 113, rfl⟩
abbrev main_call4_call0_v0 : Ref sig .tc := ⟨.hbm, 114, rfl⟩
abbrev main_call4_call0_v1 : Ref sig .tc := ⟨.hbm, 115, rfl⟩
abbrev main_call4_v4 : Ref sig .tc := ⟨.hbm, 116, rfl⟩
abbrev main_call4_v5 : Ref sig .tc := ⟨.hbm, 117, rfl⟩
abbrev main_call4_cst_2 : Ref sig .tc := ⟨.hbm, 118, rfl⟩
abbrev main_call4_v6 : Ref sig .tc := ⟨.hbm, 119, rfl⟩
abbrev main_call4_v7 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_13 : Ref sig .tc := ⟨.hbm, 131, rfl⟩
abbrev main_call5_cst : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v74 : Ref sig .tc := ⟨.hbm, 138, rfl⟩
abbrev main_cst_14 : Ref sig .tc := ⟨.hbm, 139, rfl⟩
abbrev main_call6_v0 : Ref sig .tc := ⟨.hbm, 140, rfl⟩
abbrev main_call6_v1 : Ref sig .tc := ⟨.hbm, 141, rfl⟩
abbrev main_v75 : Ref sig .tc := ⟨.hbm, 142, rfl⟩
abbrev main_cst_15 : Ref sig .tc := ⟨.hbm, 143, rfl⟩
abbrev main_v76 : Ref sig .tc := ⟨.hbm, 144, rfl⟩
abbrev main_cst_16 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_17 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_cst_18 : Ref sig .tc := ⟨.hbm, 158, rfl⟩
abbrev main_call7_v0 : Ref sig .tc := ⟨.hbm, 159, rfl⟩
abbrev main_call7_v1 : Ref sig .tc := ⟨.hbm, 160, rfl⟩
abbrev main_v88 : Ref sig .tc := ⟨.hbm, 161, rfl⟩
abbrev main_cst_19 : Ref sig .tc := ⟨.hbm, 162, rfl⟩
abbrev main_v89 : Ref sig .tc := ⟨.hbm, 163, rfl⟩
abbrev main_cst_20 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_21 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_22 : Ref sig .tc := ⟨.hbm, 183, rfl⟩
abbrev main_v107 : Ref sig .tc := ⟨.hbm, 184, rfl⟩
abbrev main_v108 : Ref sig .tc := ⟨.hbm, 185, rfl⟩
abbrev main_cst_23 : Ref sig .tc := ⟨.hbm, 186, rfl⟩
abbrev main_v109 : Ref sig .tc := ⟨.hbm, 187, rfl⟩
abbrev main_v110 : Ref sig .tc := ⟨.hbm, 188, rfl⟩
abbrev main_c_24 : Ref sig .tc := ⟨.hbm, 189, rfl⟩
abbrev main_v111 : Ref sig .tc := ⟨.hbm, 190, rfl⟩
abbrev main_v112 : Ref sig .tc := ⟨.hbm, 191, rfl⟩
abbrev main_c_25 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩

abbrev nD : Nat := 1
abbrev τ : Topo := Topo.v7x

variable {F : FTy → Type} [FloatOps F]

class Facts₀ : Prop where
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  slices_S600x1_S300x1_0_0 : S600x1.Slices ![0, 0] S300x1
  slices_S600x1_S300x1_300_0 : S600x1.Slices ![300, 0] S300x1
  concatenates_S4096x300_S4096x300_S4096x600_d1 : Shape.Concatenates [S4096x300, S4096x300] S4096x600 1
  bcast_S_S4096x300 : S_.BroadcastsInDim S4096x300 (![] : Fin 0 → Fin S4096x300.rank)
  bcast_S_S64 : S_.BroadcastsInDim S64 (![] : Fin 0 → Fin S64.rank)
  bcast_S64_S64x1_0 : S64.BroadcastsInDim S64x1 (![0] : Fin 1 → Fin S64x1.rank)
  dot_S4096x300_S300x300_S4096x300_1_0_0_1_n_n_wf : DotDims.WF S4096x300 S300x300 S4096x300 [1] [0] [0] [1] [] []
  dot_S4096x300_S300x1_S4096x1_1_0_0_1_n_n_wf : DotDims.WF S4096x300 S300x1 S4096x1 [1] [0] [0] [1] [] []
  dot_S4096x4096_S4096x300_S4096x300_1_0_0_1_n_n_wf : DotDims.WF S4096x4096 S4096x300 S4096x300 [1] [0] [0] [1] [] []
  dot_S4096x600_S600x300_S4096x300_1_0_0_1_n_n_wf : DotDims.WF S4096x600 S600x300 S4096x300 [1] [0] [0] [1] [] []
  gather_S4096x300_S64x1_S64x300_1_0_n_n_0_1_1300_wf : GatherDims.WF S4096x300 S64x1 S64x300 [1] [0] [] [0] [] 1 ![1, 300]

variable [Facts₀]

def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def dot_S4096x300_S300x1_S4096x1_1_0_0_1_n_n : DotDims S4096x300 S300x1 S4096x1 where
  lhsContracting := [1]
  rhsContracting := [0]
  lhsNonContracting := [0]
  rhsNonContracting := [1]
  lhsBatch := []
  rhsBatch := []
  wf := dot_S4096x300_S300x1_S4096x1_1_0_0_1_n_n_wf
def dot_S4096x4096_S4096x300_S4096x300_1_0_0_1_n_n : DotDims S4096x4096 S4096x300 S4096x300 where
  lhsContracting := [1]
  rhsContracting := [0]
  lhsNonContracting := [0]
  rhsNonContracting := [1]
  lhsBatch := []
  rhsBatch := []
  wf := dot_S4096x4096_S4096x300_S4096x300_1_0_0_1_n_n_wf
def dot_S4096x600_S600x300_S4096x300_1_0_0_1_n_n : DotDims S4096x600 S600x300 S4096x300 where
  lhsContracting := [1]
  rhsContracting := [0]
  lhsNonContracting := [0]
  rhsNonContracting := [1]
  lhsBatch := []
  rhsBatch := []
  wf := dot_S4096x600_S600x300_S4096x300_1_0_0_1_n_n_wf
def gather_S4096x300_S64x1_S64x300_1_0_n_n_0_1_1300 : GatherDims S4096x300 S64x1 S64x300 where
  offsetDims := [1]
  collapsedSliceDims := [0]
  operandBatchingDims := []
  startIndicesBatchingDims := []
  startIndexMap := [0]
  indexVectorDim := 1
  sliceSizes := ![1, 300]
  wf := gather_S4096x300_S64x1_S64x300_1_0_n_n_0_1_1300_wf

class Facts : Prop extends Facts₀ where

variable [Facts]
-- ==== Proof.Spec.lean ====
/-
  The mathematics both programs compute, element by element over the extended reals: a two-layer signed graph
  attention. For a query row with mask-logit `um`, key mask-logits `vm`, attention logits `uh + vh j` and adjacency
  row `arow`, a key `j` is kept when its mask-softmax weight exceeds 1/4096 or `arow j > 0`; the kept keys' leaky-ReLU
  logits `e j` (and `-e j`) are soft-maxed over the row (the dropped keys standing at the fill value), the two weight rows
  aggregate the value table, and the pair is projected by the two halves of one 600×300 matrix.
  The two programs arrange this differently — the mask test as `p·4096 > s` against `p/s > 2⁻¹²`; the logits as
  `X·(W·a)` against `(X·W)·a`; the soft-max normalised after the aggregation against before it; the projection as two
  300-term sums against one 600-term sum; `0 - x` against `-x`; `exp x - 1` against `1·expm1 x` — and each arrangement is
  written out here once (`…K` the kernel's, `…R` the reference's), over plain `Fin`-indexed families.
-/
import Idealize.ShloMosaic.PureOps.Ideal
import Idealize.ShloMosaic.Lib.ValueIdx

noncomputable section

namespace Cert.Spec

open Idealize.ShloMosaic
open scoped BigOperators

/-! ## The literals, as the words both programs carry -/

/-- The leaky-ReLU slope, f32 0.3. -/
def slope : EReal := Ideal.ofBits .f32 0x3E99999A#32
/-- The value a dropped key's logit is replaced by, f32 -1e12. -/
def fill : EReal := Ideal.ofBits .f32 0xD368D4A5#32
/-- f32 4096. -/
def big : EReal := Ideal.ofBits .f32 0x45800000#32
/-- f32 2⁻¹². -/
def thr : EReal := Ideal.ofBits .f32 0x39800000#32
/-- f32 1. -/
def one : EReal := Ideal.ofBits .f32 0x3F800000#32
/-- f32 0. -/
def zero : EReal := Ideal.ofBits .f32 0x00000000#32

/-! ## The shared pieces -/

/-- Leaky ReLU: `x` where `x ≥ 0`, else `slope · x`. -/
def lrelu (x : EReal) : EReal := Scalar.select (Ideal.cmp .oge x zero) x (slope * x)

/-- A row's maximum, folded from `-∞`. -/
def rmax (z : Fin 4096 → EReal) : EReal := (Finset.univ : Finset (Fin 4096)).fold max ⊥ z

/-- The soft-max numerator of entry `j` of the row `z`. -/
def sexp (z : Fin 4096 → EReal) (j : Fin 4096) : EReal := Ideal.exp (z j - rmax z)

/-- The mask's own logits of one query row. -/
def mlog (um : EReal) (vm : Fin 4096 → EReal) (j : Fin 4096) : EReal := lrelu (um + vm j)

/-- Key `j` is kept, the kernel's test: `p · 4096 > Σ p`, or the adjacency entry is positive. -/
def maskK (um : EReal) (vm : Fin 4096 → EReal) (arow : Fin 4096 → BitVec 32) (j : Fin 4096) : BitVec 1 :=
  IntOp.ori (Ideal.cmp .ogt (sexp (mlog um vm) j * big) (∑ i, sexp (mlog um vm) i)) (IntOp.cmpi .sgt (arow j) 0#32)

/-- Key `j` is kept, the reference's test: `p / (0 + Σ p) > 2⁻¹²`, or the adjacency entry is positive. -/
def maskR (um : EReal) (vm : Fin 4096 → EReal) (arow : Fin 4096 → BitVec 32) (j : Fin 4096) : BitVec 1 :=
  IntOp.ori (Ideal.cmp .ogt (Ideal.div (sexp (mlog um vm) j) (zero + ∑ i, sexp (mlog um vm) i)) thr) (IntOp.cmpi .sgt (arow j) 0#32)

/-- The kept keys' logits, the dropped keys at the fill value. -/
def zpos (mask : Fin 4096 → BitVec 1) (uh : EReal) (vh : Fin 4096 → EReal) (j : Fin 4096) : EReal :=
  Scalar.select (mask j) (lrelu (uh + vh j)) fill

/-- The same of the negated logits, the kernel's negation `0 - e`. -/
def znegK (mask : Fin 4096 → BitVec 1) (uh : EReal) (vh : Fin 4096 → EReal) (j : Fin 4096) : EReal :=
  Scalar.select (mask j) (zero - lrelu (uh + vh j)) fill

/-- The same, the reference's negation `-e`. -/
def znegR (mask : Fin 4096 → BitVec 1) (uh : EReal) (vh : Fin 4096 → EReal) (j : Fin 4096) : EReal :=
  Scalar.select (mask j) (-lrelu (uh + vh j)) fill

/-- One query row's output before the activation, the kernel's arrangement: un-normalised weights aggregate the value
    table `inp`, each aggregate is scaled by `1 / Σ p`, the negative one negated as `0 - ·`, and the two are projected by
    `wt` and `wb`. -/
def rowK (mask : Fin 4096 → BitVec 1) (uh : EReal) (vh : Fin 4096 → EReal) (inp : Fin 4096 → Fin 300 → EReal)
    (wt wb : Fin 300 → Fin 300 → EReal) (d : Fin 300) : EReal :=
  (∑ k, ((∑ j, sexp (zpos mask uh vh) j * inp j k) * Ideal.div one (∑ j, sexp (zpos mask uh vh) j)) * wt k d)
  + (∑ k, (zero - (∑ j, sexp (znegK mask uh vh) j * inp j k) * Ideal.div one (∑ j, sexp (znegK mask uh vh) j)) * wb k d)

/-- Entry `k` of the reference's concatenated pair of aggregates: normalised positive weights for `k < 300`, negated
    normalised negative weights for `k ≥ 300`. -/
def hcat (mask : Fin 4096 → BitVec 1) (uh : EReal) (vh : Fin 4096 → EReal) (inp : Fin 4096 → Fin 300 → EReal)
    (k : Fin 600) : EReal :=
  if h : k.val < 300 then
    ∑ j, Ideal.div (sexp (zpos mask uh vh) j) (zero + ∑ i, sexp (zpos mask uh vh) i) * inp j ⟨k.val, h⟩
  else
    ∑ j, (-Ideal.div (sexp (znegR mask uh vh) j) (zero + ∑ i, sexp (znegR mask uh vh) i)) * inp j ⟨k.val - 300, by omega⟩

/-- One query row's output before the activation, the reference's arrangement. -/
def rowR (mask : Fin 4096 → BitVec 1) (uh : EReal) (vh : Fin 4096 → EReal) (inp : Fin 4096 → Fin 300 → EReal)
    (w : Fin 600 → Fin 300 → EReal) (d : Fin 300) : EReal :=
  ∑ k : Fin 600, hcat mask uh vh inp k * w k d

/-- ELU, the kernel's form. -/
def eluK (x : EReal) : EReal := Scalar.select (Ideal.cmp .ogt x zero) x (Ideal.exp x - one)
/-- ELU, the reference's form (`expm1` of the argument made non-positive first, times the literal 1). -/
def eluR (x : EReal) : EReal :=
  Scalar.select (Ideal.cmp .ogt x zero) x (one * (Ideal.exp (Scalar.select (Ideal.cmp .ogt x zero) zero x) - 1))
/-- The logistic function, the kernel's one operation. -/
def sigK (x : EReal) : EReal := Ideal.logistic x
/-- The logistic function, the reference's expansion. -/
def sigR (x : EReal) : EReal := Ideal.div one (one + Ideal.exp (-x))

/-! ## The inputs, and the two programs' results -/

/-- The twelve arguments as plain families. -/
structure Inputs where
  X : Fin 4096 → Fin 300 → EReal
  Wd : Fin 300 → Fin 300 → EReal
  a1 : Fin 300 → EReal
  a2 : Fin 300 → EReal
  W1 : Fin 300 → Fin 300 → EReal
  ah : Fin 600 → EReal
  wt1 : Fin 600 → Fin 300 → EReal
  Wo : Fin 300 → Fin 300 → EReal
  ao : Fin 600 → EReal
  wto : Fin 600 → Fin 300 → EReal
  adj : Fin 4096 → Fin 4096 → BitVec 32
  tid : Fin 64 → BitVec 32

/-- Every float argument is a real number. -/
structure Inputs.Real (I : Inputs) : Prop where
  X : ∀ i j, ∃ r : ℝ, I.X i j = r
  Wd : ∀ i j, ∃ r : ℝ, I.Wd i j = r
  a1 : ∀ i, ∃ r : ℝ, I.a1 i = r
  a2 : ∀ i, ∃ r : ℝ, I.a2 i = r
  W1 : ∀ i j, ∃ r : ℝ, I.W1 i j = r
  ah : ∀ i, ∃ r : ℝ, I.ah i = r
  wt1 : ∀ i j, ∃ r : ℝ, I.wt1 i j = r
  Wo : ∀ i j, ∃ r : ℝ, I.Wo i j = r
  ao : ∀ i, ∃ r : ℝ, I.ao i = r
  wto : ∀ i j, ∃ r : ℝ, I.wto i j = r

/-- The first / second half of a 600-vector, and the top / bottom half of a 600×300 matrix. -/
def lo (k : Fin 300) : Fin 600 := ⟨k.val, by omega⟩
def hi (k : Fin 300) : Fin 600 := ⟨k.val + 300, by omega⟩

/-- The row a gather reads for the index word `w`: a negative word wrapped by 4096, then clamped into [0, 4095]. -/
def row (w : BitVec 32) : Fin 4096 :=
  ⟨min (Scalar.select (IntOp.cmpi .slt w 0#32) (w + 4096#32) w).toInt.toNat 4095, by omega⟩

variable (I : Inputs)

/-- `X · Wd`, and the two mask-logit vectors `(X · Wd) · a1`, `(X · Wd) · a2` (both programs alike). -/
def hD (i : Fin 4096) (k : Fin 300) : EReal := ∑ j, I.X i j * I.Wd j k
def um (i : Fin 4096) : EReal := ∑ k, hD I i k * I.a1 k
def vm (i : Fin 4096) : EReal := ∑ k, hD I i k * I.a2 k

/-- Layer 1's attention logits, the kernel's arrangement `X · (W1 · a)`. -/
def f1K (i : Fin 4096) : EReal := ∑ k, I.X i k * (∑ j, I.W1 k j * I.ah (lo j))
def f2K (i : Fin 4096) : EReal := ∑ k, I.X i k * (∑ j, I.W1 k j * I.ah (hi j))
/-- The reference's arrangement `(X · W1) · a`. -/
def f1R (i : Fin 4096) : EReal := ∑ k, (∑ j, I.X i j * I.W1 j k) * I.ah (lo k)
def f2R (i : Fin 4096) : EReal := ∑ k, (∑ j, I.X i j * I.W1 j k) * I.ah (hi k)

/-- Layer 1's output. -/
def x1K (i : Fin 4096) (d : Fin 300) : EReal :=
  eluK (rowK (maskK (um I i) (vm I) (I.adj i)) (f1K I i) (f2K I) I.X (fun k => I.wt1 (lo k)) (fun k => I.wt1 (hi k)) d)
def x1R (i : Fin 4096) (d : Fin 300) : EReal :=
  eluR (rowR (maskR (um I i) (vm I) (I.adj i)) (f1R I i) (f2R I) I.X I.wt1 d)

/-- Layer 2's attention logits over layer 1's output. -/
def g1K (i : Fin 4096) : EReal := ∑ k, x1K I i k * (∑ j, I.Wo k j * I.ao (lo j))
def g2K (i : Fin 4096) : EReal := ∑ k, x1K I i k * (∑ j, I.Wo k j * I.ao (hi j))
def g1R (i : Fin 4096) : EReal := ∑ k, (∑ j, x1R I i j * I.Wo j k) * I.ao (lo k)
def g2R (i : Fin 4096) : EReal := ∑ k, (∑ j, x1R I i j * I.Wo j k) * I.ao (hi k)

/-- Layer 2's output at query row `i` (the kernel computes it only at the gathered rows, the reference at every row). -/
def x2K (i : Fin 4096) (d : Fin 300) : EReal :=
  sigK (rowK (maskK (um I i) (vm I) (I.adj i)) (g1K I i) (g2K I) (x1K I) (fun k => I.wto (lo k)) (fun k => I.wto (hi k)) d)
def x2R (i : Fin 4096) (d : Fin 300) : EReal :=
  sigR (rowR (maskR (um I i) (vm I) (I.adj i)) (g1R I i) (g2R I) (x1R I) I.wto d)

/-- The result: layer 2's rows at the gathered indices. -/
def outK (r : Fin 64) (d : Fin 300) : EReal := x2K I (row (I.tid r)) d
def outR (r : Fin 64) (d : Fin 300) : EReal := x2R I (row (I.tid r)) d

end Cert.Spec

/-! ## The arguments as the programs hold them -/

namespace Cert.Spec

open Idealize.ShloMosaic Idealize.ShloMosaic.ValueIdx

/-- The twelve argument arrays at their printed shapes, over a float family `F`. -/
structure Args (F : FTy → Type) where
  x0 : FVec F ⟨2, ![4096, 300]⟩ .f32
  x1 : FVec F ⟨2, ![300, 300]⟩ .f32
  x2 : FVec F ⟨2, ![300, 1]⟩ .f32
  x3 : FVec F ⟨2, ![300, 1]⟩ .f32
  x4 : FVec F ⟨2, ![300, 300]⟩ .f32
  x5 : FVec F ⟨2, ![600, 1]⟩ .f32
  x6 : FVec F ⟨2, ![600, 300]⟩ .f32
  x7 : FVec F ⟨2, ![300, 300]⟩ .f32
  x8 : FVec F ⟨2, ![600, 1]⟩ .f32
  x9 : FVec F ⟨2, ![600, 300]⟩ .f32
  x10 : IVec ⟨2, ![4096, 4096]⟩ 32
  x11 : IVec ⟨1, ![64]⟩ 32

/-- The same arrays at the ideal instance, as plain families. -/
def Args.inputs (A : Args Ideal) : Inputs where
  X i j := A.x0 (ix2 i j)
  Wd i j := A.x1 (ix2 i j)
  a1 i := A.x2 (ix2 i 0)
  a2 i := A.x3 (ix2 i 0)
  W1 i j := A.x4 (ix2 i j)
  ah i := A.x5 (ix2 i 0)
  wt1 i j := A.x6 (ix2 i j)
  Wo i j := A.x7 (ix2 i j)
  ao i := A.x8 (ix2 i 0)
  wto i j := A.x9 (ix2 i j)
  adj i j := A.x10 (ix2 i j)
  tid r := A.x11 (ix1 r)

end Cert.Spec

end
-- ==== Proof.KRun.lean ====
/-
  The twelve argument arrays of a core, read out of a memory of the idealized kernel program.
-/
import proofs.«428251_j16982300688849_3_alg».proof.Proof.KernelIdealFrameP
import proofs.«428251_j16982300688849_3_alg».proof.Proof.Spec

noncomputable section

namespace Cert.KernelIdeal.Run

open Idealize.ShloMosaic Idealize.ShloMosaic.TcCoe Idealize.SL.Sem
open Cert.KernelIdeal Cert.KernelIdeal.Gen Cert.KernelIdeal.GenP

variable {F : FTy → Type} [FloatOps F]

/-- The twelve argument arrays of core `c` in the memory `m`. -/
def argsOf (m : (ℓ : Loc Cert.KernelIdeal.nD Cert.KernelIdeal.τ Cert.KernelIdeal.sig) → Buf (Elt F) ℓ) (c : Dev Cert.KernelIdeal.nD) : Cert.Spec.Args F where
  x0 := m ((c.tc : Thread Cert.KernelIdeal.nD Cert.KernelIdeal.τ).loc Cert.KernelIdeal.main_arg0)
  x1 := m ((c.tc : Thread Cert.KernelIdeal.nD Cert.KernelIdeal.τ).loc Cert.KernelIdeal.main_arg1)
  x2 := m ((c.tc : Thread Cert.KernelIdeal.nD Cert.KernelIdeal.τ).loc Cert.KernelIdeal.main_arg2)
  x3 := m ((c.tc : Thread Cert.KernelIdeal.nD Cert.KernelIdeal.τ).loc Cert.KernelIdeal.main_arg3)
  x4 := m ((c.tc : Thread Cert.KernelIdeal.nD Cert.KernelIdeal.τ).loc Cert.KernelIdeal.main_arg4)
  x5 := m ((c.tc : Thread Cert.KernelIdeal.nD Cert.KernelIdeal.τ).loc Cert.KernelIdeal.main_arg5)
  x6 := m ((c.tc : Thread Cert.KernelIdeal.nD Cert.KernelIdeal.τ).loc Cert.KernelIdeal.main_arg6)
  x7 := m ((c.tc : Thread Cert.KernelIdeal.nD Cert.KernelIdeal.τ).loc Cert.KernelIdeal.main_arg7)
  x8 := m ((c.tc : Thread Cert.KernelIdeal.nD Cert.KernelIdeal.τ).loc Cert.KernelIdeal.main_arg8)
  x9 := m ((c.tc : Thread Cert.KernelIdeal.nD Cert.KernelIdeal.τ).loc Cert.KernelIdeal.main_arg9)
  x10 := m ((c.tc : Thread Cert.KernelIdeal.nD Cert.KernelIdeal.τ).loc Cert.KernelIdeal.main_arg10)
  x11 := m ((c.tc : Thread Cert.KernelIdeal.nD Cert.KernelIdeal.τ).loc Cert.KernelIdeal.main_arg11)

end Cert.KernelIdeal.Run

end
-- ==== Proof.KTerm.lean ====
/- The idealized kernel program's value, stage by stage: each host operation of @main applied to the stages it reads,
  each region's output array assembled from the body's blocks, all as functions of the twelve argument arrays.
  `t_x1` is region 0's output (layer 1: 32 blocks of 128 rows) and `t_x2` region 1's (layer 2 at the 64 gathered rows:
  one block).
-/
import proofs.«428251_j16982300688849_3_alg».proof.Proof.KernelIdealFrameP
import proofs.«428251_j16982300688849_3_alg».proof.Proof.Spec

noncomputable section

namespace Cert.KernelIdeal.Term

open Idealize.ShloMosaic Idealize.ShloMosaic.ValueIdx
open Cert.KernelIdeal Cert.KernelIdeal.Gen

variable {F : FTy → Type} [FloatOps F]

/-! ## The arguments -/

def t_arg0 (A : Cert.Spec.Args F) : (⟨S4096x300, .f32⟩ : BufTy).Contents (Elt F) := A.x0
def t_arg1 (A : Cert.Spec.Args F) : (⟨S300x300, .f32⟩ : BufTy).Contents (Elt F) := A.x1
def t_arg2 (A : Cert.Spec.Args F) : (⟨S300x1, .f32⟩ : BufTy).Contents (Elt F) := A.x2
def t_arg3 (A : Cert.Spec.Args F) : (⟨S300x1, .f32⟩ : BufTy).Contents (Elt F) := A.x3
def t_arg4 (A : Cert.Spec.Args F) : (⟨S300x300, .f32⟩ : BufTy).Contents (Elt F) := A.x4
def t_arg5 (A : Cert.Spec.Args F) : (⟨S600x1, .f32⟩ : BufTy).Contents (Elt F) := A.x5
def t_arg6 (A : Cert.Spec.Args F) : (⟨S600x300, .f32⟩ : BufTy).Contents (Elt F) := A.x6
def t_arg7 (A : Cert.Spec.Args F) : (⟨S300x300, .f32⟩ : BufTy).Contents (Elt F) := A.x7
def t_arg8 (A : Cert.Spec.Args F) : (⟨S600x1, .f32⟩ : BufTy).Contents (Elt F) := A.x8
def t_arg9 (A : Cert.Spec.Args F) : (⟨S600x300, .f32⟩ : BufTy).Contents (Elt F) := A.x9
def t_arg10 (A : Cert.Spec.Args F) : (⟨S4096x4096, .i32⟩ : BufTy).Contents (Elt F) := A.x10
def t_arg11 (A : Cert.Spec.Args F) : (⟨S64, .i32⟩ : BufTy).Contents (Elt F) := A.x11

/-! ## The host operations before region 0 -/

def t_v0 (A : Cert.Spec.Args F) : (⟨S4096x300, .f32⟩ : BufTy).Contents (Elt F) :=
  (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F))) (t_arg0 A) (t_arg1 A)
def t_v1 (A : Cert.Spec.Args F) : (⟨S4096x1, .f32⟩ : BufTy).Contents (Elt F) :=
  (((fun l r => Host.dotGeneral dot_S4096x300_S300x1_S4096x1_1_0_0_1_n_n none l r) : (⟨S4096x300, .f32⟩ : BufTy).Contents (Elt F) → (⟨S300x1, .f32⟩ : BufTy).Contents (Elt F) → (⟨S4096x1, .f32⟩ : BufTy).Contents (Elt F))) (t_v0 A) (t_arg2 A)
def t_v2 (A : Cert.Spec.Args F) : (⟨S4096x1, .f32⟩ : BufTy).Contents (Elt F) :=
  (((fun l r => Host.dotGeneral dot_S4096x300_S300x1_S4096x1_1_0_0_1_n_n none l r) : (⟨S4096x300, .f32⟩ : BufTy).Contents (Elt F) → (⟨S300x1, .f32⟩ : BufTy).Contents (Elt F) → (⟨S4096x1, .f32⟩ : BufTy).Contents (Elt F))) (t_v0 A) (t_arg3 A)
def t_v3 (A : Cert.Spec.Args F) : (⟨S4096x2, .f32⟩ : BufTy).Contents (Elt F) :=
  (((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F))) (t_v1 A) (t_v2 A)
def t_v4 (A : Cert.Spec.Args F) : (⟨S300x1, .f32⟩ : BufTy).Contents (Elt F) :=
  (((extractStridedSlice S300x1 ![0, 0] · slices_S600x1_S300x1_0_0) : (⟨S600x1, .f32⟩ : BufTy).Contents (Elt F) → (⟨S300x1, .f32⟩ : BufTy).Contents (Elt F))) (t_arg5 A)
def t_v5 (A : Cert.Spec.Args F) : (⟨S300x1, .f32⟩ : BufTy).Contents (Elt F) :=
  (((fun l r => Host.dotGeneral dot_S300x300_S300x1_S300x1_1_0_0_1_n_n (some .fp32) l r) : (⟨S300x300, .f32⟩ : BufTy).Contents (Elt F) → (⟨S300x1, .f32⟩ : BufTy).Contents (Elt F) → (⟨S300x1, .f32⟩ : BufTy).Contents (Elt F))) (t_arg4 A) (t_v4 A)
def t_v6 (A : Cert.Spec.Args F) : (⟨S300x1, .f32⟩ : BufTy).Contents (Elt F) :=
  (((extractStridedSlice S300x1 ![300, 0] · slices_S600x1_S300x1_300_0) : (⟨S600x1, .f32⟩ : BufTy).Contents (Elt F) → (⟨S300x1, .f32⟩ : BufTy).Contents (Elt F))) (t_arg5 A)
def t_v7 (A : Cert.Spec.Args F) : (⟨S300x1, .f32⟩ : BufTy).Contents (Elt F) :=
  (((fun l r => Host.dotGeneral dot_S300x300_S300x1_S300x1_1_0_0_1_n_n (some .fp32) l r) : (⟨S300x300, .f32⟩ : BufTy).Contents (Elt F) → (⟨S300x1, .f32⟩ : BufTy).Contents (Elt F) → (⟨S300x1, .f32⟩ : BufTy).Contents (Elt F))) (t_arg4 A) (t_v6 A)
def t_v8 (A : Cert.Spec.Args F) : (⟨S300x2, .f32⟩ : BufTy).Contents (Elt F) :=
  (((fun a b => concatenate S300x2 1 [⟨S300x1, a⟩, ⟨S300x1, b⟩] concatenates_S300x1_S300x1_S300x2_d1) : (⟨S300x1, .f32⟩ : BufTy).Contents (Elt F) → (⟨S300x1, .f32⟩ : BufTy).Contents (Elt F) → (⟨S300x2, .f32⟩ : BufTy).Contents (Elt F))) (t_v5 A) (t_v7 A)
def t_v9 (A : Cert.Spec.Args F) : (⟨S300x1, .f32⟩ : BufTy).Contents (Elt F) :=
  (((extractStridedSlice S300x1 ![0, 0] · slices_S600x1_S300x1_0_0) : (⟨S600x1, .f32⟩ : BufTy).Contents (Elt F) → (⟨S300x1, .f32⟩ : BufTy).Contents (Elt F))) (t_arg8 A)
def t_v10 (A : Cert.Spec.Args F) : (⟨S300x1, .f32⟩ : BufTy).Contents (Elt F) :=
  (((fun l r => Host.dotGeneral dot_S300x300_S300x1_S300x1_1_0_0_1_n_n (some .fp32) l r) : (⟨S300x300, .f32⟩ : BufTy).Contents (Elt F) → (⟨S300x1, .f32⟩ : BufTy).Contents (Elt F) → (⟨S300x1, .f32⟩ : BufTy).Contents (Elt F))) (t_arg7 A) (t_v9 A)
def t_v11 (A : Cert.Spec.Args F) : (⟨S300x1, .f32⟩ : BufTy).Contents (Elt F) :=
  (((extractStridedSlice S300x1 ![300, 0] · slices_S600x1_S300x1_300_0) : (⟨S600x1, .f32⟩ : BufTy).Contents (Elt F) → (⟨S300x1, .f32⟩ : BufTy).Contents (Elt F))) (t_arg8 A)
def t_v12 (A : Cert.Spec.Args F) : (⟨S300x1, .f32⟩ : BufTy).Contents (Elt F) :=
  (((fun l r => Host.dotGeneral dot_S300x300_S300x1_S300x1_1_0_0_1_n_n (some .fp32) l r) : (⟨S300x300, .f32⟩ : BufTy).Contents (Elt F) → (⟨S300x1, .f32⟩ : BufTy).Contents (Elt F) → (⟨S300x1, .f32⟩ : BufTy).Contents (Elt F))) (t_arg7 A) (t_v11 A)
def t_v13 (A : Cert.Spec.Args F) : (⟨S300x2, .f32⟩ : BufTy).Contents (Elt F) :=
  (((fun a b => concatenate S300x2 1 [⟨S300x1, a⟩, ⟨S300x1, b⟩] concatenates_S300x1_S300x1_S300x2_d1) : (⟨S300x1, .f32⟩ : BufTy).Contents (Elt F) → (⟨S300x1, .f32⟩ : BufTy).Contents (Elt F) → (⟨S300x2, .f32⟩ : BufTy).Contents (Elt F))) (t_v10 A) (t_v12 A)
def t_v14 (A : Cert.Spec.Args F) : (⟨S4096x1, .f32⟩ : BufTy).Contents (Elt F) :=
  (((extractStridedSlice S4096x1 ![0, 0] · slices_S4096x2_S4096x1_0_0) : (⟨S4096x2, .f32⟩ : BufTy).Contents (Elt F) → (⟨S4096x1, .f32⟩ : BufTy).Contents (Elt F))) (t_v3 A)
def t_v15 (A : Cert.Spec.Args F) : (⟨S4096x1, .f32⟩ : BufTy).Contents (Elt F) :=
  (((extractStridedSlice S4096x1 ![0, 1] · slices_S4096x2_S4096x1_0_1) : (⟨S4096x2, .f32⟩ : BufTy).Contents (Elt F) → (⟨S4096x1, .f32⟩ : BufTy).Contents (Elt F))) (t_v3 A)
def t_v16 (A : Cert.Spec.Args F) : (⟨S1x4096, .f32⟩ : BufTy).Contents (Elt F) :=
  (((transpose S1x4096 [1, 0] · transposes_S4096x1_S1x4096_1_0) : (⟨S4096x1, .f32⟩ : BufTy).Contents (Elt F) → (⟨S1x4096, .f32⟩ : BufTy).Contents (Elt F))) (t_v15 A)
def t_v17 (A : Cert.Spec.Args F) : (⟨S4096x2, .f32⟩ : BufTy).Contents (Elt F) :=
  (((fun l r => Host.dotGeneral dot_S4096x300_S300x2_S4096x2_1_0_0_1_n_n (some .fp32) l r) : (⟨S4096x300, .f32⟩ : BufTy).Contents (Elt F) → (⟨S300x2, .f32⟩ : BufTy).Contents (Elt F) → (⟨S4096x2, .f32⟩ : BufTy).Contents (Elt F))) (t_arg0 A) (t_v8 A)
def t_v18 (A : Cert.Spec.Args F) : (⟨S4096x1, .f32⟩ : BufTy).Contents (Elt F) :=
  (((extractStridedSlice S4096x1 ![0, 0] · slices_S4096x2_S4096x1_0_0) : (⟨S4096x2, .f32⟩ : BufTy).Contents (Elt F) → (⟨S4096x1, .f32⟩ : BufTy).Contents (Elt F))) (t_v17 A)
def t_v19 (A : Cert.Spec.Args F) : (⟨S4096x1, .f32⟩ : BufTy).Contents (Elt F) :=
  (((extractStridedSlice S4096x1 ![0, 1] · slices_S4096x2_S4096x1_0_1) : (⟨S4096x2, .f32⟩ : BufTy).Contents (Elt F) → (⟨S4096x1, .f32⟩ : BufTy).Contents (Elt F))) (t_v17 A)
def t_v20 (A : Cert.Spec.Args F) : (⟨S1x4096, .f32⟩ : BufTy).Contents (Elt F) :=
  (((transpose S1x4096 [1, 0] · transposes_S4096x1_S1x4096_1_0) : (⟨S4096x1, .f32⟩ : BufTy).Contents (Elt F) → (⟨S1x4096, .f32⟩ : BufTy).Contents (Elt F))) (t_v19 A)
def t_v21 (A : Cert.Spec.Args F) : (⟨S300x300, .f32⟩ : BufTy).Contents (Elt F) :=
  (((extractStridedSlice S300x300 ![0, 0] · slices_S600x300_S300x300_0_0) : (⟨S600x300, .f32⟩ : BufTy).Contents (Elt F) → (⟨S300x300, .f32⟩ : BufTy).Contents (Elt F))) (t_arg6 A)
def t_v22 (A : Cert.Spec.Args F) : (⟨S300x300, .f32⟩ : BufTy).Contents (Elt F) :=
  (((extractStridedSlice S300x300 ![300, 0] · slices_S600x300_S300x300_300_0) : (⟨S600x300, .f32⟩ : BufTy).Contents (Elt F) → (⟨S300x300, .f32⟩ : BufTy).Contents (Elt F))) (t_arg6 A)

/-! ## Region 0: layer 1 -/

/-- Rows `128·t … 128·t + 127` of a 4096-row column. -/
def rows128 (x : Vec F S4096x1 .f32) (t : Nat) : Vec F S128x1 .f32 :=
  fun y => x (ix2 ⟨(128 * t + (y 0).val) % 4096, Nat.mod_lt _ (by decide)⟩ ⟨0, by decide⟩)
/-- Rows `128·t … 128·t + 127` of the adjacency matrix. -/
def rows128adj (x : Vec F S4096x4096 .i32) (t : Nat) : Vec F S128x4096 .i32 :=
  fun y => x (ix2 ⟨(128 * t + (y 0).val) % 4096, Nat.mod_lt _ (by decide)⟩ ⟨(y 1).val, idx2_lt1 y⟩)

/-- Layer 1's output: row `i` lies in block `i / 128` at local row `i % 128`, and the block is the body's result on
    that block's rows of the column inputs and of the adjacency matrix, the row inputs and tables whole. -/
def t_x1 (A : Cert.Spec.Args F) : (⟨S4096x300, .f32⟩ : BufTy).Contents (Elt F) := fun i =>
  Cert.KernelIdeal.GenP.out0_8 (rows128 (t_v14 A) ((i 0).val / 128)) (t_v16 A) (rows128 (t_v18 A) ((i 0).val / 128)) (t_v20 A)
    (rows128adj (t_arg10 A) ((i 0).val / 128)) (t_arg0 A) (t_v21 A) (t_v22 A)
    (ix2 ⟨(i 0).val % 128, Nat.mod_lt _ (by decide)⟩ ⟨(i 1).val, idx2_lt1 i⟩)
/-- The same under the name the later operations read it by. -/
def t_v23 (A : Cert.Spec.Args F) : (⟨S4096x300, .f32⟩ : BufTy).Contents (Elt F) := t_x1 A

/-! ## The host operations between the regions -/

def t_v24 (A : Cert.Spec.Args F) : (⟨S4096x2, .f32⟩ : BufTy).Contents (Elt F) :=
  (((fun l r => Host.dotGeneral dot_S4096x300_S300x2_S4096x2_1_0_0_1_n_n (some .fp32) l r) : (⟨S4096x300, .f32⟩ : BufTy).Contents (Elt F) → (⟨S300x2, .f32⟩ : BufTy).Contents (Elt F) → (⟨S4096x2, .f32⟩ : BufTy).Contents (Elt F))) (t_v23 A) (t_v13 A)
def t_c (A : Cert.Spec.Args F) : (⟨S_, .i32⟩ : BufTy).Contents (Elt F) :=
  ((constantI S_ 32 0#32))
def t_v25 (A : Cert.Spec.Args F) : (⟨S64, .i32⟩ : BufTy).Contents (Elt F) :=
  ((broadcastInDim S64 ![] bcast_S_S64 : (⟨S_, .i32⟩ : BufTy).Contents (Elt F) → (⟨S64, .i32⟩ : BufTy).Contents (Elt F))) (t_c A)
def t_v26 (A : Cert.Spec.Args F) : (⟨S64, .i1⟩ : BufTy).Contents (Elt F) :=
  ((cmpi .slt : (⟨S64, .i32⟩ : BufTy).Contents (Elt F) → (⟨S64, .i32⟩ : BufTy).Contents (Elt F) → (⟨S64, .i1⟩ : BufTy).Contents (Elt F))) (t_arg11 A) (t_v25 A)
def t_c_0 (A : Cert.Spec.Args F) : (⟨S_, .i32⟩ : BufTy).Contents (Elt F) :=
  ((constantI S_ 32 4096#32))
def t_v27 (A : Cert.Spec.Args F) : (⟨S64, .i32⟩ : BufTy).Contents (Elt F) :=
  ((broadcastInDim S64 ![] bcast_S_S64 : (⟨S_, .i32⟩ : BufTy).Contents (Elt F) → (⟨S64, .i32⟩ : BufTy).Contents (Elt F))) (t_c_0 A)
def t_v28 (A : Cert.Spec.Args F) : (⟨S64, .i32⟩ : BufTy).Contents (Elt F) :=
  ((addi : (⟨S64, .i32⟩ : BufTy).Contents (Elt F) → (⟨S64, .i32⟩ : BufTy).Contents (Elt F) → (⟨S64, .i32⟩ : BufTy).Contents (Elt F))) (t_arg11 A) (t_v27 A)
def t_v29 (A : Cert.Spec.Args F) : (⟨S64, .i32⟩ : BufTy).Contents (Elt F) :=
  ((select : (⟨S64, .i1⟩ : BufTy).Contents (Elt F) → (⟨S64, .i32⟩ : BufTy).Contents (Elt F) → (⟨S64, .i32⟩ : BufTy).Contents (Elt F) → (⟨S64, .i32⟩ : BufTy).Contents (Elt F))) (t_v26 A) (t_v28 A) (t_arg11 A)
def t_v30 (A : Cert.Spec.Args F) : (⟨S64x1, .i32⟩ : BufTy).Contents (Elt F) :=
  ((broadcastInDim S64x1 ![0] bcast_S64_S64x1_0 : (⟨S64, .i32⟩ : BufTy).Contents (Elt F) → (⟨S64x1, .i32⟩ : BufTy).Contents (Elt F))) (t_v29 A)
def t_c_1 (A : Cert.Spec.Args F) : (⟨S_, .i32⟩ : BufTy).Contents (Elt F) :=
  ((constantI S_ 32 0#32))
def t_v31 (A : Cert.Spec.Args F) : (⟨S64x1, .i32⟩ : BufTy).Contents (Elt F) :=
  ((broadcastInDim S64x1 ![] bcast_S_S64x1 : (⟨S_, .i32⟩ : BufTy).Contents (Elt F) → (⟨S64x1, .i32⟩ : BufTy).Contents (Elt F))) (t_c_1 A)
def t_v32 (A : Cert.Spec.Args F) : (⟨S64x2, .i32⟩ : BufTy).Contents (Elt F) :=
  (((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))) (t_v30 A) (t_v31 A)
def t_v33 (A : Cert.Spec.Args F) : (⟨S64x1, .f32⟩ : BufTy).Contents (Elt F) :=
  (((fun x i => Host.gather gather_S4096x2_S64x2_S64x1_1_0_n_n_01_1_11 x i) : (⟨S4096x2, .f32⟩ : BufTy).Contents (Elt F) → (⟨S64x2, .i32⟩ : BufTy).Contents (Elt F) → (⟨S64x1, .f32⟩ : BufTy).Contents (Elt F))) (t_v3 A) (t_v32 A)
def t_c_2 (A : Cert.Spec.Args F) : (⟨S_, .i32⟩ : BufTy).Contents (Elt F) :=
  ((constantI S_ 32 0#32))
def t_v34 (A : Cert.Spec.Args F) : (⟨S64, .i32⟩ : BufTy).Contents (Elt F) :=
  ((broadcastInDim S64 ![] bcast_S_S64 : (⟨S_, .i32⟩ : BufTy).Contents (Elt F) → (⟨S64, .i32⟩ : BufTy).Contents (Elt F))) (t_c_2 A)
def t_v35 (A : Cert.Spec.Args F) : (⟨S64, .i1⟩ : BufTy).Contents (Elt F) :=
  ((cmpi .slt : (⟨S64, .i32⟩ : BufTy).Contents (Elt F) → (⟨S64, .i32⟩ : BufTy).Contents (Elt F) → (⟨S64, .i1⟩ : BufTy).Contents (Elt F))) (t_arg11 A) (t_v34 A)
def t_c_3 (A : Cert.Spec.Args F) : (⟨S_, .i32⟩ : BufTy).Contents (Elt F) :=
  ((constantI S_ 32 4096#32))
def t_v36 (A : Cert.Spec.Args F) : (⟨S64, .i32⟩ : BufTy).Contents (Elt F) :=
  ((broadcastInDim S64 ![] bcast_S_S64 : (⟨S_, .i32⟩ : BufTy).Contents (Elt F) → (⟨S64, .i32⟩ : BufTy).Contents (Elt F))) (t_c_3 A)
def t_v37 (A : Cert.Spec.Args F) : (⟨S64, .i32⟩ : BufTy).Contents (Elt F) :=
  ((addi : (⟨S64, .i32⟩ : BufTy).Contents (Elt F) → (⟨S64, .i32⟩ : BufTy).Contents (Elt F) → (⟨S64, .i32⟩ : BufTy).Contents (Elt F))) (t_arg11 A) (t_v36 A)
def t_v38 (A : Cert.Spec.Args F) : (⟨S64, .i32⟩ : BufTy).Contents (Elt F) :=
  ((select : (⟨S64, .i1⟩ : BufTy).Contents (Elt F) → (⟨S64, .i32⟩ : BufTy).Contents (Elt F) → (⟨S64, .i32⟩ : BufTy).Contents (Elt F) → (⟨S64, .i32⟩ : BufTy).Contents (Elt F))) (t_v35 A) (t_v37 A) (t_arg11 A)
def t_v39 (A : Cert.Spec.Args F) : (⟨S64x1, .i32⟩ : BufTy).Contents (Elt F) :=
  ((broadcastInDim S64x1 ![0] bcast_S64_S64x1_0 : (⟨S64, .i32⟩ : BufTy).Contents (Elt F) → (⟨S64x1, .i32⟩ : BufTy).Contents (Elt F))) (t_v38 A)
def t_v40 (A : Cert.Spec.Args F) : (⟨S64x4096, .i32⟩ : BufTy).Contents (Elt F) :=
  (((fun x i => Host.gather gather_S4096x4096_S64x1_S64x4096_1_0_n_n_0_1_14096 x i) : (⟨S4096x4096, .i32⟩ : BufTy).Contents (Elt F) → (⟨S64x1, .i32⟩ : BufTy).Contents (Elt F) → (⟨S64x4096, .i32⟩ : BufTy).Contents (Elt F))) (t_arg10 A) (t_v39 A)
def t_c_4 (A : Cert.Spec.Args F) : (⟨S_, .i32⟩ : BufTy).Contents (Elt F) :=
  ((constantI S_ 32 0#32))
def t_v41 (A : Cert.Spec.Args F) : (⟨S64, .i32⟩ : BufTy).Contents (Elt F) :=
  ((broadcastInDim S64 ![] bcast_S_S64 : (⟨S_, .i32⟩ : BufTy).Contents (Elt F) → (⟨S64, .i32⟩ : BufTy).Contents (Elt F))) (t_c_4 A)
def t_v42 (A : Cert.Spec.Args F) : (⟨S64, .i1⟩ : BufTy).Contents (Elt F) :=
  ((cmpi .slt : (⟨S64, .i32⟩ : BufTy).Contents (Elt F) → (⟨S64, .i32⟩ : BufTy).Contents (Elt F) → (⟨S64, .i1⟩ : BufTy).Contents (Elt F))) (t_arg11 A) (t_v41 A)
def t_c_5 (A : Cert.Spec.Args F) : (⟨S_, .i32⟩ : BufTy).Contents (Elt F) :=
  ((constantI S_ 32 4096#32))
def t_v43 (A : Cert.Spec.Args F) : (⟨S64, .i32⟩ : BufTy).Contents (Elt F) :=
  ((broadcastInDim S64 ![] bcast_S_S64 : (⟨S_, .i32⟩ : BufTy).Contents (Elt F) → (⟨S64, .i32⟩ : BufTy).Contents (Elt F))) (t_c_5 A)
def t_v44 (A : Cert.Spec.Args F) : (⟨S64, .i32⟩ : BufTy).Contents (Elt F) :=
  ((addi : (⟨S64, .i32⟩ : BufTy).Contents (Elt F) → (⟨S64, .i32⟩ : BufTy).Contents (Elt F) → (⟨S64, .i32⟩ : BufTy).Contents (Elt F))) (t_arg11 A) (t_v43 A)
def t_v45 (A : Cert.Spec.Args F) : (⟨S64, .i32⟩ : BufTy).Contents (Elt F) :=
  ((select : (⟨S64, .i1⟩ : BufTy).Contents (Elt F) → (⟨S64, .i32⟩ : BufTy).Contents (Elt F) → (⟨S64, .i32⟩ : BufTy).Contents (Elt F) → (⟨S64, .i32⟩ : BufTy).Contents (Elt F))) (t_v42 A) (t_v44 A) (t_arg11 A)
def t_v46 (A : Cert.Spec.Args F) : (⟨S64x1, .i32⟩ : BufTy).Contents (Elt F) :=
  ((broadcastInDim S64x1 ![0] bcast_S64_S64x1_0 : (⟨S64, .i32⟩ : BufTy).Contents (Elt F) → (⟨S64x1, .i32⟩ : BufTy).Contents (Elt F))) (t_v45 A)
def t_c_6 (A : Cert.Spec.Args F) : (⟨S_, .i32⟩ : BufTy).Contents (Elt F) :=
  ((constantI S_ 32 0#32))
def t_v47 (A : Cert.Spec.Args F) : (⟨S64x1, .i32⟩ : BufTy).Contents (Elt F) :=
  ((broadcastInDim S64x1 ![] bcast_S_S64x1 : (⟨S_, .i32⟩ : BufTy).Contents (Elt F) → (⟨S64x1, .i32⟩ : BufTy).Contents (Elt F))) (t_c_6 A)
def t_v48 (A : Cert.Spec.Args F) : (⟨S64x2, .i32⟩ : BufTy).Contents (Elt F) :=
  (((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))) (t_v46 A) (t_v47 A)
def t_v49 (A : Cert.Spec.Args F) : (⟨S64x1, .f32⟩ : BufTy).Contents (Elt F) :=
  (((fun x i => Host.gather gather_S4096x2_S64x2_S64x1_1_0_n_n_01_1_11 x i) : (⟨S4096x2, .f32⟩ : BufTy).Contents (Elt F) → (⟨S64x2, .i32⟩ : BufTy).Contents (Elt F) → (⟨S64x1, .f32⟩ : BufTy).Contents (Elt F))) (t_v24 A) (t_v48 A)
def t_v50 (A : Cert.Spec.Args F) : (⟨S4096x1, .f32⟩ : BufTy).Contents (Elt F) :=
  (((extractStridedSlice S4096x1 ![0, 1] · slices_S4096x2_S4096x1_0_1) : (⟨S4096x2, .f32⟩ : BufTy).Contents (Elt F) → (⟨S4096x1, .f32⟩ : BufTy).Contents (Elt F))) (t_v24 A)
def t_v51 (A : Cert.Spec.Args F) : (⟨S1x4096, .f32⟩ : BufTy).Contents (Elt F) :=
  (((transpose S1x4096 [1, 0] · transposes_S4096x1_S1x4096_1_0) : (⟨S4096x1, .f32⟩ : BufTy).Contents (Elt F) → (⟨S1x4096, .f32⟩ : BufTy).Contents (Elt F))) (t_v50 A)
def t_v52 (A : Cert.Spec.Args F) : (⟨S300x300, .f32⟩ : BufTy).Contents (Elt F) :=
  (((extractStridedSlice S300x300 ![0, 0] · slices_S600x300_S300x300_0_0) : (⟨S600x300, .f32⟩ : BufTy).Contents (Elt F) → (⟨S300x300, .f32⟩ : BufTy).Contents (Elt F))) (t_arg9 A)
def t_v53 (A : Cert.Spec.Args F) : (⟨S300x300, .f32⟩ : BufTy).Contents (Elt F) :=
  (((extractStridedSlice S300x300 ![300, 0] · slices_S600x300_S300x300_300_0) : (⟨S600x300, .f32⟩ : BufTy).Contents (Elt F) → (⟨S300x300, .f32⟩ : BufTy).Contents (Elt F))) (t_arg9 A)

/-! ## Region 1: layer 2 at the gathered rows -/

/-- Layer 2's output: one block, the body's result on the whole gathered inputs. -/
def t_x2 (A : Cert.Spec.Args F) : (⟨S64x300, .f32⟩ : BufTy).Contents (Elt F) :=
  Cert.KernelIdeal.GenP.out1_8 (t_v33 A) (t_v16 A) (t_v49 A) (t_v51 A) (t_v40 A) (t_v23 A) (t_v52 A) (t_v53 A)

end Cert.KernelIdeal.Term

end
-- ==== Proof.KPlumb.lean ====
/-
  The last boundary's contents of the result buffer, read back through the frame's fold: region 1's one block over the
  operations between the regions over region 0's thirty-two blocks over the operations before it — the stage term
  `Term.t_x2` of the argument arrays.
-/
import proofs.«428251_j16982300688849_3_alg».proof.Proof.KRun
import proofs.«428251_j16982300688849_3_alg».proof.Proof.KTerm
import Idealize.ShloMosaic.Lib.Pipeline.Value

noncomputable section

namespace Cert.KernelIdeal.Plumb

open Idealize.ShloMosaic Idealize.ShloMosaic.TcCoe Idealize.SL.Sem Idealize.ShloMosaic.ValueIdx
open Cert.KernelIdeal Cert.KernelIdeal.Gen Cert.KernelIdeal.GenP Cert.KernelIdeal.Run

variable {F : FTy → Type} [FloatOps F]
variable (m : (ℓ : Loc nD τ sig) → Buf (Elt F) ℓ) (ρ : Dev nD → PrngReg)

/-! ## Region 1: one grid point, every block the whole array -/

section Region1
variable (V : (c : Dev nD) → (b : Ref sig .tc) → Buf (Elt F) ((c : Thread nD τ).loc b))

/-- Window 0's one block is its whole array: the block index is zero on both axes. -/
theorem blk1_0 (c : Dev nD) (t : Fin cfg1.N) : iblk1 V c 0 t = V c main_v33 := by
  obtain rfl := fin_N1 t
  unfold iblk1
  have hz : (fun a => win1_0.index t1_0 a * main_v33.ty.shape.size a) = fun _ => 0 := funext fun a => by fin_cases a <;> decide +kernel
  exact Memref.read_access_unit_zero (Elt F) main_v33 hz (fun a => by rw [congrFun hz a]; simp) (V c main_v33)
/-- Window 1's one block is its whole array: the block index is zero on both axes. -/
theorem blk1_1 (c : Dev nD) (t : Fin cfg1.N) : iblk1 V c 1 t = V c main_v16 := by
  obtain rfl := fin_N1 t
  unfold iblk1
  have hz : (fun a => win1_1.index t1_0 a * main_v16.ty.shape.size a) = fun _ => 0 := funext fun a => by fin_cases a <;> decide +kernel
  exact Memref.read_access_unit_zero (Elt F) main_v16 hz (fun a => by rw [congrFun hz a]; simp) (V c main_v16)
/-- Window 2's one block is its whole array: the block index is zero on both axes. -/
theorem blk1_2 (c : Dev nD) (t : Fin cfg1.N) : iblk1 V c 2 t = V c main_v49 := by
  obtain rfl := fin_N1 t
  unfold iblk1
  have hz : (fun a => win1_2.index t1_0 a * main_v49.ty.shape.size a) = fun _ => 0 := funext fun a => by fin_cases a <;> decide +kernel
  exact Memref.read_access_unit_zero (Elt F) main_v49 hz (fun a => by rw [congrFun hz a]; simp) (V c main_v49)
/-- Window 3's one block is its whole array: the block index is zero on both axes. -/
theorem blk1_3 (c : Dev nD) (t : Fin cfg1.N) : iblk1 V c 3 t = V c main_v51 := by
  obtain rfl := fin_N1 t
  unfold iblk1
  have hz : (fun a => win1_3.index t1_0 a * main_v51.ty.shape.size a) = fun _ => 0 := funext fun a => by fin_cases a <;> decide +kernel
  exact Memref.read_access_unit_zero (Elt F) main_v51 hz (fun a => by rw [congrFun hz a]; simp) (V c main_v51)
/-- Window 4's one block is its whole array: the block index is zero on both axes. -/
theorem blk1_4 (c : Dev nD) (t : Fin cfg1.N) : iblk1 V c 4 t = V c main_v40 := by
  obtain rfl := fin_N1 t
  unfold iblk1
  have hz : (fun a => win1_4.index t1_0 a * main_v40.ty.shape.size a) = fun _ => 0 := funext fun a => by fin_cases a <;> decide +kernel
  exact Memref.read_access_unit_zero (Elt F) main_v40 hz (fun a => by rw [congrFun hz a]; simp) (V c main_v40)
/-- Window 5's one block is its whole array: the block index is zero on both axes. -/
theorem blk1_5 (c : Dev nD) (t : Fin cfg1.N) : iblk1 V c 5 t = V c main_v23 := by
  obtain rfl := fin_N1 t
  unfold iblk1
  have hz : (fun a => win1_5.index t1_0 a * main_v23.ty.shape.size a) = fun _ => 0 := funext fun a => by fin_cases a <;> decide +kernel
  exact Memref.read_access_unit_zero (Elt F) main_v23 hz (fun a => by rw [congrFun hz a]; simp) (V c main_v23)
/-- Window 6's one block is its whole array: the block index is zero on both axes. -/
theorem blk1_6 (c : Dev nD) (t : Fin cfg1.N) : iblk1 V c 6 t = V c main_v52 := by
  obtain rfl := fin_N1 t
  unfold iblk1
  have hz : (fun a => win1_6.index t1_0 a * main_v52.ty.shape.size a) = fun _ => 0 := funext fun a => by fin_cases a <;> decide +kernel
  exact Memref.read_access_unit_zero (Elt F) main_v52 hz (fun a => by rw [congrFun hz a]; simp) (V c main_v52)
/-- Window 7's one block is its whole array: the block index is zero on both axes. -/
theorem blk1_7 (c : Dev nD) (t : Fin cfg1.N) : iblk1 V c 7 t = V c main_v53 := by
  obtain rfl := fin_N1 t
  unfold iblk1
  have hz : (fun a => win1_7.index t1_0 a * main_v53.ty.shape.size a) = fun _ => 0 := funext fun a => by fin_cases a <;> decide +kernel
  exact Memref.read_access_unit_zero (Elt F) main_v53 hz (fun a => by rw [congrFun hz a]; simp) (V c main_v53)

/-- The region's result array after its one write-back: the body's result on the whole input arrays. -/
theorem region1_arr (c : Dev nD) :
    (dat1 V c).arrAt 8 cfg1.N = out1_8 (V c main_v33) (V c main_v16) (V c main_v49) (V c main_v51) (V c main_v40) (V c main_v23) (V c main_v52) (V c main_v53) := by
  refine (dat1 V c).arrAt_eq_of_cover 8 _ (fun t _ => ?_) (fun i => ⟨t1_0, flush1_8 t1_0, ?_⟩)
  · obtain rfl := fin_N1 t
    show (cfg1.win 8).cut (grid1.coords t1_0) ((dat1 V c).after 8 t1_0) = _
    rw [after1_8, blk1_0, blk1_1, blk1_2, blk1_3, blk1_4, blk1_5, blk1_6, blk1_7]
    have hz : (fun a => win1_8.index t1_0 a * main_v54.ty.shape.size a) = fun _ => 0 := funext fun a => by fin_cases a <;> decide +kernel
    exact (Memref.read_access_unit_zero (Elt F) main_v54 hz (fun a => by rw [congrFun hz a]; simp) _).symm
  · show i ∈ ((View.whole main_v54).slice (win1_8.rect t1_0)).set
    rw [View.set_slice_whole, Rect.mem_set_unit]
    intro a
    have h0 : (i 0 : Nat) < 64 := (i 0).isLt
    have h1 : (i 1 : Nat) < 300 := (i 1).isLt
    match a with
    | ⟨0, _⟩ =>
      show win1_8.index t1_0 0 * win1_8.size 0 ≤ (i 0 : Nat) ∧ (i 0 : Nat) < win1_8.index t1_0 0 * win1_8.size 0 + win1_8.xsize (grid1.coords t1_0) 0
      rw [show win1_8.index t1_0 0 * win1_8.size 0 = 0 from by decide +kernel, show win1_8.xsize (grid1.coords t1_0) 0 = 64 from by decide +kernel]; omega
    | ⟨1, _⟩ =>
      show win1_8.index t1_0 1 * win1_8.size 1 ≤ (i 1 : Nat) ∧ (i 1 : Nat) < win1_8.index t1_0 1 * win1_8.size 1 + win1_8.xsize (grid1.coords t1_0) 1
      rw [show win1_8.index t1_0 1 * win1_8.size 1 = 0 from by decide +kernel, show win1_8.xsize (grid1.coords t1_0) 1 = 300 from by decide +kernel]; omega

end Region1

/-! ## Region 0: thirty-two grid points, point `t` on rows `128·t … 128·t + 127` -/

section Region0
variable (V : (c : Dev nD) → (b : Ref sig .tc) → Buf (Elt F) ((c : Thread nD τ).loc b))

/-- The printed index maps over the grid: the two column windows, the adjacency window and the output take block `t` of
    rows at point `t`; every other window takes block 0; and no window moves along the second axis. -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- A grid point is below 32. -/
theorem pt_lt (t : Fin cfg0.N) : t.val < 32 := by
  have h : t.val < grid0.N := t.isLt
  rw [N_0] at h; exact h

/-- Window 0's block at point `t`: rows `128·t …` of its column. -/
theorem blk0_0 (c : Dev nD) (t : Fin cfg0.N) : iblk0 V c 0 t = Term.rows128 (V c main_v14) t.val := by
  obtain ⟨⟨e0, e1⟩, -, -, -, -, -, -, -, -⟩ := idx0 t
  have ht := pt_lt t
  funext y
  have hy0 : (y 0).val < 128 := (y 0).isLt
  have hy1 : (y 1).val < 1 := (y 1).isLt
  show (V c main_v14 : S4096x1.Idx → Elt F .f32) (((cfg0.win 0).blk t).view.emb y)
    = (V c main_v14 : S4096x1.Idx → Elt F .f32) (ix2 ⟨(128 * t.val + (y 0).val) % 4096, Nat.mod_lt _ (by decide)⟩ ⟨0, by decide⟩)
  refine congrArg (V c main_v14 : S4096x1.Idx → Elt F .f32) (funext fun a => Fin.ext ?_)
  match a with
  | ⟨0, _⟩ => show win0_0.index t (0 : Fin 2) * 128 + 1 * (y 0).val = (128 * t.val + (y 0).val) % 4096; rw [e0]; omega
  | ⟨1, _⟩ => show win0_0.index t (1 : Fin 2) * 1 + 1 * (y 1).val = 0; rw [e1]; omega

/-- Window 2's block at point `t`: rows `128·t …` of its column. -/
theorem blk0_2 (c : Dev nD) (t : Fin cfg0.N) : iblk0 V c 2 t = Term.rows128 (V c main_v18) t.val := by
  obtain ⟨-, -, ⟨e0, e1⟩, -, -, -, -, -, -⟩ := idx0 t
  have ht := pt_lt t
  funext y
  have hy0 : (y 0).val < 128 := (y 0).isLt
  have hy1 : (y 1).val < 1 := (y 1).isLt
  show (V c main_v18 : S4096x1.Idx → Elt F .f32) (((cfg0.win 2).blk t).view.emb y)
    = (V c main_v18 : S4096x1.Idx → Elt F .f32) (ix2 ⟨(128 * t.val + (y 0).val) % 4096, Nat.mod_lt _ (by decide)⟩ ⟨0, by decide⟩)
  refine congrArg (V c main_v18 : S4096x1.Idx → Elt F .f32) (funext fun a => Fin.ext ?_)
  match a with
  | ⟨0, _⟩ => show win0_2.index t (0 : Fin 2) * 128 + 1 * (y 0).val = (128 * t.val + (y 0).val) % 4096; rw [e0]; omega
  | ⟨1, _⟩ => show win0_2.index t (1 : Fin 2) * 1 + 1 * (y 1).val = 0; rw [e1]; omega

/-- Window 4's block at point `t`: rows `128·t …` of the adjacency matrix. -/
theorem blk0_4 (c : Dev nD) (t : Fin cfg0.N) : iblk0 V c 4 t = Term.rows128adj (V c main_arg10) t.val := by
  obtain ⟨-, -, -, -, ⟨e0, e1⟩, -, -, -, -⟩ := idx0 t
  have ht := pt_lt t
  funext y
  have hy0 : (y 0).val < 128 := (y 0).isLt
  have hy1 : (y 1).val < 4096 := (y 1).isLt
  show (V c main_arg10 : S4096x4096.Idx → Elt F .i32) (((cfg0.win 4).blk t).view.emb y)
    = (V c main_arg10 : S4096x4096.Idx → Elt F .i32) (ix2 ⟨(128 * t.val + (y 0).val) % 4096, Nat.mod_lt _ (by decide)⟩ ⟨(y 1).val, hy1⟩)
  refine congrArg (V c main_arg10 : S4096x4096.Idx → Elt F .i32) (funext fun a => Fin.ext ?_)
  match a with
  | ⟨0, _⟩ => show win0_4.index t (0 : Fin 2) * 128 + 1 * (y 0).val = (128 * t.val + (y 0).val) % 4096; rw [e0]; omega
  | ⟨1, _⟩ => show win0_4.index t (1 : Fin 2) * 4096 + 1 * (y 1).val = (y 1).val; rw [e1]; omega

/-- Window 1's block at every point is its whole array: the block index is zero on both axes. -/
theorem blk0_1 (c : Dev nD) (t : Fin cfg0.N) : iblk0 V c 1 t = V c main_v16 := by
  obtain ⟨-, ⟨e0, e1⟩, -, -, -, -, -, -, -⟩ := idx0 t
  unfold iblk0
  have hz : (fun a => win0_1.index t a * main_v16.ty.shape.size a) = fun _ => 0 := funext fun a => by
    match a with
    | ⟨0, _⟩ => show win0_1.index t (0 : Fin 2) * _ = 0; rw [e0]; exact Nat.zero_mul _
    | ⟨1, _⟩ => show win0_1.index t (1 : Fin 2) * _ = 0; rw [e1]; exact Nat.zero_mul _
  exact Memref.read_access_unit_zero (Elt F) main_v16 hz (fun a => by rw [congrFun hz a]; simp) (V c main_v16)

/-- Window 3's block at every point is its whole array: the block index is zero on both axes. -/
theorem blk0_3 (c : Dev nD) (t : Fin cfg0.N) : iblk0 V c 3 t = V c main_v20 := by
  obtain ⟨-, -, -, ⟨e0, e1⟩, -, -, -, -, -⟩ := idx0 t
  unfold iblk0
  have hz : (fun a => win0_3.index t a * main_v20.ty.shape.size a) = fun _ => 0 := funext fun a => by
    match a with
    | ⟨0, _⟩ => show win0_3.index t (0 : Fin 2) * _ = 0; rw [e0]; exact Nat.zero_mul _
    | ⟨1, _⟩ => show win0_3.index t (1 : Fin 2) * _ = 0; rw [e1]; exact Nat.zero_mul _
  exact Memref.read_access_unit_zero (Elt F) main_v20 hz (fun a => by rw [congrFun hz a]; simp) (V c main_v20)

/-- Window 5's block at every point is its whole array: the block index is zero on both axes. -/
theorem blk0_5 (c : Dev nD) (t : Fin cfg0.N) : iblk0 V c 5 t = V c main_arg0 := by
  obtain ⟨-, -, -, -, -, ⟨e0, e1⟩, -, -, -⟩ := idx0 t
  unfold iblk0
  have hz : (fun a => win0_5.index t a * main_arg0.ty.shape.size a) = fun _ => 0 := funext fun a => by
    match a with
    | ⟨0, _⟩ => show win0_5.index t (0 : Fin 2) * _ = 0; rw [e0]; exact Nat.zero_mul _
    | ⟨1, _⟩ => show win0_5.index t (1 : Fin 2) * _ = 0; rw [e1]; exact Nat.zero_mul _
  exact Memref.read_access_unit_zero (Elt F) main_arg0 hz (fun a => by rw [congrFun hz a]; simp) (V c main_arg0)

/-- Window 6's block at every point is its whole array: the block index is zero on both axes. -/
theorem blk0_6 (c : Dev nD) (t : Fin cfg0.N) : iblk0 V c 6 t = V c main_v21 := by
  obtain ⟨-, -, -, -, -, -, ⟨e0, e1⟩, -, -⟩ := idx0 t
  unfold iblk0
  have hz : (fun a => win0_6.index t a * main_v21.ty.shape.size a) = fun _ => 0 := funext fun a => by
    match a with
    | ⟨0, _⟩ => show win0_6.index t (0 : Fin 2) * _ = 0; rw [e0]; exact Nat.zero_mul _
    | ⟨1, _⟩ => show win0_6.index t (1 : Fin 2) * _ = 0; rw [e1]; exact Nat.zero_mul _
  exact Memref.read_access_unit_zero (Elt F) main_v21 hz (fun a => by rw [congrFun hz a]; simp) (V c main_v21)

/-- Window 7's block at every point is its whole array: the block index is zero on both axes. -/
theorem blk0_7 (c : Dev nD) (t : Fin cfg0.N) : iblk0 V c 7 t = V c main_v22 := by
  obtain ⟨-, -, -, -, -, -, -, ⟨e0, e1⟩, -⟩ := idx0 t
  unfold iblk0
  have hz : (fun a => win0_7.index t a * main_v22.ty.shape.size a) = fun _ => 0 := funext fun a => by
    match a with
    | ⟨0, _⟩ => show win0_7.index t (0 : Fin 2) * _ = 0; rw [e0]; exact Nat.zero_mul _
    | ⟨1, _⟩ => show win0_7.index t (1 : Fin 2) * _ = 0; rw [e1]; exact Nat.zero_mul _
  exact Memref.read_access_unit_zero (Elt F) main_v22 hz (fun a => by rw [congrFun hz a]; simp) (V c main_v22)

/-- Layer 1's output array as ONE function of the region's eight input arrays: row `i` lies in block `i / 128` at local
    row `i % 128`. -/
def x1Of (a14 : Vec F S4096x1 .f32) (a16 : Vec F S1x4096 .f32) (a18 : Vec F S4096x1 .f32) (a20 : Vec F S1x4096 .f32)
    (a10 : Vec F S4096x4096 .i32) (a0 : Vec F S4096x300 .f32) (a21 a22 : Vec F S300x300 .f32) : Vec F S4096x300 .f32 := fun i =>
  out0_8 (Term.rows128 a14 ((i 0).val / 128)) a16 (Term.rows128 a18 ((i 0).val / 128)) a20
    (Term.rows128adj a10 ((i 0).val / 128)) a0 a21 a22
    (ix2 ⟨(i 0).val % 128, Nat.mod_lt _ (by decide)⟩ ⟨(i 1).val, idx2_lt1 i⟩)

/-- That function at row `128·t + y₀`, `y₀ < 128`: block `t`'s result at local row `y₀`. -/
theorem x1Of_at (a14 : Vec F S4096x1 .f32) (a16 : Vec F S1x4096 .f32) (a18 : Vec F S4096x1 .f32) (a20 : Vec F S1x4096 .f32)
    (a10 : Vec F S4096x4096 .i32) (a0 : Vec F S4096x300 .f32) (a21 a22 : Vec F S300x300 .f32)
    (i : S4096x300.Idx) (t : Nat) (y : S128x300.Idx) (h0 : (i 0).val = 128 * t + (y 0).val) (h1 : (i 1).val = (y 1).val) :
    x1Of a14 a16 a18 a20 a10 a0 a21 a22 i
      = out0_8 (Term.rows128 a14 t) a16 (Term.rows128 a18 t) a20 (Term.rows128adj a10 t) a0 a21 a22 y := by
  have hy : (y 0).val < 128 := (y 0).isLt
  have hd : (i 0).val / 128 = t := by omega
  show out0_8 (Term.rows128 a14 ((i 0).val / 128)) a16 (Term.rows128 a18 ((i 0).val / 128)) a20
    (Term.rows128adj a10 ((i 0).val / 128)) a0 a21 a22
    (ix2 ⟨(i 0).val % 128, Nat.mod_lt _ (by decide)⟩ ⟨(i 1).val, idx2_lt1 i⟩) = _
  rw [hd]
  refine congrArg (out0_8 (Term.rows128 a14 t) a16 (Term.rows128 a18 t) a20 (Term.rows128adj a10 t) a0 a21 a22) (funext fun a => Fin.ext ?_)
  match a with
  | ⟨0, _⟩ => show (i 0).val % 128 = (y 0).val; omega
  | ⟨1, _⟩ => exact h1

/-- WHAT POINT `t` WRITES BACK is block `t` of that function of the arrays as the region finds them. -/
theorem flushed0_eq (c : Dev nD) (t : Fin cfg0.N) :
    (dat0 V c).flushed 8 t = ((cfg0.win 8).blk t).view.read (Elt F)
      (x1Of (V c main_v14) (V c main_v16) (V c main_v18) (V c main_v20) (V c main_arg10) (V c main_arg0) (V c main_v21) (V c main_v22)) := by
  obtain ⟨-, -, -, -, -, -, -, -, ⟨e0, e1⟩⟩ := idx0 t
  show (cfg0.win 8).cut (grid0.coords t) ((dat0 V c).after 8 t) = _
  rw [after0_8, blk0_0, blk0_1, blk0_2, blk0_3, blk0_4, blk0_5, blk0_6, blk0_7]
  funext y
  rw [View.read_apply, cast_eq]
  refine (x1Of_at _ _ _ _ _ _ _ _ (((cfg0.win 8).blk t).view.emb y) t.val ((cfg0.win 8).xinj (grid0.coords t) y) ?_ ?_).symm
  · show win0_8.index t (0 : Fin 2) * 128 + 1 * (y 0).val = 128 * t.val + (y 0).val; rw [e0]; omega
  · show win0_8.index t (1 : Fin 2) * 300 + 1 * (y 1).val = (y 1).val; rw [e1]; omega

/-- An index of the output array is in point `t`'s block iff each coordinate is in the block's range on its axis. -/
theorem mem_blk0 (t : Fin cfg0.N) (i : S4096x300.Idx) :
    i ∈ ((cfg0.win 8).blk t).view.set ↔ ∀ a : Fin 2, win0_8.index t a * S128x300.size a ≤ (i a).val ∧ (i a).val < win0_8.index t a * S128x300.size a + S128x300.size a := by
  show i ∈ ((View.whole main_v23).slice (win0_8.rect t)).set ↔ _
  rw [View.set_slice_whole, Rect.mem_set_unit]
  exact Iff.rfl

/-- The thirty-two blocks cover the output array: row `r` is in point `r / 128`'s block. -/
theorem cover0 (i : S4096x300.Idx) : ∃ t : Fin cfg0.N, (cfg0.win 8).flush t = true ∧ i ∈ ((cfg0.win 8).blk t).view.set := by
  have hi0 : (i 0).val < 4096 := idx2_lt0 i
  have hi1 : (i 1).val < 300 := idx2_lt1 i
  have hlt : (i 0).val / 128 < grid0.N := by rw [N_0]; omega
  obtain ⟨-, -, -, -, -, -, -, -, ⟨e0, e1⟩⟩ := idx0 ⟨(i 0).val / 128, hlt⟩
  refine ⟨⟨(i 0).val / 128, hlt⟩, flush0_8 _, ?_⟩
  rw [mem_blk0]
  intro a
  match a with
  | ⟨0, _⟩ =>
    show win0_8.index ⟨(i 0).val / 128, hlt⟩ (0 : Fin 2) * 128 ≤ (i 0).val ∧ (i 0).val < win0_8.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_8.index ⟨(i 0).val / 128, hlt⟩ (1 : Fin 2) * 300 ≤ (i 1).val ∧ (i 1).val < win0_8.index ⟨(i 0).val / 128, hlt⟩ (1 : Fin 2) * 300 + 300
    rw [e1]; omega

/-- The region's result array after its thirty-two write-backs: that function of the arrays as the region finds them. -/
theorem region0_arr (c : Dev nD) :
    (dat0 V c).arrAt 8 cfg0.N
      = x1Of (V c main_v14) (V c main_v16) (V c main_v18) (V c main_v20) (V c main_arg10) (V c main_arg0) (V c main_v21) (V c main_v22) :=
  (dat0 V c).arrAt_eq_of_cover 8 _ (fun t _ => flushed0_eq V c t) cover0

end Region0

/-! ## The two stretches of host operations, over any buffer contents -/

section Host
variable (X : Valuation τ sig (Elt F)) (A : Cert.Spec.Args F)

/-- The contents hold the argument arrays `A` at the twelve argument buffers. -/
def HoldsArgs : Prop :=
  X (Proc.devRef .tc main_arg0) = A.x0 ∧ X (Proc.devRef .tc main_arg1) = A.x1 ∧ X (Proc.devRef .tc main_arg2) = A.x2 ∧ X (Proc.devRef .tc main_arg3) = A.x3
  ∧ X (Proc.devRef .tc main_arg4) = A.x4 ∧ X (Proc.devRef .tc main_arg5) = A.x5 ∧ X (Proc.devRef .tc main_arg6) = A.x6 ∧ X (Proc.devRef .tc main_arg7) = A.x7
  ∧ X (Proc.devRef .tc main_arg8) = A.x8 ∧ X (Proc.devRef .tc main_arg9) = A.x9 ∧ X (Proc.devRef .tc main_arg10) = A.x10 ∧ X (Proc.devRef .tc main_arg11) = A.x11

/-- The first stretch leaves the stage term of `v3` in its buffer. -/
theorem host0_v3 (h : HoldsArgs X A) : StableHlo.after hostOps0 X (Proc.devRef .tc main_v3) = Term.t_v3 A := by
  obtain ⟨h0, h1, h2, h3, h4, h5, h6, h7, h8, h9, h10, h11⟩ := h
  after_results
  rw [h0, h1, h2, h3]
  rfl
/-- The first stretch leaves the stage term of `v13` in its buffer. -/
theorem host0_v13 (h : HoldsArgs X A) : StableHlo.after hostOps0 X (Proc.devRef .tc main_v13) = Term.t_v13 A := by
  obtain ⟨h0, h1, h2, h3, h4, h5, h6, h7, h8, h9, h10, h11⟩ := h
  after_results
  rw [h7, h8]
  rfl
/-- The first stretch leaves the stage term of `v14` in its buffer. -/
theorem host0_v14 (h : HoldsArgs X A) : StableHlo.after hostOps0 X (Proc.devRef .tc main_v14) = Term.t_v14 A := by
  obtain ⟨h0, h1, h2, h3, h4, h5, h6, h7, h8, h9, h10, h11⟩ := h
  after_results
  rw [h0, h1, h2, h3]
  rfl
/-- The first stretch leaves the stage term of `v16` in its buffer. -/
theorem host0_v16 (h : HoldsArgs X A) : StableHlo.after hostOps0 X (Proc.devRef .tc main_v16) = Term.t_v16 A := by
  obtain ⟨h0, h1, h2, h3, h4, h5, h6, h7, h8, h9, h10, h11⟩ := h
  after_results
  rw [h0, h1, h2, h3]
  rfl
/-- The first stretch leaves the stage term of `v18` in its buffer. -/
theorem host0_v18 (h : HoldsArgs X A) : StableHlo.after hostOps0 X (Proc.devRef .tc main_v18) = Term.t_v18 A := by
  obtain ⟨h0, h1, h2, h3, h4, h5, h6, h7, h8, h9, h10, h11⟩ := h
  after_results
  rw [h0, h4, h5]
  rfl
/-- The first stretch leaves the stage term of `v20` in its buffer. -/
theorem host0_v20 (h : HoldsArgs X A) : StableHlo.after hostOps0 X (Proc.devRef .tc main_v20) = Term.t_v20 A := by
  obtain ⟨h0, h1, h2, h3, h4, h5, h6, h7, h8, h9, h10, h11⟩ := h
  after_results
  rw [h0, h4, h5]
  rfl
/-- The first stretch leaves the stage term of `v21` in its buffer. -/
theorem host0_v21 (h : HoldsArgs X A) : StableHlo.after hostOps0 X (Proc.devRef .tc main_v21) = Term.t_v21 A := by
  obtain ⟨h0, h1, h2, h3, h4, h5, h6, h7, h8, h9, h10, h11⟩ := h
  after_results
  rw [h6]
  rfl
/-- The first stretch leaves the stage term of `v22` in its buffer. -/
theorem host0_v22 (h : HoldsArgs X A) : StableHlo.after hostOps0 X (Proc.devRef .tc main_v22) = Term.t_v22 A := by
  obtain ⟨h0, h1, h2, h3, h4, h5, h6, h7, h8, h9, h10, h11⟩ := h
  after_results
  rw [h6]
  rfl
/-- The first stretch writes no argument. -/
theorem host0_arg0 : StableHlo.after hostOps0 X (Proc.devRef .tc main_arg0) = X (Proc.devRef .tc main_arg0) := by
  after_results
/-- The first stretch writes no argument. -/
theorem host0_arg9 : StableHlo.after hostOps0 X (Proc.devRef .tc main_arg9) = X (Proc.devRef .tc main_arg9) := by
  after_results
/-- The first stretch writes no argument. -/
theorem host0_arg10 : StableHlo.after hostOps0 X (Proc.devRef .tc main_arg10) = X (Proc.devRef .tc main_arg10) := by
  after_results
/-- The first stretch writes no argument. -/
theorem host0_arg11 : StableHlo.after hostOps0 X (Proc.devRef .tc main_arg11) = X (Proc.devRef .tc main_arg11) := by
  after_results

end Host

section Host1
variable (X : Valuation τ sig (Elt F)) (A : Cert.Spec.Args F)

/-- The contents hold, at the seven buffers the second stretch and region 1 read from before it, the stage terms of `A`. -/
def HoldsMid : Prop :=
  X (Proc.devRef .tc main_v23) = Term.t_v23 A ∧ X (Proc.devRef .tc main_v3) = Term.t_v3 A ∧ X (Proc.devRef .tc main_v13) = Term.t_v13 A
  ∧ X (Proc.devRef .tc main_v16) = Term.t_v16 A ∧ X (Proc.devRef .tc main_arg9) = Term.t_arg9 A ∧ X (Proc.devRef .tc main_arg10) = Term.t_arg10 A
  ∧ X (Proc.devRef .tc main_arg11) = Term.t_arg11 A

/-- Each operation's result read at its own buffer, and passed by at every other buffer, wherever one is left. -/
local macro "results_rw" : tactic =>
  `(tactic| repeat (first
      | rw [StableHlo.nullary_result] | rw [StableHlo.unary_result] | rw [StableHlo.binary_result] | rw [StableHlo.ternary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)))

/-- The second stretch leaves the stage term of `v33` in its buffer. -/
theorem host1_v33 (h : HoldsMid X A) : StableHlo.after hostOps1 X (Proc.devRef .tc main_v33) = Term.t_v33 A := by
  obtain ⟨h23, h3, h13, h16, h9, h10, h11⟩ := h
  after_results_simp
  results_rw
  rw [h3, h11]
  rfl
set_option maxHeartbeats 1000000 in
/-- The second stretch leaves the stage term of `v49` in its buffer. -/
theorem host1_v49 (h : HoldsMid X A) : StableHlo.after hostOps1 X (Proc.devRef .tc main_v49) = Term.t_v49 A := by
  obtain ⟨h23, h3, h13, h16, h9, h10, h11⟩ := h
  after_results_simp
  results_rw
  rw [h23, h13, h11]
  rfl
/-- The second stretch leaves the stage term of `v51` in its buffer. -/
theorem host1_v51 (h : HoldsMid X A) : StableHlo.after hostOps1 X (Proc.devRef .tc main_v51) = Term.t_v51 A := by
  obtain ⟨h23, h3, h13, h16, h9, h10, h11⟩ := h
  after_results_simp
  rw [h23, h13]
  rfl
/-- The second stretch leaves the stage term of `v40` in its buffer. -/
theorem host1_v40 (h : HoldsMid X A) : StableHlo.after hostOps1 X (Proc.devRef .tc main_v40) = Term.t_v40 A := by
  obtain ⟨h23, h3, h13, h16, h9, h10, h11⟩ := h
  after_results_simp
  rw [h10, h11]
  rfl
/-- The second stretch leaves the stage term of `v52` in its buffer. -/
theorem host1_v52 (h : HoldsMid X A) : StableHlo.after hostOps1 X (Proc.devRef .tc main_v52) = Term.t_v52 A := by
  obtain ⟨h23, h3, h13, h16, h9, h10, h11⟩ := h
  after_results_simp
  rw [h9]
  rfl
/-- The second stretch leaves the stage term of `v53` in its buffer. -/
theorem host1_v53 (h : HoldsMid X A) : StableHlo.after hostOps1 X (Proc.devRef .tc main_v53) = Term.t_v53 A := by
  obtain ⟨h23, h3, h13, h16, h9, h10, h11⟩ := h
  after_results_simp
  rw [h9]
  rfl
/-- The second stretch does not write `v16`. -/
theorem host1_v16 (h : HoldsMid X A) : StableHlo.after hostOps1 X (Proc.devRef .tc main_v16) = Term.t_v16 A := by
  obtain ⟨h23, h3, h13, h16, h9, h10, h11⟩ := h
  after_results_simp
  exact h16
/-- The second stretch does not write `v23`. -/
theorem host1_v23 (h : HoldsMid X A) : StableHlo.after hostOps1 X (Proc.devRef .tc main_v23) = Term.t_v23 A := by
  obtain ⟨h23, h3, h13, h16, h9, h10, h11⟩ := h
  after_results_simp
  exact h23

end Host1

/-! ## The fold, read back boundary by boundary -/

section Fold

/-- The launch contents hold the argument arrays. -/
theorem w0_holds (c : Dev nD) : HoldsArgs (W0 m ρ c) (argsOf m c) :=
  ⟨rfl, rfl, rfl, rfl, rfl, rfl, rfl, rfl, rfl, rfl, rfl, rfl⟩

theorem w1_v3 (c : Dev nD) : W1 m ρ c (Proc.devRef .tc main_v3) = Term.t_v3 (argsOf m c) := host0_v3 _ _ (w0_holds m ρ c)
theorem w1_v13 (c : Dev nD) : W1 m ρ c (Proc.devRef .tc main_v13) = Term.t_v13 (argsOf m c) := host0_v13 _ _ (w0_holds m ρ c)
theorem w1_v14 (c : Dev nD) : W1 m ρ c (Proc.devRef .tc main_v14) = Term.t_v14 (argsOf m c) := host0_v14 _ _ (w0_holds m ρ c)
theorem w1_v16 (c : Dev nD) : W1 m ρ c (Proc.devRef .tc main_v16) = Term.t_v16 (argsOf m c) := host0_v16 _ _ (w0_holds m ρ c)
theorem w1_v18 (c : Dev nD) : W1 m ρ c (Proc.devRef .tc main_v18) = Term.t_v18 (argsOf m c) := host0_v18 _ _ (w0_holds m ρ c)
theorem w1_v20 (c : Dev nD) : W1 m ρ c (Proc.devRef .tc main_v20) = Term.t_v20 (argsOf m c) := host0_v20 _ _ (w0_holds m ρ c)
theorem w1_v21 (c : Dev nD) : W1 m ρ c (Proc.devRef .tc main_v21) = Term.t_v21 (argsOf m c) := host0_v21 _ _ (w0_holds m ρ c)
theorem w1_v22 (c : Dev nD) : W1 m ρ c (Proc.devRef .tc main_v22) = Term.t_v22 (argsOf m c) := host0_v22 _ _ (w0_holds m ρ c)
theorem w1_arg0 (c : Dev nD) : W1 m ρ c (Proc.devRef .tc main_arg0) = Term.t_arg0 (argsOf m c) := (host0_arg0 _).trans rfl
theorem w1_arg9 (c : Dev nD) : W1 m ρ c (Proc.devRef .tc main_arg9) = Term.t_arg9 (argsOf m c) := (host0_arg9 _).trans rfl
theorem w1_arg10 (c : Dev nD) : W1 m ρ c (Proc.devRef .tc main_arg10) = Term.t_arg10 (argsOf m c) := (host0_arg10 _).trans rfl
theorem w1_arg11 (c : Dev nD) : W1 m ρ c (Proc.devRef .tc main_arg11) = Term.t_arg11 (argsOf m c) := (host0_arg11 _).trans rfl

/-- Layer 1's function of equal arrays is equal. -/
theorem x1Of_congr {a14 b14 : Vec F S4096x1 .f32} {a16 b16 : Vec F S1x4096 .f32} {a18 b18 : Vec F S4096x1 .f32} {a20 b20 : Vec F S1x4096 .f32}
    {a10 b10 : Vec F S4096x4096 .i32} {a0 b0 : Vec F S4096x300 .f32} {a21 b21 a22 b22 : Vec F S300x300 .f32}
    (h14 : a14 = b14) (h16 : a16 = b16) (h18 : a18 = b18) (h20 : a20 = b20) (h10 : a10 = b10) (h0 : a0 = b0) (h21 : a21 = b21) (h22 : a22 = b22) :
    x1Of a14 a16 a18 a20 a10 a0 a21 a22 = x1Of b14 b16 b18 b20 b10 b0 b21 b22 := by
  subst h14 h16 h18 h20 h10 h0 h21 h22; rfl

/-- Region 0's output buffer at the region's exit: layer 1's stage term. -/
theorem w2_v23 (c : Dev nD) : W2 m ρ c (Proc.devRef .tc main_v23) = Term.t_v23 (argsOf m c) := by
  refine (W2_arr m ρ c 8).trans ((region0_arr (V1 m ρ) c).trans ?_)
  exact x1Of_congr (w1_v14 m ρ c) (w1_v16 m ρ c) (w1_v18 m ρ c) (w1_v20 m ρ c) (w1_arg10 m ρ c) (w1_arg0 m ρ c) (w1_v21 m ρ c) (w1_v22 m ρ c)

/-- A buffer that is none of region 0's arrays leaves the region as it entered. -/
theorem w2_v3 (c : Dev nD) : W2 m ρ c (Proc.devRef .tc main_v3) = Term.t_v3 (argsOf m c) :=
  (W2_of_ne m ρ c main_v3 (by decide)).trans (w1_v3 m ρ c)
theorem w2_v13 (c : Dev nD) : W2 m ρ c (Proc.devRef .tc main_v13) = Term.t_v13 (argsOf m c) :=
  (W2_of_ne m ρ c main_v13 (by decide)).trans (w1_v13 m ρ c)
theorem w2_arg9 (c : Dev nD) : W2 m ρ c (Proc.devRef .tc main_arg9) = Term.t_arg9 (argsOf m c) :=
  (W2_of_ne m ρ c main_arg9 (by decide)).trans (w1_arg9 m ρ c)
theorem w2_arg11 (c : Dev nD) : W2 m ρ c (Proc.devRef .tc main_arg11) = Term.t_arg11 (argsOf m c) :=
  (W2_of_ne m ρ c main_arg11 (by decide)).trans (w1_arg11 m ρ c)
/-- An input array of region 0 is never written by it. -/
theorem w2_v16 (c : Dev nD) : W2 m ρ c (Proc.devRef .tc main_v16) = Term.t_v16 (argsOf m c) :=
  ((W2_arr m ρ c 1).trans (((dat0 (V1 m ρ) c).arrAt_in 1 rfl _).trans (A_eq0 (V1 m ρ) c 1))).trans (w1_v16 m ρ c)
theorem w2_arg10 (c : Dev nD) : W2 m ρ c (Proc.devRef .tc main_arg10) = Term.t_arg10 (argsOf m c) :=
  ((W2_arr m ρ c 4).trans (((dat0 (V1 m ρ) c).arrAt_in 4 rfl _).trans (A_eq0 (V1 m ρ) c 4))).trans (w1_arg10 m ρ c)

/-- Region 0's exit contents hold the stage terms at the buffers the later segments read. -/
theorem w2_holds (c : Dev nD) : HoldsMid (W2 m ρ c) (argsOf m c) :=
  ⟨w2_v23 m ρ c, w2_v3 m ρ c, w2_v13 m ρ c, w2_v16 m ρ c, w2_arg9 m ρ c, w2_arg10 m ρ c, w2_arg11 m ρ c⟩

theorem w3_v33 (c : Dev nD) : W3 m ρ c (Proc.devRef .tc main_v33) = Term.t_v33 (argsOf m c) := host1_v33 _ _ (w2_holds m ρ c)
theorem w3_v16 (c : Dev nD) : W3 m ρ c (Proc.devRef .tc main_v16) = Term.t_v16 (argsOf m c) := host1_v16 _ _ (w2_holds m ρ c)
theorem w3_v49 (c : Dev nD) : W3 m ρ c (Proc.devRef .tc main_v49) = Term.t_v49 (argsOf m c) := host1_v49 _ _ (w2_holds m ρ c)
theorem w3_v51 (c : Dev nD) : W3 m ρ c (Proc.devRef .tc main_v51) = Term.t_v51 (argsOf m c) := host1_v51 _ _ (w2_holds m ρ c)
theorem w3_v40 (c : Dev nD) : W3 m ρ c (Proc.devRef .tc main_v40) = Term.t_v40 (argsOf m c) := host1_v40 _ _ (w2_holds m ρ c)
theorem w3_v23 (c : Dev nD) : W3 m ρ c (Proc.devRef .tc main_v23) = Term.t_v23 (argsOf m c) := host1_v23 _ _ (w2_holds m ρ c)
theorem w3_v52 (c : Dev nD) : W3 m ρ c (Proc.devRef .tc main_v52) = Term.t_v52 (argsOf m c) := host1_v52 _ _ (w2_holds m ρ c)
theorem w3_v53 (c : Dev nD) : W3 m ρ c (Proc.devRef .tc main_v53) = Term.t_v53 (argsOf m c) := host1_v53 _ _ (w2_holds m ρ c)

/-- Layer 2's block function of equal arrays is equal. -/
theorem out1_congr {a0 b0 : Vec F S64x1 .f32} {a1 b1 : Vec F S1x4096 .f32} {a2 b2 : Vec F S64x1 .f32} {a3 b3 : Vec F S1x4096 .f32}
    {a4 b4 : Vec F S64x4096 .i32} {a5 b5 : Vec F S4096x300 .f32} {a6 b6 a7 b7 : Vec F S300x300 .f32}
    (h0 : a0 = b0) (h1 : a1 = b1) (h2 : a2 = b2) (h3 : a3 = b3) (h4 : a4 = b4) (h5 : a5 = b5) (h6 : a6 = b6) (h7 : a7 = b7) :
    out1_8 a0 a1 a2 a3 a4 a5 a6 a7 = out1_8 b0 b1 b2 b3 b4 b5 b6 b7 := by
  subst h0 h1 h2 h3 h4 h5 h6 h7; rfl

end Fold

/-- The result buffer at the last boundary is the stage term of the arguments. -/
theorem w4_v54 (c : Dev nD) : W4 m ρ c (Proc.devRef .tc main_v54) = Term.t_x2 (argsOf m c) := by
  refine (W4_arr m ρ c 8).trans ((region1_arr (V3 m ρ) c).trans ?_)
  exact out1_congr (w3_v33 m ρ c) (w3_v16 m ρ c) (w3_v49 m ρ c) (w3_v51 m ρ c) (w3_v40 m ρ c) (w3_v23 m ρ c) (w3_v52 m ρ c) (w3_v53 m ρ c)

end Cert.KernelIdeal.Plumb

end
-- ==== Proof.KBody0.lean ====
/-
  Region 0's body read at an element: entry (r, d) of the block the body leaves is the ELU of the query row's
  projected signed aggregate — the kernel's arrangement `Spec.rowK` over the row's own mask (`Spec.maskK`).
-/
import proofs.«428251_j16982300688849_3_alg».proof.Proof.KernelIdealFrameP
import proofs.«428251_j16982300688849_3_alg».proof.Proof.Spec
import Idealize.ShloMosaic.Lib.ValueLayout
import Idealize.ShloMosaic.Lib.Pipeline.Value
import Idealize.ShloMosaic.PureOps.Ideal.Laws

noncomputable section

namespace Cert.KernelIdeal.Body0

open Idealize.ShloMosaic Idealize.ShloMosaic.ValueIdx
open Cert.KernelIdeal Cert.KernelIdeal.Gen Cert.KernelIdeal.GenP
open scoped BigOperators

/-! ## Layout operations at an index -/

section Layout
variable {α : Type}

/-- The offsets of a whole-buffer rectangle are zero on both axes. -/
theorem zero_off : (![0, 0] : Fin 2 → Nat) = fun _ => 0 := funext fun a => by fin_cases a <;> rfl

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's reductions -/

/-- The index a lane reduction of row `r` reads at lane `k`. -/
theorem lift_row (r : Fin 128) (k : Fin 4096) : reduces_S128x4096_S128.lift (ix1 r) k = ix2 r k := by
  funext c; apply Fin.ext
  match c with
  | ⟨0, _⟩ => rfl
  | ⟨1, _⟩ => rfl

/-- The f32 word of `-∞` is the bottom extended real. -/
theorem ofBits_neg_inf : Ideal.ofBits .f32 0xFF800000#32 = ⊥ := by simp [Ideal.ofBits, Ideal.ieee]

/-- A lane maximum from `-∞`, at row `r`: the row's maximum. -/
theorem rowmax_apply (z : FVec Ideal S128x4096 .f32) (r : Fin 128) :
    multiReduction (F := Ideal) .maximumf [1] S128 z 0xFF800000#32 reduces_S128x4096_S128 (.inl rfl) rfl (ix1 r)
      = Cert.Spec.rmax (fun j => z (ix2 r j)) := by
  refine (Ideal.multiReduction_maximumf_single z 0xFF800000#32 reduces_S128x4096_S128 (.inl rfl) rfl (ix1 r)).trans ?_
  show (Finset.univ : Finset (Fin 4096)).fold max (Ideal.ofBits .f32 0xFF800000#32) (fun k => z (reduces_S128x4096_S128.lift (ix1 r) k)) = _
  rw [ofBits_neg_inf]
  unfold Cert.Spec.rmax
  exact congrArg (fun f => Finset.fold max (⊥ : EReal) f (Finset.univ : Finset (Fin 4096))) (funext fun k => congrArg z (lift_row r k))

/-- A lane sum from zero, at row `r`: the row's sum. -/
theorem rowsum_apply (z : FVec Ideal S128x4096 .f32) (r : Fin 128) :
    multiReduction (F := Ideal) .add [1] S128 z 0x00000000#32 reduces_S128x4096_S128 (.inl rfl) rfl (ix1 r)
      = ∑ k : Fin 4096, z (ix2 r k) := by
  refine (Ideal.multiReduction_add_single z 0x00000000#32 reduces_S128x4096_S128 (.inl rfl) rfl (ix1 r)).trans ?_
  show ∑ k : Fin 4096, z (reduces_S128x4096_S128.lift (ix1 r) k) = _
  exact Finset.sum_congr rfl fun k _ => congrArg z (lift_row r k)

/-! ## A matrix product into the zero block -/

/-- A rows-by-columns product accumulated into the zero block, at `(a, b)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The aggregation product: weights `[128, 4096]` by the value table `[4096, 300]`. -/
theorem matmul_agg_apply (A : FVec Ideal S128x4096 .bf16) (B : FVec Ideal S4096x300 .bf16) (r : Fin 128) (k : Fin 300) :
    matmul dot_S128x4096_S4096x300_S128x300_1_0_0_1_n_n none A B (constant (F := Ideal) S128x300 .f32 0x00000000#32) (ix2 r k)
      = ∑ j : Fin 4096, A (ix2 r j) * B (ix2 j k) :=
  matmul_zero_apply _ none A B r k

/-- The projection product: aggregates `[128, 300]` by a weight matrix `[300, 300]`. -/
theorem matmul_proj_apply (A : FVec Ideal S128x300 .bf16) (B : FVec Ideal S300x300 .bf16) (r : Fin 128) (d : Fin 300) :
    matmul dot_S128x300_S300x300_S128x300_1_0_0_1_n_n none A B (constant (F := Ideal) S128x300 .f32 0x00000000#32) (ix2 r d)
      = ∑ k : Fin 300, A (ix2 r k) * B (ix2 k d) :=
  matmul_zero_apply _ none A B r d

/-! ## The body's pieces, as functions of a block of logits -/

/-- The sum of a column's broadcast and a row's broadcast, at `(r, j)`. -/
theorem bsum_apply (c : FVec Ideal S128x1 .f32) (w : FVec Ideal S1x4096 .f32) (r : Fin 128) (j : Fin 4096) :
    addf (broadcastTo S128x4096 (shapeCast S128x1 c shapeCasts_S128x1_S128x1) broadcasts_S128x1_S128x4096)
        (broadcastTo S128x4096 (shapeCast S1x4096 w shapeCasts_S1x4096_S1x4096) broadcasts_S1x4096_S128x4096) (ix2 r j)
      = c (ix2 r 0) + w (ix2 0 j) := by
  rw [addf_apply, broadcastTo_a1_ab_apply, broadcastTo_1b_ab_apply, shapeCast_self, shapeCast_self]

/-- The leaky ReLU of a block, at an index. -/
theorem lrelu_apply (v : FVec Ideal S128x4096 .f32) (i : S128x4096.Idx) :
    select (cmpf .oge v (broadcast S128x4096 (Scalar.ofBits (F := Ideal) .f32 0x00000000#32))) v
        (mulf (broadcast S128x4096 (Scalar.ofBits (F := Ideal) .f32 0x3E99999A#32)) v) i
      = Cert.Spec.lrelu (v i) := rfl

/-- The attention logits of the block: `lrelu (c r + w j)` at `(r, j)`. -/
theorem pay3_apply (c : Vec Ideal S128x1 .f32) (w : Vec Ideal S1x4096 .f32) (r : Fin 128) (j : Fin 4096) :
    k0_pay3 c w (ix2 r j) = Cert.Spec.lrelu (c (ix2 r 0) + w (ix2 0 j)) := by
  unfold k0_pay3
  exact (lrelu_apply _ _).trans (congrArg Cert.Spec.lrelu (bsum_apply c w r j))

/-- The soft-max numerators of a block of logits `z`: `exp (z - row maximum)`. -/
def sm (z : FVec Ideal S128x4096 .f32) : FVec Ideal S128x4096 .f32 :=
  exp (subf z (broadcastTo S128x4096 (shapeCast S128x1
    (multiReduction (F := Ideal) .maximumf [1] S128 z 0xFF800000#32 reduces_S128x4096_S128 (.inl rfl) rfl)
    shapeCasts_S128_S128x1) broadcasts_S128x1_S128x4096))

/-- Their row sums, as a column. -/
def smsum (z : FVec Ideal S128x4096 .f32) : FVec Ideal S128x1 .f32 :=
  shapeCast S128x1 (multiReduction (F := Ideal) .add [1] S128 (sm z) 0x00000000#32 reduces_S128x4096_S128 (.inl rfl) rfl)
    shapeCasts_S128_S128x1

/-- A numerator at `(r, j)` is the row's soft-max numerator at `j`. -/
theorem sm_apply (z : FVec Ideal S128x4096 .f32) (r : Fin 128) (j : Fin 4096) :
    sm z (ix2 r j) = Cert.Spec.sexp (fun j => z (ix2 r j)) j := by
  unfold sm
  show Ideal.exp (z (ix2 r j) - broadcastTo S128x4096 (shapeCast S128x1 _ shapeCasts_S128_S128x1) broadcasts_S128x1_S128x4096 (ix2 r j)) = _
  rw [broadcastTo_a1_ab_apply, shapeCast_a_a1_apply, rowmax_apply]
  rfl

/-- The row sum at row `r` is the sum of the row's numerators. -/
theorem smsum_apply (z : FVec Ideal S128x4096 .f32) (r : Fin 128) (u : Fin 1) :
    smsum z (ix2 r u) = ∑ j : Fin 4096, Cert.Spec.sexp (fun j => z (ix2 r j)) j := by
  unfold smsum
  rw [shapeCast_a_a1_apply, rowsum_apply]
  exact Finset.sum_congr rfl fun j _ => sm_apply z r j

/-- The normalised aggregate of the value table `v` under the weights of `z`: the numerators times the table, each
    row scaled by one over the row's sum. -/
def agg (z : FVec Ideal S128x4096 .f32) (v : Vec Ideal S4096x300 .f32) : FVec Ideal S128x300 .f32 :=
  mulf (matmul dot_S128x4096_S4096x300_S128x300_1_0_0_1_n_n none (truncf .bf16 (sm z) bitsLt_bf16_f32) (k0_pay5 v)
      (constant S128x300 .f32 0x00000000#32))
    (broadcastTo S128x300 (divf (broadcast S128x1 (Scalar.ofBits (F := Ideal) .f32 0x3F800000#32)) (smsum z)) broadcasts_S128x1_S128x300)

theorem agg_apply (z : FVec Ideal S128x4096 .f32) (v : Vec Ideal S4096x300 .f32) (r : Fin 128) (k : Fin 300) :
    agg z v (ix2 r k)
      = (∑ j : Fin 4096, Cert.Spec.sexp (fun j => z (ix2 r j)) j * v (ix2 j k))
        * Ideal.div Cert.Spec.one (∑ j : Fin 4096, Cert.Spec.sexp (fun j => z (ix2 r j)) j) := by
  unfold agg
  rw [mulf_apply, matmul_agg_apply, broadcastTo_a1_ab_apply, divf_apply, smsum_apply]
  refine congrArg (· * _) (Finset.sum_congr rfl fun j _ => ?_)
  show sm z (ix2 r j) * v (ix2 j k) = _
  rw [sm_apply]

/-! ## The payloads at an element -/

/-- The kept-key mask is the test `p · 4096 > Σ p` on the mask's own soft-max, or a positive adjacency entry. -/
theorem pay2_eq (v0 : Vec Ideal S128x1 .f32) (v2 : Vec Ideal S1x4096 .f32) (v19 : Vec Ideal S128x4096 .i32) :
    k0_pay2 v0 v2 v19
      = ori (cmpf .ogt (mulf (sm (k0_pay3 v0 v2)) (broadcast S128x4096 (Scalar.ofBits (F := Ideal) .f32 0x45800000#32)))
              (broadcastTo S128x4096 (smsum (k0_pay3 v0 v2)) broadcasts_S128x1_S128x4096))
          (cmpi .sgt v19 (broadcast S128x4096 0#32)) := rfl

/-- The mask at `(r, j)`: row `r`'s kept-key test of key `j`. -/
theorem pay2_apply (v0 : Vec Ideal S128x1 .f32) (v2 : Vec Ideal S1x4096 .f32) (v19 : Vec Ideal S128x4096 .i32)
    (r : Fin 128) (j : Fin 4096) :
    k0_pay2 v0 v2 v19 (ix2 r j)
      = Cert.Spec.maskK (v0 (ix2 r 0)) (fun j => v2 (ix2 0 j)) (fun j => v19 (ix2 r j)) j := by
  have hrow : (fun j => k0_pay3 v0 v2 (ix2 r j)) = Cert.Spec.mlog (v0 (ix2 r 0)) (fun j => v2 (ix2 0 j)) :=
    funext fun j => pay3_apply v0 v2 r j
  rw [pay2_eq]
  show IntOp.ori (Ideal.cmp .ogt (sm (k0_pay3 v0 v2) (ix2 r j) * Cert.Spec.big)
      (broadcastTo S128x4096 (smsum (k0_pay3 v0 v2)) broadcasts_S128x1_S128x4096 (ix2 r j)))
    (IntOp.cmpi .sgt (v19 (ix2 r j)) 0#32) = _
  rw [broadcastTo_a1_ab_apply, smsum_apply, sm_apply, hrow]
  rfl

/-- The positive aggregate is the normalised aggregate under the kept keys' logits. -/
theorem pay9_eq (v26 : IVec S128x4096 1) (v38 v39 : FVec Ideal S128x4096 .f32) (v59 : Vec Ideal S4096x300 .f32) :
    k0_pay9 v26 v38 v39 v59 = truncf .bf16 (agg (select v26 v38 v39) v59) bitsLt_bf16_f32 := rfl

/-- The negative aggregate is zero minus the normalised aggregate under the kept keys' negated logits. -/
theorem pay6_eq (v26 : IVec S128x4096 1) (v38 : FVec Ideal S128x4096 .f32) (v59 : Vec Ideal S4096x300 .f32) :
    k0_pay6 v26 v38 v59
      = subf (broadcast S128x300 (Scalar.ofBits (F := Ideal) .f32 0x00000000#32))
          (agg (select v26 (subf (broadcast S128x4096 (Scalar.ofBits (F := Ideal) .f32 0x00000000#32)) v38)
            (broadcast S128x4096 (Scalar.ofBits (F := Ideal) .f32 0xD368D4A5#32))) v59) := rfl

/-- A weight matrix passes through its format changes unchanged. -/
theorem pay7_apply (v : Vec Ideal S300x300 .f32) (i : S300x300.Idx) : k0_pay7 v i = v i := by
  unfold k0_pay7
  show shapeCast S300x300 v shapeCasts_S300x300_S300x300 i = _
  rw [shapeCast_self]
theorem pay8_apply (v : Vec Ideal S300x300 .f32) (i : S300x300.Idx) : k0_pay8 v i = v i := by
  unfold k0_pay8
  show shapeCast S300x300 v shapeCasts_S300x300_S300x300 i = _
  rw [shapeCast_self]

/-- The stored value at `(r, d)`: the ELU of the two projections' sum. -/
theorem pay1_apply (v74 : FVec Ideal S128x300 .f32) (v77 v80 : FVec Ideal S300x300 .bf16) (v81 : FVec Ideal S128x300 .bf16)
    (r : Fin 128) (d : Fin 300) :
    k0_pay1 v74 v77 v80 v81 (constant (F := Ideal) S128x300 .f32 0x00000000#32) (ix2 r d)
      = Cert.Spec.eluK ((∑ k : Fin 300, v81 (ix2 r k) * v77 (ix2 k d)) + (∑ k : Fin 300, v74 (ix2 r k) * v80 (ix2 k d))) := by
  unfold k0_pay1
  show Cert.Spec.eluK
    (matmul dot_S128x300_S300x300_S128x300_1_0_0_1_n_n none v81 v77 (constant (F := Ideal) S128x300 .f32 0x00000000#32) (ix2 r d)
      + matmul dot_S128x300_S300x300_S128x300_1_0_0_1_n_n none (truncf .bf16 v74 bitsLt_bf16_f32) v80
          (constant (F := Ideal) S128x300 .f32 0x00000000#32) (ix2 r d)) = _
  rw [matmul_proj_apply, matmul_proj_apply]
  rfl

/-! ## The body's block at an element -/

/-- The payloads composed as the body composes them, at row `r` and column `d`. -/
theorem body_apply (x0 : Vec Ideal S128x1 .f32) (x1 : Vec Ideal S1x4096 .f32) (x2 : Vec Ideal S128x1 .f32) (x3 : Vec Ideal S1x4096 .f32)
    (x4 : Vec Ideal S128x4096 .i32) (x5 : Vec Ideal S4096x300 .f32) (x6 : Vec Ideal S300x300 .f32) (x7 : Vec Ideal S300x300 .f32)
    (r : Fin 128) (d : Fin 300) :
    k0_pay1 (k0_pay6 (k0_pay2 x0 x1 x4) (k0_pay3 x2 x3) x5) (k0_pay7 x6) (k0_pay8 x7)
        (k0_pay9 (k0_pay2 x0 x1 x4) (k0_pay3 x2 x3) (k0_pay4 (F := Ideal)) x5) (constant (F := Ideal) S128x300 .f32 0x00000000#32) (ix2 r d)
      = Cert.Spec.eluK (Cert.Spec.rowK
          (Cert.Spec.maskK (x0 (ix2 r 0)) (fun j => x1 (ix2 0 j)) (fun j => x4 (ix2 r j)))
          (x2 (ix2 r 0)) (fun j => x3 (ix2 0 j)) (fun j k => x5 (ix2 j k)) (fun k e => x6 (ix2 k e)) (fun k e => x7 (ix2 k e)) d) := by
  have hpos : (fun j => select (k0_pay2 x0 x1 x4) (k0_pay3 x2 x3) (k0_pay4 (F := Ideal)) (ix2 r j))
      = Cert.Spec.zpos (Cert.Spec.maskK (x0 (ix2 r 0)) (fun j => x1 (ix2 0 j)) (fun j => x4 (ix2 r j)))
          (x2 (ix2 r 0)) (fun j => x3 (ix2 0 j)) := funext fun j => by
    show Scalar.select (k0_pay2 x0 x1 x4 (ix2 r j)) (k0_pay3 x2 x3 (ix2 r j)) Cert.Spec.fill = _
    rw [pay2_apply, pay3_apply]
    rfl
  have hneg : (fun j => select (k0_pay2 x0 x1 x4)
        (subf (broadcast S128x4096 (Scalar.ofBits (F := Ideal) .f32 0x00000000#32)) (k0_pay3 x2 x3))
        (broadcast S128x4096 (Scalar.ofBits (F := Ideal) .f32 0xD368D4A5#32)) (ix2 r j))
      = Cert.Spec.znegK (Cert.Spec.maskK (x0 (ix2 r 0)) (fun j => x1 (ix2 0 j)) (fun j => x4 (ix2 r j)))
          (x2 (ix2 r 0)) (fun j => x3 (ix2 0 j)) := funext fun j => by
    show Scalar.select (k0_pay2 x0 x1 x4 (ix2 r j)) (Cert.Spec.zero - k0_pay3 x2 x3 (ix2 r j)) Cert.Spec.fill = _
    rw [pay2_apply, pay3_apply]
    rfl
  rw [pay1_apply]
  refine congrArg Cert.Spec.eluK ?_
  unfold Cert.Spec.rowK
  refine congrArg₂ (· + ·) (Finset.sum_congr rfl fun k _ => ?_) (Finset.sum_congr rfl fun k _ => ?_)
  · rw [pay7_apply, pay9_eq]
    show agg (select (k0_pay2 x0 x1 x4) (k0_pay3 x2 x3) (k0_pay4 (F := Ideal))) x5 (ix2 r k) * x6 (ix2 k d) = _
    rw [agg_apply, hpos]
  · rw [pay8_apply, pay6_eq]
    show (Cert.Spec.zero - agg (select (k0_pay2 x0 x1 x4)
        (subf (broadcast S128x4096 (Scalar.ofBits (F := Ideal) .f32 0x00000000#32)) (k0_pay3 x2 x3))
        (broadcast S128x4096 (Scalar.ofBits (F := Ideal) .f32 0xD368D4A5#32))) x5 (ix2 r k)) * x7 (ix2 k d) = _
    rw [agg_apply, hneg]

/-- The block the body stores, at row `r` and column `d`. -/
theorem out0_8_apply (x0 : Vec Ideal S128x1 .f32) (x1 : Vec Ideal S1x4096 .f32) (x2 : Vec Ideal S128x1 .f32) (x3 : Vec Ideal S1x4096 .f32)
    (x4 : Vec Ideal S128x4096 .i32) (x5 : Vec Ideal S4096x300 .f32) (x6 : Vec Ideal S300x300 .f32) (x7 : Vec Ideal S300x300 .f32)
    (r : Fin 128) (d : Fin 300) :
    out0_8 x0 x1 x2 x3 x4 x5 x6 x7 (ix2 r d)
      = Cert.Spec.eluK (Cert.Spec.rowK
          (Cert.Spec.maskK (x0 (ix2 r 0)) (fun j => x1 (ix2 0 j)) (fun j => x4 (ix2 r j)))
          (x2 (ix2 r 0)) (fun j => x3 (ix2 0 j)) (fun j k => x5 (ix2 j k)) (fun k e => x6 (ix2 k e)) (fun k e => x7 (ix2 k e)) d) := by
  unfold out0_8
  rw [View.canon_unit_zero zero_off]
  simp only [View.ld_unit_zero (S := S128x1) zero_off, View.ld_unit_zero (S := S1x4096) zero_off,
    View.ld_unit_zero (S := S128x4096) zero_off, View.ld_unit_zero (S := S4096x300) zero_off,
    View.ld_unit_zero (S := S300x300) zero_off]
  exact body_apply x0 x1 x2 x3 x4 x5 x6 x7 r d

end Cert.KernelIdeal.Body0

end
-- ==== Proof.KBody1.lean ====
/-
  Region 1's body read at an element: entry (r, d) of the block the body leaves is the logistic function of the query row's
  projected signed aggregate — the kernel's arrangement `Spec.rowK` over the row's own mask (`Spec.maskK`).
-/
import proofs.«428251_j16982300688849_3_alg».proof.Proof.KernelIdealFrameP
import proofs.«428251_j16982300688849_3_alg».proof.Proof.Spec
import Idealize.ShloMosaic.Lib.ValueLayout
import Idealize.ShloMosaic.PureOps.Ideal.Laws

noncomputable section

namespace Cert.KernelIdeal.Body1

open Idealize.ShloMosaic Idealize.ShloMosaic.ValueIdx
open Cert.KernelIdeal Cert.KernelIdeal.Gen Cert.KernelIdeal.GenP
open scoped BigOperators

/-! ## Layout operations read at an element -/

section Layout
variable {α : Type}

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A per-row value `[a]`, cast to a column and broadcast over `b` lanes, reads its row's value everywhere. -/
theorem rowValue_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

/-! ## The two reductions along the lanes, read at a row -/

/-- The f32 word `0xFF800000` is `-∞`. -/
theorem ofBits_negInf_f32 : Ideal.ofBits .f32 0xFF800000#32 = (⊥ : EReal) := by
  simp [Ideal.ofBits, Ideal.ieee]

/-- The index a lane reduction of a `[64, 4096]` block reads at row `r` and lane `k`. -/
theorem lift_row (h : S64x4096.Reduces [1] S64) (r : Fin 64) (k : Fin 4096) :
    h.lift (ix1 r) k = ix2 r k := by
  funext ax; apply Fin.ext
  match ax with
  | ⟨0, _⟩ => rfl
  | ⟨1, _⟩ => rfl

/-- A lane sum at row `r` is the sum of the row's entries. -/
theorem laneSum_apply (src : FVec Ideal S64x4096 .f32) (h : S64x4096.Reduces [1] S64) (hφ : FKind.Formats .f32)
    (hacc : (0x00000000#32 : BitVec 32) = FKind.add.neutral .f32 hφ) (r : Fin 64) :
    multiReduction .add [1] S64 src 0x00000000#32 h hφ hacc (ix1 r) = ∑ j : Fin 4096, src (ix2 r j) := by
  refine (Ideal.multiReduction_add_single src _ h hφ hacc (ix1 r)).trans ?_
  exact Finset.sum_congr rfl fun k _ => congrArg src (lift_row h r k)

/-- A lane maximum at row `r` is the row's maximum, folded from `-∞`. -/
theorem laneMax_apply (src : FVec Ideal S64x4096 .f32) (h : S64x4096.Reduces [1] S64) (hφ : FKind.Formats .f32)
    (hacc : (0xFF800000#32 : BitVec 32) = FKind.maximumf.neutral .f32 hφ) (r : Fin 64) :
    multiReduction .maximumf [1] S64 src 0xFF800000#32 h hφ hacc (ix1 r) = Cert.Spec.rmax fun j => src (ix2 r j) := by
  refine (Ideal.multiReduction_maximumf_single src _ h hφ hacc (ix1 r)).trans ?_
  have e : (src ∘ h.lift (ix1 r) : Fin 4096 → EReal) = fun j => src (ix2 r j) :=
    funext fun k => congrArg src (lift_row h r k)
  exact congrArg₂ (fun (b : EReal) (f : Fin 4096 → EReal) => (Finset.univ : Finset (Fin 4096)).fold max b f)
    ofBits_negInf_f32 e

/-! ## The two products read at an element -/

/-- The operand indices of the `[64, 4096] × [4096, 300]` product at output `(r, d)` and contraction position `c`. -/
theorem lhsIdx_agg (r : Fin 64) (d : Fin 300) (c : Fin 4096) :
    dot_S64x4096_S4096x300_S64x300_1_0_0_1_n_n.lhsIdx (ix2 r d)
      ((contrEquiv1 dot_S64x4096_S4096x300_S64x300_1_0_0_1_n_n 4096 rfl rfl).symm c) = ix2 r c := by
  funext ax; apply Fin.ext
  match ax with
  | ⟨0, _⟩ => simp [DotDims.lhsIdx, dot_S64x4096_S4096x300_S64x300_1_0_0_1_n_n]; rfl
  | ⟨1, _⟩ =>
    exact (DotDims.lhsIdx_val_of_single dot_S64x4096_S4096x300_S64x300_1_0_0_1_n_n (cl := 1) rfl _ _).trans
      (contrEquiv1_symm_val dot_S64x4096_S4096x300_S64x300_1_0_0_1_n_n 4096 rfl rfl c)

theorem rhsIdx_agg (r : Fin 64) (d : Fin 300) (c : Fin 4096) :
    dot_S64x4096_S4096x300_S64x300_1_0_0_1_n_n.rhsIdx (ix2 r d)
      ((contrEquiv1 dot_S64x4096_S4096x300_S64x300_1_0_0_1_n_n 4096 rfl rfl).symm c) = ix2 c d := by
  funext ax; apply Fin.ext
  match ax with
  | ⟨0, _⟩ =>
    exact (DotDims.rhsIdx_val_of_single dot_S64x4096_S4096x300_S64x300_1_0_0_1_n_n (cr := 0) rfl _ _).trans
      (contrEquiv1_symm_val dot_S64x4096_S4096x300_S64x300_1_0_0_1_n_n 4096 rfl rfl c)
  | ⟨1, _⟩ => simp [DotDims.rhsIdx, dot_S64x4096_S4096x300_S64x300_1_0_0_1_n_n]; rfl

/-- The aggregation product into the zero block, at `(r, d)`: the sum over the 4096 keys. -/
theorem matmul_agg_apply {φ₁ φ₂ : FTy} (lhs : FVec Ideal S64x4096 φ₁) (rhs : FVec Ideal S4096x300 φ₂) (r : Fin 64) (d : Fin 300) :
    matmul dot_S64x4096_S4096x300_S64x300_1_0_0_1_n_n none lhs rhs (constant (F := Ideal) S64x300 .f32 0x00000000#32) (ix2 r d)
      = ∑ c : Fin 4096, lhs (ix2 r c) * rhs (ix2 c d) := by
  refine (Ideal.matmul_constant_zero_apply dot_S64x4096_S4096x300_S64x300_1_0_0_1_n_n none lhs rhs (ix2 r d)).trans ?_
  rw [← Equiv.sum_comp (contrEquiv1 dot_S64x4096_S4096x300_S64x300_1_0_0_1_n_n 4096 rfl rfl).symm]
  exact Finset.sum_congr rfl fun c _ => by rw [lhsIdx_agg, rhsIdx_agg]

/-- The operand indices of the `[64, 300] × [300, 300]` product at output `(r, d)` and contraction position `c`. -/
theorem lhsIdx_proj (r : Fin 64) (d : Fin 300) (c : Fin 300) :
    dot_S64x300_S300x300_S64x300_1_0_0_1_n_n.lhsIdx (ix2 r d)
      ((contrEquiv1 dot_S64x300_S300x300_S64x300_1_0_0_1_n_n 300 rfl rfl).symm c) = ix2 r c := by
  funext ax; apply Fin.ext
  match ax with
  | ⟨0, _⟩ => simp [DotDims.lhsIdx, dot_S64x300_S300x300_S64x300_1_0_0_1_n_n]; rfl
  | ⟨1, _⟩ =>
    exact (DotDims.lhsIdx_val_of_single dot_S64x300_S300x300_S64x300_1_0_0_1_n_n (cl := 1) rfl _ _).trans
      (contrEquiv1_symm_val dot_S64x300_S300x300_S64x300_1_0_0_1_n_n 300 rfl rfl c)

theorem rhsIdx_proj (r : Fin 64) (d : Fin 300) (c : Fin 300) :
    dot_S64x300_S300x300_S64x300_1_0_0_1_n_n.rhsIdx (ix2 r d)
      ((contrEquiv1 dot_S64x300_S300x300_S64x300_1_0_0_1_n_n 300 rfl rfl).symm c) = ix2 c d := by
  funext ax; apply Fin.ext
  match ax with
  | ⟨0, _⟩ =>
    exact (DotDims.rhsIdx_val_of_single dot_S64x300_S300x300_S64x300_1_0_0_1_n_n (cr := 0) rfl _ _).trans
      (contrEquiv1_symm_val dot_S64x300_S300x300_S64x300_1_0_0_1_n_n 300 rfl rfl c)
  | ⟨1, _⟩ => simp [DotDims.rhsIdx, dot_S64x300_S300x300_S64x300_1_0_0_1_n_n]; rfl

/-- The projection product into the zero block, at `(r, d)`: the sum over the 300 features. -/
theorem matmul_proj_apply {φ₁ φ₂ : FTy} (lhs : FVec Ideal S64x300 φ₁) (rhs : FVec Ideal S300x300 φ₂) (r : Fin 64) (d : Fin 300) :
    matmul dot_S64x300_S300x300_S64x300_1_0_0_1_n_n none lhs rhs (constant (F := Ideal) S64x300 .f32 0x00000000#32) (ix2 r d)
      = ∑ c : Fin 300, lhs (ix2 r c) * rhs (ix2 c d) := by
  refine (Ideal.matmul_constant_zero_apply dot_S64x300_S300x300_S64x300_1_0_0_1_n_n none lhs rhs (ix2 r d)).trans ?_
  rw [← Equiv.sum_comp (contrEquiv1 dot_S64x300_S300x300_S64x300_1_0_0_1_n_n 300 rfl rfl).symm]
  exact Finset.sum_congr rfl fun c _ => by rw [lhsIdx_proj, rhsIdx_proj]

/-! ## The row soft-max of a block -/

section Blocks
variable (hred : S64x4096.Reduces [1] S64) (hφ : FKind.Formats .f32)
  (hmax : (0xFF800000#32 : BitVec 32) = FKind.maximumf.neutral .f32 hφ)
  (hadd : (0x00000000#32 : BitVec 32) = FKind.add.neutral .f32 hφ)
  (hcol : S64.ShapeCasts S64x1) (hlanes : S64x1.Broadcasts S64x4096) (hfeat : S64x1.Broadcasts S64x300)

/-- The exponentials of a block's entries less their row's maximum, as the body forms them. -/
def expBlock (z : FVec Ideal S64x4096 .f32) : FVec Ideal S64x4096 .f32 :=
  exp (subf z (broadcastTo S64x4096
    (shapeCast S64x1 (multiReduction .maximumf [1] S64 z 0xFF800000#32 hred hφ hmax) hcol) hlanes))

/-- At `(r, j)` it is the soft-max numerator of entry `j` of row `r`. -/
theorem expBlock_apply (z : FVec Ideal S64x4096 .f32) (r : Fin 64) (j : Fin 4096) :
    expBlock hred hφ hmax hcol hlanes z (ix2 r j) = Cert.Spec.sexp (fun i => z (ix2 r i)) j :=
  congrArg (fun m : EReal => Ideal.exp (z (ix2 r j) - m))
    ((rowValue_apply _ hcol hlanes r j).trans (laneMax_apply z hred hφ hmax r))

/-- The row sums of those exponentials, as the body forms them. -/
def sumBlock (z : FVec Ideal S64x4096 .f32) : FVec Ideal S64 .f32 :=
  multiReduction .add [1] S64 (expBlock hred hφ hmax hcol hlanes z) 0x00000000#32 hred hφ hadd

/-- At row `r` it is the soft-max denominator of that row. -/
theorem sumBlock_apply (z : FVec Ideal S64x4096 .f32) (r : Fin 64) :
    sumBlock hred hφ hmax hadd hcol hlanes z (ix1 r) = ∑ j : Fin 4096, Cert.Spec.sexp (fun i => z (ix2 r i)) j :=
  (laneSum_apply _ hred hφ hadd r).trans
    (Finset.sum_congr rfl fun j _ => expBlock_apply hred hφ hmax hcol hlanes z r j)

end Blocks

/-! ## The body's values read at an element -/

/-- The format changes leave every entry as it is. -/
theorem pay4_apply (X : Vec Ideal S4096x300 .f32) (i : S4096x300.Idx) : k1_pay4 X i = X i :=
  congrFun (shapeCast_self X _) i
theorem pay7_apply (W : Vec Ideal S300x300 .f32) (i : S300x300.Idx) : k1_pay7 W i = W i :=
  congrFun (shapeCast_self W _) i
theorem pay8_apply (W : Vec Ideal S300x300 .f32) (i : S300x300.Idx) : k1_pay8 W i = W i :=
  congrFun (shapeCast_self W _) i

/-- A column of per-query terms plus a row of per-key terms, at `(r, j)`. -/
theorem logits_block_apply (u : Vec Ideal S64x1 .f32) (v : Vec Ideal S1x4096 .f32) (h1 : S64x1.ShapeCasts S64x1)
    (h2 : S1x4096.ShapeCasts S1x4096) (h3 : S64x1.Broadcasts S64x4096) (h4 : S1x4096.Broadcasts S64x4096)
    (r : Fin 64) (j : Fin 4096) :
    addf (F := Ideal) (φ := .f32) (broadcastTo S64x4096 (shapeCast S64x1 u h1) h3)
        (broadcastTo S64x4096 (shapeCast S1x4096 v h2) h4) (ix2 r j)
      = (u (ix2 r 0) : EReal) + v (ix2 0 j) := by
  have e1 : broadcastTo S64x4096 (shapeCast S64x1 u h1) h3 (ix2 r j) = u (ix2 r 0) := by
    rw [shapeCast_self]; exact broadcastTo_a1_ab_apply u h3 r j
  have e2 : broadcastTo S64x4096 (shapeCast S1x4096 v h2) h4 (ix2 r j) = v (ix2 0 j) := by
    rw [shapeCast_self]; exact broadcastTo_1b_ab_apply v h4 r j
  exact congrArg₂ (fun p q : EReal => p + q) e1 e2

/-- The leaky ReLU of a block, element by element. -/
theorem lrelu_block_apply (x : FVec Ideal S64x4096 .f32) (i : S64x4096.Idx) :
    select (cmpf .oge x (broadcast S64x4096 (Scalar.ofBits .f32 0x00000000#32)))
      x (mulf (broadcast S64x4096 (Scalar.ofBits .f32 0x3E99999A#32)) x) i = Cert.Spec.lrelu (x i) := rfl

/-- The logits block at `(r, j)`: the leaky ReLU of the query's term plus the key's. -/
theorem pay3_apply (u : Vec Ideal S64x1 .f32) (v : Vec Ideal S1x4096 .f32) (r : Fin 64) (j : Fin 4096) :
    k1_pay3 u v (ix2 r j) = Cert.Spec.lrelu ((u (ix2 r 0) : EReal) + v (ix2 0 j)) :=
  (lrelu_block_apply _ (ix2 r j)).trans (congrArg Cert.Spec.lrelu (logits_block_apply u v _ _ _ _ r j))

section Blocks2
variable (hred : S64x4096.Reduces [1] S64) (hφ : FKind.Formats .f32)
  (hmax : (0xFF800000#32 : BitVec 32) = FKind.maximumf.neutral .f32 hφ)
  (hadd : (0x00000000#32 : BitVec 32) = FKind.add.neutral .f32 hφ)
  (hcol : S64.ShapeCasts S64x1) (hlanes : S64x1.Broadcasts S64x4096) (hfeat : S64x1.Broadcasts S64x300)

/-- The keep-test over a block `z` of mask logits and a block `a` of adjacency words, at `(r, j)`: the numerator times
    4096 exceeds the row's denominator, or the adjacency word is positive. -/
theorem maskBlock_apply (z : FVec Ideal S64x4096 .f32) (a : IVec S64x4096 32) (hs : S64x4096.ShapeCasts S64x4096)
    (r : Fin 64) (j : Fin 4096) :
    ori (cmpf .ogt (mulf (expBlock hred hφ hmax hcol hlanes z) (broadcast S64x4096 (Scalar.ofBits .f32 0x45800000#32)))
          (broadcastTo S64x4096 (shapeCast S64x1 (sumBlock hred hφ hmax hadd hcol hlanes z) hcol) hlanes))
        (cmpi .sgt (shapeCast S64x4096 a hs) (broadcast S64x4096 0#32)) (ix2 r j)
      = IntOp.ori (Ideal.cmp .ogt (Cert.Spec.sexp (fun i => z (ix2 r i)) j * Cert.Spec.big)
            (∑ i : Fin 4096, Cert.Spec.sexp (fun i => z (ix2 r i)) i))
          (IntOp.cmpi .sgt (a (ix2 r j)) 0#32) := by
  have e1 := expBlock_apply hred hφ hmax hcol hlanes z r j
  have e2 := (rowValue_apply (sumBlock hred hφ hmax hadd hcol hlanes z) hcol hlanes r j).trans
    (sumBlock_apply hred hφ hmax hadd hcol hlanes z r)
  have e3 : shapeCast S64x4096 a hs (ix2 r j) = a (ix2 r j) := congrFun (shapeCast_self a hs) _
  show IntOp.ori (Ideal.cmp .ogt (expBlock hred hφ hmax hcol hlanes z (ix2 r j) * Cert.Spec.big)
      (broadcastTo S64x4096 (shapeCast S64x1 (sumBlock hred hφ hmax hadd hcol hlanes z) hcol) hlanes (ix2 r j)))
    (IntOp.cmpi .sgt (shapeCast S64x4096 a hs (ix2 r j)) 0#32) = _
  rw [e1, e2, e3]

/-- The soft-max numerators of a block `z` aggregating a value table `X`, scaled by one over the row's denominator, at `(r, k)`. -/
theorem aggBlock_apply (z : FVec Ideal S64x4096 .f32) (X : Vec Ideal S4096x300 .f32) (hlt : FTy.bits .bf16 < FTy.bits .f32)
    (r : Fin 64) (k : Fin 300) :
    mulf (matmul dot_S64x4096_S4096x300_S64x300_1_0_0_1_n_n none (truncf .bf16 (expBlock hred hφ hmax hcol hlanes z) hlt)
            (k1_pay4 X) (constant (F := Ideal) S64x300 .f32 0x00000000#32))
        (broadcastTo S64x300 (divf (broadcast S64x1 (Scalar.ofBits .f32 0x3F800000#32))
            (shapeCast S64x1 (sumBlock hred hφ hmax hadd hcol hlanes z) hcol)) hfeat) (ix2 r k)
      = (∑ j : Fin 4096, Cert.Spec.sexp (fun i => z (ix2 r i)) j * X (ix2 j k))
          * Ideal.div Cert.Spec.one (∑ j : Fin 4096, Cert.Spec.sexp (fun i => z (ix2 r i)) j) := by
  have e1 : matmul dot_S64x4096_S4096x300_S64x300_1_0_0_1_n_n none (truncf .bf16 (expBlock hred hφ hmax hcol hlanes z) hlt)
        (k1_pay4 X) (constant (F := Ideal) S64x300 .f32 0x00000000#32) (ix2 r k)
      = ∑ j : Fin 4096, Cert.Spec.sexp (fun i => z (ix2 r i)) j * X (ix2 j k) :=
    (matmul_agg_apply _ _ r k).trans (Finset.sum_congr rfl fun j _ =>
      congrArg₂ (fun p q : EReal => p * q) (expBlock_apply hred hφ hmax hcol hlanes z r j) (pay4_apply X (ix2 j k)))
  have e2 : broadcastTo S64x300 (divf (broadcast S64x1 (Scalar.ofBits .f32 0x3F800000#32))
        (shapeCast S64x1 (sumBlock hred hφ hmax hadd hcol hlanes z) hcol)) hfeat (ix2 r k)
      = Ideal.div Cert.Spec.one (∑ j : Fin 4096, Cert.Spec.sexp (fun i => z (ix2 r i)) j) :=
    (broadcastTo_a1_ab_apply _ hfeat r k).trans (congrArg (Ideal.div Cert.Spec.one)
      ((shapeCast_a_a1_apply _ hcol r 0).trans (sumBlock_apply hred hφ hmax hadd hcol hlanes z r)))
  exact congrArg₂ (fun p q : EReal => p * q) e1 e2

end Blocks2

/-- The mask block at `(r, j)`: the kernel's keep-test of key `j` for query row `r`. -/
theorem pay2_apply (u : Vec Ideal S64x1 .f32) (v : Vec Ideal S1x4096 .f32) (a : Vec Ideal S64x4096 .i32)
    (r : Fin 64) (j : Fin 4096) :
    k1_pay2 u v a (ix2 r j)
      = Cert.Spec.maskK (u (ix2 r 0)) (fun i => v (ix2 0 i)) (fun i => a (ix2 r i)) j := by
  have hz : (fun i => k1_pay3 u v (ix2 r i)) = Cert.Spec.mlog (u (ix2 r 0)) (fun i => v (ix2 0 i)) :=
    funext fun i => pay3_apply u v r i
  refine (maskBlock_apply _ _ _ _ _ _ (k1_pay3 u v) a _ r j).trans ?_
  rw [hz]
  rfl

/-- The positive aggregate at `(r, k)`. -/
theorem pay5_apply (m : IVec S64x4096 1) (e : FVec Ideal S64x4096 .f32) (c : Ideal .f32) (X : Vec Ideal S4096x300 .f32)
    (r : Fin 64) (k : Fin 300) :
    k1_pay5 m e c X (ix2 r k)
      = (∑ j : Fin 4096, Cert.Spec.sexp (fun i => Scalar.select (m (ix2 r i)) (e (ix2 r i)) c) j * X (ix2 j k))
          * Ideal.div Cert.Spec.one (∑ j : Fin 4096, Cert.Spec.sexp (fun i => Scalar.select (m (ix2 r i)) (e (ix2 r i)) c) j) :=
  aggBlock_apply _ _ _ _ _ _ _ (select m e (broadcast S64x4096 c)) X _ r k

/-- The negative aggregate at `(r, k)`, negated as `0 - ·`. -/
theorem pay6_apply (m : IVec S64x4096 1) (e : FVec Ideal S64x4096 .f32) (X : Vec Ideal S4096x300 .f32)
    (r : Fin 64) (k : Fin 300) :
    k1_pay6 m e X (ix2 r k)
      = Cert.Spec.zero - (∑ j : Fin 4096, Cert.Spec.sexp (fun i => Scalar.select (m (ix2 r i)) (Cert.Spec.zero - e (ix2 r i)) Cert.Spec.fill) j * X (ix2 j k))
          * Ideal.div Cert.Spec.one (∑ j : Fin 4096, Cert.Spec.sexp (fun i => Scalar.select (m (ix2 r i)) (Cert.Spec.zero - e (ix2 r i)) Cert.Spec.fill) j) :=
  congrArg (fun p : EReal => Cert.Spec.zero - p)
    (aggBlock_apply _ _ _ _ _ _ _
      (select m (subf (broadcast S64x4096 (Scalar.ofBits .f32 0x00000000#32)) e) (broadcast S64x4096 (Scalar.ofBits .f32 0xD368D4A5#32))) X _ r k)

/-- The two projections added, through the logistic function, at `(r, d)`. -/
theorem pay1_apply (p q : FVec Ideal S64x300 .f32) (wt wb : FVec Ideal S300x300 .bf16) (r : Fin 64) (d : Fin 300) :
    k1_pay1 p q wt wb (ix2 r d)
      = Ideal.logistic ((∑ k : Fin 300, p (ix2 r k) * wt (ix2 k d)) + (∑ k : Fin 300, q (ix2 r k) * wb (ix2 k d))) :=
  congrArg Ideal.logistic (congrArg₂ (fun a b : EReal => a + b) (matmul_proj_apply _ wt r d) (matmul_proj_apply _ wb r d))

/-! ## The block the body stores -/

/-- The zero offsets of a whole-block access, as the constant function. -/
theorem offsets_zero : (![0, 0] : Fin 2 → Nat) = fun _ => 0 :=
  funext fun a => match a with
    | ⟨0, _⟩ => rfl
    | ⟨1, _⟩ => rfl

/-- The body's stored value over the blocks themselves, at `(r, d)`: the logistic function of the row's projected signed
    aggregate, in the kernel's arrangement. -/
theorem body_apply (x0 : Vec Ideal S64x1 .f32) (x1 : Vec Ideal S1x4096 .f32) (x2 : Vec Ideal S64x1 .f32) (x3 : Vec Ideal S1x4096 .f32)
    (x4 : Vec Ideal S64x4096 .i32) (x5 : Vec Ideal S4096x300 .f32) (x6 : Vec Ideal S300x300 .f32) (x7 : Vec Ideal S300x300 .f32)
    (r : Fin 64) (d : Fin 300) :
    k1_pay1 (k1_pay5 (k1_pay2 x0 x1 x4) (k1_pay3 x2 x3) (Scalar.ofBits .f32 0xD368D4A5#32) x5)
        (k1_pay6 (k1_pay2 x0 x1 x4) (k1_pay3 x2 x3) x5) (k1_pay7 x6) (k1_pay8 x7) (ix2 r d)
      = Cert.Spec.sigK (Cert.Spec.rowK
          (Cert.Spec.maskK (x0 (ix2 r 0)) (fun j => x1 (ix2 0 j)) (fun j => x4 (ix2 r j)))
          (x2 (ix2 r 0)) (fun j => x3 (ix2 0 j)) (fun j k => x5 (ix2 j k)) (fun k e => x6 (ix2 k e)) (fun k e => x7 (ix2 k e)) d) := by
  have hpos : (fun i => Scalar.select (k1_pay2 x0 x1 x4 (ix2 r i)) (k1_pay3 x2 x3 (ix2 r i))
        (Scalar.ofBits .f32 0xD368D4A5#32 : Ideal .f32))
      = Cert.Spec.zpos (Cert.Spec.maskK (x0 (ix2 r 0)) (fun j => x1 (ix2 0 j)) (fun j => x4 (ix2 r j)))
          (x2 (ix2 r 0)) (fun j => x3 (ix2 0 j)) :=
    funext fun i => by rw [pay2_apply, pay3_apply]; rfl
  have hneg : (fun i => Scalar.select (k1_pay2 x0 x1 x4 (ix2 r i)) (Cert.Spec.zero - k1_pay3 x2 x3 (ix2 r i)) Cert.Spec.fill)
      = Cert.Spec.znegK (Cert.Spec.maskK (x0 (ix2 r 0)) (fun j => x1 (ix2 0 j)) (fun j => x4 (ix2 r j)))
          (x2 (ix2 r 0)) (fun j => x3 (ix2 0 j)) :=
    funext fun i => by rw [pay2_apply, pay3_apply]; rfl
  refine (pay1_apply _ _ _ _ r d).trans ?_
  refine congrArg Ideal.logistic (congrArg₂ (fun a b : EReal => a + b)
    (Finset.sum_congr rfl fun k _ => ?_) (Finset.sum_congr rfl fun k _ => ?_))
  · rw [pay5_apply, hpos, pay7_apply]
  · rw [pay6_apply, hneg, pay8_apply]

/-- The block the body stores, at row `r` and column `d`. -/
theorem out1_8_apply (x0 : Vec Ideal S64x1 .f32) (x1 : Vec Ideal S1x4096 .f32) (x2 : Vec Ideal S64x1 .f32) (x3 : Vec Ideal S1x4096 .f32)
    (x4 : Vec Ideal S64x4096 .i32) (x5 : Vec Ideal S4096x300 .f32) (x6 : Vec Ideal S300x300 .f32) (x7 : Vec Ideal S300x300 .f32)
    (r : Fin 64) (d : Fin 300) :
    out1_8 x0 x1 x2 x3 x4 x5 x6 x7 (ix2 r d)
      = Cert.Spec.sigK (Cert.Spec.rowK
          (Cert.Spec.maskK (x0 (ix2 r 0)) (fun j => x1 (ix2 0 j)) (fun j => x4 (ix2 r j)))
          (x2 (ix2 r 0)) (fun j => x3 (ix2 0 j)) (fun j k => x5 (ix2 j k)) (fun k e => x6 (ix2 k e)) (fun k e => x7 (ix2 k e)) d) := by
  unfold out1_8
  rw [View.canon_unit_zero offsets_zero]
  simp only [View.ld_unit_zero (S := S64x1) offsets_zero, View.ld_unit_zero (S := S1x4096) offsets_zero,
    View.ld_unit_zero (S := S64x4096) offsets_zero, View.ld_unit_zero (S := S4096x300) offsets_zero,
    View.ld_unit_zero (S := S300x300) offsets_zero]
  exact body_apply x0 x1 x2 x3 x4 x5 x6 x7 r d

end Cert.KernelIdeal.Body1

end
-- ==== Proof.KHost.lean ====
/-
  The kernel program's stages read at an element, and its result: the host operations around the regions compute the
  mask logits, the attention logits `X · (W · a)`, the halves of the projection matrices and the gathered rows; with the
  two bodies read at an element (KBody0, KBody1) the result array is `Spec.outK` of the arguments.
-/
import proofs.«428251_j16982300688849_3_alg».proof.Proof.KTerm
import proofs.«428251_j16982300688849_3_alg».proof.Proof.KBody0
import proofs.«428251_j16982300688849_3_alg».proof.Proof.KBody1
import Idealize.ShloMosaic.Lib.StackMember

noncomputable section

namespace Cert.KernelIdeal.HostRead

open Idealize.ShloMosaic Idealize.ShloMosaic.ValueIdx
open Cert.KernelIdeal Cert.KernelIdeal.Gen Cert.KernelIdeal.Term
open scoped BigOperators

variable (A : Cert.Spec.Args Ideal)

/-! ## The host operations read at an element

Each kind of host operation of the program, stated once over arbitrary operands of the literal shapes: a matrix product
is the sum over the contracted coordinate, a two-piece concatenation along the columns reads its pieces, a slice reads
its operand shifted by the offsets, a transposition swaps the coordinates, a gather reads its operand at the clamped
start indices. -/

section Operations

/-- The rows-by-columns product of a 4096×300 by a 300×300 matrix. -/
theorem dot_4096_300_300 (p : Option ContractPrecision) (L : FVec Ideal S4096x300 .f32) (R : FVec Ideal S300x300 .f32)
    (a : Fin 4096) (b : Fin 300) :
    Host.dotGeneral dot_S4096x300_S300x300_S4096x300_1_0_0_1_n_n p L R (ix2 a b) = ∑ c : Fin 300, L (ix2 a c) * R (ix2 c b) :=
  StackMember.dotGeneral_plain_apply p L R a b

/-- The product of a 4096×300 matrix by a 300-column. -/
theorem dot_4096_300_1 (p : Option ContractPrecision) (L : FVec Ideal S4096x300 .f32) (R : FVec Ideal S300x1 .f32)
    (a : Fin 4096) (b : Fin 1) :
    Host.dotGeneral dot_S4096x300_S300x1_S4096x1_1_0_0_1_n_n p L R (ix2 a b) = ∑ c : Fin 300, L (ix2 a c) * R (ix2 c b) :=
  StackMember.dotGeneral_plain_apply p L R a b

/-- The product of a 300×300 matrix by a 300-column. -/
theorem dot_300_300_1 (p : Option ContractPrecision) (L : FVec Ideal S300x300 .f32) (R : FVec Ideal S300x1 .f32)
    (a : Fin 300) (b : Fin 1) :
    Host.dotGeneral dot_S300x300_S300x1_S300x1_1_0_0_1_n_n p L R (ix2 a b) = ∑ c : Fin 300, L (ix2 a c) * R (ix2 c b) :=
  StackMember.dotGeneral_plain_apply p L R a b

/-- The product of a 4096×300 matrix by a 300×2 matrix. -/
theorem dot_4096_300_2 (p : Option ContractPrecision) (L : FVec Ideal S4096x300 .f32) (R : FVec Ideal S300x2 .f32)
    (a : Fin 4096) (b : Fin 2) :
    Host.dotGeneral dot_S4096x300_S300x2_S4096x2_1_0_0_1_n_n p L R (ix2 a b) = ∑ c : Fin 300, L (ix2 a c) * R (ix2 c b) :=
  StackMember.dotGeneral_plain_apply p L R a b

/-- Two columns side by side: column 0 of the pair is the first. -/
theorem cat_left {α : Type} {n : Nat} (x y : (⟨2, ![n, 1]⟩ : Shape).Idx → α)
    (h : Shape.Concatenates [(⟨2, ![n, 1]⟩ : Shape), ⟨2, ![n, 1]⟩] ⟨2, ![n, 2]⟩ 1) (i : Fin n) :
    concatenate ⟨2, ![n, 2]⟩ 1 [⟨⟨2, ![n, 1]⟩, x⟩, ⟨⟨2, ![n, 1]⟩, y⟩] h (ix2 i 0) = x (ix2 i 0) := by
  refine concatenate_pair_apply_left (t := ⟨2, ![n, 2]⟩) 1 x y h (ix2 i 0) rfl (ix2 i 0) ?_
  intro b
  match b with
  | ⟨0, _⟩ => rfl
  | ⟨1, _⟩ => rfl

/-- Two columns side by side: column 1 of the pair is the second. -/
theorem cat_right {α : Type} {n : Nat} (x y : (⟨2, ![n, 1]⟩ : Shape).Idx → α)
    (h : Shape.Concatenates [(⟨2, ![n, 1]⟩ : Shape), ⟨2, ![n, 1]⟩] ⟨2, ![n, 2]⟩ 1) (i : Fin n) :
    concatenate ⟨2, ![n, 2]⟩ 1 [⟨⟨2, ![n, 1]⟩, x⟩, ⟨⟨2, ![n, 1]⟩, y⟩] h (ix2 i 1) = y (ix2 i 0) := by
  refine concatenate_pair_apply_right (t := ⟨2, ![n, 2]⟩) 1 x y h (ix2 i 1) rfl rfl (ix2 i 0) ?_ ?_
  · intro b hb
    match b with
    | ⟨0, _⟩ => rfl
    | ⟨1, _⟩ => exact absurd rfl hb
  · rfl

/-- Column 0 of a 4096×2 array. -/
theorem col0 {α : Type} (x : S4096x2.Idx → α) (i : Fin 4096) :
    extractStridedSlice S4096x1 ![0, 0] x slices_S4096x2_S4096x1_0_0 (ix2 i 0) = x (ix2 i 0) := by
  refine extractStridedSlice_apply _ x _ _ _ ?_
  intro a
  match a with
  | ⟨0, _⟩ => show i.val = 0 + i.val; omega
  | ⟨1, _⟩ => rfl

/-- Column 1 of a 4096×2 array. -/
theorem col1 {α : Type} (x : S4096x2.Idx → α) (i : Fin 4096) :
    extractStridedSlice S4096x1 ![0, 1] x slices_S4096x2_S4096x1_0_1 (ix2 i 0) = x (ix2 i 1) := by
  refine extractStridedSlice_apply _ x _ _ _ ?_
  intro a
  match a with
  | ⟨0, _⟩ => show i.val = 0 + i.val; omega
  | ⟨1, _⟩ => rfl

/-- The first half of a 600-column. -/
theorem half_lo {α : Type} (x : S600x1.Idx → α) (j : Fin 300) :
    extractStridedSlice S300x1 ![0, 0] x slices_S600x1_S300x1_0_0 (ix2 j 0) = x (ix2 (Cert.Spec.lo j) 0) := by
  refine extractStridedSlice_apply _ x _ _ _ ?_
  intro a
  match a with
  | ⟨0, _⟩ => show j.val = 0 + j.val; omega
  | ⟨1, _⟩ => rfl

/-- The second half of a 600-column. -/
theorem half_hi {α : Type} (x : S600x1.Idx → α) (j : Fin 300) :
    extractStridedSlice S300x1 ![300, 0] x slices_S600x1_S300x1_300_0 (ix2 j 0) = x (ix2 (Cert.Spec.hi j) 0) := by
  refine extractStridedSlice_apply _ x _ _ _ ?_
  intro a
  match a with
  | ⟨0, _⟩ => show j.val + 300 = 300 + j.val; omega
  | ⟨1, _⟩ => rfl

/-- The top half of a 600×300 matrix. -/
theorem top {α : Type} (x : S600x300.Idx → α) (k e : Fin 300) :
    extractStridedSlice S300x300 ![0, 0] x slices_S600x300_S300x300_0_0 (ix2 k e) = x (ix2 (Cert.Spec.lo k) e) := by
  refine extractStridedSlice_apply _ x _ _ _ ?_
  intro a
  match a with
  | ⟨0, _⟩ => show k.val = 0 + k.val; omega
  | ⟨1, _⟩ => show e.val = 0 + e.val; omega

/-- The bottom half of a 600×300 matrix. -/
theorem bottom {α : Type} (x : S600x300.Idx → α) (k e : Fin 300) :
    extractStridedSlice S300x300 ![300, 0] x slices_S600x300_S300x300_300_0 (ix2 k e) = x (ix2 (Cert.Spec.hi k) e) := by
  refine extractStridedSlice_apply _ x _ _ _ ?_
  intro a
  match a with
  | ⟨0, _⟩ => show k.val + 300 = 300 + k.val; omega
  | ⟨1, _⟩ => show e.val = 0 + e.val; omega

/-- A column laid out as a row. -/
theorem as_row {α : Type} (x : S4096x1.Idx → α) (j : Fin 4096) :
    transpose S1x4096 [1, 0] x transposes_S4096x1_S1x4096_1_0 (ix2 0 j) = x (ix2 j 0) := by
  refine transpose_apply _ x _ _ _ ?_
  intro b
  match b with
  | ⟨0, _⟩ => rfl
  | ⟨1, _⟩ => rfl

/-- A 64-vector laid out as a column. -/
theorem as_col {α : Type} (x : S64.Idx → α) (r : Fin 64) :
    broadcastInDim S64x1 ![0] bcast_S64_S64x1_0 x (ix2 r 0) = x (ix1 r) := by
  refine broadcastInDim_apply _ _ x _ _ ?_
  intro a
  match a with
  | ⟨0, _⟩ => rfl

/-- Row `i` is local row `i % 128` of block `i / 128`. -/
theorem row_of_block (i : Fin 4096) (h : (128 * (i.val / 128) + i.val % 128) % 4096 < 4096) :
    (⟨(128 * (i.val / 128) + i.val % 128) % 4096, h⟩ : Fin 4096) = i :=
  Fin.ext (by show (128 * (i.val / 128) + i.val % 128) % 4096 = i.val; omega)

theorem rows128_apply (x : Vec Ideal S4096x1 .f32) (i : Fin 4096) :
    rows128 x (i.val / 128) (ix2 ⟨i.val % 128, Nat.mod_lt _ (by decide)⟩ 0) = x (ix2 i 0) := by
  show x (ix2 ⟨(128 * (i.val / 128) + i.val % 128) % 4096, Nat.mod_lt _ (by decide)⟩ ⟨0, by decide⟩) = _
  rw [row_of_block]
  rfl

theorem rows128adj_apply (x : Vec Ideal S4096x4096 .i32) (i j : Fin 4096) :
    rows128adj x (i.val / 128) (ix2 ⟨i.val % 128, Nat.mod_lt _ (by decide)⟩ j) = x (ix2 i j) := by
  show x (ix2 ⟨(128 * (i.val / 128) + i.val % 128) % 4096, Nat.mod_lt _ (by decide)⟩ ⟨j.val, j.isLt⟩) = _
  rw [row_of_block]

end Operations

/-! ## The two gathers read at an element

Both take whole rows of their operand: the row is the start index clamped into [0, 4095], the column of the first is the
second start index clamped into [0, 1], and the second keeps the column. -/

section Gathers

local notation "GA" => gather_S4096x2_S64x2_S64x1_1_0_n_n_01_1_11
local notation "GB" => gather_S4096x4096_S64x1_S64x4096_1_0_n_n_0_1_14096

theorem gA_si0 (y : S64x1.Idx) :
    GatherDims.siIdx GA y ⟨List.idxOf (0 : Fin 2) (GatherDims.startIndexMap GA), List.idxOf_lt_length_iff.2 (by decide)⟩
      = ix2 (y 0) 0 := by
  funext b; refine Fin.ext ?_
  match b with
  | ⟨0, _⟩ => rfl
  | ⟨1, _⟩ => rfl

theorem gA_si1 (y : S64x1.Idx) :
    GatherDims.siIdx GA y ⟨List.idxOf (1 : Fin 2) (GatherDims.startIndexMap GA), List.idxOf_lt_length_iff.2 (by decide)⟩
      = ix2 (y 0) 1 := by
  funext b; refine Fin.ext ?_
  match b with
  | ⟨0, _⟩ => rfl
  | ⟨1, _⟩ => rfl

theorem gA_ax0 {w : Nat} (idx : IVec S64x2 w) (y : S64x1.Idx) :
    (GatherDims.operandIdx GA y idx 0).val = min (idx (ix2 (y 0) 0)).toInt.toNat 4095 := by
  show GatherDims.start GA y idx 0 + GatherDims.batchCoord GA y 0 + GatherDims.offCoord GA y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GatherDims.startIndexMap GA by decide), gA_si0]
  rfl

theorem gA_ax1 {w : Nat} (idx : IVec S64x2 w) (y : S64x1.Idx) :
    (GatherDims.operandIdx GA y idx 1).val = min (idx (ix2 (y 0) 1)).toInt.toNat 1 := by
  show GatherDims.start GA y idx 1 + GatherDims.batchCoord GA y 1 + GatherDims.offCoord GA y 1 = _
  have ho : GatherDims.offCoord GA y 1 < 1 :=
    GatherDims.offCoord_lt GA y 1 ((GatherDims.mem_sKept _ _).2 ⟨by decide, by decide⟩)
  rw [GatherDims.batchCoord_eq_zero _ _ _ List.not_mem_nil, Nat.lt_one_iff.1 ho]
  simp only [Nat.add_zero]
  unfold GatherDims.start
  rw [dif_pos (show (1 : Fin 2) ∈ GatherDims.startIndexMap GA by decide), gA_si1]
  rfl

/-- The gather of single entries of a 4096×2 array: when the first start index of row `r` is the wrapped word of `w`
    and the second is zero, it reads column 0 of row `Spec.row w`. -/
theorem gA_row {α : Type} (x : S4096x2.Idx → α) (idx : IVec S64x2 32) (w : BitVec 32) (r : Fin 64)
    (h0 : idx (ix2 r 0) = Scalar.select (IntOp.cmpi .slt w 0#32) (w + 4096#32) w) (h1 : idx (ix2 r 1) = 0#32) :
    Host.gather GA x idx (ix2 r 0) = x (ix2 (Cert.Spec.row w) 0) := by
  unfold Host.gather
  refine congrArg x ?_
  funext a; refine Fin.ext ?_
  match a with
  | ⟨0, _⟩ =>
    refine (gA_ax0 idx (ix2 r 0)).trans ?_
    show min (idx (ix2 r 0)).toInt.toNat 4095 = (Cert.Spec.row w).val
    rw [h0]; rfl
  | ⟨1, _⟩ =>
    refine (gA_ax1 idx (ix2 r 0)).trans ?_
    show min (idx (ix2 r 1)).toInt.toNat 1 = 0
    rw [h1]; decide

theorem gB_si0 (y : S64x4096.Idx) :
    GatherDims.siIdx GB y ⟨List.idxOf (0 : Fin 2) (GatherDims.startIndexMap GB), List.idxOf_lt_length_iff.2 (by decide)⟩
      = ix2 (y 0) 0 := by
  funext b; refine Fin.ext ?_
  match b with
  | ⟨0, _⟩ => rfl
  | ⟨1, _⟩ => rfl

theorem gB_ax0 {w : Nat} (idx : IVec S64x1 w) (y : S64x4096.Idx) :
    (GatherDims.operandIdx GB y idx 0).val = min (idx (ix2 (y 0) 0)).toInt.toNat 4095 := by
  show GatherDims.start GB y idx 0 + GatherDims.batchCoord GB y 0 + GatherDims.offCoord GB y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GatherDims.startIndexMap GB by decide), gB_si0]
  rfl

theorem gB_ax1 {w : Nat} (idx : IVec S64x1 w) (y : S64x4096.Idx) :
    (GatherDims.operandIdx GB y idx 1).val = (y 1).val := by
  show GatherDims.start GB y idx 1 + GatherDims.batchCoord GB y 1 + GatherDims.offCoord GB y 1 = _
  rw [GatherDims.batchCoord_eq_zero _ _ _ List.not_mem_nil]
  unfold GatherDims.start
  rw [dif_neg (show (1 : Fin 2) ∉ GatherDims.startIndexMap GB by decide)]
  unfold GatherDims.offCoord
  rw [dif_pos ((GatherDims.mem_sKept _ _).2 ⟨by decide, by decide⟩)]
  simp only [Nat.add_zero, Nat.zero_add]
  rfl

/-- The gather of whole rows of the 4096×4096 array: when the start index of row `r` is the wrapped word of `w`, it
    reads row `Spec.row w`. -/
theorem gB_row {α : Type} (x : S4096x4096.Idx → α) (idx : IVec S64x1 32) (w : BitVec 32) (r : Fin 64) (j : Fin 4096)
    (h0 : idx (ix2 r 0) = Scalar.select (IntOp.cmpi .slt w 0#32) (w + 4096#32) w) :
    Host.gather GB x idx (ix2 r j) = x (ix2 (Cert.Spec.row w) j) := by
  unfold Host.gather
  refine congrArg x ?_
  funext a; refine Fin.ext ?_
  match a with
  | ⟨0, _⟩ =>
    refine (gB_ax0 idx (ix2 r j)).trans ?_
    show min (idx (ix2 r 0)).toInt.toNat 4095 = (Cert.Spec.row w).val
    rw [h0]; rfl
  | ⟨1, _⟩ => exact gB_ax1 idx (ix2 r j)

end Gathers

/-! ## Layer 1's stages -/

theorem t_v0_apply (i : Fin 4096) (k : Fin 300) : t_v0 A (ix2 i k) = Cert.Spec.hD A.inputs i k :=
  dot_4096_300_300 none (t_arg0 A) (t_arg1 A) i k

theorem t_v1_apply (i : Fin 4096) : t_v1 A (ix2 i 0) = Cert.Spec.um A.inputs i := by
  refine (dot_4096_300_1 none (t_v0 A) (t_arg2 A) i 0).trans ?_
  exact Finset.sum_congr rfl fun k _ => by rw [t_v0_apply]; rfl

theorem t_v2_apply (i : Fin 4096) : t_v2 A (ix2 i 0) = Cert.Spec.vm A.inputs i := by
  refine (dot_4096_300_1 none (t_v0 A) (t_arg3 A) i 0).trans ?_
  exact Finset.sum_congr rfl fun k _ => by rw [t_v0_apply]; rfl

theorem t_v3_apply0 (i : Fin 4096) : t_v3 A (ix2 i 0) = Cert.Spec.um A.inputs i :=
  (cat_left (t_v1 A) (t_v2 A) concatenates_S4096x1_S4096x1_S4096x2_d1 i).trans (t_v1_apply A i)

theorem t_v3_apply1 (i : Fin 4096) : t_v3 A (ix2 i 1) = Cert.Spec.vm A.inputs i :=
  (cat_right (t_v1 A) (t_v2 A) concatenates_S4096x1_S4096x1_S4096x2_d1 i).trans (t_v2_apply A i)

theorem t_v14_apply (i : Fin 4096) : t_v14 A (ix2 i 0) = Cert.Spec.um A.inputs i :=
  (col0 (t_v3 A) i).trans (t_v3_apply0 A i)

theorem t_v16_apply (j : Fin 4096) : t_v16 A (ix2 0 j) = Cert.Spec.vm A.inputs j :=
  (as_row (t_v15 A) j).trans ((col1 (t_v3 A) j).trans (t_v3_apply1 A j))

theorem t_v5_apply (c : Fin 300) : t_v5 A (ix2 c 0) = ∑ j, A.inputs.W1 c j * A.inputs.ah (Cert.Spec.lo j) := by
  refine (dot_300_300_1 (some .fp32) (t_arg4 A) (t_v4 A) c 0).trans ?_
  exact Finset.sum_congr rfl fun j _ => by
    rw [show t_v4 A (ix2 j 0) = t_arg5 A (ix2 (Cert.Spec.lo j) 0) from half_lo (t_arg5 A) j]; rfl

theorem t_v7_apply (c : Fin 300) : t_v7 A (ix2 c 0) = ∑ j, A.inputs.W1 c j * A.inputs.ah (Cert.Spec.hi j) := by
  refine (dot_300_300_1 (some .fp32) (t_arg4 A) (t_v6 A) c 0).trans ?_
  exact Finset.sum_congr rfl fun j _ => by
    rw [show t_v6 A (ix2 j 0) = t_arg5 A (ix2 (Cert.Spec.hi j) 0) from half_hi (t_arg5 A) j]; rfl

theorem t_v17_apply0 (i : Fin 4096) : t_v17 A (ix2 i 0) = Cert.Spec.f1K A.inputs i := by
  refine (dot_4096_300_2 (some .fp32) (t_arg0 A) (t_v8 A) i 0).trans ?_
  exact Finset.sum_congr rfl fun k _ => by
    rw [show t_v8 A (ix2 k 0) = t_v5 A (ix2 k 0) from cat_left (t_v5 A) (t_v7 A) concatenates_S300x1_S300x1_S300x2_d1 k,
      t_v5_apply]; rfl

theorem t_v17_apply1 (i : Fin 4096) : t_v17 A (ix2 i 1) = Cert.Spec.f2K A.inputs i := by
  refine (dot_4096_300_2 (some .fp32) (t_arg0 A) (t_v8 A) i 1).trans ?_
  exact Finset.sum_congr rfl fun k _ => by
    rw [show t_v8 A (ix2 k 1) = t_v7 A (ix2 k 0) from cat_right (t_v5 A) (t_v7 A) concatenates_S300x1_S300x1_S300x2_d1 k,
      t_v7_apply]; rfl

theorem t_v18_apply (i : Fin 4096) : t_v18 A (ix2 i 0) = Cert.Spec.f1K A.inputs i :=
  (col0 (t_v17 A) i).trans (t_v17_apply0 A i)

theorem t_v20_apply (j : Fin 4096) : t_v20 A (ix2 0 j) = Cert.Spec.f2K A.inputs j :=
  (as_row (t_v19 A) j).trans ((col1 (t_v17 A) j).trans (t_v17_apply1 A j))

theorem t_v21_apply (k e : Fin 300) : t_v21 A (ix2 k e) = A.inputs.wt1 (Cert.Spec.lo k) e := top (t_arg6 A) k e

theorem t_v22_apply (k e : Fin 300) : t_v22 A (ix2 k e) = A.inputs.wt1 (Cert.Spec.hi k) e := bottom (t_arg6 A) k e

/-- Layer 1's output array at an element. -/
theorem t_x1_apply (i : Fin 4096) (d : Fin 300) : t_x1 A (ix2 i d) = Cert.Spec.x1K A.inputs i d := by
  show Cert.KernelIdeal.GenP.out0_8 (rows128 (t_v14 A) (i.val / 128)) (t_v16 A) (rows128 (t_v18 A) (i.val / 128)) (t_v20 A)
      (rows128adj (t_arg10 A) (i.val / 128)) (t_arg0 A) (t_v21 A) (t_v22 A)
      (ix2 ⟨i.val % 128, Nat.mod_lt _ (by decide)⟩ d) = _
  rw [Cert.KernelIdeal.Body0.out0_8_apply, rows128_apply, rows128_apply, t_v14_apply, t_v18_apply]
  have e1 : (fun j => t_v16 A (ix2 0 j)) = Cert.Spec.vm A.inputs := funext (t_v16_apply A)
  have e2 : (fun j => rows128adj (t_arg10 A) (i.val / 128) (ix2 ⟨i.val % 128, Nat.mod_lt _ (by decide)⟩ j)) = A.inputs.adj i :=
    funext fun j => rows128adj_apply (t_arg10 A) i j
  have e3 : (fun j => t_v20 A (ix2 0 j)) = Cert.Spec.f2K A.inputs := funext (t_v20_apply A)
  have e4 : (fun k e => t_v21 A (ix2 k e)) = fun k => A.inputs.wt1 (Cert.Spec.lo k) :=
    funext fun k => funext fun e => t_v21_apply A k e
  have e5 : (fun k e => t_v22 A (ix2 k e)) = fun k => A.inputs.wt1 (Cert.Spec.hi k) :=
    funext fun k => funext fun e => t_v22_apply A k e
  rw [e1, e2, e3, e4, e5]
  rfl

/-! ## Layer 2's stages -/

theorem t_v10_apply (c : Fin 300) : t_v10 A (ix2 c 0) = ∑ j, A.inputs.Wo c j * A.inputs.ao (Cert.Spec.lo j) := by
  refine (dot_300_300_1 (some .fp32) (t_arg7 A) (t_v9 A) c 0).trans ?_
  exact Finset.sum_congr rfl fun j _ => by
    rw [show t_v9 A (ix2 j 0) = t_arg8 A (ix2 (Cert.Spec.lo j) 0) from half_lo (t_arg8 A) j]; rfl

theorem t_v12_apply (c : Fin 300) : t_v12 A (ix2 c 0) = ∑ j, A.inputs.Wo c j * A.inputs.ao (Cert.Spec.hi j) := by
  refine (dot_300_300_1 (some .fp32) (t_arg7 A) (t_v11 A) c 0).trans ?_
  exact Finset.sum_congr rfl fun j _ => by
    rw [show t_v11 A (ix2 j 0) = t_arg8 A (ix2 (Cert.Spec.hi j) 0) from half_hi (t_arg8 A) j]; rfl

theorem t_v24_apply0 (i : Fin 4096) : t_v24 A (ix2 i 0) = Cert.Spec.g1K A.inputs i := by
  refine (dot_4096_300_2 (some .fp32) (t_v23 A) (t_v13 A) i 0).trans ?_
  exact Finset.sum_congr rfl fun k _ => by
    rw [show t_v23 A (ix2 i k) = Cert.Spec.x1K A.inputs i k from t_x1_apply A i k,
      show t_v13 A (ix2 k 0) = t_v10 A (ix2 k 0) from cat_left (t_v10 A) (t_v12 A) concatenates_S300x1_S300x1_S300x2_d1 k,
      t_v10_apply]

theorem t_v24_apply1 (i : Fin 4096) : t_v24 A (ix2 i 1) = Cert.Spec.g2K A.inputs i := by
  refine (dot_4096_300_2 (some .fp32) (t_v23 A) (t_v13 A) i 1).trans ?_
  exact Finset.sum_congr rfl fun k _ => by
    rw [show t_v23 A (ix2 i k) = Cert.Spec.x1K A.inputs i k from t_x1_apply A i k,
      show t_v13 A (ix2 k 1) = t_v12 A (ix2 k 0) from cat_right (t_v10 A) (t_v12 A) concatenates_S300x1_S300x1_S300x2_d1 k,
      t_v12_apply]

/-- The index word of gathered row `r`, a negative one wrapped by 4096 (the program computes it three times). -/
theorem t_v29_apply (r : Fin 64) :
    t_v29 A (ix1 r) = Scalar.select (IntOp.cmpi .slt (A.inputs.tid r) 0#32) (A.inputs.tid r + 4096#32) (A.inputs.tid r) := rfl
theorem t_v38_apply (r : Fin 64) :
    t_v38 A (ix1 r) = Scalar.select (IntOp.cmpi .slt (A.inputs.tid r) 0#32) (A.inputs.tid r + 4096#32) (A.inputs.tid r) := rfl
theorem t_v45_apply (r : Fin 64) :
    t_v45 A (ix1 r) = Scalar.select (IntOp.cmpi .slt (A.inputs.tid r) 0#32) (A.inputs.tid r + 4096#32) (A.inputs.tid r) := rfl

theorem t_v32_apply0 (r : Fin 64) :
    t_v32 A (ix2 r 0) = Scalar.select (IntOp.cmpi .slt (A.inputs.tid r) 0#32) (A.inputs.tid r + 4096#32) (A.inputs.tid r) :=
  (cat_left (t_v30 A) (t_v31 A) concatenates_S64x1_S64x1_S64x2_d1 r).trans ((as_col (t_v29 A) r).trans (t_v29_apply A r))

theorem t_v32_apply1 (r : Fin 64) : t_v32 A (ix2 r 1) = 0#32 :=
  (cat_right (t_v30 A) (t_v31 A) concatenates_S64x1_S64x1_S64x2_d1 r).trans rfl

theorem t_v33_apply (r : Fin 64) : t_v33 A (ix2 r 0) = Cert.Spec.um A.inputs (Cert.Spec.row (A.inputs.tid r)) :=
  (gA_row (t_v3 A) (t_v32 A) (A.inputs.tid r) r (t_v32_apply0 A r) (t_v32_apply1 A r)).trans (t_v3_apply0 A _)

theorem t_v39_apply (r : Fin 64) :
    t_v39 A (ix2 r 0) = Scalar.select (IntOp.cmpi .slt (A.inputs.tid r) 0#32) (A.inputs.tid r + 4096#32) (A.inputs.tid r) :=
  (as_col (t_v38 A) r).trans (t_v38_apply A r)

theorem t_v40_apply (r : Fin 64) (j : Fin 4096) : t_v40 A (ix2 r j) = A.inputs.adj (Cert.Spec.row (A.inputs.tid r)) j :=
  gB_row (t_arg10 A) (t_v39 A) (A.inputs.tid r) r j (t_v39_apply A r)

theorem t_v48_apply0 (r : Fin 64) :
    t_v48 A (ix2 r 0) = Scalar.select (IntOp.cmpi .slt (A.inputs.tid r) 0#32) (A.inputs.tid r + 4096#32) (A.inputs.tid r) :=
  (cat_left (t_v46 A) (t_v47 A) concatenates_S64x1_S64x1_S64x2_d1 r).trans ((as_col (t_v45 A) r).trans (t_v45_apply A r))

theorem t_v48_apply1 (r : Fin 64) : t_v48 A (ix2 r 1) = 0#32 :=
  (cat_right (t_v46 A) (t_v47 A) concatenates_S64x1_S64x1_S64x2_d1 r).trans rfl

theorem t_v49_apply (r : Fin 64) : t_v49 A (ix2 r 0) = Cert.Spec.g1K A.inputs (Cert.Spec.row (A.inputs.tid r)) :=
  (gA_row (t_v24 A) (t_v48 A) (A.inputs.tid r) r (t_v48_apply0 A r) (t_v48_apply1 A r)).trans (t_v24_apply0 A _)

theorem t_v51_apply (j : Fin 4096) : t_v51 A (ix2 0 j) = Cert.Spec.g2K A.inputs j :=
  (as_row (t_v50 A) j).trans ((col1 (t_v24 A) j).trans (t_v24_apply1 A j))

theorem t_v52_apply (k e : Fin 300) : t_v52 A (ix2 k e) = A.inputs.wto (Cert.Spec.lo k) e := top (t_arg9 A) k e

theorem t_v53_apply (k e : Fin 300) : t_v53 A (ix2 k e) = A.inputs.wto (Cert.Spec.hi k) e := bottom (t_arg9 A) k e

/-- The program's result at an element. -/
theorem t_x2_apply (r : Fin 64) (d : Fin 300) : t_x2 A (ix2 r d) = Cert.Spec.outK A.inputs r d := by
  show Cert.KernelIdeal.GenP.out1_8 (t_v33 A) (t_v16 A) (t_v49 A) (t_v51 A) (t_v40 A) (t_v23 A) (t_v52 A) (t_v53 A) (ix2 r d) = _
  rw [Cert.KernelIdeal.Body1.out1_8_apply, t_v33_apply, t_v49_apply]
  have e1 : (fun j => t_v16 A (ix2 0 j)) = Cert.Spec.vm A.inputs := funext (t_v16_apply A)
  have e2 : (fun j => t_v40 A (ix2 r j)) = A.inputs.adj (Cert.Spec.row (A.inputs.tid r)) := funext (t_v40_apply A r)
  have e3 : (fun j => t_v51 A (ix2 0 j)) = Cert.Spec.g2K A.inputs := funext (t_v51_apply A)
  have e4 : (fun j k => t_v23 A (ix2 j k)) = Cert.Spec.x1K A.inputs := funext fun j => funext fun k => t_x1_apply A j k
  have e5 : (fun k e => t_v52 A (ix2 k e)) = fun k => A.inputs.wto (Cert.Spec.lo k) :=
    funext fun k => funext fun e => t_v52_apply A k e
  have e6 : (fun k e => t_v53 A (ix2 k e)) = fun k => A.inputs.wto (Cert.Spec.hi k) :=
    funext fun k => funext fun e => t_v53_apply A k e
  rw [e1, e2, e3, e4, e5, e6]
  rfl

end Cert.KernelIdeal.HostRead

end
-- ==== Proof.RTerm.lean ====
/- The idealized reference program's value, stage by stage: each host operation of @main applied to the stages it reads,
  as functions of the twelve argument arrays. `t_v117` is the result.
-/
import proofs.«428251_j16982300688849_3_alg».proof.Proof.Gen.ReferenceIdeal
import proofs.«428251_j16982300688849_3_alg».proof.Proof.Spec

noncomputable section

namespace Cert.ReferenceIdeal.Term

open Idealize.ShloMosaic Idealize.ShloMosaic.ValueIdx
open Cert.ReferenceIdeal Cert.ReferenceIdeal.Gen

variable {F : FTy → Type} [FloatOps F]

/-! ## The arguments -/

def t_arg0 (A : Cert.Spec.Args F) : (⟨S4096x300, .f32⟩ : BufTy).Contents (Elt F) := A.x0
def t_arg1 (A : Cert.Spec.Args F) : (⟨S300x300, .f32⟩ : BufTy).Contents (Elt F) := A.x1
def t_arg2 (A : Cert.Spec.Args F) : (⟨S300x1, .f32⟩ : BufTy).Contents (Elt F) := A.x2
def t_arg3 (A : Cert.Spec.Args F) : (⟨S300x1, .f32⟩ : BufTy).Contents (Elt F) := A.x3
def t_arg4 (A : Cert.Spec.Args F) : (⟨S300x300, .f32⟩ : BufTy).Contents (Elt F) := A.x4
def t_arg5 (A : Cert.Spec.Args F) : (⟨S600x1, .f32⟩ : BufTy).Contents (Elt F) := A.x5
def t_arg6 (A : Cert.Spec.Args F) : (⟨S600x300, .f32⟩ : BufTy).Contents (Elt F) := A.x6
def t_arg7 (A : Cert.Spec.Args F) : (⟨S300x300, .f32⟩ : BufTy).Contents (Elt F) := A.x7
def t_arg8 (A : Cert.Spec.Args F) : (⟨S600x1, .f32⟩ : BufTy).Contents (Elt F) := A.x8
def t_arg9 (A : Cert.Spec.Args F) : (⟨S600x300, .f32⟩ : BufTy).Contents (Elt F) := A.x9
def t_arg10 (A : Cert.Spec.Args F) : (⟨S4096x4096, .i32⟩ : BufTy).Contents (Elt F) := A.x10
def t_arg11 (A : Cert.Spec.Args F) : (⟨S64, .i32⟩ : BufTy).Contents (Elt F) := A.x11

/-! ## The operations, in @main's order -/

def t_v0 (A : Cert.Spec.Args F) : (⟨S4096x300, .f32⟩ : BufTy).Contents (Elt F) :=
  (((fun l r => Host.dotGeneral dot_S4096x300_S300x300_S4096x300_1_0_0_1_n_n none l r))) (t_arg0 A) (t_arg1 A)
def t_v1 (A : Cert.Spec.Args F) : (⟨S4096x1, .f32⟩ : BufTy).Contents (Elt F) :=
  (((fun l r => Host.dotGeneral dot_S4096x300_S300x1_S4096x1_1_0_0_1_n_n none l r))) (t_v0 A) (t_arg2 A)
def t_v2 (A : Cert.Spec.Args F) : (⟨S4096x1, .f32⟩ : BufTy).Contents (Elt F) :=
  (((fun l r => Host.dotGeneral dot_S4096x300_S300x1_S4096x1_1_0_0_1_n_n none l r))) (t_v0 A) (t_arg3 A)
def t_v3 (A : Cert.Spec.Args F) : (⟨S1x4096, .f32⟩ : BufTy).Contents (Elt F) :=
  (((transpose S1x4096 [1, 0] · transposes_S4096x1_S1x4096_1_0))) (t_v2 A)
def t_v4 (A : Cert.Spec.Args F) : (⟨S4096x4096, .f32⟩ : BufTy).Contents (Elt F) :=
  ((broadcastInDim S4096x4096 ![0, 1] bcast_S4096x1_S4096x4096_0_1)) (t_v1 A)
def t_v5 (A : Cert.Spec.Args F) : (⟨S4096x4096, .f32⟩ : BufTy).Contents (Elt F) :=
  ((broadcastInDim S4096x4096 ![0, 1] bcast_S1x4096_S4096x4096_0_1)) (t_v3 A)
def t_v6 (A : Cert.Spec.Args F) : (⟨S4096x4096, .f32⟩ : BufTy).Contents (Elt F) :=
  ((addf)) (t_v4 A) (t_v5 A)
def t_cst (A : Cert.Spec.Args F) : (⟨S_, .f32⟩ : BufTy).Contents (Elt F) :=
  ((constant S_ .f32 0x3E99999A#32))
def t_call0_cst (A : Cert.Spec.Args F) : (⟨S_, .f32⟩ : BufTy).Contents (Elt F) :=
  ((constant S_ .f32 0x00000000#32))
def t_call0_v0 (A : Cert.Spec.Args F) : (⟨S4096x4096, .f32⟩ : BufTy).Contents (Elt F) :=
  ((broadcastInDim S4096x4096 ![] bcast_S_S4096x4096)) (t_call0_cst A)
def t_call0_v1 (A : Cert.Spec.Args F) : (⟨S4096x4096, .i1⟩ : BufTy).Contents (Elt F) :=
  ((cmpf .oge)) (t_v6 A) (t_call0_v0 A)
def t_call0_v2 (A : Cert.Spec.Args F) : (⟨S_, .f32⟩ : BufTy).Contents (Elt F) :=
  (id) (t_cst A)
def t_call0_v3 (A : Cert.Spec.Args F) : (⟨S4096x4096, .f32⟩ : BufTy).Contents (Elt F) :=
  ((broadcastInDim S4096x4096 ![] bcast_S_S4096x4096)) (t_call0_v2 A)
def t_call0_v4 (A : Cert.Spec.Args F) : (⟨S4096x4096, .f32⟩ : BufTy).Contents (Elt F) :=
  (mulf) (t_call0_v3 A) (t_v6 A)
def t_v7 (A : Cert.Spec.Args F) : (⟨S4096x4096, .f32⟩ : BufTy).Contents (Elt F) :=
  (select) (t_call0_v1 A) (t_v6 A) (t_call0_v4 A)
def t_cst_0 (A : Cert.Spec.Args F) : (⟨S_, .f32⟩ : BufTy).Contents (Elt F) :=
  ((constant S_ .f32 0xFF800000#32))
def t_v8 (A : Cert.Spec.Args F) : (⟨S4096, .f32⟩ : BufTy).Contents (Elt F) :=
  (((fun x v => Host.reduce FloatOps.maximumf x v reducesTo_S4096x4096_S4096_d1 h_S_))) (t_v7 A) (t_cst_0 A)
def t_cst_1 (A : Cert.Spec.Args F) : (⟨S_, .f32⟩ : BufTy).Contents (Elt F) :=
  ((constant S_ .f32 0xFF800000#32))
def t_v9 (A : Cert.Spec.Args F) : (⟨S4096, .f32⟩ : BufTy).Contents (Elt F) :=
  ((broadcastInDim S4096 ![] bcast_S_S4096)) (t_cst_1 A)
def t_v10 (A : Cert.Spec.Args F) : (⟨S4096, .f32⟩ : BufTy).Contents (Elt F) :=
  ((maximumf)) (t_v9 A) (t_v8 A)
def t_v11 (A : Cert.Spec.Args F) : (⟨S4096x1, .f32⟩ : BufTy).Contents (Elt F) :=
  ((broadcastInDim S4096x1 ![0] bcast_S4096_S4096x1_0)) (t_v10 A)
def t_v12 (A : Cert.Spec.Args F) : (⟨S4096x4096, .f32⟩ : BufTy).Contents (Elt F) :=
  ((broadcastInDim S4096x4096 ![0, 1] bcast_S4096x1_S4096x4096_0_1)) (t_v11 A)
def t_v13 (A : Cert.Spec.Args F) : (⟨S4096x4096, .f32⟩ : BufTy).Contents (Elt F) :=
  ((subf)) (t_v7 A) (t_v12 A)
def t_v14 (A : Cert.Spec.Args F) : (⟨S4096x4096, .f32⟩ : BufTy).Contents (Elt F) :=
  ((Host.exp)) (t_v13 A)
def t_cst_2 (A : Cert.Spec.Args F) : (⟨S_, .f32⟩ : BufTy).Contents (Elt F) :=
  ((constant S_ .f32 0x00000000#32))
def t_v15 (A : Cert.Spec.Args F) : (⟨S4096, .f32⟩ : BufTy).Contents (Elt F) :=
  (((fun x v => Host.reduceAdd x v reducesTo_S4096x4096_S4096_d1 h_S_))) (t_v14 A) (t_cst_2 A)
def t_v16 (A : Cert.Spec.Args F) : (⟨S4096x1, .f32⟩ : BufTy).Contents (Elt F) :=
  ((broadcastInDim S4096x1 ![0] bcast_S4096_S4096x1_0)) (t_v15 A)
def t_v17 (A : Cert.Spec.Args F) : (⟨S4096x4096, .f32⟩ : BufTy).Contents (Elt F) :=
  ((broadcastInDim S4096x4096 ![0, 1] bcast_S4096x1_S4096x4096_0_1)) (t_v16 A)
def t_v18 (A : Cert.Spec.Args F) : (⟨S4096x4096, .f32⟩ : BufTy).Contents (Elt F) :=
  ((Host.divf)) (t_v14 A) (t_v17 A)
def t_cst_3 (A : Cert.Spec.Args F) : (⟨S_, .f32⟩ : BufTy).Contents (Elt F) :=
  ((constant S_ .f32 0x39800000#32))
def t_v19 (A : Cert.Spec.Args F) : (⟨S4096x4096, .f32⟩ : BufTy).Contents (Elt F) :=
  ((broadcastInDim S4096x4096 ![] bcast_S_S4096x4096)) (t_cst_3 A)
def t_v20 (A : Cert.Spec.Args F) : (⟨S4096x4096, .i1⟩ : BufTy).Contents (Elt F) :=
  ((cmpf .ogt)) (t_v18 A) (t_v19 A)
def t_c (A : Cert.Spec.Args F) : (⟨S_, .i32⟩ : BufTy).Contents (Elt F) :=
  ((constantI S_ 32 0#32))
def t_v21 (A : Cert.Spec.Args F) : (⟨S4096x4096, .i32⟩ : BufTy).Contents (Elt F) :=
  ((broadcastInDim S4096x4096 ![] bcast_S_S4096x4096)) (t_c A)
def t_v22 (A : Cert.Spec.Args F) : (⟨S4096x4096, .i1⟩ : BufTy).Contents (Elt F) :=
  ((cmpi .sgt)) (t_arg10 A) (t_v21 A)
def t_v23 (A : Cert.Spec.Args F) : (⟨S4096x4096, .i1⟩ : BufTy).Contents (Elt F) :=
  ((ori)) (t_v20 A) (t_v22 A)
def t_v24 (A : Cert.Spec.Args F) : (⟨S4096x300, .f32⟩ : BufTy).Contents (Elt F) :=
  (((fun l r => Host.dotGeneral dot_S4096x300_S300x300_S4096x300_1_0_0_1_n_n none l r))) (t_arg0 A) (t_arg4 A)
def t_v25 (A : Cert.Spec.Args F) : (⟨S300x1, .f32⟩ : BufTy).Contents (Elt F) :=
  (((extractStridedSlice S300x1 ![0, 0] · slices_S600x1_S300x1_0_0))) (t_arg5 A)
def t_v26 (A : Cert.Spec.Args F) : (⟨S4096x1, .f32⟩ : BufTy).Contents (Elt F) :=
  (((fun l r => Host.dotGeneral dot_S4096x300_S300x1_S4096x1_1_0_0_1_n_n none l r))) (t_v24 A) (t_v25 A)
def t_v27 (A : Cert.Spec.Args F) : (⟨S300x1, .f32⟩ : BufTy).Contents (Elt F) :=
  (((extractStridedSlice S300x1 ![300, 0] · slices_S600x1_S300x1_300_0))) (t_arg5 A)
def t_v28 (A : Cert.Spec.Args F) : (⟨S4096x1, .f32⟩ : BufTy).Contents (Elt F) :=
  (((fun l r => Host.dotGeneral dot_S4096x300_S300x1_S4096x1_1_0_0_1_n_n none l r))) (t_v24 A) (t_v27 A)
def t_v29 (A : Cert.Spec.Args F) : (⟨S1x4096, .f32⟩ : BufTy).Contents (Elt F) :=
  (((transpose S1x4096 [1, 0] · transposes_S4096x1_S1x4096_1_0))) (t_v28 A)
def t_v30 (A : Cert.Spec.Args F) : (⟨S4096x4096, .f32⟩ : BufTy).Contents (Elt F) :=
  ((broadcastInDim S4096x4096 ![0, 1] bcast_S4096x1_S4096x4096_0_1)) (t_v26 A)
def t_v31 (A : Cert.Spec.Args F) : (⟨S4096x4096, .f32⟩ : BufTy).Contents (Elt F) :=
  ((broadcastInDim S4096x4096 ![0, 1] bcast_S1x4096_S4096x4096_0_1)) (t_v29 A)
def t_v32 (A : Cert.Spec.Args F) : (⟨S4096x4096, .f32⟩ : BufTy).Contents (Elt F) :=
  ((addf)) (t_v30 A) (t_v31 A)
def t_cst_4 (A : Cert.Spec.Args F) : (⟨S_, .f32⟩ : BufTy).Contents (Elt F) :=
  ((constant S_ .f32 0x3E99999A#32))
def t_call1_cst (A : Cert.Spec.Args F) : (⟨S_, .f32⟩ : BufTy).Contents (Elt F) :=
  ((constant S_ .f32 0x00000000#32))
def t_call1_v0 (A : Cert.Spec.Args F) : (⟨S4096x4096, .f32⟩ : BufTy).Contents (Elt F) :=
  ((broadcastInDim S4096x4096 ![] bcast_S_S4096x4096)) (t_call1_cst A)
def t_call1_v1 (A : Cert.Spec.Args F) : (⟨S4096x4096, .i1⟩ : BufTy).Contents (Elt F) :=
  ((cmpf .oge)) (t_v32 A) (t_call1_v0 A)
def t_call1_v2 (A : Cert.Spec.Args F) : (⟨S_, .f32⟩ : BufTy).Contents (Elt F) :=
  (id) (t_cst_4 A)
def t_call1_v3 (A : Cert.Spec.Args F) : (⟨S4096x4096, .f32⟩ : BufTy).Contents (Elt F) :=
  ((broadcastInDim S4096x4096 ![] bcast_S_S4096x4096)) (t_call1_v2 A)
def t_call1_v4 (A : Cert.Spec.Args F) : (⟨S4096x4096, .f32⟩ : BufTy).Contents (Elt F) :=
  (mulf) (t_call1_v3 A) (t_v32 A)
def t_v33 (A : Cert.Spec.Args F) : (⟨S4096x4096, .f32⟩ : BufTy).Contents (Elt F) :=
  (select) (t_call1_v1 A) (t_v32 A) (t_call1_v4 A)
def t_cst_5 (A : Cert.Spec.Args F) : (⟨S_, .f32⟩ : BufTy).Contents (Elt F) :=
  ((constant S_ .f32 0xD368D4A5#32))
def t_call2_v0 (A : Cert.Spec.Args F) : (⟨S_, .f32⟩ : BufTy).Contents (Elt F) :=
  (id) (t_cst_5 A)
def t_call2_v1 (A : Cert.Spec.Args F) : (⟨S4096x4096, .f32⟩ : BufTy).Contents (Elt F) :=
  ((broadcastInDim S4096x4096 ![] bcast_S_S4096x4096)) (t_call2_v0 A)
def t_v34 (A : Cert.Spec.Args F) : (⟨S4096x4096, .f32⟩ : BufTy).Contents (Elt F) :=
  (select) (t_v23 A) (t_v33 A) (t_call2_v1 A)
def t_cst_6 (A : Cert.Spec.Args F) : (⟨S_, .f32⟩ : BufTy).Contents (Elt F) :=
  ((constant S_ .f32 0xFF800000#32))
def t_v35 (A : Cert.Spec.Args F) : (⟨S4096, .f32⟩ : BufTy).Contents (Elt F) :=
  (((fun x v => Host.reduce FloatOps.maximumf x v reducesTo_S4096x4096_S4096_d1 h_S_))) (t_v34 A) (t_cst_6 A)
def t_cst_7 (A : Cert.Spec.Args F) : (⟨S_, .f32⟩ : BufTy).Contents (Elt F) :=
  ((constant S_ .f32 0xFF800000#32))
def t_v36 (A : Cert.Spec.Args F) : (⟨S4096, .f32⟩ : BufTy).Contents (Elt F) :=
  ((broadcastInDim S4096 ![] bcast_S_S4096)) (t_cst_7 A)
def t_v37 (A : Cert.Spec.Args F) : (⟨S4096, .f32⟩ : BufTy).Contents (Elt F) :=
  ((maximumf)) (t_v36 A) (t_v35 A)
def t_v38 (A : Cert.Spec.Args F) : (⟨S4096x1, .f32⟩ : BufTy).Contents (Elt F) :=
  ((broadcastInDim S4096x1 ![0] bcast_S4096_S4096x1_0)) (t_v37 A)
def t_v39 (A : Cert.Spec.Args F) : (⟨S4096x4096, .f32⟩ : BufTy).Contents (Elt F) :=
  ((broadcastInDim S4096x4096 ![0, 1] bcast_S4096x1_S4096x4096_0_1)) (t_v38 A)
def t_v40 (A : Cert.Spec.Args F) : (⟨S4096x4096, .f32⟩ : BufTy).Contents (Elt F) :=
  ((subf)) (t_v34 A) (t_v39 A)
def t_v41 (A : Cert.Spec.Args F) : (⟨S4096x4096, .f32⟩ : BufTy).Contents (Elt F) :=
  ((Host.exp)) (t_v40 A)
def t_cst_8 (A : Cert.Spec.Args F) : (⟨S_, .f32⟩ : BufTy).Contents (Elt F) :=
  ((constant S_ .f32 0x00000000#32))
def t_v42 (A : Cert.Spec.Args F) : (⟨S4096, .f32⟩ : BufTy).Contents (Elt F) :=
  (((fun x v => Host.reduceAdd x v reducesTo_S4096x4096_S4096_d1 h_S_))) (t_v41 A) (t_cst_8 A)
def t_v43 (A : Cert.Spec.Args F) : (⟨S4096x1, .f32⟩ : BufTy).Contents (Elt F) :=
  ((broadcastInDim S4096x1 ![0] bcast_S4096_S4096x1_0)) (t_v42 A)
def t_v44 (A : Cert.Spec.Args F) : (⟨S4096x4096, .f32⟩ : BufTy).Contents (Elt F) :=
  ((broadcastInDim S4096x4096 ![0, 1] bcast_S4096x1_S4096x4096_0_1)) (t_v43 A)
def t_v45 (A : Cert.Spec.Args F) : (⟨S4096x4096, .f32⟩ : BufTy).Contents (Elt F) :=
  ((Host.divf)) (t_v41 A) (t_v44 A)
def t_v46 (A : Cert.Spec.Args F) : (⟨S4096x4096, .f32⟩ : BufTy).Contents (Elt F) :=
  ((Host.negf)) (t_v33 A)
def t_cst_9 (A : Cert.Spec.Args F) : (⟨S_, .f32⟩ : BufTy).Contents (Elt F) :=
  ((constant S_ .f32 0xD368D4A5#32))
def t_call3_v0 (A : Cert.Spec.Args F) : (⟨S_, .f32⟩ : BufTy).Contents (Elt F) :=
  (id) (t_cst_9 A)
def t_call3_v1 (A : Cert.Spec.Args F) : (⟨S4096x4096, .f32⟩ : BufTy).Contents (Elt F) :=
  ((broadcastInDim S4096x4096 ![] bcast_S_S4096x4096)) (t_call3_v0 A)
def t_v47 (A : Cert.Spec.Args F) : (⟨S4096x4096, .f32⟩ : BufTy).Contents (Elt F) :=
  (select) (t_v23 A) (t_v46 A) (t_call3_v1 A)
def t_cst_10 (A : Cert.Spec.Args F) : (⟨S_, .f32⟩ : BufTy).Contents (Elt F) :=
  ((constant S_ .f32 0xFF800000#32))
def t_v48 (A : Cert.Spec.Args F) : (⟨S4096, .f32⟩ : BufTy).Contents (Elt F) :=
  (((fun x v => Host.reduce FloatOps.maximumf x v reducesTo_S4096x4096_S4096_d1 h_S_))) (t_v47 A) (t_cst_10 A)
def t_cst_11 (A : Cert.Spec.Args F) : (⟨S_, .f32⟩ : BufTy).Contents (Elt F) :=
  ((constant S_ .f32 0xFF800000#32))
def t_v49 (A : Cert.Spec.Args F) : (⟨S4096, .f32⟩ : BufTy).Contents (Elt F) :=
  ((broadcastInDim S4096 ![] bcast_S_S4096)) (t_cst_11 A)
def t_v50 (A : Cert.Spec.Args F) : (⟨S4096, .f32⟩ : BufTy).Contents (Elt F) :=
  ((maximumf)) (t_v49 A) (t_v48 A)
def t_v51 (A : Cert.Spec.Args F) : (⟨S4096x1, .f32⟩ : BufTy).Contents (Elt F) :=
  ((broadcastInDim S4096x1 ![0] bcast_S4096_S4096x1_0)) (t_v50 A)
def t_v52 (A : Cert.Spec.Args F) : (⟨S4096x4096, .f32⟩ : BufTy).Contents (Elt F) :=
  ((broadcastInDim S4096x4096 ![0, 1] bcast_S4096x1_S4096x4096_0_1)) (t_v51 A)
def t_v53 (A : Cert.Spec.Args F) : (⟨S4096x4096, .f32⟩ : BufTy).Contents (Elt F) :=
  ((subf)) (t_v47 A) (t_v52 A)
def t_v54 (A : Cert.Spec.Args F) : (⟨S4096x4096, .f32⟩ : BufTy).Contents (Elt F) :=
  ((Host.exp)) (t_v53 A)
def t_cst_12 (A : Cert.Spec.Args F) : (⟨S_, .f32⟩ : BufTy).Contents (Elt F) :=
  ((constant S_ .f32 0x00000000#32))
def t_v55 (A : Cert.Spec.Args F) : (⟨S4096, .f32⟩ : BufTy).Contents (Elt F) :=
  (((fun x v => Host.reduceAdd x v reducesTo_S4096x4096_S4096_d1 h_S_))) (t_v54 A) (t_cst_12 A)
def t_v56 (A : Cert.Spec.Args F) : (⟨S4096x1, .f32⟩ : BufTy).Contents (Elt F) :=
  ((broadcastInDim S4096x1 ![0] bcast_S4096_S4096x1_0)) (t_v55 A)
def t_v57 (A : Cert.Spec.Args F) : (⟨S4096x4096, .f32⟩ : BufTy).Contents (Elt F) :=
  ((broadcastInDim S4096x4096 ![0, 1] bcast_S4096x1_S4096x4096_0_1)) (t_v56 A)
def t_v58 (A : Cert.Spec.Args F) : (⟨S4096x4096, .f32⟩ : BufTy).Contents (Elt F) :=
  ((Host.divf)) (t_v54 A) (t_v57 A)
def t_v59 (A : Cert.Spec.Args F) : (⟨S4096x4096, .f32⟩ : BufTy).Contents (Elt F) :=
  ((Host.negf)) (t_v58 A)
def t_v60 (A : Cert.Spec.Args F) : (⟨S4096x300, .f32⟩ : BufTy).Contents (Elt F) :=
  (((fun l r => Host.dotGeneral dot_S4096x4096_S4096x300_S4096x300_1_0_0_1_n_n none l r))) (t_v45 A) (t_arg0 A)
def t_v61 (A : Cert.Spec.Args F) : (⟨S4096x300, .f32⟩ : BufTy).Contents (Elt F) :=
  (((fun l r => Host.dotGeneral dot_S4096x4096_S4096x300_S4096x300_1_0_0_1_n_n none l r))) (t_v59 A) (t_arg0 A)
def t_v62 (A : Cert.Spec.Args F) : (⟨S4096x600, .f32⟩ : BufTy).Contents (Elt F) :=
  (((fun a b => concatenate S4096x600 1 [⟨S4096x300, a⟩, ⟨S4096x300, b⟩] concatenates_S4096x300_S4096x300_S4096x600_d1))) (t_v60 A) (t_v61 A)
def t_v63 (A : Cert.Spec.Args F) : (⟨S4096x300, .f32⟩ : BufTy).Contents (Elt F) :=
  (((fun l r => Host.dotGeneral dot_S4096x600_S600x300_S4096x300_1_0_0_1_n_n none l r))) (t_v62 A) (t_arg6 A)
def t_call4_cst (A : Cert.Spec.Args F) : (⟨S_, .f32⟩ : BufTy).Contents (Elt F) :=
  ((constant S_ .f32 0x00000000#32))
def t_call4_v0 (A : Cert.Spec.Args F) : (⟨S4096x300, .f32⟩ : BufTy).Contents (Elt F) :=
  ((broadcastInDim S4096x300 ![] bcast_S_S4096x300)) (t_call4_cst A)
def t_call4_v1 (A : Cert.Spec.Args F) : (⟨S4096x300, .i1⟩ : BufTy).Contents (Elt F) :=
  ((cmpf .ogt)) (t_v63 A) (t_call4_v0 A)
def t_call4_cst_0 (A : Cert.Spec.Args F) : (⟨S_, .f32⟩ : BufTy).Contents (Elt F) :=
  ((constant S_ .f32 0x00000000#32))
def t_call4_v2 (A : Cert.Spec.Args F) : (⟨S4096x300, .f32⟩ : BufTy).Contents (Elt F) :=
  ((broadcastInDim S4096x300 ![] bcast_S_S4096x300)) (t_call4_cst_0 A)
def t_call4_v3 (A : Cert.Spec.Args F) : (⟨S4096x300, .i1⟩ : BufTy).Contents (Elt F) :=
  ((cmpf .ogt)) (t_v63 A) (t_call4_v2 A)
def t_call4_cst_1 (A : Cert.Spec.Args F) : (⟨S_, .f32⟩ : BufTy).Contents (Elt F) :=
  ((constant S_ .f32 0x00000000#32))
def t_call4_call0_v0 (A : Cert.Spec.Args F) : (⟨S_, .f32⟩ : BufTy).Contents (Elt F) :=
  (id) (t_call4_cst_1 A)
def t_call4_call0_v1 (A : Cert.Spec.Args F) : (⟨S4096x300, .f32⟩ : BufTy).Contents (Elt F) :=
  ((broadcastInDim S4096x300 ![] bcast_S_S4096x300)) (t_call4_call0_v0 A)
def t_call4_v4 (A : Cert.Spec.Args F) : (⟨S4096x300, .f32⟩ : BufTy).Contents (Elt F) :=
  (select) (t_call4_v3 A) (t_call4_call0_v1 A) (t_v63 A)
def t_call4_v5 (A : Cert.Spec.Args F) : (⟨S4096x300, .f32⟩ : BufTy).Contents (Elt F) :=
  (Host.expm1) (t_call4_v4 A)
def t_call4_cst_2 (A : Cert.Spec.Args F) : (⟨S_, .f32⟩ : BufTy).Contents (Elt F) :=
  ((constant S_ .f32 0x3F800000#32))
def t_call4_v6 (A : Cert.Spec.Args F) : (⟨S4096x300, .f32⟩ : BufTy).Contents (Elt F) :=
  ((broadcastInDim S4096x300 ![] bcast_S_S4096x300)) (t_call4_cst_2 A)
def t_call4_v7 (A : Cert.Spec.Args F) : (⟨S4096x300, .f32⟩ : BufTy).Contents (Elt F) :=
  (mulf) (t_call4_v6 A) (t_call4_v5 A)
def t_v64 (A : Cert.Spec.Args F) : (⟨S4096x300, .f32⟩ : BufTy).Contents (Elt F) :=
  (select) (t_call4_v1 A) (t_v63 A) (t_call4_v7 A)
def t_v65 (A : Cert.Spec.Args F) : (⟨S4096x300, .f32⟩ : BufTy).Contents (Elt F) :=
  (((fun l r => Host.dotGeneral dot_S4096x300_S300x300_S4096x300_1_0_0_1_n_n none l r))) (t_v64 A) (t_arg7 A)
def t_v66 (A : Cert.Spec.Args F) : (⟨S300x1, .f32⟩ : BufTy).Contents (Elt F) :=
  (((extractStridedSlice S300x1 ![0, 0] · slices_S600x1_S300x1_0_0))) (t_arg8 A)
def t_v67 (A : Cert.Spec.Args F) : (⟨S4096x1, .f32⟩ : BufTy).Contents (Elt F) :=
  (((fun l r => Host.dotGeneral dot_S4096x300_S300x1_S4096x1_1_0_0_1_n_n none l r))) (t_v65 A) (t_v66 A)
def t_v68 (A : Cert.Spec.Args F) : (⟨S300x1, .f32⟩ : BufTy).Contents (Elt F) :=
  (((extractStridedSlice S300x1 ![300, 0] · slices_S600x1_S300x1_300_0))) (t_arg8 A)
def t_v69 (A : Cert.Spec.Args F) : (⟨S4096x1, .f32⟩ : BufTy).Contents (Elt F) :=
  (((fun l r => Host.dotGeneral dot_S4096x300_S300x1_S4096x1_1_0_0_1_n_n none l r))) (t_v65 A) (t_v68 A)
def t_v70 (A : Cert.Spec.Args F) : (⟨S1x4096, .f32⟩ : BufTy).Contents (Elt F) :=
  (((transpose S1x4096 [1, 0] · transposes_S4096x1_S1x4096_1_0))) (t_v69 A)
def t_v71 (A : Cert.Spec.Args F) : (⟨S4096x4096, .f32⟩ : BufTy).Contents (Elt F) :=
  ((broadcastInDim S4096x4096 ![0, 1] bcast_S4096x1_S4096x4096_0_1)) (t_v67 A)
def t_v72 (A : Cert.Spec.Args F) : (⟨S4096x4096, .f32⟩ : BufTy).Contents (Elt F) :=
  ((broadcastInDim S4096x4096 ![0, 1] bcast_S1x4096_S4096x4096_0_1)) (t_v70 A)
def t_v73 (A : Cert.Spec.Args F) : (⟨S4096x4096, .f32⟩ : BufTy).Contents (Elt F) :=
  ((addf)) (t_v71 A) (t_v72 A)
def t_cst_13 (A : Cert.Spec.Args F) : (⟨S_, .f32⟩ : BufTy).Contents (Elt F) :=
  ((constant S_ .f32 0x3E99999A#32))
def t_call5_cst (A : Cert.Spec.Args F) : (⟨S_, .f32⟩ : BufTy).Contents (Elt F) :=
  ((constant S_ .f32 0x00000000#32))
def t_call5_v0 (A : Cert.Spec.Args F) : (⟨S4096x4096, .f32⟩ : BufTy).Contents (Elt F) :=
  ((broadcastInDim S4096x4096 ![] bcast_S_S4096x4096)) (t_call5_cst A)
def t_call5_v1 (A : Cert.Spec.Args F) : (⟨S4096x4096, .i1⟩ : BufTy).Contents (Elt F) :=
  ((cmpf .oge)) (t_v73 A) (t_call5_v0 A)
def t_call5_v2 (A : Cert.Spec.Args F) : (⟨S_, .f32⟩ : BufTy).Contents (Elt F) :=
  (id) (t_cst_13 A)
def t_call5_v3 (A : Cert.Spec.Args F) : (⟨S4096x4096, .f32⟩ : BufTy).Contents (Elt F) :=
  ((broadcastInDim S4096x4096 ![] bcast_S_S4096x4096)) (t_call5_v2 A)
def t_call5_v4 (A : Cert.Spec.Args F) : (⟨S4096x4096, .f32⟩ : BufTy).Contents (Elt F) :=
  (mulf) (t_call5_v3 A) (t_v73 A)
def t_v74 (A : Cert.Spec.Args F) : (⟨S4096x4096, .f32⟩ : BufTy).Contents (Elt F) :=
  (select) (t_call5_v1 A) (t_v73 A) (t_call5_v4 A)
def t_cst_14 (A : Cert.Spec.Args F) : (⟨S_, .f32⟩ : BufTy).Contents (Elt F) :=
  ((constant S_ .f32 0xD368D4A5#32))
def t_call6_v0 (A : Cert.Spec.Args F) : (⟨S_, .f32⟩ : BufTy).Contents (Elt F) :=
  (id) (t_cst_14 A)
def t_call6_v1 (A : Cert.Spec.Args F) : (⟨S4096x4096, .f32⟩ : BufTy).Contents (Elt F) :=
  ((broadcastInDim S4096x4096 ![] bcast_S_S4096x4096)) (t_call6_v0 A)
def t_v75 (A : Cert.Spec.Args F) : (⟨S4096x4096, .f32⟩ : BufTy).Contents (Elt F) :=
  (select) (t_v23 A) (t_v74 A) (t_call6_v1 A)
def t_cst_15 (A : Cert.Spec.Args F) : (⟨S_, .f32⟩ : BufTy).Contents (Elt F) :=
  ((constant S_ .f32 0xFF800000#32))
def t_v76 (A : Cert.Spec.Args F) : (⟨S4096, .f32⟩ : BufTy).Contents (Elt F) :=
  (((fun x v => Host.reduce FloatOps.maximumf x v reducesTo_S4096x4096_S4096_d1 h_S_))) (t_v75 A) (t_cst_15 A)
def t_cst_16 (A : Cert.Spec.Args F) : (⟨S_, .f32⟩ : BufTy).Contents (Elt F) :=
  ((constant S_ .f32 0xFF800000#32))
def t_v77 (A : Cert.Spec.Args F) : (⟨S4096, .f32⟩ : BufTy).Contents (Elt F) :=
  ((broadcastInDim S4096 ![] bcast_S_S4096)) (t_cst_16 A)
def t_v78 (A : Cert.Spec.Args F) : (⟨S4096, .f32⟩ : BufTy).Contents (Elt F) :=
  ((maximumf)) (t_v77 A) (t_v76 A)
def t_v79 (A : Cert.Spec.Args F) : (⟨S4096x1, .f32⟩ : BufTy).Contents (Elt F) :=
  ((broadcastInDim S4096x1 ![0] bcast_S4096_S4096x1_0)) (t_v78 A)
def t_v80 (A : Cert.Spec.Args F) : (⟨S4096x4096, .f32⟩ : BufTy).Contents (Elt F) :=
  ((broadcastInDim S4096x4096 ![0, 1] bcast_S4096x1_S4096x4096_0_1)) (t_v79 A)
def t_v81 (A : Cert.Spec.Args F) : (⟨S4096x4096, .f32⟩ : BufTy).Contents (Elt F) :=
  ((subf)) (t_v75 A) (t_v80 A)
def t_v82 (A : Cert.Spec.Args F) : (⟨S4096x4096, .f32⟩ : BufTy).Contents (Elt F) :=
  ((Host.exp)) (t_v81 A)
def t_cst_17 (A : Cert.Spec.Args F) : (⟨S_, .f32⟩ : BufTy).Contents (Elt F) :=
  ((constant S_ .f32 0x00000000#32))
def t_v83 (A : Cert.Spec.Args F) : (⟨S4096, .f32⟩ : BufTy).Contents (Elt F) :=
  (((fun x v => Host.reduceAdd x v reducesTo_S4096x4096_S4096_d1 h_S_))) (t_v82 A) (t_cst_17 A)
def t_v84 (A : Cert.Spec.Args F) : (⟨S4096x1, .f32⟩ : BufTy).Contents (Elt F) :=
  ((broadcastInDim S4096x1 ![0] bcast_S4096_S4096x1_0)) (t_v83 A)
def t_v85 (A : Cert.Spec.Args F) : (⟨S4096x4096, .f32⟩ : BufTy).Contents (Elt F) :=
  ((broadcastInDim S4096x4096 ![0, 1] bcast_S4096x1_S4096x4096_0_1)) (t_v84 A)
def t_v86 (A : Cert.Spec.Args F) : (⟨S4096x4096, .f32⟩ : BufTy).Contents (Elt F) :=
  ((Host.divf)) (t_v82 A) (t_v85 A)
def t_v87 (A : Cert.Spec.Args F) : (⟨S4096x4096, .f32⟩ : BufTy).Contents (Elt F) :=
  ((Host.negf)) (t_v74 A)
def t_cst_18 (A : Cert.Spec.Args F) : (⟨S_, .f32⟩ : BufTy).Contents (Elt F) :=
  ((constant S_ .f32 0xD368D4A5#32))
def t_call7_v0 (A : Cert.Spec.Args F) : (⟨S_, .f32⟩ : BufTy).Contents (Elt F) :=
  (id) (t_cst_18 A)
def t_call7_v1 (A : Cert.Spec.Args F) : (⟨S4096x4096, .f32⟩ : BufTy).Contents (Elt F) :=
  ((broadcastInDim S4096x4096 ![] bcast_S_S4096x4096)) (t_call7_v0 A)
def t_v88 (A : Cert.Spec.Args F) : (⟨S4096x4096, .f32⟩ : BufTy).Contents (Elt F) :=
  (select) (t_v23 A) (t_v87 A) (t_call7_v1 A)
def t_cst_19 (A : Cert.Spec.Args F) : (⟨S_, .f32⟩ : BufTy).Contents (Elt F) :=
  ((constant S_ .f32 0xFF800000#32))
def t_v89 (A : Cert.Spec.Args F) : (⟨S4096, .f32⟩ : BufTy).Contents (Elt F) :=
  (((fun x v => Host.reduce FloatOps.maximumf x v reducesTo_S4096x4096_S4096_d1 h_S_))) (t_v88 A) (t_cst_19 A)
def t_cst_20 (A : Cert.Spec.Args F) : (⟨S_, .f32⟩ : BufTy).Contents (Elt F) :=
  ((constant S_ .f32 0xFF800000#32))
def t_v90 (A : Cert.Spec.Args F) : (⟨S4096, .f32⟩ : BufTy).Contents (Elt F) :=
  ((broadcastInDim S4096 ![] bcast_S_S4096)) (t_cst_20 A)
def t_v91 (A : Cert.Spec.Args F) : (⟨S4096, .f32⟩ : BufTy).Contents (Elt F) :=
  ((maximumf)) (t_v90 A) (t_v89 A)
def t_v92 (A : Cert.Spec.Args F) : (⟨S4096x1, .f32⟩ : BufTy).Contents (Elt F) :=
  ((broadcastInDim S4096x1 ![0] bcast_S4096_S4096x1_0)) (t_v91 A)
def t_v93 (A : Cert.Spec.Args F) : (⟨S4096x4096, .f32⟩ : BufTy).Contents (Elt F) :=
  ((broadcastInDim S4096x4096 ![0, 1] bcast_S4096x1_S4096x4096_0_1)) (t_v92 A)
def t_v94 (A : Cert.Spec.Args F) : (⟨S4096x4096, .f32⟩ : BufTy).Contents (Elt F) :=
  ((subf)) (t_v88 A) (t_v93 A)
def t_v95 (A : Cert.Spec.Args F) : (⟨S4096x4096, .f32⟩ : BufTy).Contents (Elt F) :=
  ((Host.exp)) (t_v94 A)
def t_cst_21 (A : Cert.Spec.Args F) : (⟨S_, .f32⟩ : BufTy).Contents (Elt F) :=
  ((constant S_ .f32 0x00000000#32))
def t_v96 (A : Cert.Spec.Args F) : (⟨S4096, .f32⟩ : BufTy).Contents (Elt F) :=
  (((fun x v => Host.reduceAdd x v reducesTo_S4096x4096_S4096_d1 h_S_))) (t_v95 A) (t_cst_21 A)
def t_v97 (A : Cert.Spec.Args F) : (⟨S4096x1, .f32⟩ : BufTy).Contents (Elt F) :=
  ((broadcastInDim S4096x1 ![0] bcast_S4096_S4096x1_0)) (t_v96 A)
def t_v98 (A : Cert.Spec.Args F) : (⟨S4096x4096, .f32⟩ : BufTy).Contents (Elt F) :=
  ((broadcastInDim S4096x4096 ![0, 1] bcast_S4096x1_S4096x4096_0_1)) (t_v97 A)
def t_v99 (A : Cert.Spec.Args F) : (⟨S4096x4096, .f32⟩ : BufTy).Contents (Elt F) :=
  ((Host.divf)) (t_v95 A) (t_v98 A)
def t_v100 (A : Cert.Spec.Args F) : (⟨S4096x4096, .f32⟩ : BufTy).Contents (Elt F) :=
  ((Host.negf)) (t_v99 A)
def t_v101 (A : Cert.Spec.Args F) : (⟨S4096x300, .f32⟩ : BufTy).Contents (Elt F) :=
  (((fun l r => Host.dotGeneral dot_S4096x4096_S4096x300_S4096x300_1_0_0_1_n_n none l r))) (t_v86 A) (t_v64 A)
def t_v102 (A : Cert.Spec.Args F) : (⟨S4096x300, .f32⟩ : BufTy).Contents (Elt F) :=
  (((fun l r => Host.dotGeneral dot_S4096x4096_S4096x300_S4096x300_1_0_0_1_n_n none l r))) (t_v100 A) (t_v64 A)
def t_v103 (A : Cert.Spec.Args F) : (⟨S4096x600, .f32⟩ : BufTy).Contents (Elt F) :=
  (((fun a b => concatenate S4096x600 1 [⟨S4096x300, a⟩, ⟨S4096x300, b⟩] concatenates_S4096x300_S4096x300_S4096x600_d1))) (t_v101 A) (t_v102 A)
def t_v104 (A : Cert.Spec.Args F) : (⟨S4096x300, .f32⟩ : BufTy).Contents (Elt F) :=
  (((fun l r => Host.dotGeneral dot_S4096x600_S600x300_S4096x300_1_0_0_1_n_n none l r))) (t_v103 A) (t_arg9 A)
def t_v105 (A : Cert.Spec.Args F) : (⟨S4096x300, .f32⟩ : BufTy).Contents (Elt F) :=
  ((Host.negf)) (t_v104 A)
def t_v106 (A : Cert.Spec.Args F) : (⟨S4096x300, .f32⟩ : BufTy).Contents (Elt F) :=
  ((Host.exp)) (t_v105 A)
def t_cst_22 (A : Cert.Spec.Args F) : (⟨S_, .f32⟩ : BufTy).Contents (Elt F) :=
  ((constant S_ .f32 0x3F800000#32))
def t_v107 (A : Cert.Spec.Args F) : (⟨S4096x300, .f32⟩ : BufTy).Contents (Elt F) :=
  ((broadcastInDim S4096x300 ![] bcast_S_S4096x300)) (t_cst_22 A)
def t_v108 (A : Cert.Spec.Args F) : (⟨S4096x300, .f32⟩ : BufTy).Contents (Elt F) :=
  ((addf)) (t_v107 A) (t_v106 A)
def t_cst_23 (A : Cert.Spec.Args F) : (⟨S_, .f32⟩ : BufTy).Contents (Elt F) :=
  ((constant S_ .f32 0x3F800000#32))
def t_v109 (A : Cert.Spec.Args F) : (⟨S4096x300, .f32⟩ : BufTy).Contents (Elt F) :=
  ((broadcastInDim S4096x300 ![] bcast_S_S4096x300)) (t_cst_23 A)
def t_v110 (A : Cert.Spec.Args F) : (⟨S4096x300, .f32⟩ : BufTy).Contents (Elt F) :=
  ((Host.divf)) (t_v109 A) (t_v108 A)
def t_c_24 (A : Cert.Spec.Args F) : (⟨S_, .i32⟩ : BufTy).Contents (Elt F) :=
  ((constantI S_ 32 0#32))
def t_v111 (A : Cert.Spec.Args F) : (⟨S64, .i32⟩ : BufTy).Contents (Elt F) :=
  ((broadcastInDim S64 ![] bcast_S_S64)) (t_c_24 A)
def t_v112 (A : Cert.Spec.Args F) : (⟨S64, .i1⟩ : BufTy).Contents (Elt F) :=
  ((cmpi .slt)) (t_arg11 A) (t_v111 A)
def t_c_25 (A : Cert.Spec.Args F) : (⟨S_, .i32⟩ : BufTy).Contents (Elt F) :=
  ((constantI S_ 32 4096#32))
def t_v113 (A : Cert.Spec.Args F) : (⟨S64, .i32⟩ : BufTy).Contents (Elt F) :=
  ((broadcastInDim S64 ![] bcast_S_S64)) (t_c_25 A)
def t_v114 (A : Cert.Spec.Args F) : (⟨S64, .i32⟩ : BufTy).Contents (Elt F) :=
  ((addi)) (t_arg11 A) (t_v113 A)
def t_v115 (A : Cert.Spec.Args F) : (⟨S64, .i32⟩ : BufTy).Contents (Elt F) :=
  ((select)) (t_v112 A) (t_v114 A) (t_arg11 A)
def t_v116 (A : Cert.Spec.Args F) : (⟨S64x1, .i32⟩ : BufTy).Contents (Elt F) :=
  ((broadcastInDim S64x1 ![0] bcast_S64_S64x1_0)) (t_v115 A)
def t_v117 (A : Cert.Spec.Args F) : (⟨S64x300, .f32⟩ : BufTy).Contents (Elt F) :=
  (((fun x i => Host.gather gather_S4096x300_S64x1_S64x300_1_0_n_n_0_1_1300 x i))) (t_v110 A) (t_v116 A)

end Cert.ReferenceIdeal.Term

end
-- ==== Proof.RRun.lean ====
/-
  The idealized reference's run: every weakly fair execution of @main ends with the result array at the stage term
  `Term.t_v117` of the argument arrays, and the arguments as launched.
-/
import proofs.«428251_j16982300688849_3_alg».proof.Proof.RTerm
import Idealize.ShloMosaic.Lib.StableHlo.Run

noncomputable section

namespace Cert.ReferenceIdeal.Run

open Idealize.ShloMosaic Idealize.ShloMosaic.TcCoe Idealize.SL.Sem
open Cert.ReferenceIdeal Cert.ReferenceIdeal.Gen

variable {F : FTy → Type} [FloatOps F]

/-- The twelve argument arrays of core `c` in the memory `m`. -/
def argsOf (m : (ℓ : Loc Cert.ReferenceIdeal.nD Cert.ReferenceIdeal.τ Cert.ReferenceIdeal.sig) → Buf (Elt F) ℓ) (c : Dev Cert.ReferenceIdeal.nD) : Cert.Spec.Args F where
  x0 := m ((c.tc : Thread Cert.ReferenceIdeal.nD Cert.ReferenceIdeal.τ).loc Cert.ReferenceIdeal.main_arg0)
  x1 := m ((c.tc : Thread Cert.ReferenceIdeal.nD Cert.ReferenceIdeal.τ).loc Cert.ReferenceIdeal.main_arg1)
  x2 := m ((c.tc : Thread Cert.ReferenceIdeal.nD Cert.ReferenceIdeal.τ).loc Cert.ReferenceIdeal.main_arg2)
  x3 := m ((c.tc : Thread Cert.ReferenceIdeal.nD Cert.ReferenceIdeal.τ).loc Cert.ReferenceIdeal.main_arg3)
  x4 := m ((c.tc : Thread Cert.ReferenceIdeal.nD Cert.ReferenceIdeal.τ).loc Cert.ReferenceIdeal.main_arg4)
  x5 := m ((c.tc : Thread Cert.ReferenceIdeal.nD Cert.ReferenceIdeal.τ).loc Cert.ReferenceIdeal.main_arg5)
  x6 := m ((c.tc : Thread Cert.ReferenceIdeal.nD Cert.ReferenceIdeal.τ).loc Cert.ReferenceIdeal.main_arg6)
  x7 := m ((c.tc : Thread Cert.ReferenceIdeal.nD Cert.ReferenceIdeal.τ).loc Cert.ReferenceIdeal.main_arg7)
  x8 := m ((c.tc : Thread Cert.ReferenceIdeal.nD Cert.ReferenceIdeal.τ).loc Cert.ReferenceIdeal.main_arg8)
  x9 := m ((c.tc : Thread Cert.ReferenceIdeal.nD Cert.ReferenceIdeal.τ).loc Cert.ReferenceIdeal.main_arg9)
  x10 := m ((c.tc : Thread Cert.ReferenceIdeal.nD Cert.ReferenceIdeal.τ).loc Cert.ReferenceIdeal.main_arg10)
  x11 := m ((c.tc : Thread Cert.ReferenceIdeal.nD Cert.ReferenceIdeal.τ).loc Cert.ReferenceIdeal.main_arg11)

open Idealize.ShloMosaic.StableHlo

/-! ## The operations

@main's 147 statements are 186 operations once the bodies of the functions it calls stand at their calls, each over
that call's own buffers. They are listed in 13 consecutive stretches, cut where few buffers are still to be read —
after the mask (`main_v23`), after each layer's logits, after each of the four soft-max rows, before each
concatenation, after layer 1's output (`main_v64`) — and at the two places where the printed program itself is cut. -/

/-- Operations 1 to 36 of the 186, in order. -/
abbrev ch1 : List (HloOp τ sig (Elt F)) :=
  [ binary main_arg0 main_arg1 main_v0 ((((fun l r => Host.dotGeneral dot_S4096x300_S300x300_S4096x300_1_0_0_1_n_n none l r))) : (⟨S4096x300, .f32⟩ : BufTy).Contents (Elt F) → (⟨S300x300, .f32⟩ : BufTy).Contents (Elt F) → (⟨S4096x300, .f32⟩ : BufTy).Contents (Elt F)),
    binary main_v0 main_arg2 main_v1 ((((fun l r => Host.dotGeneral dot_S4096x300_S300x1_S4096x1_1_0_0_1_n_n none l r))) : (⟨S4096x300, .f32⟩ : BufTy).Contents (Elt F) → (⟨S300x1, .f32⟩ : BufTy).Contents (Elt F) → (⟨S4096x1, .f32⟩ : BufTy).Contents (Elt F)),
    binary main_v0 main_arg3 main_v2 ((((fun l r => Host.dotGeneral dot_S4096x300_S300x1_S4096x1_1_0_0_1_n_n none l r))) : (⟨S4096x300, .f32⟩ : BufTy).Contents (Elt F) → (⟨S300x1, .f32⟩ : BufTy).Contents (Elt F) → (⟨S4096x1, .f32⟩ : BufTy).Contents (Elt F)),
    unary main_v2 main_v3 ((((transpose S1x4096 [1, 0] · transposes_S4096x1_S1x4096_1_0))) : (⟨S4096x1, .f32⟩ : BufTy).Contents (Elt F) → (⟨S1x4096, .f32⟩ : BufTy).Contents (Elt F)),
    unary main_v1 main_v4 (((broadcastInDim S4096x4096 ![0, 1] bcast_S4096x1_S4096x4096_0_1)) : (⟨S4096x1, .f32⟩ : BufTy).Contents (Elt F) → (⟨S4096x4096, .f32⟩ : BufTy).Contents (Elt F)),
    unary main_v3 main_v5 (((broadcastInDim S4096x4096 ![0, 1] bcast_S1x4096_S4096x4096_0_1)) : (⟨S1x4096, .f32⟩ : BufTy).Contents (Elt F) → (⟨S4096x4096, .f32⟩ : BufTy).Contents (Elt F)),
    binary main_v4 main_v5 main_v6 (((addf)) : (⟨S4096x4096, .f32⟩ : BufTy).Contents (Elt F) → (⟨S4096x4096, .f32⟩ : BufTy).Contents (Elt F) → (⟨S4096x4096, .f32⟩ : BufTy).Contents (Elt F)),
    nullary main_cst ((constant S_ .f32 0x3E99999A#32)),
    nullary main_call0_cst ((constant S_ .f32 0x00000000#32)),
    unary main_call0_cst main_call0_v0 (((broadcastInDim S4096x4096 ![] bcast_S_S4096x4096)) : (⟨S_, .f32⟩ : BufTy).Contents (Elt F) → (⟨S4096x4096, .f32⟩ : BufTy).Contents (Elt F)),
    binary main_v6 main_call0_v0 main_call0_v1 (((cmpf .oge)) : (⟨S4096x4096, .f32⟩ : BufTy).Contents (Elt F) → (⟨S4096x4096, .f32⟩ : BufTy).Contents (Elt F) → (⟨S4096x4096, .i1⟩ : BufTy).Contents (Elt F)),
    unary main_cst main_call0_v2 ((id) : (⟨S_, .f32⟩ : BufTy).Contents (Elt F) → (⟨S_, .f32⟩ : BufTy).Contents (Elt F)),
    unary main_call0_v2 main_call0_v3 (((broadcastInDim S4096x4096 ![] bcast_S_S4096x4096)) : (⟨S_, .f32⟩ : BufTy).Contents (Elt F) → (⟨S4096x4096, .f32⟩ : BufTy).Contents (Elt F)),
    binary main_call0_v3 main_v6 main_call0_v4 ((mulf) : (⟨S4096x4096, .f32⟩ : BufTy).Contents (Elt F) → (⟨S4096x4096, .f32⟩ : BufTy).Contents (Elt F) → (⟨S4096x4096, .f32⟩ : BufTy).Contents (Elt F)),
    ternary main_call0_v1 main_v6 main_call0_v4 main_v7 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_0 ((constant S_ .f32 0xFF800000#32)),
    binary main_v7 main_cst_0 main_v8 ((((fun x v => Host.reduce FloatOps.maximumf x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    nullary main_cst_1 ((constant S_ .f32 0xFF800000#32)),
    unary main_cst_1 main_v9 (((broadcastInDim S4096 ![] bcast_S_S4096)) : (⟨S_, .f32⟩ : BufTy).Contents (Elt F) → (⟨S4096, .f32⟩ : BufTy).Contents (Elt F)),
    binary main_v9 main_v8 main_v10 (((maximumf)) : (⟨S4096, .f32⟩ : BufTy).Contents (Elt F) → (⟨S4096, .f32⟩ : BufTy).Contents (Elt F) → (⟨S4096, .f32⟩ : BufTy).Contents (Elt F)),
    unary main_v10 main_v11 (((broadcastInDim S4096x1 ![0] bcast_S4096_S4096x1_0)) : (⟨S4096, .f32⟩ : BufTy).Contents (Elt F) → (⟨S4096x1, .f32⟩ : BufTy).Contents (Elt F)),
    unary main_v11 main_v12 (((broadcastInDim S4096x4096 ![0, 1] bcast_S4096x1_S4096x4096_0_1)) : (⟨S4096x1, .f32⟩ : BufTy).Contents (Elt F) → (⟨S4096x4096, .f32⟩ : BufTy).Contents (Elt F)),
    binary main_v7 main_v12 main_v13 (((subf)) : (⟨S4096x4096, .f32⟩ : BufTy).Contents (Elt F) → (⟨S4096x4096, .f32⟩ : BufTy).Contents (Elt F) → (⟨S4096x4096, .f32⟩ : BufTy).Contents (Elt F)),
    unary main_v13 main_v14 (((Host.exp)) : (⟨S4096x4096, .f32⟩ : BufTy).Contents (Elt F) → (⟨S4096x4096, .f32⟩ : BufTy).Contents (Elt F)),
    nullary main_cst_2 ((constant S_ .f32 0x00000000#32)),
    binary main_v14 main_cst_2 main_v15 ((((fun x v => Host.reduceAdd x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    unary main_v15 main_v16 (((broadcastInDim S4096x1 ![0] bcast_S4096_S4096x1_0)) : (⟨S4096, .f32⟩ : BufTy).Contents (Elt F) → (⟨S4096x1, .f32⟩ : BufTy).Contents (Elt F)),
    unary main_v16 main_v17 (((broadcastInDim S4096x4096 ![0, 1] bcast_S4096x1_S4096x4096_0_1)) : (⟨S4096x1, .f32⟩ : BufTy).Contents (Elt F) → (⟨S4096x4096, .f32⟩ : BufTy).Contents (Elt F)),
    binary main_v14 main_v17 main_v18 (((Host.divf)) : (⟨S4096x4096, .f32⟩ : BufTy).Contents (Elt F) → (⟨S4096x4096, .f32⟩ : BufTy).Contents (Elt F) → (⟨S4096x4096, .f32⟩ : BufTy).Contents (Elt F)),
    nullary main_cst_3 ((constant S_ .f32 0x39800000#32)),
    unary main_cst_3 main_v19 (((broadcastInDim S4096x4096 ![] bcast_S_S4096x4096)) : (⟨S_, .f32⟩ : BufTy).Contents (Elt F) → (⟨S4096x4096, .f32⟩ : BufTy).Contents (Elt F)),
    binary main_v18 main_v19 main_v20 (((cmpf .ogt)) : (⟨S4096x4096, .f32⟩ : BufTy).Contents (Elt F) → (⟨S4096x4096, .f32⟩ : BufTy).Contents (Elt F) → (⟨S4096x4096, .i1⟩ : BufTy).Contents (Elt F)),
    nullary main_c ((constantI S_ 32 0#32)),
    unary main_c main_v21 (((broadcastInDim S4096x4096 ![] bcast_S_S4096x4096)) : (⟨S_, .i32⟩ : BufTy).Contents (Elt F) → (⟨S4096x4096, .i32⟩ : BufTy).Contents (Elt F)),
    binary main_arg10 main_v21 main_v22 (((cmpi .sgt)) : (⟨S4096x4096, .i32⟩ : BufTy).Contents (Elt F) → (⟨S4096x4096, .i32⟩ : BufTy).Contents (Elt F) → (⟨S4096x4096, .i1⟩ : BufTy).Contents (Elt F)),
    binary main_v20 main_v22 main_v23 (((ori)) : (⟨S4096x4096, .i1⟩ : BufTy).Contents (Elt F) → (⟨S4096x4096, .i1⟩ : BufTy).Contents (Elt F) → (⟨S4096x4096, .i1⟩ : BufTy).Contents (Elt F)) ]

/-- Operations 37 to 53 of the 186, in order. -/
abbrev ch2 : List (HloOp τ sig (Elt F)) :=
  [ binary main_arg0 main_arg4 main_v24 ((((fun l r => Host.dotGeneral dot_S4096x300_S300x300_S4096x300_1_0_0_1_n_n none l r))) : (⟨S4096x300, .f32⟩ : BufTy).Contents (Elt F) → (⟨S300x300, .f32⟩ : BufTy).Contents (Elt F) → (⟨S4096x300, .f32⟩ : BufTy).Contents (Elt F)),
    unary main_arg5 main_v25 ((((extractStridedSlice S300x1 ![0, 0] · slices_S600x1_S300x1_0_0))) : (⟨S600x1, .f32⟩ : BufTy).Contents (Elt F) → (⟨S300x1, .f32⟩ : BufTy).Contents (Elt F)),
    binary main_v24 main_v25 main_v26 ((((fun l r => Host.dotGeneral dot_S4096x300_S300x1_S4096x1_1_0_0_1_n_n none l r))) : (⟨S4096x300, .f32⟩ : BufTy).Contents (Elt F) → (⟨S300x1, .f32⟩ : BufTy).Contents (Elt F) → (⟨S4096x1, .f32⟩ : BufTy).Contents (Elt F)),
    unary main_arg5 main_v27 ((((extractStridedSlice S300x1 ![300, 0] · slices_S600x1_S300x1_300_0))) : (⟨S600x1, .f32⟩ : BufTy).Contents (Elt F) → (⟨S300x1, .f32⟩ : BufTy).Contents (Elt F)),
    binary main_v24 main_v27 main_v28 ((((fun l r => Host.dotGeneral dot_S4096x300_S300x1_S4096x1_1_0_0_1_n_n none l r))) : (⟨S4096x300, .f32⟩ : BufTy).Contents (Elt F) → (⟨S300x1, .f32⟩ : BufTy).Contents (Elt F) → (⟨S4096x1, .f32⟩ : BufTy).Contents (Elt F)),
    unary main_v28 main_v29 ((((transpose S1x4096 [1, 0] · transposes_S4096x1_S1x4096_1_0))) : (⟨S4096x1, .f32⟩ : BufTy).Contents (Elt F) → (⟨S1x4096, .f32⟩ : BufTy).Contents (Elt F)),
    unary main_v26 main_v30 (((broadcastInDim S4096x4096 ![0, 1] bcast_S4096x1_S4096x4096_0_1)) : (⟨S4096x1, .f32⟩ : BufTy).Contents (Elt F) → (⟨S4096x4096, .f32⟩ : BufTy).Contents (Elt F)),
    unary main_v29 main_v31 (((broadcastInDim S4096x4096 ![0, 1] bcast_S1x4096_S4096x4096_0_1)) : (⟨S1x4096, .f32⟩ : BufTy).Contents (Elt F) → (⟨S4096x4096, .f32⟩ : BufTy).Contents (Elt F)),
    binary main_v30 main_v31 main_v32 (((addf)) : (⟨S4096x4096, .f32⟩ : BufTy).Contents (Elt F) → (⟨S4096x4096, .f32⟩ : BufTy).Contents (Elt F) → (⟨S4096x4096, .f32⟩ : BufTy).Contents (Elt F)),
    nullary main_cst_4 ((constant S_ .f32 0x3E99999A#32)),
    nullary main_call1_cst ((constant S_ .f32 0x00000000#32)),
    unary main_call1_cst main_call1_v0 (((broadcastInDim S4096x4096 ![] bcast_S_S4096x4096)) : (⟨S_, .f32⟩ : BufTy).Contents (Elt F) → (⟨S4096x4096, .f32⟩ : BufTy).Contents (Elt F)),
    binary main_v32 main_call1_v0 main_call1_v1 (((cmpf .oge)) : (⟨S4096x4096, .f32⟩ : BufTy).Contents (Elt F) → (⟨S4096x4096, .f32⟩ : BufTy).Contents (Elt F) → (⟨S4096x4096, .i1⟩ : BufTy).Contents (Elt F)),
    unary main_cst_4 main_call1_v2 ((id) : (⟨S_, .f32⟩ : BufTy).Contents (Elt F) → (⟨S_, .f32⟩ : BufTy).Contents (Elt F)),
    unary main_call1_v2 main_call1_v3 (((broadcastInDim S4096x4096 ![] bcast_S_S4096x4096)) : (⟨S_, .f32⟩ : BufTy).Contents (Elt F) → (⟨S4096x4096, .f32⟩ : BufTy).Contents (Elt F)),
    binary main_call1_v3 main_v32 main_call1_v4 ((mulf) : (⟨S4096x4096, .f32⟩ : BufTy).Contents (Elt F) → (⟨S4096x4096, .f32⟩ : BufTy).Contents (Elt F) → (⟨S4096x4096, .f32⟩ : BufTy).Contents (Elt F)),
    ternary main_call1_v1 main_v32 main_call1_v4 main_v33 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

/-- Operations 54 to 71 of the 186, in order. -/
abbrev ch3 : List (HloOp τ sig (Elt F)) :=
  [ nullary main_cst_5 ((constant S_ .f32 0xD368D4A5#32)),
    unary main_cst_5 main_call2_v0 ((id) : (⟨S_, .f32⟩ : BufTy).Contents (Elt F) → (⟨S_, .f32⟩ : BufTy).Contents (Elt F)),
    unary main_call2_v0 main_call2_v1 (((broadcastInDim S4096x4096 ![] bcast_S_S4096x4096)) : (⟨S_, .f32⟩ : BufTy).Contents (Elt F) → (⟨S4096x4096, .f32⟩ : BufTy).Contents (Elt F)),
    ternary main_v23 main_v33 main_call2_v1 main_v34 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_6 ((constant S_ .f32 0xFF800000#32)),
    binary main_v34 main_cst_6 main_v35 ((((fun x v => Host.reduce FloatOps.maximumf x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    nullary main_cst_7 ((constant S_ .f32 0xFF800000#32)),
    unary main_cst_7 main_v36 (((broadcastInDim S4096 ![] bcast_S_S4096)) : (⟨S_, .f32⟩ : BufTy).Contents (Elt F) → (⟨S4096, .f32⟩ : BufTy).Contents (Elt F)),
    binary main_v36 main_v35 main_v37 (((maximumf)) : (⟨S4096, .f32⟩ : BufTy).Contents (Elt F) → (⟨S4096, .f32⟩ : BufTy).Contents (Elt F) → (⟨S4096, .f32⟩ : BufTy).Contents (Elt F)),
    unary main_v37 main_v38 (((broadcastInDim S4096x1 ![0] bcast_S4096_S4096x1_0)) : (⟨S4096, .f32⟩ : BufTy).Contents (Elt F) → (⟨S4096x1, .f32⟩ : BufTy).Contents (Elt F)),
    unary main_v38 main_v39 (((broadcastInDim S4096x4096 ![0, 1] bcast_S4096x1_S4096x4096_0_1)) : (⟨S4096x1, .f32⟩ : BufTy).Contents (Elt F) → (⟨S4096x4096, .f32⟩ : BufTy).Contents (Elt F)),
    binary main_v34 main_v39 main_v40 (((subf)) : (⟨S4096x4096, .f32⟩ : BufTy).Contents (Elt F) → (⟨S4096x4096, .f32⟩ : BufTy).Contents (Elt F) → (⟨S4096x4096, .f32⟩ : BufTy).Contents (Elt F)),
    unary main_v40 main_v41 (((Host.exp)) : (⟨S4096x4096, .f32⟩ : BufTy).Contents (Elt F) → (⟨S4096x4096, .f32⟩ : BufTy).Contents (Elt F)),
    nullary main_cst_8 ((constant S_ .f32 0x00000000#32)),
    binary main_v41 main_cst_8 main_v42 ((((fun x v => Host.reduceAdd x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    unary main_v42 main_v43 (((broadcastInDim S4096x1 ![0] bcast_S4096_S4096x1_0)) : (⟨S4096, .f32⟩ : BufTy).Contents (Elt F) → (⟨S4096x1, .f32⟩ : BufTy).Contents (Elt F)),
    unary main_v43 main_v44 (((broadcastInDim S4096x4096 ![0, 1] bcast_S4096x1_S4096x4096_0_1)) : (⟨S4096x1, .f32⟩ : BufTy).Contents (Elt F) → (⟨S4096x4096, .f32⟩ : BufTy).Contents (Elt F)),
    binary main_v41 main_v44 main_v45 (((Host.divf)) : (⟨S4096x4096, .f32⟩ : BufTy).Contents (Elt F) → (⟨S4096x4096, .f32⟩ : BufTy).Contents (Elt F) → (⟨S4096x4096, .f32⟩ : BufTy).Contents (Elt F)) ]

/-- Operations 72 to 76 of the 186, in order. -/
abbrev ch4 : List (HloOp τ sig (Elt F)) :=
  [ unary main_v33 main_v46 (((Host.negf)) : (⟨S4096x4096, .f32⟩ : BufTy).Contents (Elt F) → (⟨S4096x4096, .f32⟩ : BufTy).Contents (Elt F)),
    nullary main_cst_9 ((constant S_ .f32 0xD368D4A5#32)),
    unary main_cst_9 main_call3_v0 ((id) : (⟨S_, .f32⟩ : BufTy).Contents (Elt F) → (⟨S_, .f32⟩ : BufTy).Contents (Elt F)),
    unary main_call3_v0 main_call3_v1 (((broadcastInDim S4096x4096 ![] bcast_S_S4096x4096)) : (⟨S_, .f32⟩ : BufTy).Contents (Elt F) → (⟨S4096x4096, .f32⟩ : BufTy).Contents (Elt F)),
    ternary main_v23 main_v46 main_call3_v1 main_v47 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

/-- Operations 77 to 91 of the 186, in order. -/
abbrev ch5 : List (HloOp τ sig (Elt F)) :=
  [ nullary main_cst_10 ((constant S_ .f32 0xFF800000#32)),
    binary main_v47 main_cst_10 main_v48 ((((fun x v => Host.reduce FloatOps.maximumf x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    nullary main_cst_11 ((constant S_ .f32 0xFF800000#32)),
    unary main_cst_11 main_v49 (((broadcastInDim S4096 ![] bcast_S_S4096)) : (⟨S_, .f32⟩ : BufTy).Contents (Elt F) → (⟨S4096, .f32⟩ : BufTy).Contents (Elt F)),
    binary main_v49 main_v48 main_v50 (((maximumf)) : (⟨S4096, .f32⟩ : BufTy).Contents (Elt F) → (⟨S4096, .f32⟩ : BufTy).Contents (Elt F) → (⟨S4096, .f32⟩ : BufTy).Contents (Elt F)),
    unary main_v50 main_v51 (((broadcastInDim S4096x1 ![0] bcast_S4096_S4096x1_0)) : (⟨S4096, .f32⟩ : BufTy).Contents (Elt F) → (⟨S4096x1, .f32⟩ : BufTy).Contents (Elt F)),
    unary main_v51 main_v52 (((broadcastInDim S4096x4096 ![0, 1] bcast_S4096x1_S4096x4096_0_1)) : (⟨S4096x1, .f32⟩ : BufTy).Contents (Elt F) → (⟨S4096x4096, .f32⟩ : BufTy).Contents (Elt F)),
    binary main_v47 main_v52 main_v53 (((subf)) : (⟨S4096x4096, .f32⟩ : BufTy).Contents (Elt F) → (⟨S4096x4096, .f32⟩ : BufTy).Contents (Elt F) → (⟨S4096x4096, .f32⟩ : BufTy).Contents (Elt F)),
    unary main_v53 main_v54 (((Host.exp)) : (⟨S4096x4096, .f32⟩ : BufTy).Contents (Elt F) → (⟨S4096x4096, .f32⟩ : BufTy).Contents (Elt F)),
    nullary main_cst_12 ((constant S_ .f32 0x00000000#32)),
    binary main_v54 main_cst_12 main_v55 ((((fun x v => Host.reduceAdd x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    unary main_v55 main_v56 (((broadcastInDim S4096x1 ![0] bcast_S4096_S4096x1_0)) : (⟨S4096, .f32⟩ : BufTy).Contents (Elt F) → (⟨S4096x1, .f32⟩ : BufTy).Contents (Elt F)),
    unary main_v56 main_v57 (((broadcastInDim S4096x4096 ![0, 1] bcast_S4096x1_S4096x4096_0_1)) : (⟨S4096x1, .f32⟩ : BufTy).Contents (Elt F) → (⟨S4096x4096, .f32⟩ : BufTy).Contents (Elt F)),
    binary main_v54 main_v57 main_v58 (((Host.divf)) : (⟨S4096x4096, .f32⟩ : BufTy).Contents (Elt F) → (⟨S4096x4096, .f32⟩ : BufTy).Contents (Elt F) → (⟨S4096x4096, .f32⟩ : BufTy).Contents (Elt F)),
    unary main_v58 main_v59 (((Host.negf)) : (⟨S4096x4096, .f32⟩ : BufTy).Contents (Elt F) → (⟨S4096x4096, .f32⟩ : BufTy).Contents (Elt F)) ]

/-- Operations 92 to 93 of the 186, in order. -/
abbrev ch6 : List (HloOp τ sig (Elt F)) :=
  [ binary main_v45 main_arg0 main_v60 ((((fun l r => Host.dotGeneral dot_S4096x4096_S4096x300_S4096x300_1_0_0_1_n_n none l r))) : (⟨S4096x4096, .f32⟩ : BufTy).Contents (Elt F) → (⟨S4096x300, .f32⟩ : BufTy).Contents (Elt F) → (⟨S4096x300, .f32⟩ : BufTy).Contents (Elt F)),
    binary main_v59 main_arg0 main_v61 ((((fun l r => Host.dotGeneral dot_S4096x4096_S4096x300_S4096x300_1_0_0_1_n_n none l r))) : (⟨S4096x4096, .f32⟩ : BufTy).Contents (Elt F) → (⟨S4096x300, .f32⟩ : BufTy).Contents (Elt F) → (⟨S4096x300, .f32⟩ : BufTy).Contents (Elt F)) ]

/-- Operations 94 to 110 of the 186, in order. -/
abbrev ch7 : List (HloOp τ sig (Elt F)) :=
  [ binary main_v60 main_v61 main_v62 ((((fun a b => concatenate S4096x600 1 [⟨S4096x300, a⟩, ⟨S4096x300, b⟩] concatenates_S4096x300_S4096x300_S4096x600_d1))) : (⟨S4096x300, .f32⟩ : BufTy).Contents (Elt F) → (⟨S4096x300, .f32⟩ : BufTy).Contents (Elt F) → (⟨S4096x600, .f32⟩ : BufTy).Contents (Elt F)),
    binary main_v62 main_arg6 main_v63 ((((fun l r => Host.dotGeneral dot_S4096x600_S600x300_S4096x300_1_0_0_1_n_n none l r))) : (⟨S4096x600, .f32⟩ : BufTy).Contents (Elt F) → (⟨S600x300, .f32⟩ : BufTy).Contents (Elt F) → (⟨S4096x300, .f32⟩ : BufTy).Contents (Elt F)),
    nullary main_call4_cst ((constant S_ .f32 0x00000000#32)),
    unary main_call4_cst main_call4_v0 (((broadcastInDim S4096x300 ![] bcast_S_S4096x300)) : (⟨S_, .f32⟩ : BufTy).Contents (Elt F) → (⟨S4096x300, .f32⟩ : BufTy).Contents (Elt F)),
    binary main_v63 main_call4_v0 main_call4_v1 (((cmpf .ogt)) : (⟨S4096x300, .f32⟩ : BufTy).Contents (Elt F) → (⟨S4096x300, .f32⟩ : BufTy).Contents (Elt F) → (⟨S4096x300, .i1⟩ : BufTy).Contents (Elt F)),
    nullary main_call4_cst_0 ((constant S_ .f32 0x00000000#32)),
    unary main_call4_cst_0 main_call4_v2 (((broadcastInDim S4096x300 ![] bcast_S_S4096x300)) : (⟨S_, .f32⟩ : BufTy).Contents (Elt F) → (⟨S4096x300, .f32⟩ : BufTy).Contents (Elt F)),
    binary main_v63 main_call4_v2 main_call4_v3 (((cmpf .ogt)) : (⟨S4096x300, .f32⟩ : BufTy).Contents (Elt F) → (⟨S4096x300, .f32⟩ : BufTy).Contents (Elt F) → (⟨S4096x300, .i1⟩ : BufTy).Contents (Elt F)),
    nullary main_call4_cst_1 ((constant S_ .f32 0x00000000#32)),
    unary main_call4_cst_1 main_call4_call0_v0 ((id) : (⟨S_, .f32⟩ : BufTy).Contents (Elt F) → (⟨S_, .f32⟩ : BufTy).Contents (Elt F)),
    unary main_call4_call0_v0 main_call4_call0_v1 (((broadcastInDim S4096x300 ![] bcast_S_S4096x300)) : (⟨S_, .f32⟩ : BufTy).Contents (Elt F) → (⟨S4096x300, .f32⟩ : BufTy).Contents (Elt F)),
    ternary main_call4_v3 main_call4_call0_v1 main_v63 main_call4_v4 ((select) : (⟨S4096x300, .i1⟩ : BufTy).Contents (Elt F) → (⟨S4096x300, .f32⟩ : BufTy).Contents (Elt F) → (⟨S4096x300, .f32⟩ : BufTy).Contents (Elt F) → (⟨S4096x300, .f32⟩ : BufTy).Contents (Elt F)),
    unary main_call4_v4 main_call4_v5 ((Host.expm1) : (⟨S4096x300, .f32⟩ : BufTy).Contents (Elt F) → (⟨S4096x300, .f32⟩ : BufTy).Contents (Elt F)),
    nullary main_call4_cst_2 ((constant S_ .f32 0x3F800000#32)),
    unary main_call4_cst_2 main_call4_v6 (((broadcastInDim S4096x300 ![] bcast_S_S4096x300)) : (⟨S_, .f32⟩ : BufTy).Contents (Elt F) → (⟨S4096x300, .f32⟩ : BufTy).Contents (Elt F)),
    binary main_call4_v6 main_call4_v5 main_call4_v7 ((mulf) : (⟨S4096x300, .f32⟩ : BufTy).Contents (Elt F) → (⟨S4096x300, .f32⟩ : BufTy).Contents (Elt F) → (⟨S4096x300, .f32⟩ : BufTy).Contents (Elt F)),
    ternary main_call4_v1 main_v63 main_call4_v7 main_v64 ((select) : (⟨S4096x300, .i1⟩ : BufTy).Contents (Elt F) → (⟨S4096x300, .f32⟩ : BufTy).Contents (Elt F) → (⟨S4096x300, .f32⟩ : BufTy).Contents (Elt F) → (⟨S4096x300, .f32⟩ : BufTy).Contents (Elt F)) ]

/-- Operations 111 to 127 of the 186, in order. -/
abbrev ch8 : List (HloOp τ sig (Elt F)) :=
  [ binary main_v64 main_arg7 main_v65 ((((fun l r => Host.dotGeneral dot_S4096x300_S300x300_S4096x300_1_0_0_1_n_n none l r))) : (⟨S4096x300, .f32⟩ : BufTy).Contents (Elt F) → (⟨S300x300, .f32⟩ : BufTy).Contents (Elt F) → (⟨S4096x300, .f32⟩ : BufTy).Contents (Elt F)),
    unary main_arg8 main_v66 ((((extractStridedSlice S300x1 ![0, 0] · slices_S600x1_S300x1_0_0))) : (⟨S600x1, .f32⟩ : BufTy).Contents (Elt F) → (⟨S300x1, .f32⟩ : BufTy).Contents (Elt F)),
    binary main_v65 main_v66 main_v67 ((((fun l r => Host.dotGeneral dot_S4096x300_S300x1_S4096x1_1_0_0_1_n_n none l r))) : (⟨S4096x300, .f32⟩ : BufTy).Contents (Elt F) → (⟨S300x1, .f32⟩ : BufTy).Contents (Elt F) → (⟨S4096x1, .f32⟩ : BufTy).Contents (Elt F)),
    unary main_arg8 main_v68 ((((extractStridedSlice S300x1 ![300, 0] · slices_S600x1_S300x1_300_0))) : (⟨S600x1, .f32⟩ : BufTy).Contents (Elt F) → (⟨S300x1, .f32⟩ : BufTy).Contents (Elt F)),
    binary main_v65 main_v68 main_v69 ((((fun l r => Host.dotGeneral dot_S4096x300_S300x1_S4096x1_1_0_0_1_n_n none l r))) : (⟨S4096x300, .f32⟩ : BufTy).Contents (Elt F) → (⟨S300x1, .f32⟩ : BufTy).Contents (Elt F) → (⟨S4096x1, .f32⟩ : BufTy).Contents (Elt F)),
    unary main_v69 main_v70 ((((transpose S1x4096 [1, 0] · transposes_S4096x1_S1x4096_1_0))) : (⟨S4096x1, .f32⟩ : BufTy).Contents (Elt F) → (⟨S1x4096, .f32⟩ : BufTy).Contents (Elt F)),
    unary main_v67 main_v71 (((broadcastInDim S4096x4096 ![0, 1] bcast_S4096x1_S4096x4096_0_1)) : (⟨S4096x1, .f32⟩ : BufTy).Contents (Elt F) → (⟨S4096x4096, .f32⟩ : BufTy).Contents (Elt F)),
    unary main_v70 main_v72 (((broadcastInDim S4096x4096 ![0, 1] bcast_S1x4096_S4096x4096_0_1)) : (⟨S1x4096, .f32⟩ : BufTy).Contents (Elt F) → (⟨S4096x4096, .f32⟩ : BufTy).Contents (Elt F)),
    binary main_v71 main_v72 main_v73 (((addf)) : (⟨S4096x4096, .f32⟩ : BufTy).Contents (Elt F) → (⟨S4096x4096, .f32⟩ : BufTy).Contents (Elt F) → (⟨S4096x4096, .f32⟩ : BufTy).Contents (Elt F)),
    nullary main_cst_13 ((constant S_ .f32 0x3E99999A#32)),
    nullary main_call5_cst ((constant S_ .f32 0x00000000#32)),
    unary main_call5_cst main_call5_v0 (((broadcastInDim S4096x4096 ![] bcast_S_S4096x4096)) : (⟨S_, .f32⟩ : BufTy).Contents (Elt F) → (⟨S4096x4096, .f32⟩ : BufTy).Contents (Elt F)),
    binary main_v73 main_call5_v0 main_call5_v1 (((cmpf .oge)) : (⟨S4096x4096, .f32⟩ : BufTy).Contents (Elt F) → (⟨S4096x4096, .f32⟩ : BufTy).Contents (Elt F) → (⟨S4096x4096, .i1⟩ : BufTy).Contents (Elt F)),
    unary main_cst_13 main_call5_v2 ((id) : (⟨S_, .f32⟩ : BufTy).Contents (Elt F) → (⟨S_, .f32⟩ : BufTy).Contents (Elt F)),
    unary main_call5_v2 main_call5_v3 (((broadcastInDim S4096x4096 ![] bcast_S_S4096x4096)) : (⟨S_, .f32⟩ : BufTy).Contents (Elt F) → (⟨S4096x4096, .f32⟩ : BufTy).Contents (Elt F)),
    binary main_call5_v3 main_v73 main_call5_v4 ((mulf) : (⟨S4096x4096, .f32⟩ : BufTy).Contents (Elt F) → (⟨S4096x4096, .f32⟩ : BufTy).Contents (Elt F) → (⟨S4096x4096, .f32⟩ : BufTy).Contents (Elt F)),
    ternary main_call5_v1 main_v73 main_call5_v4 main_v74 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

/-- Operations 128 to 145 of the 186, in order. -/
abbrev ch9 : List (HloOp τ sig (Elt F)) :=
  [ nullary main_cst_14 ((constant S_ .f32 0xD368D4A5#32)),
    unary main_cst_14 main_call6_v0 ((id) : (⟨S_, .f32⟩ : BufTy).Contents (Elt F) → (⟨S_, .f32⟩ : BufTy).Contents (Elt F)),
    unary main_call6_v0 main_call6_v1 (((broadcastInDim S4096x4096 ![] bcast_S_S4096x4096)) : (⟨S_, .f32⟩ : BufTy).Contents (Elt F) → (⟨S4096x4096, .f32⟩ : BufTy).Contents (Elt F)),
    ternary main_v23 main_v74 main_call6_v1 main_v75 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_15 ((constant S_ .f32 0xFF800000#32)),
    binary main_v75 main_cst_15 main_v76 ((((fun x v => Host.reduce FloatOps.maximumf x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    nullary main_cst_16 ((constant S_ .f32 0xFF800000#32)),
    unary main_cst_16 main_v77 (((broadcastInDim S4096 ![] bcast_S_S4096)) : (⟨S_, .f32⟩ : BufTy).Contents (Elt F) → (⟨S4096, .f32⟩ : BufTy).Contents (Elt F)),
    binary main_v77 main_v76 main_v78 (((maximumf)) : (⟨S4096, .f32⟩ : BufTy).Contents (Elt F) → (⟨S4096, .f32⟩ : BufTy).Contents (Elt F) → (⟨S4096, .f32⟩ : BufTy).Contents (Elt F)),
    unary main_v78 main_v79 (((broadcastInDim S4096x1 ![0] bcast_S4096_S4096x1_0)) : (⟨S4096, .f32⟩ : BufTy).Contents (Elt F) → (⟨S4096x1, .f32⟩ : BufTy).Contents (Elt F)),
    unary main_v79 main_v80 (((broadcastInDim S4096x4096 ![0, 1] bcast_S4096x1_S4096x4096_0_1)) : (⟨S4096x1, .f32⟩ : BufTy).Contents (Elt F) → (⟨S4096x4096, .f32⟩ : BufTy).Contents (Elt F)),
    binary main_v75 main_v80 main_v81 (((subf)) : (⟨S4096x4096, .f32⟩ : BufTy).Contents (Elt F) → (⟨S4096x4096, .f32⟩ : BufTy).Contents (Elt F) → (⟨S4096x4096, .f32⟩ : BufTy).Contents (Elt F)),
    unary main_v81 main_v82 (((Host.exp)) : (⟨S4096x4096, .f32⟩ : BufTy).Contents (Elt F) → (⟨S4096x4096, .f32⟩ : BufTy).Contents (Elt F)),
    nullary main_cst_17 ((constant S_ .f32 0x00000000#32)),
    binary main_v82 main_cst_17 main_v83 ((((fun x v => Host.reduceAdd x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    unary main_v83 main_v84 (((broadcastInDim S4096x1 ![0] bcast_S4096_S4096x1_0)) : (⟨S4096, .f32⟩ : BufTy).Contents (Elt F) → (⟨S4096x1, .f32⟩ : BufTy).Contents (Elt F)),
    unary main_v84 main_v85 (((broadcastInDim S4096x4096 ![0, 1] bcast_S4096x1_S4096x4096_0_1)) : (⟨S4096x1, .f32⟩ : BufTy).Contents (Elt F) → (⟨S4096x4096, .f32⟩ : BufTy).Contents (Elt F)),
    binary main_v82 main_v85 main_v86 (((Host.divf)) : (⟨S4096x4096, .f32⟩ : BufTy).Contents (Elt F) → (⟨S4096x4096, .f32⟩ : BufTy).Contents (Elt F) → (⟨S4096x4096, .f32⟩ : BufTy).Contents (Elt F)) ]

/-- Operations 146 to 160 of the 186, in order. -/
abbrev ch10 : List (HloOp τ sig (Elt F)) :=
  [ unary main_v74 main_v87 (((Host.negf)) : (⟨S4096x4096, .f32⟩ : BufTy).Contents (Elt F) → (⟨S4096x4096, .f32⟩ : BufTy).Contents (Elt F)),
    nullary main_cst_18 ((constant S_ .f32 0xD368D4A5#32)),
    unary main_cst_18 main_call7_v0 ((id) : (⟨S_, .f32⟩ : BufTy).Contents (Elt F) → (⟨S_, .f32⟩ : BufTy).Contents (Elt F)),
    unary main_call7_v0 main_call7_v1 (((broadcastInDim S4096x4096 ![] bcast_S_S4096x4096)) : (⟨S_, .f32⟩ : BufTy).Contents (Elt F) → (⟨S4096x4096, .f32⟩ : BufTy).Contents (Elt F)),
    ternary main_v23 main_v87 main_call7_v1 main_v88 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_19 ((constant S_ .f32 0xFF800000#32)),
    binary main_v88 main_cst_19 main_v89 ((((fun x v => Host.reduce FloatOps.maximumf x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    nullary main_cst_20 ((constant S_ .f32 0xFF800000#32)),
    unary main_cst_20 main_v90 (((broadcastInDim S4096 ![] bcast_S_S4096)) : (⟨S_, .f32⟩ : BufTy).Contents (Elt F) → (⟨S4096, .f32⟩ : BufTy).Contents (Elt F)),
    binary main_v90 main_v89 main_v91 (((maximumf)) : (⟨S4096, .f32⟩ : BufTy).Contents (Elt F) → (⟨S4096, .f32⟩ : BufTy).Contents (Elt F) → (⟨S4096, .f32⟩ : BufTy).Contents (Elt F)),
    unary main_v91 main_v92 (((broadcastInDim S4096x1 ![0] bcast_S4096_S4096x1_0)) : (⟨S4096, .f32⟩ : BufTy).Contents (Elt F) → (⟨S4096x1, .f32⟩ : BufTy).Contents (Elt F)),
    unary main_v92 main_v93 (((broadcastInDim S4096x4096 ![0, 1] bcast_S4096x1_S4096x4096_0_1)) : (⟨S4096x1, .f32⟩ : BufTy).Contents (Elt F) → (⟨S4096x4096, .f32⟩ : BufTy).Contents (Elt F)),
    binary main_v88 main_v93 main_v94 (((subf)) : (⟨S4096x4096, .f32⟩ : BufTy).Contents (Elt F) → (⟨S4096x4096, .f32⟩ : BufTy).Contents (Elt F) → (⟨S4096x4096, .f32⟩ : BufTy).Contents (Elt F)),
    unary main_v94 main_v95 (((Host.exp)) : (⟨S4096x4096, .f32⟩ : BufTy).Contents (Elt F) → (⟨S4096x4096, .f32⟩ : BufTy).Contents (Elt F)),
    nullary main_cst_21 ((constant S_ .f32 0x00000000#32)) ]

/-- Operations 161 to 165 of the 186, in order. -/
abbrev ch11 : List (HloOp τ sig (Elt F)) :=
  [ binary main_v95 main_cst_21 main_v96 ((((fun x v => Host.reduceAdd x v reducesTo_S4096x4096_S4096_d1 h_S_))) : (⟨S4096x4096, .f32⟩ : BufTy).Contents (Elt F) → (⟨S_, .f32⟩ : BufTy).Contents (Elt F) → (⟨S4096, .f32⟩ : BufTy).Contents (Elt F)),
    unary main_v96 main_v97 (((broadcastInDim S4096x1 ![0] bcast_S4096_S4096x1_0)) : (⟨S4096, .f32⟩ : BufTy).Contents (Elt F) → (⟨S4096x1, .f32⟩ : BufTy).Contents (Elt F)),
    unary main_v97 main_v98 (((broadcastInDim S4096x4096 ![0, 1] bcast_S4096x1_S4096x4096_0_1)) : (⟨S4096x1, .f32⟩ : BufTy).Contents (Elt F) → (⟨S4096x4096, .f32⟩ : BufTy).Contents (Elt F)),
    binary main_v95 main_v98 main_v99 (((Host.divf)) : (⟨S4096x4096, .f32⟩ : BufTy).Contents (Elt F) → (⟨S4096x4096, .f32⟩ : BufTy).Contents (Elt F) → (⟨S4096x4096, .f32⟩ : BufTy).Contents (Elt F)),
    unary main_v99 main_v100 (((Host.negf)) : (⟨S4096x4096, .f32⟩ : BufTy).Contents (Elt F) → (⟨S4096x4096, .f32⟩ : BufTy).Contents (Elt F)) ]

/-- Operations 166 to 167 of the 186, in order. -/
abbrev ch12 : List (HloOp τ sig (Elt F)) :=
  [ binary main_v86 main_v64 main_v101 ((((fun l r => Host.dotGeneral dot_S4096x4096_S4096x300_S4096x300_1_0_0_1_n_n none l r))) : (⟨S4096x4096, .f32⟩ : BufTy).Contents (Elt F) → (⟨S4096x300, .f32⟩ : BufTy).Contents (Elt F) → (⟨S4096x300, .f32⟩ : BufTy).Contents (Elt F)),
    binary main_v100 main_v64 main_v102 ((((fun l r => Host.dotGeneral dot_S4096x4096_S4096x300_S4096x300_1_0_0_1_n_n none l r))) : (⟨S4096x4096, .f32⟩ : BufTy).Contents (Elt F) → (⟨S4096x300, .f32⟩ : BufTy).Contents (Elt F) → (⟨S4096x300, .f32⟩ : BufTy).Contents (Elt F)) ]

/-- Operations 168 to 186 of the 186, in order. -/
abbrev ch13 : List (HloOp τ sig (Elt F)) :=
  [ binary main_v101 main_v102 main_v103 ((((fun a b => concatenate S4096x600 1 [⟨S4096x300, a⟩, ⟨S4096x300, b⟩] concatenates_S4096x300_S4096x300_S4096x600_d1))) : (⟨S4096x300, .f32⟩ : BufTy).Contents (Elt F) → (⟨S4096x300, .f32⟩ : BufTy).Contents (Elt F) → (⟨S4096x600, .f32⟩ : BufTy).Contents (Elt F)),
    binary main_v103 main_arg9 main_v104 ((((fun l r => Host.dotGeneral dot_S4096x600_S600x300_S4096x300_1_0_0_1_n_n none l r))) : (⟨S4096x600, .f32⟩ : BufTy).Contents (Elt F) → (⟨S600x300, .f32⟩ : BufTy).Contents (Elt F) → (⟨S4096x300, .f32⟩ : BufTy).Contents (Elt F)),
    unary main_v104 main_v105 (((Host.negf)) : (⟨S4096x300, .f32⟩ : BufTy).Contents (Elt F) → (⟨S4096x300, .f32⟩ : BufTy).Contents (Elt F)),
    unary main_v105 main_v106 (((Host.exp)) : (⟨S4096x300, .f32⟩ : BufTy).Contents (Elt F) → (⟨S4096x300, .f32⟩ : BufTy).Contents (Elt F)),
    nullary main_cst_22 ((constant S_ .f32 0x3F800000#32)),
    unary main_cst_22 main_v107 (((broadcastInDim S4096x300 ![] bcast_S_S4096x300)) : (⟨S_, .f32⟩ : BufTy).Contents (Elt F) → (⟨S4096x300, .f32⟩ : BufTy).Contents (Elt F)),
    binary main_v107 main_v106 main_v108 (((addf)) : (⟨S4096x300, .f32⟩ : BufTy).Contents (Elt F) → (⟨S4096x300, .f32⟩ : BufTy).Contents (Elt F) → (⟨S4096x300, .f32⟩ : BufTy).Contents (Elt F)),
    nullary main_cst_23 ((constant S_ .f32 0x3F800000#32)),
    unary main_cst_23 main_v109 (((broadcastInDim S4096x300 ![] bcast_S_S4096x300)) : (⟨S_, .f32⟩ : BufTy).Contents (Elt F) → (⟨S4096x300, .f32⟩ : BufTy).Contents (Elt F)),
    binary main_v109 main_v108 main_v110 (((Host.divf)) : (⟨S4096x300, .f32⟩ : BufTy).Contents (Elt F) → (⟨S4096x300, .f32⟩ : BufTy).Contents (Elt F) → (⟨S4096x300, .f32⟩ : BufTy).Contents (Elt F)),
    nullary main_c_24 ((constantI S_ 32 0#32)),
    unary main_c_24 main_v111 (((broadcastInDim S64 ![] bcast_S_S64)) : (⟨S_, .i32⟩ : BufTy).Contents (Elt F) → (⟨S64, .i32⟩ : BufTy).Contents (Elt F)),
    binary main_arg11 main_v111 main_v112 (((cmpi .slt)) : (⟨S64, .i32⟩ : BufTy).Contents (Elt F) → (⟨S64, .i32⟩ : BufTy).Contents (Elt F) → (⟨S64, .i1⟩ : BufTy).Contents (Elt F)),
    nullary main_c_25 ((constantI S_ 32 4096#32)),
    unary main_c_25 main_v113 (((broadcastInDim S64 ![] bcast_S_S64)) : (⟨S_, .i32⟩ : BufTy).Contents (Elt F) → (⟨S64, .i32⟩ : BufTy).Contents (Elt F)),
    binary main_arg11 main_v113 main_v114 (((addi)) : (⟨S64, .i32⟩ : BufTy).Contents (Elt F) → (⟨S64, .i32⟩ : BufTy).Contents (Elt F) → (⟨S64, .i32⟩ : BufTy).Contents (Elt F)),
    ternary main_v112 main_v114 main_arg11 main_v115 (((select)) : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v115 main_v116 (((broadcastInDim S64x1 ![0] bcast_S64_S64x1_0)) : (⟨S64, .i32⟩ : BufTy).Contents (Elt F) → (⟨S64x1, .i32⟩ : BufTy).Contents (Elt F)),
    binary main_v110 main_v116 main_v117 ((((fun x i => Host.gather gather_S4096x300_S64x1_S64x300_1_0_n_n_0_1_1300 x i))) : (⟨S4096x300, .f32⟩ : BufTy).Contents (Elt F) → (⟨S64x1, .i32⟩ : BufTy).Contents (Elt F) → (⟨S64x300, .f32⟩ : BufTy).Contents (Elt F)) ]

/-- The 186 operations, in order. -/
abbrev ops : List (HloOp τ sig (Elt F)) := ch1 ++ (ch2 ++ (ch3 ++ (ch4 ++ (ch5 ++ (ch6 ++ (ch7 ++ (ch8 ++ (ch9 ++ (ch10 ++ (ch11 ++ (ch12 ++ (ch13))))))))))))

/-! ## @main is that straight line -/

set_option maxRecDepth 8192 in
set_option maxHeartbeats 4000000 in
/-- Statements 1 to 60: with the called functions' bodies in place of the calls and the sequencing re-associated, the
    first 4 stretches one after the other. -/
theorem main_part0_eq (c : Dev nD) : main_part0 (F := F) c = (seq ch1 >>= fun _ => seq ch2 >>= fun _ => seq ch3 >>= fun _ => seq ch4) := by
  simp only [main_part0, fn_leaky_relu.body, fn_where.body, fn_where_0.body, seq, bind_assoc, pure_bind]
  rfl

set_option maxRecDepth 8192 in
set_option maxHeartbeats 4000000 in
/-- Statements 61 to 120: the next 6 stretches. -/
theorem main_part1_eq (c : Dev nD) : main_part1 (F := F) c = (seq ch5 >>= fun _ => seq ch6 >>= fun _ => seq ch7 >>= fun _ => seq ch8 >>= fun _ => seq ch9 >>= fun _ => seq ch10) := by
  simp only [main_part1, fn_leaky_relu.body, fn_where.body, fn_where_0.body, fn_elu.body, fn_where_1.body, fn_where_2.body,
    seq, bind_assoc, pure_bind]
  rfl

set_option maxRecDepth 8192 in
set_option maxHeartbeats 4000000 in
/-- Statements 121 to 147: the last 3 stretches. -/
theorem main_part2_eq (c : Dev nD) : main_part2 (F := F) c = (seq ch11 >>= fun _ => seq ch12 >>= fun _ => seq ch13) := by
  simp only [main_part2, seq, bind_assoc, pure_bind]

/-- @main is the 186 operations run in order. -/
theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

theorem ch1_sub : (ch1 : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub ..⟩
theorem ch1_fresh : (ch1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ch2_sub : (ch2 : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ch2_fresh : (ch2 : List (HloOp τ sig (Elt F))).Forall fun op => op.fresh = ∅ :=
  ⟨rfl, rfl, rfl, rfl, rfl, rfl, rfl, rfl, rfl, rfl, rfl, rfl, rfl, rfl, rfl, rfl, rfl⟩
theorem ch3_sub : (ch3 : List (HloOp τ sig (Elt F))).Forall fun op => op.bufs ⊆ tcRefs τ sig :=
  ⟨nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ch3_fresh : (ch3 : List (HloOp τ sig (Elt F))).Forall fun op => op.fresh = ∅ :=
  ⟨rfl, rfl, rfl, rfl, rfl, rfl, rfl, rfl, rfl, rfl, rfl, rfl, rfl, rfl, rfl, rfl, rfl, rfl⟩
theorem ch4_sub : (ch4 : List (HloOp τ sig (Elt F))).Forall fun op => op.bufs ⊆ tcRefs τ sig :=
  ⟨unary_bufs_sub .., nullary_bufs_sub .., unary_bufs_sub .., unary_bufs_sub .., ternary_bufs_sub ..⟩
theorem ch4_fresh : (ch4 : List (HloOp τ sig (Elt F))).Forall fun op => op.fresh = ∅ :=
  ⟨rfl, rfl, rfl, rfl, rfl⟩
theorem ch5_sub : (ch5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩
theorem ch5_fresh : (ch5 : List (HloOp τ sig (Elt F))).Forall fun op => op.fresh = ∅ :=
  ⟨rfl, rfl, rfl, rfl, rfl, rfl, rfl, rfl, rfl, rfl, rfl, rfl, rfl, rfl, rfl⟩
theorem ch6_sub : (ch6 : List (HloOp τ sig (Elt F))).Forall fun op => op.bufs ⊆ tcRefs τ sig :=
  ⟨binary_bufs_sub .., binary_bufs_sub ..⟩
theorem ch6_fresh : (ch6 : List (HloOp τ sig (Elt F))).Forall fun op => op.fresh = ∅ :=
  ⟨rfl, rfl⟩
theorem ch7_sub : (ch7 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem ch7_fresh : (ch7 : List (HloOp τ sig (Elt F))).Forall fun op => op.fresh = ∅ :=
  ⟨rfl, rfl, rfl, rfl, rfl, rfl, rfl, rfl, rfl, rfl, rfl, rfl, rfl, rfl, rfl, rfl, rfl⟩
theorem ch8_sub : (ch8 : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ch8_fresh : (ch8 : List (HloOp τ sig (Elt F))).Forall fun op => op.fresh = ∅ :=
  ⟨rfl, rfl, rfl, rfl, rfl, rfl, rfl, rfl, rfl, rfl, rfl, rfl, rfl, rfl, rfl, rfl, rfl⟩
theorem ch9_sub : (ch9 : List (HloOp τ sig (Elt F))).Forall fun op => op.bufs ⊆ tcRefs τ sig :=
  ⟨nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ch9_fresh : (ch9 : List (HloOp τ sig (Elt F))).Forall fun op => op.fresh = ∅ :=
  ⟨rfl, rfl, rfl, rfl, rfl, rfl, rfl, rfl, rfl, rfl, rfl, rfl, rfl, rfl, rfl, rfl, rfl, rfl⟩
theorem ch10_sub : (ch10 : List (HloOp τ sig (Elt F))).Forall fun op => op.bufs ⊆ tcRefs τ sig :=
  ⟨unary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub ..⟩
theorem ch10_fresh : (ch10 : List (HloOp τ sig (Elt F))).Forall fun op => op.fresh = ∅ :=
  ⟨rfl, rfl, rfl, rfl, rfl, rfl, rfl, rfl, rfl, rfl, rfl, rfl, rfl, rfl, rfl⟩
theorem ch11_sub : (ch11 : List (HloOp τ sig (Elt F))).Forall fun op => op.bufs ⊆ tcRefs τ sig :=
  ⟨binary_bufs_sub .., unary_bufs_sub .., unary_bufs_sub .., binary_bufs_sub .., unary_bufs_sub ..⟩
theorem ch11_fresh : (ch11 : List (HloOp τ sig (Elt F))).Forall fun op => op.fresh = ∅ :=
  ⟨rfl, rfl, rfl, rfl, rfl⟩
theorem ch12_sub : (ch12 : List (HloOp τ sig (Elt F))).Forall fun op => op.bufs ⊆ tcRefs τ sig :=
  ⟨binary_bufs_sub .., binary_bufs_sub ..⟩
theorem ch12_fresh : (ch12 : List (HloOp τ sig (Elt F))).Forall fun op => op.fresh = ∅ :=
  ⟨rfl, rfl⟩
theorem ch13_sub : (ch13 : List (HloOp τ sig (Elt F))).Forall fun op => op.bufs ⊆ tcRefs τ sig :=
  ⟨binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ch13_fresh : (ch13 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp ch1_sub op h, List.forall_iff_forall_mem.mp ch2_sub op h, List.forall_iff_forall_mem.mp ch3_sub op h, List.forall_iff_forall_mem.mp ch4_sub op h, List.forall_iff_forall_mem.mp ch5_sub op h, List.forall_iff_forall_mem.mp ch6_sub op h, List.forall_iff_forall_mem.mp ch7_sub op h, List.forall_iff_forall_mem.mp ch8_sub op h, List.forall_iff_forall_mem.mp ch9_sub op h, List.forall_iff_forall_mem.mp ch10_sub op h, List.forall_iff_forall_mem.mp ch11_sub op h, List.forall_iff_forall_mem.mp ch12_sub op h, List.forall_iff_forall_mem.mp ch13_sub op h]

theorem ops_fresh : ∀ op ∈ (ops : List (HloOp τ sig (Elt F))), op.fresh = ∅ := fun op h => by
  simp only [ops, List.mem_append] at h
  rcases h with h | h | h | h | h | h | h | h | h | h | h | h | h
  exacts [List.forall_iff_forall_mem.mp ch1_fresh op h, List.forall_iff_forall_mem.mp ch2_fresh op h, List.forall_iff_forall_mem.mp ch3_fresh op h, List.forall_iff_forall_mem.mp ch4_fresh op h, List.forall_iff_forall_mem.mp ch5_fresh op h, List.forall_iff_forall_mem.mp ch6_fresh op h, List.forall_iff_forall_mem.mp ch7_fresh op h, List.forall_iff_forall_mem.mp ch8_fresh op h, List.forall_iff_forall_mem.mp ch9_fresh op h, List.forall_iff_forall_mem.mp ch10_fresh op h, List.forall_iff_forall_mem.mp ch11_fresh op h, List.forall_iff_forall_mem.mp ch12_fresh op h, List.forall_iff_forall_mem.mp ch13_fresh op h]

/-! ## The contents, stretch by stretch

`valK V0` is what the buffers hold after the first `K` stretches from contents `V0`. After each stretch, every buffer
written so far that a later operation still reads holds its stage term of the argument arrays (`valK_‹buffer›`): the
stretch's operations composed over what the stretch before left, which is the stage term by unfolding the stages the
stretch computes. A buffer a stretch does not write passes through it (`valK_keep`); an argument array, which no
operation writes, is as launched throughout (`valK_arg`). -/

/-- Running two lists in turn is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers stretch 1 writes. -/
abbrev ch1_W : List (Ref sig .tc) := [main_v0, main_v1, main_v2, main_v3, main_v4, main_v5, main_v6, main_cst, main_call0_cst, main_call0_v0, main_call0_v1, main_call0_v2, main_call0_v3, main_call0_v4, main_v7, main_cst_0, main_v8, main_cst_1, main_v9, main_v10, main_v11, main_v12, main_v13, main_v14, main_cst_2, main_v15, main_v16, main_v17, main_v18, main_cst_3, main_v19, main_v20, main_c, main_v21, main_v22, main_v23]
/-- The buffers stretch 2 writes. -/
abbrev ch2_W : List (Ref sig .tc) := [main_v24, main_v25, main_v26, main_v27, main_v28, main_v29, main_v30, main_v31, main_v32, main_cst_4, main_call1_cst, main_call1_v0, main_call1_v1, main_call1_v2, main_call1_v3, main_call1_v4, main_v33]
/-- The buffers stretch 3 writes. -/
abbrev ch3_W : List (Ref sig .tc) := [main_cst_5, main_call2_v0, main_call2_v1, main_v34, main_cst_6, main_v35, main_cst_7, main_v36, main_v37, main_v38, main_v39, main_v40, main_v41, main_cst_8, main_v42, main_v43, main_v44, main_v45]
/-- The buffers stretch 4 writes. -/
abbrev ch4_W : List (Ref sig .tc) := [main_v46, main_cst_9, main_call3_v0, main_call3_v1, main_v47]
/-- The buffers stretch 5 writes. -/
abbrev ch5_W : List (Ref sig .tc) := [main_cst_10, main_v48, main_cst_11, main_v49, main_v50, main_v51, main_v52, main_v53, main_v54, main_cst_12, main_v55, main_v56, main_v57, main_v58, main_v59]
/-- The buffers stretch 6 writes. -/
abbrev ch6_W : List (Ref sig .tc) := [main_v60, main_v61]
/-- The buffers stretch 7 writes. -/
abbrev ch7_W : List (Ref sig .tc) := [main_v62, main_v63, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v64]
/-- The buffers stretch 8 writes. -/
abbrev ch8_W : List (Ref sig .tc) := [main_v65, main_v66, main_v67, main_v68, main_v69, main_v70, main_v71, main_v72, main_v73, main_cst_13, main_call5_cst, main_call5_v0, main_call5_v1, main_call5_v2, main_call5_v3, main_call5_v4, main_v74]
/-- The buffers stretch 9 writes. -/
abbrev ch9_W : List (Ref sig .tc) := [main_cst_14, main_call6_v0, main_call6_v1, main_v75, main_cst_15, main_v76, main_cst_16, main_v77, main_v78, main_v79, main_v80, main_v81, main_v82, main_cst_17, main_v83, main_v84, main_v85, main_v86]
/-- The buffers stretch 10 writes. -/
abbrev ch10_W : List (Ref sig .tc) := [main_v87, main_cst_18, main_call7_v0, main_call7_v1, main_v88, main_cst_19, main_v89, main_cst_20, main_v90, main_v91, main_v92, main_v93, main_v94, main_v95, main_cst_21]
/-- The buffers stretch 11 writes. -/
abbrev ch11_W : List (Ref sig .tc) := [main_v96, main_v97, main_v98, main_v99, main_v100]
/-- The buffers stretch 12 writes. -/
abbrev ch12_W : List (Ref sig .tc) := [main_v101, main_v102]
/-- The buffers stretch 13 writes. -/
abbrev ch13_W : List (Ref sig .tc) := [main_v103, main_v104, main_v105, main_v106, main_cst_22, main_v107, main_v108, main_cst_23, main_v109, main_v110, main_c_24, main_v111, main_v112, main_c_25, main_v113, main_v114, main_v115, main_v116, main_v117]
/-- Every buffer the 186 operations write. -/
abbrev Wall : List (Ref sig .tc) := ch1_W ++ (ch2_W ++ (ch3_W ++ (ch4_W ++ (ch5_W ++ (ch6_W ++ (ch7_W ++ (ch8_W ++ (ch9_W ++ (ch10_W ++ (ch11_W ++ (ch12_W ++ (ch13_W))))))))))))

/-- The twelve argument arrays as the contents `V` hold them. -/
def argsV (V : Valuation τ sig (Elt F)) : Cert.Spec.Args F where
  x0 := V (Proc.devRef .tc main_arg0)
  x1 := V (Proc.devRef .tc main_arg1)
  x2 := V (Proc.devRef .tc main_arg2)
  x3 := V (Proc.devRef .tc main_arg3)
  x4 := V (Proc.devRef .tc main_arg4)
  x5 := V (Proc.devRef .tc main_arg5)
  x6 := V (Proc.devRef .tc main_arg6)
  x7 := V (Proc.devRef .tc main_arg7)
  x8 := V (Proc.devRef .tc main_arg8)
  x9 := V (Proc.devRef .tc main_arg9)
  x10 := V (Proc.devRef .tc main_arg10)
  x11 := V (Proc.devRef .tc main_arg11)

/-- One operation's written buffer is among a list of references: the singleton it writes, read off the builder. -/
local macro "wr1" : tactic =>
  `(tactic| (simp only [nullary_writes, unary_writes, binary_writes, ternary_writes, Finset.singleton_subset_iff, List.mem_toFinset]
             exact List.mem_map_of_mem (by decide)))

/-- The contents before the first operation. -/
def val0 (V0 : Valuation τ sig (Elt F)) : Valuation τ sig (Elt F) := V0
theorem val0_arg (V0 : Valuation τ sig (Elt F)) (r : Ref sig .tc) (h : r ∉ (Wall : List (Ref sig .tc))) :
    val0 V0 (Proc.devRef .tc r) = V0 (Proc.devRef .tc r) := rfl

/-- The contents after the first 1 stretch of operations. -/
def val1 (V0 : Valuation τ sig (Elt F)) : Valuation τ sig (Elt F) := after ch1 (val0 V0)
theorem ch1_writes : (ch1 : List (HloOp τ sig (Elt F))).Forall fun op => op.writes ⊆ (ch1_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- A buffer stretch 1 does not write keeps its contents through it. -/
theorem val1_keep (V0 : Valuation τ sig (Elt F)) (r : Ref sig .tc) (h : r ∉ ch1_W) :
    val1 V0 (Proc.devRef .tc r) = val0 V0 (Proc.devRef .tc r) :=
  after_of_writes_sub ch1 _ ch1_writes h
/-- An argument array is as launched after stretch 1. -/
theorem val1_arg (V0 : Valuation τ sig (Elt F)) (r : Ref sig .tc) (h : r ∉ (Wall : List (Ref sig .tc))) :
    val1 V0 (Proc.devRef .tc r) = V0 (Proc.devRef .tc r) :=
  (val1_keep V0 r fun hm => h (by simp only [Wall, List.mem_append]; exact Or.inl hm)).trans (val0_arg V0 r h)
set_option maxRecDepth 8192 in
set_option maxHeartbeats 2000000 in
theorem val1_v23 (V0 : Valuation τ sig (Elt F)) : val1 V0 (no_index (Proc.devRef .tc main_v23)) = Term.t_v23 (argsV V0) := by
  unfold val1
  simp only [ch1]
  after_results_simp
  rw [val0_arg V0 main_arg10 (by decide), val0_arg V0 main_arg3 (by decide), val0_arg V0 main_arg1 (by decide), val0_arg V0 main_arg0 (by decide), val0_arg V0 main_arg2 (by decide)]
  rfl

/-- The contents after the first 2 stretches of operations. -/
def val2 (V0 : Valuation τ sig (Elt F)) : Valuation τ sig (Elt F) := after ch2 (val1 V0)
theorem ch2_writes : (ch2 : List (HloOp τ sig (Elt F))).Forall fun op => op.writes ⊆ (ch2_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1⟩
/-- A buffer stretch 2 does not write keeps its contents through it. -/
theorem val2_keep (V0 : Valuation τ sig (Elt F)) (r : Ref sig .tc) (h : r ∉ ch2_W) :
    val2 V0 (Proc.devRef .tc r) = val1 V0 (Proc.devRef .tc r) :=
  after_of_writes_sub ch2 _ ch2_writes h
/-- An argument array is as launched after stretch 2. -/
theorem val2_arg (V0 : Valuation τ sig (Elt F)) (r : Ref sig .tc) (h : r ∉ (Wall : List (Ref sig .tc))) :
    val2 V0 (Proc.devRef .tc r) = V0 (Proc.devRef .tc r) :=
  (val2_keep V0 r fun hm => h (by simp only [Wall, List.mem_append]; exact Or.inr (Or.inl hm))).trans (val1_arg V0 r h)
theorem val2_v23 (V0 : Valuation τ sig (Elt F)) : val2 V0 (no_index (Proc.devRef .tc main_v23)) = Term.t_v23 (argsV V0) :=
  (val2_keep V0 main_v23 (by decide)).trans (val1_v23 V0)
set_option maxRecDepth 8192 in
set_option maxHeartbeats 2000000 in
theorem val2_v33 (V0 : Valuation τ sig (Elt F)) : val2 V0 (no_index (Proc.devRef .tc main_v33)) = Term.t_v33 (argsV V0) := by
  unfold val2
  simp only [ch2]
  after_results_simp
  rw [val1_arg V0 main_arg5 (by decide), val1_arg V0 main_arg4 (by decide), val1_arg V0 main_arg0 (by decide)]
  rfl

/-- The contents after the first 3 stretches of operations. -/
def val3 (V0 : Valuation τ sig (Elt F)) : Valuation τ sig (Elt F) := after ch3 (val2 V0)
theorem ch3_writes : (ch3 : List (HloOp τ sig (Elt F))).Forall fun op => op.writes ⊆ (ch3_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1⟩
/-- A buffer stretch 3 does not write keeps its contents through it. -/
theorem val3_keep (V0 : Valuation τ sig (Elt F)) (r : Ref sig .tc) (h : r ∉ ch3_W) :
    val3 V0 (Proc.devRef .tc r) = val2 V0 (Proc.devRef .tc r) :=
  after_of_writes_sub ch3 _ ch3_writes h
/-- An argument array is as launched after stretch 3. -/
theorem val3_arg (V0 : Valuation τ sig (Elt F)) (r : Ref sig .tc) (h : r ∉ (Wall : List (Ref sig .tc))) :
    val3 V0 (Proc.devRef .tc r) = V0 (Proc.devRef .tc r) :=
  (val3_keep V0 r fun hm => h (by simp only [Wall, List.mem_append]; exact Or.inr (Or.inr (Or.inl hm)))).trans (val2_arg V0 r h)
theorem val3_v23 (V0 : Valuation τ sig (Elt F)) : val3 V0 (no_index (Proc.devRef .tc main_v23)) = Term.t_v23 (argsV V0) :=
  (val3_keep V0 main_v23 (by decide)).trans (val2_v23 V0)
theorem val3_v33 (V0 : Valuation τ sig (Elt F)) : val3 V0 (no_index (Proc.devRef .tc main_v33)) = Term.t_v33 (argsV V0) :=
  (val3_keep V0 main_v33 (by decide)).trans (val2_v33 V0)
set_option maxRecDepth 8192 in
set_option maxHeartbeats 2000000 in
theorem val3_v45 (V0 : Valuation τ sig (Elt F)) : val3 V0 (no_index (Proc.devRef .tc main_v45)) = Term.t_v45 (argsV V0) := by
  unfold val3
  simp only [ch3]
  after_results_simp
  rw [val2_v33 V0, val2_v23 V0]
  rfl

/-- The contents after the first 4 stretches of operations. -/
def val4 (V0 : Valuation τ sig (Elt F)) : Valuation τ sig (Elt F) := after ch4 (val3 V0)
theorem ch4_writes : (ch4 : List (HloOp τ sig (Elt F))).Forall fun op => op.writes ⊆ (ch4_W.map (Proc.devRef (τ := τ) .tc)).toFinset := by
  simp only [List.Forall]; exact ⟨by wr1, by wr1, by wr1, by wr1, by wr1⟩
/-- A buffer stretch 4 does not write keeps its contents through it. -/
theorem val4_keep (V0 : Valuation τ sig (Elt F)) (r : Ref sig .tc) (h : r ∉ ch4_W) :
    val4 V0 (Proc.devRef .tc r) = val3 V0 (Proc.devRef .tc r) :=
  after_of_writes_sub ch4 _ ch4_writes h
/-- An argument array is as launched after stretch 4. -/
theorem val4_arg (V0 : Valuation τ sig (Elt F)) (r : Ref sig .tc) (h : r ∉ (Wall : List (Ref sig .tc))) :
    val4 V0 (Proc.devRef .tc r) = V0 (Proc.devRef .tc r) :=
  (val4_keep V0 r fun hm => h (by simp only [Wall, List.mem_append]; exact Or.inr (Or.inr (Or.inr (Or.inl hm))))).trans (val3_arg V0 r h)
theorem val4_v23 (V0 : Valuation τ sig (Elt F)) : val4 V0 (no_index (Proc.devRef .tc main_v23)) = Term.t_v23 (argsV V0) :=
  (val4_keep V0 main_v23 (by decide)).trans (val3_v23 V0)
theorem val4_v45 (V0 : Valuation τ sig (Elt F)) : val4 V0 (no_index (Proc.devRef .tc main_v45)) = Term.t_v45 (argsV V0) :=
  (val4_keep V0 main_v45 (by decide)).trans (val3_v45 V0)
set_option maxRecDepth 8192 in
set_option maxHeartbeats 2000000 in
theorem val4_v47 (V0 : Valuation τ sig (Elt F)) : val4 V0 (no_index (Proc.devRef .tc main_v47)) = Term.t_v47 (argsV V0) := by
  unfold val4
  simp only [ch4]
  after_results_simp
  rw [val3_v33 V0, val3_v23 V0]
  rfl

/-- The contents after the first 5 stretches of operations. -/
def val5 (V0 : Valuation τ sig (Elt F)) : Valuation τ sig (Elt F) := after ch5 (val4 V0)
theorem ch5_writes : (ch5 : List (HloOp τ sig (Elt F))).Forall fun op => op.writes ⊆ (ch5_W.map (Proc.devRef (τ := τ) .tc)).toFinset := by
  simp only [List.Forall]; exact ⟨by wr1, by wr1, by wr1, by wr1, by wr1, by wr1, by wr1, by wr1, by wr1, by wr1, by wr1, by wr1, by wr1, by wr1, by wr1⟩
/-- A buffer stretch 5 does not write keeps its contents through it. -/
theorem val5_keep (V0 : Valuation τ sig (Elt F)) (r : Ref sig .tc) (h : r ∉ ch5_W) :
    val5 V0 (Proc.devRef .tc r) = val4 V0 (Proc.devRef .tc r) :=
  after_of_writes_sub ch5 _ ch5_writes h
/-- An argument array is as launched after stretch 5. -/
theorem val5_arg (V0 : Valuation τ sig (Elt F)) (r : Ref sig .tc) (h : r ∉ (Wall : List (Ref sig .tc))) :
    val5 V0 (Proc.devRef .tc r) = V0 (Proc.devRef .tc r) :=
  (val5_keep V0 r fun hm => h (by simp only [Wall, List.mem_append]; exact Or.inr (Or.inr (Or.inr (Or.inr (Or.inl hm)))))).trans (val4_arg V0 r h)
theorem val5_v23 (V0 : Valuation τ sig (Elt F)) : val5 V0 (no_index (Proc.devRef .tc main_v23)) = Term.t_v23 (argsV V0) :=
  (val5_keep V0 main_v23 (by decide)).trans (val4_v23 V0)
theorem val5_v45 (V0 : Valuation τ sig (Elt F)) : val5 V0 (no_index (Proc.devRef .tc main_v45)) = Term.t_v45 (argsV V0) :=
  (val5_keep V0 main_v45 (by decide)).trans (val4_v45 V0)
set_option maxRecDepth 8192 in
set_option maxHeartbeats 2000000 in
theorem val5_v59 (V0 : Valuation τ sig (Elt F)) : val5 V0 (no_index (Proc.devRef .tc main_v59)) = Term.t_v59 (argsV V0) := by
  unfold val5
  simp only [ch5]
  after_results_simp
  rw [val4_v47 V0]
  rfl

/-- The contents after the first 6 stretches of operations. -/
def val6 (V0 : Valuation τ sig (Elt F)) : Valuation τ sig (Elt F) := after ch6 (val5 V0)
theorem ch6_writes : (ch6 : List (HloOp τ sig (Elt F))).Forall fun op => op.writes ⊆ (ch6_W.map (Proc.devRef (τ := τ) .tc)).toFinset := by
  simp only [List.Forall]; exact ⟨by wr1, by wr1⟩
/-- A buffer stretch 6 does not write keeps its contents through it. -/
theorem val6_keep (V0 : Valuation τ sig (Elt F)) (r : Ref sig .tc) (h : r ∉ ch6_W) :
    val6 V0 (Proc.devRef .tc r) = val5 V0 (Proc.devRef .tc r) :=
  after_of_writes_sub ch6 _ ch6_writes h
/-- An argument array is as launched after stretch 6. -/
theorem val6_arg (V0 : Valuation τ sig (Elt F)) (r : Ref sig .tc) (h : r ∉ (Wall : List (Ref sig .tc))) :
    val6 V0 (Proc.devRef .tc r) = V0 (Proc.devRef .tc r) :=
  (val6_keep V0 r fun hm => h (by simp only [Wall, List.mem_append]; exact Or.inr (Or.inr (Or.inr (Or.inr (Or.inr (Or.inl hm))))))).trans (val5_arg V0 r h)
theorem val6_v23 (V0 : Valuation τ sig (Elt F)) : val6 V0 (no_index (Proc.devRef .tc main_v23)) = Term.t_v23 (argsV V0) :=
  (val6_keep V0 main_v23 (by decide)).trans (val5_v23 V0)
set_option maxRecDepth 8192 in
set_option maxHeartbeats 2000000 in
theorem val6_v60 (V0 : Valuation τ sig (Elt F)) : val6 V0 (no_index (Proc.devRef .tc main_v60)) = Term.t_v60 (argsV V0) := by
  unfold val6
  simp only [ch6]
  after_results_simp
  rw [val5_arg V0 main_arg0 (by decide), val5_v45 V0]
  rfl
set_option maxRecDepth 8192 in
set_option maxHeartbeats 2000000 in
theorem val6_v61 (V0 : Valuation τ sig (Elt F)) : val6 V0 (no_index (Proc.devRef .tc main_v61)) = Term.t_v61 (argsV V0) := by
  unfold val6
  simp only [ch6]
  after_results_simp
  rw [val5_arg V0 main_arg0 (by decide), val5_v59 V0]
  rfl

/-- The contents after the first 7 stretches of operations. -/
def val7 (V0 : Valuation τ sig (Elt F)) : Valuation τ sig (Elt F) := after ch7 (val6 V0)
theorem ch7_writes : (ch7 : List (HloOp τ sig (Elt F))).Forall fun op => op.writes ⊆ (ch7_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1⟩
/-- A buffer stretch 7 does not write keeps its contents through it. -/
theorem val7_keep (V0 : Valuation τ sig (Elt F)) (r : Ref sig .tc) (h : r ∉ ch7_W) :
    val7 V0 (Proc.devRef .tc r) = val6 V0 (Proc.devRef .tc r) :=
  after_of_writes_sub ch7 _ ch7_writes h
/-- An argument array is as launched after stretch 7. -/
theorem val7_arg (V0 : Valuation τ sig (Elt F)) (r : Ref sig .tc) (h : r ∉ (Wall : List (Ref sig .tc))) :
    val7 V0 (Proc.devRef .tc r) = V0 (Proc.devRef .tc r) :=
  (val7_keep V0 r fun hm => h (by simp only [Wall, List.mem_append]; exact Or.inr (Or.inr (Or.inr (Or.inr (Or.inr (Or.inr (Or.inl hm)))))))).trans (val6_arg V0 r h)
theorem val7_v23 (V0 : Valuation τ sig (Elt F)) : val7 V0 (no_index (Proc.devRef .tc main_v23)) = Term.t_v23 (argsV V0) :=
  (val7_keep V0 main_v23 (by decide)).trans (val6_v23 V0)
set_option maxRecDepth 8192 in
set_option maxHeartbeats 2000000 in
theorem val7_v64 (V0 : Valuation τ sig (Elt F)) : val7 V0 (no_index (Proc.devRef .tc main_v64)) = Term.t_v64 (argsV V0) := by
  unfold val7
  simp only [ch7]
  after_results_simp
  rw [val6_arg V0 main_arg6 (by decide), val6_v61 V0, val6_v60 V0]
  rfl

/-- The contents after the first 8 stretches of operations. -/
def val8 (V0 : Valuation τ sig (Elt F)) : Valuation τ sig (Elt F) := after ch8 (val7 V0)
theorem ch8_writes : (ch8 : List (HloOp τ sig (Elt F))).Forall fun op => op.writes ⊆ (ch8_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1⟩
/-- A buffer stretch 8 does not write keeps its contents through it. -/
theorem val8_keep (V0 : Valuation τ sig (Elt F)) (r : Ref sig .tc) (h : r ∉ ch8_W) :
    val8 V0 (Proc.devRef .tc r) = val7 V0 (Proc.devRef .tc r) :=
  after_of_writes_sub ch8 _ ch8_writes h
/-- An argument array is as launched after stretch 8. -/
theorem val8_arg (V0 : Valuation τ sig (Elt F)) (r : Ref sig .tc) (h : r ∉ (Wall : List (Ref sig .tc))) :
    val8 V0 (Proc.devRef .tc r) = V0 (Proc.devRef .tc r) :=
  (val8_keep V0 r fun hm => h (by simp only [Wall, List.mem_append]; exact Or.inr (Or.inr (Or.inr (Or.inr (Or.inr (Or.inr (Or.inr (Or.inl hm))))))))).trans (val7_arg V0 r h)
theorem val8_v23 (V0 : Valuation τ sig (Elt F)) : val8 V0 (no_index (Proc.devRef .tc main_v23)) = Term.t_v23 (argsV V0) :=
  (val8_keep V0 main_v23 (by decide)).trans (val7_v23 V0)
theorem val8_v64 (V0 : Valuation τ sig (Elt F)) : val8 V0 (no_index (Proc.devRef .tc main_v64)) = Term.t_v64 (argsV V0) :=
  (val8_keep V0 main_v64 (by decide)).trans (val7_v64 V0)
set_option maxRecDepth 8192 in
set_option maxHeartbeats 2000000 in
theorem val8_v74 (V0 : Valuation τ sig (Elt F)) : val8 V0 (no_index (Proc.devRef .tc main_v74)) = Term.t_v74 (argsV V0) := by
  unfold val8
  simp only [ch8]
  after_results_simp
  rw [val7_arg V0 main_arg8 (by decide), val7_arg V0 main_arg7 (by decide), val7_v64 V0]
  rfl

/-- The contents after the first 9 stretches of operations. -/
def val9 (V0 : Valuation τ sig (Elt F)) : Valuation τ sig (Elt F) := after ch9 (val8 V0)
theorem ch9_writes : (ch9 : List (HloOp τ sig (Elt F))).Forall fun op => op.writes ⊆ (ch9_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1⟩
/-- A buffer stretch 9 does not write keeps its contents through it. -/
theorem val9_keep (V0 : Valuation τ sig (Elt F)) (r : Ref sig .tc) (h : r ∉ ch9_W) :
    val9 V0 (Proc.devRef .tc r) = val8 V0 (Proc.devRef .tc r) :=
  after_of_writes_sub ch9 _ ch9_writes h
/-- An argument array is as launched after stretch 9. -/
theorem val9_arg (V0 : Valuation τ sig (Elt F)) (r : Ref sig .tc) (h : r ∉ (Wall : List (Ref sig .tc))) :
    val9 V0 (Proc.devRef .tc r) = V0 (Proc.devRef .tc r) :=
  (val9_keep V0 r fun hm => h (by simp only [Wall, List.mem_append]; exact Or.inr (Or.inr (Or.inr (Or.inr (Or.inr (Or.inr (Or.inr (Or.inr (Or.inl hm)))))))))).trans (val8_arg V0 r h)
theorem val9_v23 (V0 : Valuation τ sig (Elt F)) : val9 V0 (no_index (Proc.devRef .tc main_v23)) = Term.t_v23 (argsV V0) :=
  (val9_keep V0 main_v23 (by decide)).trans (val8_v23 V0)
theorem val9_v64 (V0 : Valuation τ sig (Elt F)) : val9 V0 (no_index (Proc.devRef .tc main_v64)) = Term.t_v64 (argsV V0) :=
  (val9_keep V0 main_v64 (by decide)).trans (val8_v64 V0)
theorem val9_v74 (V0 : Valuation τ sig (Elt F)) : val9 V0 (no_index (Proc.devRef .tc main_v74)) = Term.t_v74 (argsV V0) :=
  (val9_keep V0 main_v74 (by decide)).trans (val8_v74 V0)
set_option maxRecDepth 8192 in
set_option maxHeartbeats 2000000 in
theorem val9_v86 (V0 : Valuation τ sig (Elt F)) : val9 V0 (no_index (Proc.devRef .tc main_v86)) = Term.t_v86 (argsV V0) := by
  unfold val9
  simp only [ch9]
  after_results_simp
  rw [val8_v74 V0, val8_v23 V0]
  rfl

/-- The contents after the first 10 stretches of operations. -/
def val10 (V0 : Valuation τ sig (Elt F)) : Valuation τ sig (Elt F) := after ch10 (val9 V0)
theorem ch10_writes : (ch10 : List (HloOp τ sig (Elt F))).Forall fun op => op.writes ⊆ (ch10_W.map (Proc.devRef (τ := τ) .tc)).toFinset := by
  simp only [List.Forall]; exact ⟨by wr1, by wr1, by wr1, by wr1, by wr1, by wr1, by wr1, by wr1, by wr1, by wr1, by wr1, by wr1, by wr1, by wr1, by wr1⟩
/-- A buffer stretch 10 does not write keeps its contents through it. -/
theorem val10_keep (V0 : Valuation τ sig (Elt F)) (r : Ref sig .tc) (h : r ∉ ch10_W) :
    val10 V0 (Proc.devRef .tc r) = val9 V0 (Proc.devRef .tc r) :=
  after_of_writes_sub ch10 _ ch10_writes h
/-- An argument array is as launched after stretch 10. -/
theorem val10_arg (V0 : Valuation τ sig (Elt F)) (r : Ref sig .tc) (h : r ∉ (Wall : List (Ref sig .tc))) :
    val10 V0 (Proc.devRef .tc r) = V0 (Proc.devRef .tc r) :=
  (val10_keep V0 r fun hm => h (by simp only [Wall, List.mem_append]; exact Or.inr (Or.inr (Or.inr (Or.inr (Or.inr (Or.inr (Or.inr (Or.inr (Or.inr (Or.inl hm))))))))))).trans (val9_arg V0 r h)
theorem val10_v64 (V0 : Valuation τ sig (Elt F)) : val10 V0 (no_index (Proc.devRef .tc main_v64)) = Term.t_v64 (argsV V0) :=
  (val10_keep V0 main_v64 (by decide)).trans (val9_v64 V0)
theorem val10_v86 (V0 : Valuation τ sig (Elt F)) : val10 V0 (no_index (Proc.devRef .tc main_v86)) = Term.t_v86 (argsV V0) :=
  (val10_keep V0 main_v86 (by decide)).trans (val9_v86 V0)
set_option maxRecDepth 8192 in
set_option maxHeartbeats 2000000 in
theorem val10_v95 (V0 : Valuation τ sig (Elt F)) : val10 V0 (no_index (Proc.devRef .tc main_v95)) = Term.t_v95 (argsV V0) := by
  unfold val10
  simp only [ch10]
  after_results_simp
  rw [val9_v74 V0, val9_v23 V0]
  rfl
set_option maxRecDepth 8192 in
set_option maxHeartbeats 2000000 in
theorem val10_cst_21 (V0 : Valuation τ sig (Elt F)) : val10 V0 (no_index (Proc.devRef .tc main_cst_21)) = Term.t_cst_21 (argsV V0) := by
  unfold val10
  simp only [ch10]
  after_results_simp
  rfl

/-- The contents after the first 11 stretches of operations. -/
def val11 (V0 : Valuation τ sig (Elt F)) : Valuation τ sig (Elt F) := after ch11 (val10 V0)
theorem ch11_writes : (ch11 : List (HloOp τ sig (Elt F))).Forall fun op => op.writes ⊆ (ch11_W.map (Proc.devRef (τ := τ) .tc)).toFinset := by
  simp only [List.Forall]; exact ⟨by wr1, by wr1, by wr1, by wr1, by wr1⟩
/-- A buffer stretch 11 does not write keeps its contents through it. -/
theorem val11_keep (V0 : Valuation τ sig (Elt F)) (r : Ref sig .tc) (h : r ∉ ch11_W) :
    val11 V0 (Proc.devRef .tc r) = val10 V0 (Proc.devRef .tc r) :=
  after_of_writes_sub ch11 _ ch11_writes h
/-- An argument array is as launched after stretch 11. -/
theorem val11_arg (V0 : Valuation τ sig (Elt F)) (r : Ref sig .tc) (h : r ∉ (Wall : List (Ref sig .tc))) :
    val11 V0 (Proc.devRef .tc r) = V0 (Proc.devRef .tc r) :=
  (val11_keep V0 r fun hm => h (by simp only [Wall, List.mem_append]; exact Or.inr (Or.inr (Or.inr (Or.inr (Or.inr (Or.inr (Or.inr (Or.inr (Or.inr (Or.inr (Or.inl hm)))))))))))).trans (val10_arg V0 r h)
theorem val11_v64 (V0 : Valuation τ sig (Elt F)) : val11 V0 (no_index (Proc.devRef .tc main_v64)) = Term.t_v64 (argsV V0) :=
  (val11_keep V0 main_v64 (by decide)).trans (val10_v64 V0)
theorem val11_v86 (V0 : Valuation τ sig (Elt F)) : val11 V0 (no_index (Proc.devRef .tc main_v86)) = Term.t_v86 (argsV V0) :=
  (val11_keep V0 main_v86 (by decide)).trans (val10_v86 V0)
set_option maxRecDepth 8192 in
set_option maxHeartbeats 2000000 in
theorem val11_v100 (V0 : Valuation τ sig (Elt F)) : val11 V0 (no_index (Proc.devRef .tc main_v100)) = Term.t_v100 (argsV V0) := by
  unfold val11
  simp only [ch11]
  after_results_simp
  rw [val10_cst_21 V0, val10_v95 V0]
  rfl

/-- The contents after the first 12 stretches of operations. -/
def val12 (V0 : Valuation τ sig (Elt F)) : Valuation τ sig (Elt F) := after ch12 (val11 V0)
theorem ch12_writes : (ch12 : List (HloOp τ sig (Elt F))).Forall fun op => op.writes ⊆ (ch12_W.map (Proc.devRef (τ := τ) .tc)).toFinset := by
  simp only [List.Forall]; exact ⟨by wr1, by wr1⟩
/-- A buffer stretch 12 does not write keeps its contents through it. -/
theorem val12_keep (V0 : Valuation τ sig (Elt F)) (r : Ref sig .tc) (h : r ∉ ch12_W) :
    val12 V0 (Proc.devRef .tc r) = val11 V0 (Proc.devRef .tc r) :=
  after_of_writes_sub ch12 _ ch12_writes h
/-- An argument array is as launched after stretch 12. -/
theorem val12_arg (V0 : Valuation τ sig (Elt F)) (r : Ref sig .tc) (h : r ∉ (Wall : List (Ref sig .tc))) :
    val12 V0 (Proc.devRef .tc r) = V0 (Proc.devRef .tc r) :=
  (val12_keep V0 r fun hm => h (by simp only [Wall, List.mem_append]; exact Or.inr (Or.inr (Or.inr (Or.inr (Or.inr (Or.inr (Or.inr (Or.inr (Or.inr (Or.inr (Or.inr (Or.inl hm))))))))))))).trans (val11_arg V0 r h)
set_option maxRecDepth 8192 in
set_option maxHeartbeats 2000000 in
theorem val12_v101 (V0 : Valuation τ sig (Elt F)) : val12 V0 (no_index (Proc.devRef .tc main_v101)) = Term.t_v101 (argsV V0) := by
  unfold val12
  simp only [ch12]
  after_results_simp
  rw [val11_v64 V0, val11_v86 V0]
  rfl
set_option maxRecDepth 8192 in
set_option maxHeartbeats 2000000 in
theorem val12_v102 (V0 : Valuation τ sig (Elt F)) : val12 V0 (no_index (Proc.devRef .tc main_v102)) = Term.t_v102 (argsV V0) := by
  unfold val12
  simp only [ch12]
  after_results_simp
  rw [val11_v64 V0, val11_v100 V0]
  rfl

/-- The contents after the first 13 stretches of operations. -/
def val13 (V0 : Valuation τ sig (Elt F)) : Valuation τ sig (Elt F) := after ch13 (val12 V0)
theorem ch13_writes : (ch13 : List (HloOp τ sig (Elt F))).Forall fun op => op.writes ⊆ (ch13_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1⟩
/-- A buffer stretch 13 does not write keeps its contents through it. -/
theorem val13_keep (V0 : Valuation τ sig (Elt F)) (r : Ref sig .tc) (h : r ∉ ch13_W) :
    val13 V0 (Proc.devRef .tc r) = val12 V0 (Proc.devRef .tc r) :=
  after_of_writes_sub ch13 _ ch13_writes h
/-- An argument array is as launched after stretch 13. -/
theorem val13_arg (V0 : Valuation τ sig (Elt F)) (r : Ref sig .tc) (h : r ∉ (Wall : List (Ref sig .tc))) :
    val13 V0 (Proc.devRef .tc r) = V0 (Proc.devRef .tc r) :=
  (val13_keep V0 r fun hm => h (by simp only [Wall, List.mem_append]; exact Or.inr (Or.inr (Or.inr (Or.inr (Or.inr (Or.inr (Or.inr (Or.inr (Or.inr (Or.inr (Or.inr (Or.inr (hm)))))))))))))).trans (val12_arg V0 r h)
set_option maxRecDepth 8192 in
set_option maxHeartbeats 2000000 in
theorem val13_v117 (V0 : Valuation τ sig (Elt F)) : val13 V0 (no_index (Proc.devRef .tc main_v117)) = Term.t_v117 (argsV V0) := by
  unfold val13
  simp only [ch13]
  after_results_simp
  rw [val12_arg V0 main_arg11 (by decide), val12_arg V0 main_arg9 (by decide), val12_v102 V0, val12_v101 V0]
  rfl

/-- The contents after all 186 operations. -/
theorem after_ops (V0 : Valuation τ sig (Elt F)) : after ops V0 = val13 V0 := by
  simp only [ops, after_app]
  rfl

/-- The result buffer after the run from the launch's memory: the last stage term of the launched arguments. -/
theorem res_v117 (m : (ℓ : Loc nD τ sig) → Buf (Elt F) ℓ) (c : Dev nD) :
    after ops (launchContents m c) (Proc.devRef .tc main_v117) = Term.t_v117 (argsOf m c) := by
  rw [after_ops]; exact val13_v117 (launchContents m c)

/-- An argument buffer after the run from the launch's memory: as launched. -/
theorem res_arg (m : (ℓ : Loc nD τ sig) → Buf (Elt F) ℓ) (c : Dev nD) (r : Ref sig .tc) (h : r ∉ (Wall : List (Ref sig .tc))) :
    after ops (launchContents m c) (Proc.devRef .tc r) = m ((c.tc : Thread nD τ).loc r) := by
  rw [after_ops]; exact val13_arg (launchContents m c) r h

variable (m : (ℓ : Loc nD τ sig) → Buf (Elt F) ℓ) (ρ : Dev nD → PrngReg)

/-- The run, its result at the stage term of the arguments. -/
theorem run : θ_run defs (onTc (τ := τ) (main (F := F))) ⟨m, fun _ => 0, ρ⟩ (fun r => ∀ c : Dev nD,
      r.2.mem ((c.tc : Thread nD τ).loc main_v117) = Term.t_v117 (argsOf m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧       r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧       r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧       r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧       r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧       r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧       r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧       r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧       r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧       r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧       r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧       r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) := by
  exact (θ_run defs _ _).mono (fun _ h c => ⟨(h c main_v117).trans (res_v117 m c),
      (h c main_arg0).trans (res_arg m c main_arg0 (by decide)),
      (h c main_arg1).trans (res_arg m c main_arg1 (by decide)),
      (h c main_arg2).trans (res_arg m c main_arg2 (by decide)),
      (h c main_arg3).trans (res_arg m c main_arg3 (by decide)),
      (h c main_arg4).trans (res_arg m c main_arg4 (by decide)),
      (h c main_arg5).trans (res_arg m c main_arg5 (by decide)),
      (h c main_arg6).trans (res_arg m c main_arg6 (by decide)),
      (h c main_arg7).trans (res_arg m c main_arg7 (by decide)),
      (h c main_arg8).trans (res_arg m c main_arg8 (by decide)),
      (h c main_arg9).trans (res_arg m c main_arg9 (by decide)),
      (h c main_arg10).trans (res_arg m c main_arg10 (by decide)),
      (h c main_arg11).trans (res_arg m c main_arg11 (by decide))⟩)
    (run_seq scopedRefs_eq scopedSems_eq defs main (fun _ => ops) main_eq (fun _ => ops_sub) m ρ (fun _ => ops_fresh))

end Cert.ReferenceIdeal.Run

end
-- ==== Proof.RRead1.lean ====
/-
  The reference's stages of the mask and of layer 1 read at an element: the kept-key mask is `Spec.maskR` of the row's
  mask logits and adjacency row, and layer 1's output is `Spec.x1R`.

  Every stage is read at explicit coordinates. The layout operations (broadcasts, the transpose, the two slices, the
  concatenation) name the operand's index by its coordinates; the four matrix products are sums over the contracted
  coordinate; a row's maximum is the fold of `max` from `-∞` and a row's sum is the initial value plus the sum over
  the row, so that the row soft-max is `Spec.sexp` over `Spec.zero + Σ Spec.sexp`; the leaky ReLU, the fills, the
  negations and the ELU are pointwise and agree with the specification's pieces as written.
-/
import proofs.«428251_j16982300688849_3_alg».proof.Proof.RTerm
import Idealize.ShloMosaic.Lib.StackMember

noncomputable section

namespace Cert.ReferenceIdeal.Read

open Idealize.ShloMosaic Idealize.ShloMosaic.ValueIdx
open Cert.ReferenceIdeal Cert.ReferenceIdeal.Gen Cert.ReferenceIdeal.Term
open scoped BigOperators

namespace Layer1

/-! ## Layout operations at explicit coordinates -/

section Layout
variable {α : Type}

/-- A column broadcast along the rows reads the column's entry of the same row. -/
theorem bcast_col_apply (v : S4096x1.Idx → α) (i j : Fin 4096) :
    broadcastInDim S4096x4096 ![0, 1] bcast_S4096x1_S4096x4096_0_1 v (ix2 i j) = v (ix2 i 0) :=
  broadcastInDim_apply _ _ v (ix2 i j) (ix2 i 0) fun a => match a with
    | ⟨0, _⟩ => rfl
    | ⟨1, _⟩ => rfl

/-- A row broadcast down the columns reads the row's entry of the same column. -/
theorem bcast_row_apply (v : S1x4096.Idx → α) (i j : Fin 4096) :
    broadcastInDim S4096x4096 ![0, 1] bcast_S1x4096_S4096x4096_0_1 v (ix2 i j) = v (ix2 0 j) :=
  broadcastInDim_apply _ _ v (ix2 i j) (ix2 0 j) fun a => match a with
    | ⟨0, _⟩ => rfl
    | ⟨1, _⟩ => rfl

/-- A vector made a one-column matrix keeps its entries. -/
theorem bcast_keep_apply (v : S4096.Idx → α) (i : Fin 4096) :
    broadcastInDim S4096x1 ![0] bcast_S4096_S4096x1_0 v (ix2 i 0) = v (ix1 i) :=
  broadcastInDim_apply _ _ v (ix2 i 0) (ix1 i) fun a => match a with
    | ⟨0, _⟩ => rfl

/-- The transposed column is the row with the same entries. -/
theorem transpose_col_apply (v : S4096x1.Idx → α) (j : Fin 4096) :
    transpose S1x4096 [1, 0] v transposes_S4096x1_S1x4096_1_0 (ix2 0 j) = v (ix2 j 0) :=
  transpose_apply _ v _ (ix2 0 j) (ix2 j 0) fun b => match b with
    | ⟨0, _⟩ => rfl
    | ⟨1, _⟩ => rfl

/-- The first half of a 600-column. -/
theorem slice_lo_apply (v : S600x1.Idx → α) (k : Fin 300) :
    extractStridedSlice S300x1 ![0, 0] v slices_S600x1_S300x1_0_0 (ix2 k 0) = v (ix2 (Spec.lo k) 0) :=
  extractStridedSlice_apply _ v _ (ix2 k 0) (ix2 (Spec.lo k) 0) fun a => match a with
    | ⟨0, _⟩ => by show k.val = 0 + k.val; omega
    | ⟨1, _⟩ => rfl

/-- The second half of a 600-column. -/
theorem slice_hi_apply (v : S600x1.Idx → α) (k : Fin 300) :
    extractStridedSlice S300x1 ![300, 0] v slices_S600x1_S300x1_300_0 (ix2 k 0) = v (ix2 (Spec.hi k) 0) :=
  extractStridedSlice_apply _ v _ (ix2 k 0) (ix2 (Spec.hi k) 0) fun a => match a with
    | ⟨0, _⟩ => by show k.val + 300 = 300 + k.val; omega
    | ⟨1, _⟩ => rfl

/-- Two 300-column blocks side by side, read in the first block. -/
theorem concat_left_apply (x y : S4096x300.Idx → α) (i : Fin 4096) (k : Fin 600) (h : k.val < 300) :
    concatenate S4096x600 1 [⟨S4096x300, x⟩, ⟨S4096x300, y⟩] concatenates_S4096x300_S4096x300_S4096x600_d1 (ix2 i k)
      = x (ix2 i ⟨k.val, h⟩) :=
  concatenate_pair_apply_left 1 x y _ (ix2 i k) rfl (ix2 i ⟨k.val, h⟩) fun b => match b with
    | ⟨0, _⟩ => rfl
    | ⟨1, _⟩ => rfl

/-- Two 300-column blocks side by side, read in the second block. -/
theorem concat_right_apply (x y : S4096x300.Idx → α) (i : Fin 4096) (k : Fin 600) (h : ¬ k.val < 300) :
    concatenate S4096x600 1 [⟨S4096x300, x⟩, ⟨S4096x300, y⟩] concatenates_S4096x300_S4096x300_S4096x600_d1 (ix2 i k)
      = y (ix2 i ⟨k.val - 300, by have := k.isLt; omega⟩) :=
  concatenate_pair_apply_right 1 x y _ (ix2 i k) rfl rfl (ix2 i ⟨k.val - 300, by have := k.isLt; omega⟩)
    (fun b => match b with
      | ⟨0, _⟩ => fun _ => rfl
      | ⟨1, _⟩ => fun hb => absurd rfl hb)
    (by show k.val - 300 + 300 = k.val; omega)

end Layout

/-! ## The four matrix products at an element -/

theorem dotA_apply (l : FVec Ideal S4096x300 .f32) (r : FVec Ideal S300x300 .f32) (i : Fin 4096) (k : Fin 300) :
    Host.dotGeneral dot_S4096x300_S300x300_S4096x300_1_0_0_1_n_n none l r (ix2 i k) = ∑ j : Fin 300, l (ix2 i j) * r (ix2 j k) :=
  StackMember.dotGeneral_plain_apply none l r i k

theorem dotB_apply (l : FVec Ideal S4096x300 .f32) (r : FVec Ideal S300x1 .f32) (i : Fin 4096) (k : Fin 1) :
    Host.dotGeneral dot_S4096x300_S300x1_S4096x1_1_0_0_1_n_n none l r (ix2 i k) = ∑ j : Fin 300, l (ix2 i j) * r (ix2 j k) :=
  StackMember.dotGeneral_plain_apply none l r i k

theorem dotC_apply (l : FVec Ideal S4096x4096 .f32) (r : FVec Ideal S4096x300 .f32) (i : Fin 4096) (k : Fin 300) :
    Host.dotGeneral dot_S4096x4096_S4096x300_S4096x300_1_0_0_1_n_n none l r (ix2 i k) = ∑ j : Fin 4096, l (ix2 i j) * r (ix2 j k) :=
  StackMember.dotGeneral_plain_apply none l r i k

theorem dotD_apply (l : FVec Ideal S4096x600 .f32) (r : FVec Ideal S600x300 .f32) (i : Fin 4096) (k : Fin 300) :
    Host.dotGeneral dot_S4096x600_S600x300_S4096x300_1_0_0_1_n_n none l r (ix2 i k) = ∑ j : Fin 600, l (ix2 i j) * r (ix2 j k) :=
  StackMember.dotGeneral_plain_apply none l r i k

/-! ## A row's maximum, its soft-max numerators and their sum -/

/-- The reduced index `i` with column `k` put back is (i, k). -/
theorem lift_row (h : S4096x4096.Reduces [1] S4096) (i : Fin 4096) (k : Fin (S4096x4096.size 1)) :
    h.lift (ix1 i) k = ix2 i (⟨k.val, k.isLt⟩ : Fin 4096) := by
  funext c; apply Fin.ext
  match c with
  | ⟨0, _⟩ => rfl
  | ⟨1, _⟩ => rfl

/-- Each row's maximum as the reference takes it: the reduction from `-∞`, then the maximum with `-∞` once more. -/
def rowMax (z : FVec Ideal S4096x4096 .f32) : FVec Ideal S4096 .f32 :=
  maximumf (broadcastInDim S4096 ![] bcast_S_S4096 (constant S_ .f32 0xFF800000#32))
    (Host.reduce FloatOps.maximumf z (constant S_ .f32 0xFF800000#32) reducesTo_S4096x4096_S4096_d1 h_S_)

/-- The soft-max numerators: the exponential of each entry less its row's maximum. -/
def rowExp (z : FVec Ideal S4096x4096 .f32) : FVec Ideal S4096x4096 .f32 :=
  Host.exp (subf z (broadcastInDim S4096x4096 ![0, 1] bcast_S4096x1_S4096x4096_0_1
    (broadcastInDim S4096x1 ![0] bcast_S4096_S4096x1_0 (rowMax z))))

/-- Each row's sum of numerators, from the initial value zero. -/
def rowSum (z : FVec Ideal S4096x4096 .f32) : FVec Ideal S4096 .f32 :=
  Host.reduceAdd (rowExp z) (constant S_ .f32 0x00000000#32) reducesTo_S4096x4096_S4096_d1 h_S_

/-- The row soft-max: each numerator over its row's sum. -/
def softRows (z : FVec Ideal S4096x4096 .f32) : FVec Ideal S4096x4096 .f32 :=
  Host.divf (rowExp z) (broadcastInDim S4096x4096 ![0, 1] bcast_S4096x1_S4096x4096_0_1
    (broadcastInDim S4096x1 ![0] bcast_S4096_S4096x1_0 (rowSum z)))

theorem hostExp_apply {s : Shape} {φ : FTy} (x : FVec Ideal s φ) (p : s.Idx) : Host.exp x p = Ideal.exp (x p) := rfl
theorem hostDivf_apply {s : Shape} {φ : FTy} (x y : FVec Ideal s φ) (p : s.Idx) : Host.divf x y p = Ideal.div (x p) (y p) := rfl
theorem hostNegf_apply {s : Shape} {φ : FTy} (x : FVec Ideal s φ) (p : s.Idx) : Host.negf x p = -(x p) := rfl

/-- The reduction's shape fact in the form that names the inserted index. -/
theorem reduces_rows : S4096x4096.Reduces [1] S4096 :=
  ⟨reducesTo_S4096x4096_S4096_d1.1, Nat.one_pos, reducesTo_S4096x4096_S4096_d1.2⟩

/-- A row's maximum: the fold from `-∞` is `Spec.rmax`, and the further maximum with `-∞` changes nothing. -/
theorem rowMax_apply (z : FVec Ideal S4096x4096 .f32) (i : Fin 4096) :
    rowMax z (ix1 i) = Spec.rmax fun k => z (ix2 i k) := by
  have hb : Ideal.ofBits .f32 0xFF800000#32 = (⊥ : EReal) := by simp [Ideal.ofBits, Ideal.ieee]
  have c1 : broadcastInDim S4096 ![] bcast_S_S4096 (constant (F := Ideal) S_ .f32 0xFF800000#32) (ix1 i) = (⊥ : EReal) := hb
  have c2 : constant (F := Ideal) S_ .f32 0xFF800000#32 (Shape.Idx.first h_S_) = (⊥ : EReal) := hb
  have e := Host.reduce_eq_fold_single (FloatOps.maximumf (F := Ideal) (φ := .f32)) z
    (constant (F := Ideal) S_ .f32 0xFF800000#32) reducesTo_S4096x4096_S4096_d1 reduces_rows h_S_ (ix1 i)
  have hf : (z ∘ reduces_rows.lift (ix1 i)) = fun k : Fin 4096 => z (ix2 i k) :=
    funext fun k => congrArg z (lift_row reduces_rows i k)
  unfold rowMax
  rw [maximumf_apply, e, c1, c2, hf, max_eq_right bot_le]
  rfl

/-- A row's sum from the initial value zero. -/
theorem hostReduceAdd_row (x : FVec Ideal S4096x4096 .f32) (i : Fin 4096) :
    Host.reduceAdd x (constant (F := Ideal) S_ .f32 0x00000000#32) reducesTo_S4096x4096_S4096_d1 h_S_ (ix1 i)
      = Spec.zero + ∑ k : Fin 4096, x (ix2 i k) := by
  refine (Ideal.hostReduceAdd_single reducesTo_S4096x4096_S4096_d1 reduces_rows x (Ideal.ofBits .f32 0x00000000#32) (ix1 i)).trans ?_
  exact congrArg (Spec.zero + ·) (Finset.sum_congr rfl fun k _ => congrArg x (lift_row reduces_rows i k))

theorem rowExp_apply (z : FVec Ideal S4096x4096 .f32) (i j : Fin 4096) :
    rowExp z (ix2 i j) = Spec.sexp (fun k => z (ix2 i k)) j := by
  unfold rowExp
  rw [hostExp_apply, subf_apply, bcast_col_apply, bcast_keep_apply, rowMax_apply]
  rfl

theorem rowSum_apply (z : FVec Ideal S4096x4096 .f32) (i : Fin 4096) :
    rowSum z (ix1 i) = Spec.zero + ∑ k, Spec.sexp (fun k => z (ix2 i k)) k := by
  unfold rowSum
  rw [hostReduceAdd_row]
  exact congrArg (Spec.zero + ·) (Finset.sum_congr rfl fun k _ => rowExp_apply z i k)

/-- The row soft-max at an element: the entry's numerator over the row's sum, as the specification writes it. -/
theorem softRows_apply (z : FVec Ideal S4096x4096 .f32) (i j : Fin 4096) :
    softRows z (ix2 i j)
      = Ideal.div (Spec.sexp (fun k => z (ix2 i k)) j) (Spec.zero + ∑ k, Spec.sexp (fun k => z (ix2 i k)) k) := by
  unfold softRows
  rw [hostDivf_apply, bcast_col_apply, bcast_keep_apply, rowSum_apply, rowExp_apply]

/-! ## The stages of the mask -/

variable (A : Spec.Args Ideal)

/-- `X · Wd`. -/
theorem t_v0_apply (i : Fin 4096) (k : Fin 300) : t_v0 A (ix2 i k) = Spec.hD A.inputs i k :=
  dotA_apply (t_arg0 A) (t_arg1 A) i k

/-- The query rows' mask logits. -/
theorem t_v1_apply (i : Fin 4096) : t_v1 A (ix2 i 0) = Spec.um A.inputs i := by
  unfold t_v1
  beta_reduce
  rw [dotB_apply]
  exact Finset.sum_congr rfl fun k _ => congrArg (· * t_arg2 A (ix2 k 0)) (t_v0_apply A i k)

/-- The keys' mask logits. -/
theorem t_v2_apply (i : Fin 4096) : t_v2 A (ix2 i 0) = Spec.vm A.inputs i := by
  unfold t_v2
  beta_reduce
  rw [dotB_apply]
  exact Finset.sum_congr rfl fun k _ => congrArg (· * t_arg3 A (ix2 k 0)) (t_v0_apply A i k)

/-- The broadcast sum of the two. -/
theorem t_v6_apply (i j : Fin 4096) : t_v6 A (ix2 i j) = Spec.um A.inputs i + Spec.vm A.inputs j := by
  unfold t_v6
  rw [addf_apply]
  unfold t_v4 t_v5
  rw [bcast_col_apply, bcast_row_apply]
  unfold t_v3
  beta_reduce
  rw [transpose_col_apply, t_v1_apply, t_v2_apply]

/-- The mask's own logits. -/
theorem t_v7_apply (i j : Fin 4096) :
    t_v7 A (ix2 i j) = Spec.mlog (Spec.um A.inputs i) (Spec.vm A.inputs) j := by
  have h : t_v7 A (ix2 i j) = Spec.lrelu (t_v6 A (ix2 i j)) := rfl
  rw [h, t_v6_apply]
  rfl

theorem t_v18_eq : t_v18 A = softRows (t_v7 A) := rfl

/-- The mask soft-max. -/
theorem t_v18_apply (i j : Fin 4096) :
    t_v18 A (ix2 i j) = Ideal.div (Spec.sexp (Spec.mlog (Spec.um A.inputs i) (Spec.vm A.inputs)) j)
      (Spec.zero + ∑ k, Spec.sexp (Spec.mlog (Spec.um A.inputs i) (Spec.vm A.inputs)) k) := by
  rw [t_v18_eq, softRows_apply,
    show (fun k => t_v7 A (ix2 i k)) = Spec.mlog (Spec.um A.inputs i) (Spec.vm A.inputs) from funext (t_v7_apply A i)]

/-- The kept-key mask at query row `i` and key `j`. -/
theorem t_v23_apply (i j : Fin 4096) :
    t_v23 A (ix2 i j) = Spec.maskR (Spec.um A.inputs i) (Spec.vm A.inputs) (A.inputs.adj i) j := by
  have h : t_v23 A (ix2 i j) = IntOp.ori (Ideal.cmp .ogt (t_v18 A (ix2 i j)) Spec.thr)
      (IntOp.cmpi .sgt (A.x10 (ix2 i j)) 0#32) := rfl
  rw [h, t_v18_apply]
  rfl

/-! ## The stages of layer 1 -/

/-- `X · W1`. -/
theorem t_v24_apply (i : Fin 4096) (k : Fin 300) :
    t_v24 A (ix2 i k) = ∑ j, A.inputs.X i j * A.inputs.W1 j k :=
  dotA_apply (t_arg0 A) (t_arg4 A) i k

/-- The query rows' attention logits. -/
theorem t_v26_apply (i : Fin 4096) : t_v26 A (ix2 i 0) = Spec.f1R A.inputs i := by
  unfold t_v26
  beta_reduce
  rw [dotB_apply]
  refine Finset.sum_congr rfl fun k _ => ?_
  unfold t_v25
  beta_reduce
  rw [slice_lo_apply, t_v24_apply]
  rfl

/-- The keys' attention logits. -/
theorem t_v28_apply (i : Fin 4096) : t_v28 A (ix2 i 0) = Spec.f2R A.inputs i := by
  unfold t_v28
  beta_reduce
  rw [dotB_apply]
  refine Finset.sum_congr rfl fun k _ => ?_
  unfold t_v27
  beta_reduce
  rw [slice_hi_apply, t_v24_apply]
  rfl

/-- The broadcast sum of the two. -/
theorem t_v32_apply (i j : Fin 4096) : t_v32 A (ix2 i j) = Spec.f1R A.inputs i + Spec.f2R A.inputs j := by
  unfold t_v32
  rw [addf_apply]
  unfold t_v30 t_v31
  rw [bcast_col_apply, bcast_row_apply]
  unfold t_v29
  beta_reduce
  rw [transpose_col_apply, t_v26_apply, t_v28_apply]

/-- The attention logits after the leaky ReLU. -/
theorem t_v33_apply (i j : Fin 4096) :
    t_v33 A (ix2 i j) = Spec.lrelu (Spec.f1R A.inputs i + Spec.f2R A.inputs j) := by
  have h : t_v33 A (ix2 i j) = Spec.lrelu (t_v32 A (ix2 i j)) := rfl
  rw [h, t_v32_apply]

/-- Row `i`'s kept-key mask, as the specification writes it. -/
abbrev mskR (i : Fin 4096) : Fin 4096 → BitVec 1 :=
  Spec.maskR (Spec.um A.inputs i) (Spec.vm A.inputs) (A.inputs.adj i)

/-- The kept keys' logits. -/
theorem t_v34_apply (i j : Fin 4096) :
    t_v34 A (ix2 i j) = Spec.zpos (mskR A i) (Spec.f1R A.inputs i) (Spec.f2R A.inputs) j := by
  have h : t_v34 A (ix2 i j) = Scalar.select (t_v23 A (ix2 i j)) (t_v33 A (ix2 i j)) Spec.fill := rfl
  rw [h, t_v23_apply, t_v33_apply]
  rfl

theorem t_v45_eq : t_v45 A = softRows (t_v34 A) := rfl

/-- The positive attention weights. -/
theorem t_v45_apply (i j : Fin 4096) :
    t_v45 A (ix2 i j)
      = Ideal.div (Spec.sexp (Spec.zpos (mskR A i) (Spec.f1R A.inputs i) (Spec.f2R A.inputs)) j)
          (Spec.zero + ∑ k, Spec.sexp (Spec.zpos (mskR A i) (Spec.f1R A.inputs i) (Spec.f2R A.inputs)) k) := by
  rw [t_v45_eq, softRows_apply,
    show (fun k => t_v34 A (ix2 i k)) = Spec.zpos (mskR A i) (Spec.f1R A.inputs i) (Spec.f2R A.inputs)
      from funext (t_v34_apply A i)]

/-- The kept keys' negated logits. -/
theorem t_v47_apply (i j : Fin 4096) :
    t_v47 A (ix2 i j) = Spec.znegR (mskR A i) (Spec.f1R A.inputs i) (Spec.f2R A.inputs) j := by
  have h : t_v47 A (ix2 i j) = Scalar.select (t_v23 A (ix2 i j)) (-(t_v33 A (ix2 i j))) Spec.fill := rfl
  rw [h, t_v23_apply, t_v33_apply]
  rfl

theorem t_v58_eq : t_v58 A = softRows (t_v47 A) := rfl

/-- The negative attention weights, negated. -/
theorem t_v59_apply (i j : Fin 4096) :
    t_v59 A (ix2 i j)
      = -Ideal.div (Spec.sexp (Spec.znegR (mskR A i) (Spec.f1R A.inputs i) (Spec.f2R A.inputs)) j)
          (Spec.zero + ∑ k, Spec.sexp (Spec.znegR (mskR A i) (Spec.f1R A.inputs i) (Spec.f2R A.inputs)) k) := by
  unfold t_v59
  rw [hostNegf_apply, t_v58_eq, softRows_apply,
    show (fun k => t_v47 A (ix2 i k)) = Spec.znegR (mskR A i) (Spec.f1R A.inputs i) (Spec.f2R A.inputs)
      from funext (t_v47_apply A i)]

/-- The positive aggregate. -/
theorem t_v60_apply (i : Fin 4096) (k : Fin 300) :
    t_v60 A (ix2 i k)
      = ∑ j, Ideal.div (Spec.sexp (Spec.zpos (mskR A i) (Spec.f1R A.inputs i) (Spec.f2R A.inputs)) j)
          (Spec.zero + ∑ l, Spec.sexp (Spec.zpos (mskR A i) (Spec.f1R A.inputs i) (Spec.f2R A.inputs)) l) * A.inputs.X j k := by
  unfold t_v60
  beta_reduce
  rw [dotC_apply]
  exact Finset.sum_congr rfl fun j _ => congrArg (· * t_arg0 A (ix2 j k)) (t_v45_apply A i j)

/-- The negative aggregate, negated. -/
theorem t_v61_apply (i : Fin 4096) (k : Fin 300) :
    t_v61 A (ix2 i k)
      = ∑ j, (-Ideal.div (Spec.sexp (Spec.znegR (mskR A i) (Spec.f1R A.inputs i) (Spec.f2R A.inputs)) j)
          (Spec.zero + ∑ l, Spec.sexp (Spec.znegR (mskR A i) (Spec.f1R A.inputs i) (Spec.f2R A.inputs)) l)) * A.inputs.X j k := by
  unfold t_v61
  beta_reduce
  rw [dotC_apply]
  exact Finset.sum_congr rfl fun j _ => congrArg (· * t_arg0 A (ix2 j k)) (t_v59_apply A i j)

/-- The two aggregates side by side. -/
theorem t_v62_apply (i : Fin 4096) (k : Fin 600) :
    t_v62 A (ix2 i k) = Spec.hcat (mskR A i) (Spec.f1R A.inputs i) (Spec.f2R A.inputs) A.inputs.X k := by
  unfold t_v62
  beta_reduce
  by_cases h : k.val < 300
  · rw [concat_left_apply _ _ i k h, t_v60_apply]
    unfold Spec.hcat
    rw [dif_pos h]
  · rw [concat_right_apply _ _ i k h, t_v61_apply]
    unfold Spec.hcat
    rw [dif_neg h]

/-- The projection by the 600×300 matrix. -/
theorem t_v63_apply (i : Fin 4096) (d : Fin 300) :
    t_v63 A (ix2 i d)
      = Spec.rowR (mskR A i) (Spec.f1R A.inputs i) (Spec.f2R A.inputs) A.inputs.X A.inputs.wt1 d := by
  unfold t_v63
  beta_reduce
  rw [dotD_apply]
  exact Finset.sum_congr rfl fun k _ => congrArg (· * t_arg6 A (ix2 k d)) (t_v62_apply A i k)

/-- Layer 1's output at an element. -/
theorem t_v64_apply (i : Fin 4096) (d : Fin 300) : t_v64 A (ix2 i d) = Spec.x1R A.inputs i d := by
  have h : t_v64 A (ix2 i d) = Spec.eluR (t_v63 A (ix2 i d)) := rfl
  rw [h, t_v63_apply]
  rfl

end Layer1

variable (A : Cert.Spec.Args Ideal)

/-- The kept-key mask at query row `i` and key `j`. -/
theorem t_v23_apply (i j : Fin 4096) :
    t_v23 A (ix2 i j) = Cert.Spec.maskR (Cert.Spec.um A.inputs i) (Cert.Spec.vm A.inputs) (A.inputs.adj i) j :=
  Layer1.t_v23_apply A i j

/-- Layer 1's output at an element. -/
theorem t_v64_apply (i : Fin 4096) (d : Fin 300) : t_v64 A (ix2 i d) = Cert.Spec.x1R A.inputs i d :=
  Layer1.t_v64_apply A i d

end Cert.ReferenceIdeal.Read

end
-- ==== Proof.RRead2.lean ====
/-
  The reference's layer 2, its logistic function and the final gather read at an element: the result is `Spec.outR`.

  Each product is read as the sum over its contracted coordinate; a row's maximum as the fold of `max` from -∞ (the maximum
  with the row of -∞ changes nothing); a row's sum as the literal zero plus the sum; the broadcasts, the transpose, the
  slices and the concatenation at the entry they read. The leaky ReLU, the masked fill and the row soft-max each occur
  twice and are read once, over an arbitrary 4096×4096 array. The gather reads, for result row `r`, the operand's row at
  the start word taken signed and clamped into [0, 4095], which is how `Spec.row` is written.
-/
import proofs.«428251_j16982300688849_3_alg».proof.Proof.RRead1
import Idealize.ShloMosaic.Lib.StackMember
import Idealize.ShloMosaic.Lib.IdealHost
import Idealize.ShloMosaic.Lib.ValueLayout

noncomputable section

namespace Cert.ReferenceIdeal.Read

open Idealize.ShloMosaic Idealize.ShloMosaic.ValueIdx
open Cert.ReferenceIdeal Cert.ReferenceIdeal.Gen Cert.ReferenceIdeal.Term
open scoped BigOperators

variable (A : Cert.Spec.Args Ideal)

/-! ## The four products read at an entry -/

/-- A 4096×300 by 300×300 product at an entry. -/
theorem dotA_apply (x : FVec Ideal S4096x300 .f32) (y : FVec Ideal S300x300 .f32) (i : Fin 4096) (k : Fin 300) :
    Host.dotGeneral dot_S4096x300_S300x300_S4096x300_1_0_0_1_n_n none x y (ix2 i k)
      = ∑ j : Fin 300, x (ix2 i j) * y (ix2 j k) :=
  StackMember.dotGeneral_plain_apply (m := 4096) (n := 300) (k := 300) none x y i k

/-- A 4096×300 by 300×1 product at an entry. -/
theorem dotB_apply (x : FVec Ideal S4096x300 .f32) (y : FVec Ideal S300x1 .f32) (i : Fin 4096) (k : Fin 1) :
    Host.dotGeneral dot_S4096x300_S300x1_S4096x1_1_0_0_1_n_n none x y (ix2 i k)
      = ∑ j : Fin 300, x (ix2 i j) * y (ix2 j k) :=
  StackMember.dotGeneral_plain_apply (m := 4096) (n := 1) (k := 300) none x y i k

/-- A 4096×4096 by 4096×300 product at an entry. -/
theorem dotC_apply (x : FVec Ideal S4096x4096 .f32) (y : FVec Ideal S4096x300 .f32) (i : Fin 4096) (k : Fin 300) :
    Host.dotGeneral dot_S4096x4096_S4096x300_S4096x300_1_0_0_1_n_n none x y (ix2 i k)
      = ∑ j : Fin 4096, x (ix2 i j) * y (ix2 j k) :=
  StackMember.dotGeneral_plain_apply (m := 4096) (n := 300) (k := 4096) none x y i k

/-- A 4096×600 by 600×300 product at an entry. -/
theorem dotD_apply (x : FVec Ideal S4096x600 .f32) (y : FVec Ideal S600x300 .f32) (i : Fin 4096) (k : Fin 300) :
    Host.dotGeneral dot_S4096x600_S600x300_S4096x300_1_0_0_1_n_n none x y (ix2 i k)
      = ∑ j : Fin 600, x (ix2 i j) * y (ix2 j k) :=
  StackMember.dotGeneral_plain_apply (m := 4096) (n := 300) (k := 600) none x y i k

/-! ## A row's maximum and a row's sum -/

theorem redRow : S4096x4096.Reduces [1] S4096 := by decide

/-- The reduced index `i` with column `k` put back is (i, k). -/
theorem lift_row (i : Fin 4096) (k : Fin (S4096x4096.size 1)) :
    redRow.lift (ix1 i) k = ix2 i (⟨k.val, k.isLt⟩ : Fin 4096) := by
  funext c; apply Fin.ext
  fin_cases c <;> rfl

/-- The word 0xFF800000 is -∞. -/
theorem negInf_eq_bot : Ideal.ofBits .f32 0xFF800000#32 = (⊥ : EReal) := by simp [Ideal.ofBits, Ideal.ieee]

/-- A row's maximum as the reference takes it: the reduce from -∞, then the maximum with the row of -∞. -/
theorem rowmax_apply (x : FVec Ideal S4096x4096 .f32) (i : Fin 4096) :
    maximumf (broadcastInDim S4096 ![] bcast_S_S4096 (constant (F := Ideal) S_ .f32 0xFF800000#32))
      (Host.reduce FloatOps.maximumf x (constant (F := Ideal) S_ .f32 0xFF800000#32) reducesTo_S4096x4096_S4096_d1 h_S_) (ix1 i)
      = Cert.Spec.rmax (fun j => x (ix2 i j)) := by
  rw [maximumf_apply, Host.reduce_eq_fold_single FloatOps.maximumf x _ reducesTo_S4096x4096_S4096_d1 redRow h_S_]
  have hf : (x ∘ redRow.lift (ix1 i)) = fun k : Fin 4096 => x (ix2 i k) := funext fun k => congrArg x (lift_row i k)
  show max (Ideal.ofBits .f32 0xFF800000#32)
      (Finset.fold max (Ideal.ofBits .f32 0xFF800000#32) (x ∘ redRow.lift (ix1 i)) (Finset.univ : Finset (Fin 4096))) = _
  rw [negInf_eq_bot, max_bot_left, hf]
  rfl

/-- A row's sum as the reference takes it: the literal zero plus the sum. -/
theorem rowsum_apply (x : FVec Ideal S4096x4096 .f32) (i : Fin 4096) :
    Host.reduceAdd x (constant (F := Ideal) S_ .f32 0x00000000#32) reducesTo_S4096x4096_S4096_d1 h_S_ (ix1 i)
      = Cert.Spec.zero + ∑ j : Fin 4096, x (ix2 i j) := by
  rw [hostReduceAdd_apply, Ideal.hostReduceAdd_single reducesTo_S4096x4096_S4096_d1 redRow]
  exact congrArg (Cert.Spec.zero + ·) (Finset.sum_congr rfl fun k _ => congrArg x (lift_row i k))

/-! ## The layout operations read at an entry -/

/-- A column broadcast along the rows reads the column's entry of the row. -/
theorem bcol_apply {α : Type} (c : S4096x1.Idx → α) (i j : Fin 4096) :
    broadcastInDim S4096x4096 ![0, 1] bcast_S4096x1_S4096x4096_0_1 c (ix2 i j) = c (ix2 i 0) :=
  broadcastInDim_apply _ _ c _ (ix2 i 0) fun a => match a with | ⟨0, _⟩ => rfl | ⟨1, _⟩ => rfl

/-- A row broadcast down the columns reads the row's entry of the column. -/
theorem brow_apply {α : Type} (r : S1x4096.Idx → α) (i j : Fin 4096) :
    broadcastInDim S4096x4096 ![0, 1] bcast_S1x4096_S4096x4096_0_1 r (ix2 i j) = r (ix2 0 j) :=
  broadcastInDim_apply _ _ r _ (ix2 0 j) fun a => match a with | ⟨0, _⟩ => rfl | ⟨1, _⟩ => rfl

/-- A vector made a column reads the vector's entry. -/
theorem bvec_apply {α : Type} (v : S4096.Idx → α) (i : Fin 4096) (o : Fin 1) :
    broadcastInDim S4096x1 ![0] bcast_S4096_S4096x1_0 v (ix2 i o) = v (ix1 i) :=
  broadcastInDim_apply _ _ v _ (ix1 i) fun a => match a with | ⟨0, _⟩ => rfl

/-- A column transposed reads the column. -/
theorem tcol_apply {α : Type} (c : S4096x1.Idx → α) (j : Fin 4096) :
    transpose S1x4096 [1, 0] c transposes_S4096x1_S1x4096_1_0 (ix2 0 j) = c (ix2 j 0) :=
  transpose_ix2_apply c _ 0 j

/-! ## The host's exponential and negation at an entry -/

theorem hexp_apply {s : Shape} (x : FVec Ideal s .f32) (i : s.Idx) : Host.exp x i = Ideal.exp (x i) := rfl
theorem hneg_apply {s : Shape} (x : FVec Ideal s .f32) (i : s.Idx) : Host.negf x i = -(x i) := rfl

/-! ## The leaky ReLU and the masked fill -/

/-- The reference's leaky ReLU of a 4096×4096 array, operation by operation. -/
def lreluArr (x : FVec Ideal S4096x4096 .f32) : FVec Ideal S4096x4096 .f32 :=
  select (cmpf .oge x (broadcastInDim S4096x4096 ![] bcast_S_S4096x4096 (constant (F := Ideal) S_ .f32 0x00000000#32)))
    x (mulf (broadcastInDim S4096x4096 ![] bcast_S_S4096x4096 (id (constant (F := Ideal) S_ .f32 0x3E99999A#32))) x)

theorem lreluArr_apply (x : FVec Ideal S4096x4096 .f32) (i : S4096x4096.Idx) : lreluArr x i = Cert.Spec.lrelu (x i) := by
  unfold lreluArr
  rw [select_apply, cmpf_apply, mulf_apply, broadcastInDim_scalar_apply, broadcastInDim_scalar_apply]
  rfl

/-- The kept entries of `e`, the dropped ones at the fill value. -/
def maskFill (m : IVec S4096x4096 1) (e : FVec Ideal S4096x4096 .f32) : FVec Ideal S4096x4096 .f32 :=
  select m e (broadcastInDim S4096x4096 ![] bcast_S_S4096x4096 (id (constant (F := Ideal) S_ .f32 0xD368D4A5#32)))

theorem maskFill_apply (m : IVec S4096x4096 1) (e : FVec Ideal S4096x4096 .f32) (i : S4096x4096.Idx) :
    maskFill m e i = Scalar.select (m i) (e i) Cert.Spec.fill := by
  unfold maskFill
  rw [select_apply, broadcastInDim_scalar_apply]
  rfl

/-! ## The row soft-max -/

/-- Each row's maximum, spread over the row. -/
def rowMaxFull (z : FVec Ideal S4096x4096 .f32) : FVec Ideal S4096x4096 .f32 :=
  broadcastInDim S4096x4096 ![0, 1] bcast_S4096x1_S4096x4096_0_1 (broadcastInDim S4096x1 ![0] bcast_S4096_S4096x1_0
    (maximumf (broadcastInDim S4096 ![] bcast_S_S4096 (constant (F := Ideal) S_ .f32 0xFF800000#32))
      (Host.reduce FloatOps.maximumf z (constant (F := Ideal) S_ .f32 0xFF800000#32) reducesTo_S4096x4096_S4096_d1 h_S_)))

theorem rowMaxFull_apply (z : FVec Ideal S4096x4096 .f32) (i j : Fin 4096) :
    rowMaxFull z (ix2 i j) = Cert.Spec.rmax (fun k => z (ix2 i k)) := by
  unfold rowMaxFull
  rw [bcol_apply, bvec_apply, rowmax_apply]

/-- The soft-max numerators. -/
def expRow (z : FVec Ideal S4096x4096 .f32) : FVec Ideal S4096x4096 .f32 := Host.exp (subf z (rowMaxFull z))

theorem expRow_apply (z : FVec Ideal S4096x4096 .f32) (i j : Fin 4096) :
    expRow z (ix2 i j) = Cert.Spec.sexp (fun k => z (ix2 i k)) j := by
  unfold expRow
  rw [hexp_apply, subf_apply, rowMaxFull_apply]
  rfl

/-- Each row's sum from the literal zero, spread over the row. -/
def rowSumFull (e : FVec Ideal S4096x4096 .f32) : FVec Ideal S4096x4096 .f32 :=
  broadcastInDim S4096x4096 ![0, 1] bcast_S4096x1_S4096x4096_0_1 (broadcastInDim S4096x1 ![0] bcast_S4096_S4096x1_0
    (Host.reduceAdd e (constant (F := Ideal) S_ .f32 0x00000000#32) reducesTo_S4096x4096_S4096_d1 h_S_))

theorem rowSumFull_apply (e : FVec Ideal S4096x4096 .f32) (i j : Fin 4096) :
    rowSumFull e (ix2 i j) = Cert.Spec.zero + ∑ k : Fin 4096, e (ix2 i k) := by
  unfold rowSumFull
  rw [bcol_apply, bvec_apply, rowsum_apply]

/-- The reference's soft-max along the rows. -/
def rowSoftmax (z : FVec Ideal S4096x4096 .f32) : FVec Ideal S4096x4096 .f32 :=
  Host.divf (expRow z) (rowSumFull (expRow z))

/-- The row soft-max at an entry: the numerator over the literal zero plus the row's sum of numerators. -/
theorem rowSoftmax_apply (z : FVec Ideal S4096x4096 .f32) (i j : Fin 4096) :
    rowSoftmax z (ix2 i j)
      = Ideal.div (Cert.Spec.sexp (fun k => z (ix2 i k)) j) (Cert.Spec.zero + ∑ k, Cert.Spec.sexp (fun k => z (ix2 i k)) k) := by
  unfold rowSoftmax
  rw [hostDivf_apply, expRow_apply, rowSumFull_apply]
  exact congrArg (fun s => Ideal.div _ (Cert.Spec.zero + s)) (Finset.sum_congr rfl fun k _ => expRow_apply z i k)

/-! ## Layer 2's logits -/

theorem t_v65_apply (i : Fin 4096) (k : Fin 300) :
    t_v65 A (ix2 i k) = ∑ j, Cert.Spec.x1R A.inputs i j * A.inputs.Wo j k := by
  refine (dotA_apply (t_v64 A) (t_arg7 A) i k).trans ?_
  exact Finset.sum_congr rfl fun j _ => by rw [t_v64_apply]; rfl

theorem t_v66_apply (k : Fin 300) : t_v66 A (ix2 k 0) = A.inputs.ao (Cert.Spec.lo k) :=
  slice2_axis0_apply 0 (t_arg8 A) slices_S600x1_S300x1_0_0 k 0 (Cert.Spec.lo k) (Nat.zero_add _).symm

theorem t_v68_apply (k : Fin 300) : t_v68 A (ix2 k 0) = A.inputs.ao (Cert.Spec.hi k) :=
  slice2_axis0_apply 300 (t_arg8 A) slices_S600x1_S300x1_300_0 k 0 (Cert.Spec.hi k) (Nat.add_comm _ _)

theorem t_v67_apply (i : Fin 4096) : t_v67 A (ix2 i 0) = Cert.Spec.g1R A.inputs i := by
  refine (dotB_apply (t_v65 A) (t_v66 A) i 0).trans ?_
  exact Finset.sum_congr rfl fun k _ => by rw [t_v65_apply, t_v66_apply]

theorem t_v69_apply (i : Fin 4096) : t_v69 A (ix2 i 0) = Cert.Spec.g2R A.inputs i := by
  refine (dotB_apply (t_v65 A) (t_v68 A) i 0).trans ?_
  exact Finset.sum_congr rfl fun k _ => by rw [t_v65_apply, t_v68_apply]

theorem t_v73_apply (i j : Fin 4096) :
    t_v73 A (ix2 i j) = Cert.Spec.g1R A.inputs i + Cert.Spec.g2R A.inputs j := by
  unfold t_v73
  rw [addf_apply]
  unfold t_v71 t_v72 t_v70
  beta_reduce
  rw [bcol_apply, brow_apply, tcol_apply, t_v67_apply, t_v69_apply]

theorem t_v74_eq : t_v74 A = lreluArr (t_v73 A) := rfl

theorem t_v74_apply (i j : Fin 4096) :
    t_v74 A (ix2 i j) = Cert.Spec.lrelu (Cert.Spec.g1R A.inputs i + Cert.Spec.g2R A.inputs j) := by
  rw [t_v74_eq, lreluArr_apply, t_v73_apply]

theorem t_v75_eq : t_v75 A = maskFill (t_v23 A) (t_v74 A) := rfl

/-- The kept keys' logits of query row `i`. -/
theorem t_v75_apply (i j : Fin 4096) :
    t_v75 A (ix2 i j)
      = Cert.Spec.zpos (Cert.Spec.maskR (Cert.Spec.um A.inputs i) (Cert.Spec.vm A.inputs) (A.inputs.adj i))
          (Cert.Spec.g1R A.inputs i) (Cert.Spec.g2R A.inputs) j := by
  rw [t_v75_eq, maskFill_apply, t_v23_apply, t_v74_apply]
  rfl

/-! ## Layer 2's two weight rows, the aggregation and the projection -/

/-- Query row `i`'s mask, kept logits and kept negated logits, as the specification names them. -/
abbrev mask2 (i : Fin 4096) : Fin 4096 → BitVec 1 :=
  Cert.Spec.maskR (Cert.Spec.um A.inputs i) (Cert.Spec.vm A.inputs) (A.inputs.adj i)
abbrev zpos2 (i : Fin 4096) : Fin 4096 → EReal :=
  Cert.Spec.zpos (mask2 A i) (Cert.Spec.g1R A.inputs i) (Cert.Spec.g2R A.inputs)
abbrev zneg2 (i : Fin 4096) : Fin 4096 → EReal :=
  Cert.Spec.znegR (mask2 A i) (Cert.Spec.g1R A.inputs i) (Cert.Spec.g2R A.inputs)

theorem t_v86_eq : t_v86 A = rowSoftmax (t_v75 A) := rfl

/-- The positive weights, normalised. -/
theorem t_v86_apply (i j : Fin 4096) :
    t_v86 A (ix2 i j)
      = Ideal.div (Cert.Spec.sexp (zpos2 A i) j) (Cert.Spec.zero + ∑ k, Cert.Spec.sexp (zpos2 A i) k) := by
  have hz : (fun k => t_v75 A (ix2 i k)) = zpos2 A i := funext fun k => t_v75_apply A i k
  rw [t_v86_eq, rowSoftmax_apply, hz]

theorem t_v88_eq : t_v88 A = maskFill (t_v23 A) (Host.negf (t_v74 A)) := rfl

/-- The kept keys' negated logits of query row `i`. -/
theorem t_v88_apply (i j : Fin 4096) : t_v88 A (ix2 i j) = zneg2 A i j := by
  rw [t_v88_eq, maskFill_apply, t_v23_apply, hneg_apply, t_v74_apply]
  rfl

theorem t_v99_eq : t_v99 A = rowSoftmax (t_v88 A) := rfl

/-- The negative weights, normalised and negated. -/
theorem t_v100_apply (i j : Fin 4096) :
    t_v100 A (ix2 i j)
      = -Ideal.div (Cert.Spec.sexp (zneg2 A i) j) (Cert.Spec.zero + ∑ k, Cert.Spec.sexp (zneg2 A i) k) := by
  have hz : (fun k => t_v88 A (ix2 i k)) = zneg2 A i := funext fun k => t_v88_apply A i k
  unfold t_v100
  rw [hneg_apply, t_v99_eq, rowSoftmax_apply, hz]

/-- The positive aggregate of layer 1's output. -/
theorem t_v101_apply (i : Fin 4096) (k : Fin 300) :
    t_v101 A (ix2 i k)
      = ∑ j, Ideal.div (Cert.Spec.sexp (zpos2 A i) j) (Cert.Spec.zero + ∑ l, Cert.Spec.sexp (zpos2 A i) l)
          * Cert.Spec.x1R A.inputs j k := by
  refine (dotC_apply (t_v86 A) (t_v64 A) i k).trans ?_
  exact Finset.sum_congr rfl fun j _ => by rw [t_v86_apply, t_v64_apply]

/-- The negative aggregate of layer 1's output. -/
theorem t_v102_apply (i : Fin 4096) (k : Fin 300) :
    t_v102 A (ix2 i k)
      = ∑ j, (-Ideal.div (Cert.Spec.sexp (zneg2 A i) j) (Cert.Spec.zero + ∑ l, Cert.Spec.sexp (zneg2 A i) l))
          * Cert.Spec.x1R A.inputs j k := by
  refine (dotC_apply (t_v100 A) (t_v64 A) i k).trans ?_
  exact Finset.sum_congr rfl fun j _ => by rw [t_v100_apply, t_v64_apply]

/-- The concatenated pair of aggregates: the positive one in the first 300 columns, the negative one after. -/
theorem t_v103_apply (i : Fin 4096) (k : Fin 600) :
    t_v103 A (ix2 i k)
      = Cert.Spec.hcat (mask2 A i) (Cert.Spec.g1R A.inputs i) (Cert.Spec.g2R A.inputs) (Cert.Spec.x1R A.inputs) k := by
  unfold Cert.Spec.hcat
  by_cases h : k.val < 300
  · rw [dif_pos h]
    refine (concatenate_pair_apply_left (1 : Fin 2) (t_v101 A) (t_v102 A) concatenates_S4096x300_S4096x300_S4096x600_d1
      (ix2 i k) rfl (ix2 i (⟨k.val, h⟩ : Fin 300)) (fun b => match b with | ⟨0, _⟩ => rfl | ⟨1, _⟩ => rfl)).trans ?_
    exact t_v101_apply A i ⟨k.val, h⟩
  · rw [dif_neg h]
    have hk : k.val - 300 < 300 := by have := k.isLt; omega
    refine (concatenate_pair_apply_right (1 : Fin 2) (t_v101 A) (t_v102 A) concatenates_S4096x300_S4096x300_S4096x600_d1
      (ix2 i k) rfl rfl (ix2 i (⟨k.val - 300, hk⟩ : Fin 300))
      (fun b hb => match b, hb with | ⟨0, _⟩, _ => rfl | ⟨1, _⟩, hb => absurd rfl hb)
      (by show (k.val - 300) + 300 = k.val; omega)).trans ?_
    exact t_v102_apply A i ⟨k.val - 300, hk⟩

/-- Layer 2's row before the logistic function. -/
theorem t_v104_apply (i : Fin 4096) (d : Fin 300) :
    t_v104 A (ix2 i d)
      = Cert.Spec.rowR (mask2 A i) (Cert.Spec.g1R A.inputs i) (Cert.Spec.g2R A.inputs) (Cert.Spec.x1R A.inputs)
          A.inputs.wto d := by
  refine (dotD_apply (t_v103 A) (t_arg9 A) i d).trans ?_
  exact Finset.sum_congr rfl fun k _ => by rw [t_v103_apply]; rfl

/-- Layer 2's output after the logistic function, at every query row. -/
theorem t_v110_apply (i : Fin 4096) (d : Fin 300) : t_v110 A (ix2 i d) = Cert.Spec.x2R A.inputs i d := by
  unfold t_v110
  rw [hostDivf_apply]
  unfold t_v109 t_v108
  rw [addf_apply]
  unfold t_v107 t_v106 t_v105
  rw [broadcastInDim_scalar_apply, broadcastInDim_scalar_apply, hexp_apply, hneg_apply, t_v104_apply]
  rfl

/-! ## The final gather -/

/-- On the row axis the gather's operand index is the start word, read signed and clamped into [0, 4095]. -/
theorem gather_axis0 (idx : IVec S64x1 32) (r : Fin 64) (d : Fin 300) :
    (gather_S4096x300_S64x1_S64x300_1_0_n_n_0_1_1300.operandIdx (ix2 r d) idx (0 : Fin 2)).val = min (idx (ix2 r 0)).toInt.toNat 4095 := by
  show gather_S4096x300_S64x1_S64x300_1_0_n_n_0_1_1300.start (ix2 r d) idx 0 + gather_S4096x300_S64x1_S64x300_1_0_n_n_0_1_1300.batchCoord (ix2 r d) 0 + gather_S4096x300_S64x1_S64x300_1_0_n_n_0_1_1300.offCoord (ix2 r d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S4096x300_S64x1_S64x300_1_0_n_n_0_1_1300.startIndexMap from List.mem_singleton.mpr rfl)]
  have hsi : gather_S4096x300_S64x1_S64x300_1_0_n_n_0_1_1300.siIdx (ix2 r d) ⟨List.idxOf (0 : Fin 2) gather_S4096x300_S64x1_S64x300_1_0_n_n_0_1_1300.startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- On the column axis it is the result's column. -/
theorem gather_axis1 (idx : IVec S64x1 32) (r : Fin 64) (d : Fin 300) :
    (gather_S4096x300_S64x1_S64x300_1_0_n_n_0_1_1300.operandIdx (ix2 r d) idx (1 : Fin 2)).val = d.val := by
  show gather_S4096x300_S64x1_S64x300_1_0_n_n_0_1_1300.start (ix2 r d) idx 1 + gather_S4096x300_S64x1_S64x300_1_0_n_n_0_1_1300.batchCoord (ix2 r d) 1 + gather_S4096x300_S64x1_S64x300_1_0_n_n_0_1_1300.offCoord (ix2 r d) 1 = _
  rw [GatherDims.batchCoord_eq_zero _ _ _ List.not_mem_nil]
  unfold GatherDims.start
  rw [dif_neg (by decide : ¬ (1 : Fin 2) ∈ gather_S4096x300_S64x1_S64x300_1_0_n_n_0_1_1300.startIndexMap)]
  simp only [Nat.zero_add, Nat.add_zero]
  unfold GatherDims.offCoord
  rw [dif_pos (by decide : (1 : Fin 2) ∈ gather_S4096x300_S64x1_S64x300_1_0_n_n_0_1_1300.sKept)]
  rfl

/-- The gather of whole rows read at an entry: the operand's row at the clamped start word. -/
theorem gather_rows_apply {α : Type} (x : S4096x300.Idx → α) (idx : IVec S64x1 32) (r : Fin 64) (d : Fin 300) :
    Host.gather gather_S4096x300_S64x1_S64x300_1_0_n_n_0_1_1300 x idx (ix2 r d)
      = x (ix2 (⟨min (idx (ix2 r 0)).toInt.toNat 4095, by omega⟩ : Fin 4096) d) := by
  unfold Host.gather
  refine congrArg x (funext fun a => Fin.ext ?_)
  match a with
  | ⟨0, _⟩ => exact gather_axis0 idx r d
  | ⟨1, _⟩ => exact gather_axis1 idx r d

/-- A vector of 64 words made a column reads the vector's entry. -/
theorem bidx_apply {α : Type} (v : S64.Idx → α) (r : Fin 64) (o : Fin 1) :
    broadcastInDim S64x1 ![0] bcast_S64_S64x1_0 v (ix2 r o) = v (ix1 r) :=
  broadcastInDim_apply _ _ v _ (ix1 r) fun a => match a with | ⟨0, _⟩ => rfl

/-- The start word of result row `r`: the index word, wrapped by 4096 when negative. -/
theorem t_v116_apply (r : Fin 64) :
    t_v116 A (ix2 r 0)
      = Scalar.select (IntOp.cmpi .slt (A.inputs.tid r) 0#32) (A.inputs.tid r + 4096#32) (A.inputs.tid r) := by
  unfold t_v116
  rw [bidx_apply]
  rfl

/-- The program's result at an element. -/
theorem t_v117_apply (r : Fin 64) (d : Fin 300) : t_v117 A (ix2 r d) = Cert.Spec.outR A.inputs r d := by
  refine (gather_rows_apply (t_v110 A) (t_v116 A) r d).trans ?_
  rw [t_v110_apply]
  exact congrArg (fun q => Cert.Spec.x2R A.inputs q d)
    (Fin.ext (congrArg (fun w : BitVec 32 => min w.toInt.toNat 4095) (t_v116_apply A r)))

end Cert.ReferenceIdeal.Read

end
-- ==== Proof.Math1.lean ====
/-
  One query row, the two arrangements compared over real inputs: the kept-key tests agree (`p · 4096 > s` against
  `p / s > 2⁻¹²`, the row sum `s` positive and finite), the projected aggregates agree (normalising after the
  aggregation against before it; two 300-term sums against one 600-term sum; `0 - x` against `-x`), the two ELU forms
  and the two logistic forms agree, and every quantity stays a real number.
-/
import proofs.«428251_j16982300688849_3_alg».proof.Proof.Spec

noncomputable section

namespace Cert.Spec

open Idealize.ShloMosaic
open scoped BigOperators

/-- A family of extended reals all of whose entries are real numbers. -/
def IsReal {ι : Type} (x : ι → EReal) : Prop := ∀ i, ∃ r : ℝ, x i = r

/-! ## The literals' values -/

/-- The word of 4096 denotes the real 4096. -/
theorem big_eq : big = ((4096 : ℝ) : EReal) := by
  simp [big, Ideal.ofBits, Ideal.ieee, -EReal.coe_mul]; norm_num

/-- The word of 2⁻¹² denotes the real 1/4096. -/
theorem thr_eq : thr = (((1 : ℝ) / 4096 : ℝ) : EReal) := by
  simp [thr, Ideal.ofBits, Ideal.ieee, -EReal.coe_mul]; norm_num

/-- The word of 1 denotes the real 1. -/
theorem one_eq : one = ((1 : ℝ) : EReal) := by
  simp [one, Ideal.ofBits, Ideal.ieee, -EReal.coe_mul]; norm_num

/-- The word of 1 denotes the unit of the extended reals. -/
theorem one_eq_one : one = (1 : EReal) := by rw [one_eq, EReal.coe_one]

/-- The word of +0 denotes the zero of the extended reals. -/
theorem zero_eq_zero : zero = (0 : EReal) := by
  simp [zero, Ideal.ofBits, Ideal.ieee]

/-- The slope's word denotes a real number. -/
theorem slope_real : ∃ r : ℝ, slope = r := by
  simp [slope, Ideal.ofBits, Ideal.ieee, -EReal.coe_mul] <;> try exact ⟨_, rfl⟩

/-- The fill value's word denotes a real number. -/
theorem fill_real : ∃ r : ℝ, fill = r := by
  simp [fill, Ideal.ofBits, Ideal.ieee, -EReal.coe_mul] <;> try exact ⟨_, rfl⟩

/-! ## Real families -/

/-- A family of real entries is the coercion of a family of reals. -/
theorem IsReal.exists_fun {ι : Type} {x : ι → EReal} (h : IsReal x) :
    ∃ f : ι → ℝ, x = fun i => ((f i : ℝ) : EReal) := by
  unfold IsReal at h
  choose f hf using h
  exact ⟨f, funext hf⟩

/-- The coercion of a family of reals has real entries. -/
theorem isReal_coe {ι : Type} (f : ι → ℝ) : IsReal (fun i => ((f i : ℝ) : EReal)) := fun i => ⟨f i, rfl⟩

/-- The coercion commutes with finite sums. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Leaky ReLU of a real number is a real number. -/
theorem lrelu_real (x : EReal) (hx : ∃ r : ℝ, x = r) : ∃ r : ℝ, lrelu x = r := by
  obtain ⟨r, rfl⟩ := hx
  obtain ⟨s, hs⟩ := slope_real
  unfold lrelu Scalar.select
  split
  · exact ⟨r, rfl⟩
  · exact ⟨s * r, by rw [hs, EReal.coe_mul]⟩

/-- The sum of two real numbers is a real number. -/
theorem add_real (x y : EReal) (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- The mask's own logits are real. -/
theorem mlog_real (um : EReal) (vm : Fin 4096 → EReal) (hum : ∃ r : ℝ, um = r) (hvm : IsReal vm) :
    IsReal (mlog um vm) := fun j => lrelu_real _ (add_real _ _ hum (hvm j))

/-- The kept keys' logits are real, whatever the mask. -/
theorem zpos_real (mask : Fin 4096 → BitVec 1) (uh : EReal) (vh : Fin 4096 → EReal) (huh : ∃ r : ℝ, uh = r)
    (hvh : IsReal vh) : IsReal (zpos mask uh vh) := by
  intro j
  unfold zpos Scalar.select
  split
  · exact lrelu_real _ (add_real _ _ huh (hvh j))
  · exact fill_real

/-- The negated logits are real, whatever the mask. -/
theorem znegR_real (mask : Fin 4096 → BitVec 1) (uh : EReal) (vh : Fin 4096 → EReal) (huh : ∃ r : ℝ, uh = r)
    (hvh : IsReal vh) : IsReal (znegR mask uh vh) := by
  intro j
  unfold znegR Scalar.select
  split
  · obtain ⟨r, hr⟩ := lrelu_real _ (add_real _ _ huh (hvh j))
    exact ⟨-r, by rw [hr, EReal.coe_neg]⟩
  · exact fill_real

/-- The two negations agree: `0 - e = -e`. -/
theorem znegK_eq_znegR (mask : Fin 4096 → BitVec 1) (uh : EReal) (vh : Fin 4096 → EReal) :
    znegK mask uh vh = znegR mask uh vh := by
  funext j
  unfold znegK znegR
  rw [zero_eq_zero, zero_sub]

/-! ## The row maximum and the soft-max numerators -/

/-- The maximum of a row of real numbers is a real number. -/
theorem rmax_real (z : Fin 4096 → EReal) (hz : IsReal z) : ∃ M : ℝ, rmax z = M := by
  have h1 : rmax z ≠ ⊤ := by
    apply ne_of_lt
    unfold rmax
    rw [Finset.fold_max_lt]
    refine ⟨bot_lt_top, fun x _ => ?_⟩
    obtain ⟨r, hr⟩ := hz x
    rw [hr]; exact EReal.coe_lt_top r
  have h2 : rmax z ≠ ⊥ := by
    apply ne_of_gt
    unfold rmax
    rw [Finset.lt_fold_max]
    right
    refine ⟨0, Finset.mem_univ _, ?_⟩
    obtain ⟨r, hr⟩ := hz 0
    rw [hr]; exact EReal.bot_lt_coe r
  exact ⟨(rmax z).toReal, (EReal.coe_toReal h1 h2).symm⟩

/-- The soft-max numerators of a real row are positive reals, and so is their sum. -/
theorem sexp_real (z : Fin 4096 → EReal) (hz : IsReal z) :
    ∃ p : Fin 4096 → ℝ, (∀ j, sexp z j = ((p j : ℝ) : EReal)) ∧ 0 < ∑ j, p j := by
  obtain ⟨M, hM⟩ := rmax_real z hz
  obtain ⟨f, rfl⟩ := hz.exists_fun
  refine ⟨fun j => Real.exp (f j - M), fun j => ?_, ?_⟩
  · unfold sexp
    rw [hM, ← EReal.coe_sub, Ideal.exp_coe]
  · exact Finset.sum_pos (fun j _ => Real.exp_pos _) ⟨0, Finset.mem_univ _⟩

/-! ## The kept-key tests -/

theorem maskK_eq_maskR (um : EReal) (vm : Fin 4096 → EReal) (arow : Fin 4096 → BitVec 32)
    (hum : ∃ r : ℝ, um = r) (hvm : IsReal vm) : maskK um vm arow = maskR um vm arow := by
  obtain ⟨p, hp, hs⟩ := sexp_real (mlog um vm) (mlog_real um vm hum hvm)
  funext j
  unfold maskK maskR
  congr 1
  simp only [hp, coe_sum]
  have hs0 : (∑ i, p i) ≠ 0 := ne_of_gt hs
  rw [zero_eq_zero, zero_add, Ideal.div_coe hs0, big_eq, thr_eq, ← EReal.coe_mul, ← EReal.coe_mul]
  unfold Ideal.cmp
  simp only [EReal.coe_lt_coe_iff]
  congr 1
  rw [decide_eq_decide, ← div_eq_mul_one_div, lt_div_iff₀ hs]
  constructor <;> intro h <;> linarith

/-! ## The aggregates -/

/-- Normalising after the aggregation against before it: `(Σ p·x) · (1/s) = Σ (p/(0+s)) · x`. -/
theorem agg_pos_eq {n : Nat} (p x : Fin n → ℝ) (s : ℝ) (hs : s ≠ 0) :
    (∑ j, ((p j : ℝ) : EReal) * ((x j : ℝ) : EReal)) * Ideal.div one ((s : ℝ) : EReal)
      = ∑ j, Ideal.div ((p j : ℝ) : EReal) (zero + ((s : ℝ) : EReal)) * ((x j : ℝ) : EReal) := by
  rw [zero_eq_zero, zero_add, one_eq]
  simp only [Ideal.div_coe hs, ← EReal.coe_mul, coe_sum]
  congr 1
  rw [Finset.sum_mul]
  exact Finset.sum_congr rfl fun j _ => by ring

/-- The same of the negated aggregate: `0 - (Σ p·x) · (1/s) = Σ (-(p/(0+s))) · x`. -/
theorem agg_neg_eq {n : Nat} (p x : Fin n → ℝ) (s : ℝ) (hs : s ≠ 0) :
    zero - (∑ j, ((p j : ℝ) : EReal) * ((x j : ℝ) : EReal)) * Ideal.div one ((s : ℝ) : EReal)
      = ∑ j, (-Ideal.div ((p j : ℝ) : EReal) (zero + ((s : ℝ) : EReal))) * ((x j : ℝ) : EReal) := by
  rw [zero_eq_zero, zero_add, zero_sub, one_eq]
  simp only [Ideal.div_coe hs, ← EReal.coe_mul, ← EReal.coe_neg, coe_sum]
  congr 1
  rw [Finset.sum_mul, ← Finset.sum_neg_distrib]
  exact Finset.sum_congr rfl fun j _ => by ring

/-- A normalised aggregate of real numbers is a real number. -/
theorem agg_pos_real {n : Nat} (p x : Fin n → ℝ) (s : ℝ) (hs : s ≠ 0) :
    ∃ r : ℝ, ∑ j, Ideal.div ((p j : ℝ) : EReal) (zero + ((s : ℝ) : EReal)) * ((x j : ℝ) : EReal) = r := by
  rw [zero_eq_zero, zero_add]
  simp only [Ideal.div_coe hs, ← EReal.coe_mul, coe_sum]
  exact ⟨_, rfl⟩

/-- A negated normalised aggregate of real numbers is a real number. -/
theorem agg_neg_real {n : Nat} (p x : Fin n → ℝ) (s : ℝ) (hs : s ≠ 0) :
    ∃ r : ℝ, ∑ j, (-Ideal.div ((p j : ℝ) : EReal) (zero + ((s : ℝ) : EReal))) * ((x j : ℝ) : EReal) = r := by
  rw [zero_eq_zero, zero_add]
  simp only [Ideal.div_coe hs, ← EReal.coe_mul, ← EReal.coe_neg, coe_sum]
  exact ⟨_, rfl⟩

/-- A sum over 600 indices is the sum over the first 300 plus the sum over the last 300. -/
theorem sum_600 (f : Fin 600 → EReal) : ∑ k, f k = ∑ k : Fin 300, f (lo k) + ∑ k : Fin 300, f (hi k) := by
  rw [show (∑ k : Fin 600, f k) = ∑ k : Fin (300 + 300), f k from rfl, Fin.sum_univ_add]
  congr 1

/-- The reference's concatenated aggregate at a first-half index. -/
theorem hcat_lo (mask : Fin 4096 → BitVec 1) (uh : EReal) (vh : Fin 4096 → EReal) (inp : Fin 4096 → Fin 300 → EReal)
    (k : Fin 300) :
    hcat mask uh vh inp (lo k)
      = ∑ j, Ideal.div (sexp (zpos mask uh vh) j) (zero + ∑ i, sexp (zpos mask uh vh) i) * inp j k := by
  unfold hcat
  rw [dif_pos (show (lo k).val < 300 from k.isLt)]
  rfl

/-- The reference's concatenated aggregate at a second-half index. -/
theorem hcat_hi (mask : Fin 4096 → BitVec 1) (uh : EReal) (vh : Fin 4096 → EReal) (inp : Fin 4096 → Fin 300 → EReal)
    (k : Fin 300) :
    hcat mask uh vh inp (hi k)
      = ∑ j, (-Ideal.div (sexp (znegR mask uh vh) j) (zero + ∑ i, sexp (znegR mask uh vh) i)) * inp j k := by
  unfold hcat
  rw [dif_neg (show ¬ (hi k).val < 300 by simp only [hi]; omega)]
  refine Finset.sum_congr rfl fun j _ => ?_
  congr 2

/-- Every entry of the reference's concatenated aggregate is real. -/
theorem hcat_real (mask : Fin 4096 → BitVec 1) (uh : EReal) (vh : Fin 4096 → EReal) (inp : Fin 4096 → Fin 300 → EReal)
    (huh : ∃ r : ℝ, uh = r) (hvh : IsReal vh) (hinp : ∀ j, IsReal (inp j)) : IsReal (hcat mask uh vh inp) := by
  unfold IsReal at hinp
  choose X hX using hinp
  obtain ⟨p, hp, hps⟩ := sexp_real _ (zpos_real mask uh vh huh hvh)
  obtain ⟨q, hq, hqs⟩ := sexp_real _ (znegR_real mask uh vh huh hvh)
  intro k
  unfold hcat
  split
  · simp only [hp, hX, coe_sum]
    exact agg_pos_real p _ _ (ne_of_gt hps)
  · simp only [hq, hX, coe_sum]
    exact agg_neg_real q _ _ (ne_of_gt hqs)

theorem rowK_eq_rowR (mask : Fin 4096 → BitVec 1) (uh : EReal) (vh : Fin 4096 → EReal) (inp : Fin 4096 → Fin 300 → EReal)
    (w : Fin 600 → Fin 300 → EReal) (huh : ∃ r : ℝ, uh = r) (hvh : IsReal vh) (hinp : ∀ j, IsReal (inp j)) (hw : ∀ k, IsReal (w k))
    (d : Fin 300) :
    rowK mask uh vh inp (fun k => w (lo k)) (fun k => w (hi k)) d = rowR mask uh vh inp w d := by
  unfold IsReal at hinp
  choose X hX using hinp
  obtain ⟨p, hp, hps⟩ := sexp_real _ (zpos_real mask uh vh huh hvh)
  obtain ⟨q, hq, hqs⟩ := sexp_real _ (znegR_real mask uh vh huh hvh)
  unfold rowK rowR
  rw [sum_600, znegK_eq_znegR]
  congr 1
  · refine Finset.sum_congr rfl fun k _ => ?_
    rw [hcat_lo]
    simp only [hp, hX, coe_sum]
    rw [agg_pos_eq p _ _ (ne_of_gt hps)]
  · refine Finset.sum_congr rfl fun k _ => ?_
    rw [hcat_hi]
    simp only [hq, hX, coe_sum]
    rw [agg_neg_eq q _ _ (ne_of_gt hqs)]

/-- A finite sum of products of real numbers is a real number. -/
theorem sum_mul_real {n : Nat} (a b : Fin n → EReal) (ha : IsReal a) (hb : IsReal b) : ∃ r : ℝ, ∑ k, a k * b k = r := by
  obtain ⟨f, rfl⟩ := ha.exists_fun
  obtain ⟨g, rfl⟩ := hb.exists_fun
  simp only [← EReal.coe_mul, coe_sum]
  exact ⟨_, rfl⟩

theorem rowR_real (mask : Fin 4096 → BitVec 1) (uh : EReal) (vh : Fin 4096 → EReal) (inp : Fin 4096 → Fin 300 → EReal)
    (w : Fin 600 → Fin 300 → EReal) (huh : ∃ r : ℝ, uh = r) (hvh : IsReal vh) (hinp : ∀ j, IsReal (inp j)) (hw : ∀ k, IsReal (w k))
    (d : Fin 300) : ∃ r : ℝ, rowR mask uh vh inp w d = r := by
  unfold rowR
  exact sum_mul_real _ (fun k => w k d) (hcat_real mask uh vh inp huh hvh hinp) (fun k => hw k d)

/-! ## The activations -/

theorem eluK_eq_eluR (x : EReal) (hx : ∃ r : ℝ, x = r) : eluK x = eluR x := by
  by_cases h : Ideal.cmp .ogt x zero = 1
  · simp only [eluK, eluR, Scalar.select, if_pos h]
  · simp only [eluK, eluR, Scalar.select, if_neg h, one_eq_one, one_mul]

theorem eluR_real (x : EReal) (hx : ∃ r : ℝ, x = r) : ∃ r : ℝ, eluR x = r := by
  by_cases h : Ideal.cmp .ogt x zero = 1
  · simp only [eluR, Scalar.select, if_pos h]
    exact hx
  · obtain ⟨r, rfl⟩ := hx
    simp only [eluR, Scalar.select, if_neg h, one_eq_one, one_mul]
    exact ⟨Real.exp r - 1, by rw [Ideal.exp_coe, EReal.coe_sub, EReal.coe_one]⟩

theorem sigK_eq_sigR (x : EReal) (hx : ∃ r : ℝ, x = r) : sigK x = sigR x := by
  unfold sigK sigR Ideal.logistic
  rw [one_eq_one]

/-- Re-association of a double sum of real numbers: `Σ_k (Σ_j x j · w j k) · a k = Σ_j x j · (Σ_k w j k · a k)`. -/
theorem sum_assoc_real {n p : Nat} (x : Fin n → EReal) (w : Fin n → Fin p → EReal) (a : Fin p → EReal)
    (hx : IsReal x) (hw : ∀ j, IsReal (w j)) (ha : IsReal a) :
    ∑ k, (∑ j, x j * w j k) * a k = ∑ j, x j * (∑ k, w j k * a k) := by
  obtain ⟨f, rfl⟩ := hx.exists_fun
  obtain ⟨g, rfl⟩ := ha.exists_fun
  unfold IsReal at hw
  choose W hW using hw
  simp only [hW, ← EReal.coe_mul, coe_sum]
  congr 1
  simp only [Finset.sum_mul, Finset.mul_sum]
  rw [Finset.sum_comm]
  exact Finset.sum_congr rfl fun j _ => Finset.sum_congr rfl fun k _ => by ring

end Cert.Spec

end
-- ==== Proof.Math2.lean ====
/-
  The two programs' results agree over real inputs: the mask logits are real, layer 1's logits agree by re-association
  (`X · (W · a) = (X · W) · a`), so layer 1's outputs agree row by row and are real; the same again for layer 2 over
  layer 1's output; the gathered rows are the same rows.
-/
import proofs.«428251_j16982300688849_3_alg».proof.Proof.Math1

noncomputable section

namespace Cert.Spec

open Idealize.ShloMosaic
open scoped BigOperators

variable (I : Inputs)

/-! ## The mask logits are real -/

/-- Every entry of `X · Wd` is a real number. -/
theorem hD_real (h : I.Real) (i : Fin 4096) (k : Fin 300) : ∃ r : ℝ, hD I i k = r :=
  sum_mul_real (fun j => I.X i j) (fun j => I.Wd j k) (fun j => h.X i j) (fun j => h.Wd j k)

/-- The query mask-logit `(X · Wd) · a1` is a real number. -/
theorem um_real (h : I.Real) (i : Fin 4096) : ∃ r : ℝ, um I i = r :=
  sum_mul_real (fun k => hD I i k) (fun k => I.a1 k) (fun k => hD_real I h i k) (fun k => h.a1 k)

/-- The key mask-logits `(X · Wd) · a2` are real numbers. -/
theorem vm_real (h : I.Real) : IsReal (vm I) := fun i =>
  sum_mul_real (fun k => hD I i k) (fun k => I.a2 k) (fun k => hD_real I h i k) (fun k => h.a2 k)

/-! ## Layer 1's logits: `X · (W1 · a) = (X · W1) · a`, and they are real -/

/-- Every entry of `X · W1` is a real number. -/
theorem xW1_real (h : I.Real) (i : Fin 4096) (k : Fin 300) : ∃ r : ℝ, (∑ j, I.X i j * I.W1 j k) = r :=
  sum_mul_real (fun j => I.X i j) (fun j => I.W1 j k) (fun j => h.X i j) (fun j => h.W1 j k)

theorem f1K_eq_f1R (h : I.Real) (i : Fin 4096) : f1K I i = f1R I i :=
  (sum_assoc_real (fun j => I.X i j) (fun j k => I.W1 j k) (fun k => I.ah (lo k))
    (fun j => h.X i j) (fun j k => h.W1 j k) (fun k => h.ah (lo k))).symm

theorem f2K_eq_f2R (h : I.Real) : f2K I = f2R I := by
  funext i
  exact (sum_assoc_real (fun j => I.X i j) (fun j k => I.W1 j k) (fun k => I.ah (hi k))
    (fun j => h.X i j) (fun j k => h.W1 j k) (fun k => h.ah (hi k))).symm

theorem f1R_real (h : I.Real) (i : Fin 4096) : ∃ r : ℝ, f1R I i = r :=
  sum_mul_real (fun k => ∑ j, I.X i j * I.W1 j k) (fun k => I.ah (lo k)) (fun k => xW1_real I h i k)
    (fun k => h.ah (lo k))

theorem f2R_real (h : I.Real) : IsReal (f2R I) := fun i =>
  sum_mul_real (fun k => ∑ j, I.X i j * I.W1 j k) (fun k => I.ah (hi k)) (fun k => xW1_real I h i k)
    (fun k => h.ah (hi k))

/-! ## Layer 1 -/

/-- Layer 1's pre-activation row value, the reference's arrangement, is a real number. -/
theorem row1R_real (h : I.Real) (i : Fin 4096) (d : Fin 300) :
    ∃ r : ℝ, rowR (maskR (um I i) (vm I) (I.adj i)) (f1R I i) (f2R I) I.X I.wt1 d = r :=
  rowR_real _ (f1R I i) (f2R I) I.X I.wt1 (f1R_real I h i) (f2R_real I h) (fun j k => h.X j k)
    (fun k d => h.wt1 k d) d

theorem x1K_eq_x1R (h : I.Real) (i : Fin 4096) (d : Fin 300) : x1K I i d = x1R I i d := by
  unfold x1K x1R
  rw [maskK_eq_maskR (um I i) (vm I) (I.adj i) (um_real I h i) (vm_real I h), f1K_eq_f1R I h i, f2K_eq_f2R I h,
    rowK_eq_rowR _ (f1R I i) (f2R I) I.X I.wt1 (f1R_real I h i) (f2R_real I h) (fun j k => h.X j k)
      (fun k d => h.wt1 k d) d]
  exact eluK_eq_eluR _ (row1R_real I h i d)

theorem x1R_real (h : I.Real) (i : Fin 4096) (d : Fin 300) : ∃ r : ℝ, x1R I i d = r := by
  unfold x1R
  exact eluR_real _ (row1R_real I h i d)

/-- Layer 1's outputs agree as whole tables. -/
theorem x1K_eq_x1R_fun (h : I.Real) : x1K I = x1R I := by
  funext i d
  exact x1K_eq_x1R I h i d

/-! ## Layer 2's logits over layer 1's output -/

/-- Every entry of `x1 · Wo` is a real number. -/
theorem xWo_real (h : I.Real) (i : Fin 4096) (k : Fin 300) : ∃ r : ℝ, (∑ j, x1R I i j * I.Wo j k) = r :=
  sum_mul_real (fun j => x1R I i j) (fun j => I.Wo j k) (fun j => x1R_real I h i j) (fun j => h.Wo j k)

theorem g1K_eq_g1R (h : I.Real) (i : Fin 4096) : g1K I i = g1R I i := by
  unfold g1K g1R
  rw [x1K_eq_x1R_fun I h]
  exact (sum_assoc_real (fun j => x1R I i j) (fun j k => I.Wo j k) (fun k => I.ao (lo k))
    (fun j => x1R_real I h i j) (fun j k => h.Wo j k) (fun k => h.ao (lo k))).symm

theorem g2K_eq_g2R (h : I.Real) : g2K I = g2R I := by
  funext i
  unfold g2K g2R
  rw [x1K_eq_x1R_fun I h]
  exact (sum_assoc_real (fun j => x1R I i j) (fun j k => I.Wo j k) (fun k => I.ao (hi k))
    (fun j => x1R_real I h i j) (fun j k => h.Wo j k) (fun k => h.ao (hi k))).symm

theorem g1R_real (h : I.Real) (i : Fin 4096) : ∃ r : ℝ, g1R I i = r :=
  sum_mul_real (fun k => ∑ j, x1R I i j * I.Wo j k) (fun k => I.ao (lo k)) (fun k => xWo_real I h i k)
    (fun k => h.ao (lo k))

theorem g2R_real (h : I.Real) : IsReal (g2R I) := fun i =>
  sum_mul_real (fun k => ∑ j, x1R I i j * I.Wo j k) (fun k => I.ao (hi k)) (fun k => xWo_real I h i k)
    (fun k => h.ao (hi k))

/-! ## Layer 2, and the gathered rows -/

theorem x2K_eq_x2R (h : I.Real) (i : Fin 4096) (d : Fin 300) : x2K I i d = x2R I i d := by
  unfold x2K x2R
  rw [maskK_eq_maskR (um I i) (vm I) (I.adj i) (um_real I h i) (vm_real I h), g1K_eq_g1R I h i, g2K_eq_g2R I h,
    x1K_eq_x1R_fun I h,
    rowK_eq_rowR _ (g1R I i) (g2R I) (x1R I) I.wto (g1R_real I h i) (g2R_real I h) (fun j k => x1R_real I h j k)
      (fun k d => h.wto k d) d]
  exact sigK_eq_sigR _ (rowR_real _ (g1R I i) (g2R I) (x1R I) I.wto (g1R_real I h i) (g2R_real I h)
    (fun j k => x1R_real I h j k) (fun k d => h.wto k d) d)

/-- The two results agree. -/
theorem outK_eq_outR (h : I.Real) (r : Fin 64) (d : Fin 300) : outK I r d = outR I r d := by
  unfold outK outR
  exact x2K_eq_x2R I h (row (I.tid r)) d

end Cert.Spec

end
-- ==== Proof.Finite.lean ====
/-
  From the precondition to real numbers: where every float argument is finite (its absolute value below `+∞`, entry by
  entry), every entry of every float argument is a real number.
-/
import proofs.«428251_j16982300688849_3_alg».proof.Proof.KRun
import proofs.«428251_j16982300688849_3_alg».proof.Proof.Gen.Pre_finite_inputs
import proofs.«428251_j16982300688849_3_alg».proof.Defs
import Idealize.ShloMosaic.Lib.ReduceAll

noncomputable section

namespace Cert.Finite

open Idealize.ShloMosaic Idealize.SL.Sem

/-- The result shape of a reduction over every axis has one index. -/
instance : Subsingleton Cert.Pre_finite_inputs.S_.Idx := ⟨fun a b => funext fun d => d.elim0⟩

/-- The f32 word `0x7F800000` denotes `+∞`. -/
theorem inf_eq_top : Ideal.ofBits .f32 0x7F800000#32 = (⊤ : EReal) := by simp [Ideal.ofBits, Ideal.ieee]

/-- An extended real whose absolute value `max x (-x)` lies below `+∞` is a real number: both infinities have
    absolute value `+∞`. -/
theorem real_of_abs_lt_inf (x : EReal)
    (h : Ideal.cmp .olt (max x (-x)) (Ideal.ofBits .f32 0x7F800000#32) = 1#1) : ∃ r : ℝ, x = r := by
  rw [inf_eq_top] at h
  induction x using EReal.rec with
  | bot => simp [Ideal.cmp] at h
  | coe r => exact ⟨r, rfl⟩
  | top => simp [Ideal.cmp] at h

/-- An array all of whose entries pass the test `|x| < +∞` (the conjunction of the test over every entry being 1) is
    real-valued. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr h0 ValueIdx.ix0 = 1#1)
    (i : s.Idx) : ∃ r : ℝ, x i = r :=
  real_of_abs_lt_inf (x i) (Host.reduce_andi_all _ _ hr h0 _ e i)

/-- Under the precondition the argument arrays of every core are real-valued. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.Run.argsOf m c).inputs.Real := by
  have h1 := congrFun (h c) ValueIdx.ix0
  dsimp only [Cert.Pre_finite_inputs.fn, Cert.Pre_finite_inputs.fn_part1, Cert.Pre_finite_inputs.fn_part2, andi] at h1
  simp only [IntOp.andi_eq_one] at h1
  obtain ⟨⟨⟨⟨⟨⟨⟨⟨⟨e0, e1⟩, e2⟩, e3⟩, e4⟩, e5⟩, e6⟩, e7⟩, e8⟩, e9⟩ := h1
  exact
    { X := fun i j => real_of_all _ _ _ _ e0 (ValueIdx.ix2 i j)
      Wd := fun i j => real_of_all _ _ _ _ e1 (ValueIdx.ix2 i j)
      a1 := fun i => real_of_all _ _ _ _ e2 (ValueIdx.ix2 i 0)
      a2 := fun i => real_of_all _ _ _ _ e3 (ValueIdx.ix2 i 0)
      W1 := fun i j => real_of_all _ _ _ _ e4 (ValueIdx.ix2 i j)
      ah := fun i => real_of_all _ _ _ _ e5 (ValueIdx.ix2 i 0)
      wt1 := fun i j => real_of_all _ _ _ _ e6 (ValueIdx.ix2 i j)
      Wo := fun i j => real_of_all _ _ _ _ e7 (ValueIdx.ix2 i j)
      ao := fun i => real_of_all _ _ _ _ e8 (ValueIdx.ix2 i 0)
      wto := fun i j => real_of_all _ _ _ _ e9 (ValueIdx.ix2 i j) }

end Cert.Finite

end
-- ==== Proof.lean ====
/-
  The certificate: a two-layer signed graph-attention kernel (two fused row-tiled launches: layer 1 over all 4096
  query rows in 32 blocks of 128, layer 2 only at the 64 gathered rows) against its dense jnp reference.
  Frames: both kernel programs' frames are the generated launch proofs; the reference's frame is its run with the
  result dropped. The ideal pass rewrote nothing, so `preserves` is trivial.
  `algebraic`: the idealized kernel's run ends with the result at what region 1's write-back leaves, which is read back
  through the frame's boundary contents to a stage term of the arguments and, element by element, to `Spec.outK`;
  the reference's run ends at its own stage term, element by element `Spec.outR`; over finite inputs the two
  specifications agree (the mask test `p·4096 > s` is `p/s > 2⁻¹²` because a soft-max row sum is positive and finite;
  `X·(W·a) = (X·W)·a`, and scaling an aggregate by `1/s` is aggregating the normalised weights, because every factor is
  a real number; the 600-term projection splits into its two 300-term halves; `0 - x = -x`; `exp x - 1` is `expm1 x`),
  and both programs gather the same clamped rows.
-/
import proofs.«428251_j16982300688849_3_alg».proof.Defs
import proofs.«428251_j16982300688849_3_alg».proof.Proof.Gen.Kernel
import proofs.«428251_j16982300688849_3_alg».proof.Proof.Gen.KernelIdeal
import proofs.«428251_j16982300688849_3_alg».proof.Proof.Gen.ReferenceIdeal
import proofs.«428251_j16982300688849_3_alg».proof.Proof.Gen.Pre_finite_inputs
import proofs.«428251_j16982300688849_3_alg».proof.Proof.KernelFrameP
import proofs.«428251_j16982300688849_3_alg».proof.Proof.KernelIdealFrameP
import proofs.«428251_j16982300688849_3_alg».proof.Proof.KernelIdealRunP
import proofs.«428251_j16982300688849_3_alg».proof.Proof.KPlumb
import proofs.«428251_j16982300688849_3_alg».proof.Proof.KHost
import proofs.«428251_j16982300688849_3_alg».proof.Proof.RRun
import proofs.«428251_j16982300688849_3_alg».proof.Proof.RRead2
import proofs.«428251_j16982300688849_3_alg».proof.Proof.Math2
import proofs.«428251_j16982300688849_3_alg».proof.Proof.Finite

noncomputable section

namespace Cert.Proof

open Idealize.ShloMosaic Idealize.ShloMosaic.ValueIdx Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- Memories that agree on the twelve arguments give the two programs the same argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Run.argsOf m' c = Cert.KernelIdeal.Run.argsOf m c := by
  obtain ⟨h0, h1, h2, h3, h4, h5, h6, h7, h8, h9, h10, h11⟩ := h
  unfold Cert.ReferenceIdeal.Run.argsOf Cert.KernelIdeal.Run.argsOf
  rw [h0, h1, h2, h3, h4, h5, h6, h7, h8, h9, h10, h11]

/-- The two stage terms are one array: element by element the kernel's is `Spec.outK`, the reference's `Spec.outR`, and
    the two specifications agree over real inputs. -/
theorem result_eq (A : Cert.Spec.Args Ideal) (hA : A.inputs.Real) :
    Cert.ReferenceIdeal.Term.t_v117 A = Cert.KernelIdeal.Term.t_x2 A := by
  funext j
  obtain ⟨r, d, rfl⟩ : ∃ (r : Fin 64) (d : Fin 300), j = ix2 r d := ⟨j 0, j 1, eq_ix2 j⟩
  rw [Cert.ReferenceIdeal.Read.t_v117_apply, Cert.KernelIdeal.HostRead.t_x2_apply]
  exact (Cert.Spec.outK_eq_outR A.inputs hA r d).symm

theorem algebraic : Cert.algebraic_KernelIdeal_ReferenceIdeal := by
  intro m ρ m' ρ' hpre hagree
  refine ⟨fun c => Cert.KernelIdeal.Term.t_x2 (Cert.KernelIdeal.Run.argsOf m c), ?_, ?_⟩
  · exact (θ_run Cert.KernelIdeal.defs _ _).mono
      (fun _ h c => ⟨(h c).1.trans (Cert.KernelIdeal.Plumb.w4_v54 m ρ c), (h c).2⟩)
      (Cert.KernelIdeal.GenP.run_w4 (F := Ideal) m ρ)
  · refine (θ_run Cert.ReferenceIdeal.defs _ _).mono (fun _ h c => ⟨(h c).1.trans ?_, (h c).2⟩)
      (Cert.ReferenceIdeal.Run.run (F := Ideal) m' ρ')
    rw [args_eq m m' c (hagree c)]
    exact result_eq _ (Cert.Finite.inputs_real m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
